-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v149)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v149) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v279) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x500 : Shape := ⟨2, ![100000, 500]⟩
abbrev S2x1600000 : Shape := ⟨2, ![2, 1600000]⟩
abbrev S256x500 : Shape := ⟨2, ![256, 500]⟩
abbrev S256 : Shape := ⟨1, ![256]⟩
abbrev S128x256 : Shape := ⟨2, ![128, 256]⟩
abbrev S128 : Shape := ⟨1, ![128]⟩
abbrev S40x128 : Shape := ⟨2, ![40, 128]⟩
abbrev S40 : Shape := ⟨1, ![40]⟩
abbrev S_ : Shape := ⟨0, ![]⟩
abbrev S1x1600000 : Shape := ⟨2, ![1, 1600000]⟩
abbrev S1600000 : Shape := ⟨1, ![1600000]⟩

class Facts : Prop where
  bcast_S_S100000x500 : S_.BroadcastsInDim S100000x500 (![] : Fin 0 → Fin S100000x500.rank)
  reducesTo_S100000x500_S_d0_1 : S100000x500.ReducesTo [0, 1] S_
  h_S_ : 0 < S_.numel
  bcast_S_S256x500 : S_.BroadcastsInDim S256x500 (![] : Fin 0 → Fin S256x500.rank)
  reducesTo_S256x500_S_d0_1 : S256x500.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S2x1600000 32) (main_v33 : IVec S_ 1) : IVec S_ 1 :=
  let main_v34 : IVec S1x1600000 32 := (extractStridedSlice S1x1600000 ![0, 0] · slices_S2x1600000_S1x1600000_0_0) main_arg1
  let main_v35 : IVec S1600000 32 := shapeCast S1600000 main_v34 shapeCasts_S1x1600000_S1600000
  let main_c_12 : IVec S_ 32 := constantI S_ 32 4294867296#32
  let main_v36 : IVec S1600000 32 := broadcastInDim S1600000 ![] bcast_S_S1600000 main_c_12
  let main_v37 : IVec S1600000 1 := cmpi .sge main_v35 main_v36
  let main_v38 : IVec S1x1600000 32 := (extractStridedSlice S1x1600000 ![0, 0] · slices_S2x1600000_S1x1600000_0_0) main_arg1
  let main_v39 : IVec S1600000 32 := shapeCast S1600000 main_v38 shapeCasts_S1x1600000_S1600000
  let main_c_13 : IVec S_ 32 := constantI S_ 32 100000#32
  let main_v40 : IVec S1600000 32 := broadcastInDim S1600000 ![] bcast_S_S1600000 main_c_13
  let main_v41 : IVec S1600000 1 := cmpi .slt main_v39 main_v40
  let main_v42 : IVec S1600000 1 := andi main_v37 main_v41
  let main_c_14 : IVec S_ 1 := constantI S_ 1 1#1
  let main_v43 : IVec S_ 1 := (fun x v => Host.reduce IntOp.andi x v reducesTo_S1600000_S_d0 h_S_) main_v42 main_c_14
  let main_v44 : IVec S_ 1 := andi main_v33 main_v43
  main_v44

def fn_part1 {F : FTy → Type} [FloatOps F] (main_arg1 : IVec S2x1600000 32) (main_arg5 : FVec F S128 .f32) (main_arg6 : FVec F S40x128 .f32) (main_arg7 : FVec F S40 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S40x128 .f32 := Host.absf main_arg6
  let main_cst_8 : FVec F S_ .f32 := constant S_ .f32 0x7F800000#32
  let main_v25 : FVec F S40x128 .f32 := broadcastInDim S40x128 ![] bcast_S_S40x128 main_cst_8
  let main_v26 : IVec S40x128 1 := cmpf .olt main_v24 main_v25
  let main_c_9 : IVec S_ 1 := constantI S_ 1 1#1
  let main_v27 : IVec S_ 1 := (fun x v => Host.reduce IntOp.andi x v reducesTo_S40x128_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  fn_part2 (F := F) main_arg1 main_v33

def fn {F : FTy → Type} [FloatOps F] (main_arg0 : FVec F S100000x500 .f32) (main_arg1 : IVec S2x1600000 32) (main_arg2 : FVec F S256x500 .f32) (main_arg3 : FVec F S256 .f32) (main_arg4 : FVec F S128x256 .f32) (main_arg5 : FVec F S128 .f32) (main_arg6 : FVec F S40x128 .f32) (main_arg7 : FVec F S40 .f32) : IVec S_ 1 :=
  let main_v0 : FVec F S100000x500 .f32 := Host.absf main_arg0
  let main_cst : FVec F S_ .f32 := constant S_ .f32 0x7F800000#32
  let main_v1 : FVec F S100000x500 .f32 := broadcastInDim S100000x500 ![] bcast_S_S100000x500 main_cst
  let main_v2 : IVec S100000x500 1 := cmpf .olt main_v0 main_v1
  let main_c : IVec S_ 1 := constantI S_ 1 1#1
  let main_v3 : IVec S_ 1 := (fun x v => Host.reduce IntOp.andi x v reducesTo_S100000x500_S_d0_1 h_S_) main_v2 main_c
  let main_v4 : FVec F S256x500 .f32 := Host.absf main_arg2
  let main_cst_0 : FVec F S_ .f32 := constant S_ .f32 0x7F800000#32
  let main_v5 : FVec F S256x500 .f32 := broadcastInDim S256x500 ![] bcast_S_S256x500 main_cst_0
  let main_v6 : IVec S256x500 1 := cmpf .olt main_v4 main_v5
  let main_c_1 : IVec S_ 1 := constantI S_ 1 1#1
  let main_v7 : IVec S_ 1 := (fun x v => Host.reduce IntOp.andi x v reducesTo_S256x500_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg1 main_arg5 main_arg6 main_arg7 main_v13 main_v16
-- ==== Kernel.lean ====
abbrev S100000x500 : Shape := ⟨2, ![100000, 500]⟩
abbrev S2x1600000 : Shape := ⟨2, ![2, 1600000]⟩
abbrev S256x500 : Shape := ⟨2, ![256, 500]⟩
abbrev S256 : Shape := ⟨1, ![256]⟩
abbrev S128x256 : Shape := ⟨2, ![128, 256]⟩
abbrev S128 : Shape := ⟨1, ![128]⟩
abbrev S40x128 : Shape := ⟨2, ![40, 128]⟩
abbrev S40 : Shape := ⟨1, ![40]⟩
abbrev S500x256 : Shape := ⟨2, ![500, 256]⟩
abbrev S256x128 : Shape := ⟨2, ![256, 128]⟩
abbrev S128x40 : Shape := ⟨2, ![128, 40]⟩
abbrev S1x256 : Shape := ⟨2, ![1, 256]⟩
abbrev S1x128 : Shape := ⟨2, ![1, 128]⟩
abbrev S1x40 : Shape := ⟨2, ![1, 40]⟩
abbrev S100000x40 : Shape := ⟨2, ![100000, 40]⟩
abbrev S2000x500 : Shape := ⟨2, ![2000, 500]⟩
abbrev S2000x40 : Shape := ⟨2, ![2000, 40]⟩
abbrev S2000x256 : Shape := ⟨2, ![2000, 256]⟩
abbrev S2000x128 : Shape := ⟨2, ![2000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1 : Shape := ⟨1, ![1]⟩
abbrev S1x1 : Shape := ⟨2, ![1, 1]⟩
abbrev S1700000x40 : Shape := ⟨2, ![1700000, 40]⟩
abbrev S10000x40 : Shape := ⟨2, ![10000, 40]⟩
abbrev S10000x1 : Shape := ⟨2, ![10000, 1]⟩

abbrev nBuf : Space → Nat
  | .hbm => 416
  | .vmem => 130
  | .smem => 0
  | _ => 0

abbrev hbmTy0_0 (i : Nat) : BufTy := match i % 128 with
  | 0 => ⟨S100000x500, .f32⟩
  | 1 => ⟨S2x1600000, .i32⟩
  | 2 => ⟨S256x500, .f32⟩
  | 3 => ⟨S256, .f32⟩
  | 4 => ⟨S128x256, .f32⟩
  | 5 => ⟨S128, .f32⟩
  | 6 => ⟨S40x128, .f32⟩
  | 7 => ⟨S40, .f32⟩
  | 8 => ⟨S500x256, .f32⟩
  | 9 => ⟨S256x128, .f32⟩
  | 10 => ⟨S128x40, .f32⟩
  | 11 => ⟨S1x256, .f32⟩
  | 12 => ⟨S1x128, .f32⟩
  | 13 => ⟨S1x40, .f32⟩
  | 14 => ⟨S100000x40, .f32⟩
  | 15 => ⟨S100000, .i32⟩
  | 16 => ⟨S1x1600000, .i32⟩
  | 17 => ⟨S1600000, .i32⟩
  | 18 => ⟨S1700000, .i32⟩
  | 19 => ⟨S1x1600000, .i32⟩
  | 20 => ⟨S1600000, .i32⟩
  | 21 => ⟨S1700000, .i32⟩
  | 22 => ⟨S_, .f32⟩
  | 23 => ⟨S100000, .f32⟩
  | 24 => ⟨S_, .f32⟩
  | 25 => ⟨S1700000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S1700000x1, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1, .i32⟩
  | 65 => ⟨S_, .i32⟩
  | 66 => ⟨S1700000x1, .i32⟩
  | 67 => ⟨S1700000x1, .i1⟩
  | 68 => ⟨S1x1, .i32⟩
  | 69 => ⟨S1700000x1, .i32⟩
  | 70 => ⟨S1700000x1, .i1⟩
  | 71 => ⟨S1700000x1, .i1⟩
  | 72 => ⟨S_, .i1⟩
  | 73 => ⟨S1700000, .i1⟩
  | 74 => ⟨S1700000x40, .f32⟩
  | 75 => ⟨S1700000x40, .i1⟩
  | 76 => ⟨S_, .f32⟩
  | 77 => ⟨S1700000x40, .f32⟩
  | 78 => ⟨S1700000x40, .f32⟩
  | 79 => ⟨S1700000x40, .f32⟩
  | 80 => ⟨S_, .f32⟩
  | 81 => ⟨S100000x40, .f32⟩
  | 82 => ⟨S_, .i32⟩
  | 83 => ⟨S1700000, .i32⟩
  | 84 => ⟨S1700000, .i1⟩
  | 85 => ⟨S_, .i32⟩
  | 86 => ⟨S1700000, .i32⟩
  | 87 => ⟨S1700000, .i32⟩
  | 88 => ⟨S1700000, .i32⟩
  | 89 => ⟨S1700000x1, .i32⟩
  | 90 => ⟨S100000x40, .f32⟩
  | 91 => ⟨S100000x40, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1, .i32⟩
  | 101 => ⟨S_, .i32⟩
  | 102 => ⟨S1700000x1, .i32⟩
  | 103 => ⟨S1700000x1, .i1⟩
  | 104 => ⟨S1x1, .i32⟩
  | 105 => ⟨S1700000x1, .i32⟩
  | 106 => ⟨S1700000x1, .i1⟩
  | 107 => ⟨S1700000x1, .i1⟩
  | 108 => ⟨S_, .i1⟩
  | 109 => ⟨S1700000, .i1⟩
  | 110 => ⟨S1700000x40, .f32⟩
  | 111 => ⟨S1700000x40, .i1⟩
  | 112 => ⟨S_, .f32⟩
  | 113 => ⟨S1700000x40, .f32⟩
  | 114 => ⟨S1700000x40, .f32⟩
  | 115 => ⟨S1700000x40, .f32⟩
  | 116 => ⟨S_, .f32⟩
  | 117 => ⟨S100000x40, .f32⟩
  | 118 => ⟨S_, .i32⟩
  | 119 => ⟨S1700000, .i32⟩
  | 120 => ⟨S1700000, .i1⟩
  | 121 => ⟨S_, .i32⟩
  | 122 => ⟨S1700000, .i32⟩
  | 123 => ⟨S1700000, .i32⟩
  | 124 => ⟨S1700000, .i32⟩
  | 125 => ⟨S1700000x1, .i32⟩
  | 126 => ⟨S100000x40, .f32⟩
  | 127 => ⟨S100000x40, .f32⟩
  | _ => ⟨S100000x500, .f32⟩

abbrev hbmTy0_1 (i : Nat) : BufTy := match i % 128 with
  | 0 => ⟨S_, .i32⟩
  | 1 => ⟨S1700000, .i32⟩
  | 2 => ⟨S1700000, .i1⟩
  | 3 => ⟨S_, .i32⟩
  | 4 => ⟨S1700000, .i32⟩
  | 5 => ⟨S1700000, .i32⟩
  | 6 => ⟨S1700000, .i32⟩
  | 7 => ⟨S1700000x1, .i32⟩
  | 8 => ⟨S1, .i32⟩
  | 9 => ⟨S_, .i32⟩
  | 10 => ⟨S1700000x1, .i32⟩
  | 11 => ⟨S1700000x1, .i1⟩
  | 12 => ⟨S1x1, .i32⟩
  | 13 => ⟨S1700000x1, .i32⟩
  | 14 => ⟨S1700000x1, .i1⟩
  | 15 => ⟨S1700000x1, .i1⟩
  | 16 => ⟨S_, .i1⟩
  | 17 => ⟨S1700000, .i1⟩
  | 18 => ⟨S1700000x40, .f32⟩
  | 19 => ⟨S1700000x40, .i1⟩
  | 20 => ⟨S_, .f32⟩
  | 21 => ⟨S1700000x40, .f32⟩
  | 22 => ⟨S1700000x40, .f32⟩
  | 23 => ⟨S1700000x40, .f32⟩
  | 24 => ⟨S_, .f32⟩
  | 25 => ⟨S100000x40, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S100000x40, .f32⟩
  | 35 => ⟨S100000x40, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1, .i32⟩
  | 45 => ⟨S_, .i32⟩
  | 46 => ⟨S1700000x1, .i32⟩
  | 47 => ⟨S1700000x1, .i1⟩
  | 48 => ⟨S1x1, .i32⟩
  | 49 => ⟨S1700000x1, .i32⟩
  | 50 => ⟨S1700000x1, .i1⟩
  | 51 => ⟨S1700000x1, .i1⟩
  | 52 => ⟨S_, .i1⟩
  | 53 => ⟨S1700000, .i1⟩
  | 54 => ⟨S1700000x40, .f32⟩
  | 55 => ⟨S1700000x40, .i1⟩
  | 56 => ⟨S_, .f32⟩
  | 57 => ⟨S1700000x40, .f32⟩
  | 58 => ⟨S1700000x40, .f32⟩
  | 59 => ⟨S1700000x40, .f32⟩
  | 60 => ⟨S_, .f32⟩
  | 61 => ⟨S100000x40, .f32⟩
  | 62 => ⟨S_, .i32⟩
  | 63 => ⟨S1700000, .i32⟩
  | 64 => ⟨S1700000, .i1⟩
  | 65 => ⟨S_, .i32⟩
  | 66 => ⟨S1700000, .i32⟩
  | 67 => ⟨S1700000, .i32⟩
  | 68 => ⟨S1700000, .i32⟩
  | 69 => ⟨S1700000x1, .i32⟩
  | 70 => ⟨S100000x40, .f32⟩
  | 71 => ⟨S100000x40, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1, .i32⟩
  | 81 => ⟨S_, .i32⟩
  | 82 => ⟨S1700000x1, .i32⟩
  | 83 => ⟨S1700000x1, .i1⟩
  | 84 => ⟨S1x1, .i32⟩
  | 85 => ⟨S1700000x1, .i32⟩
  | 86 => ⟨S1700000x1, .i1⟩
  | 87 => ⟨S1700000x1, .i1⟩
  | 88 => ⟨S_, .i1⟩
  | 89 => ⟨S1700000, .i1⟩
  | 90 => ⟨S1700000x40, .f32⟩
  | 91 => ⟨S1700000x40, .i1⟩
  | 92 => ⟨S_, .f32⟩
  | 93 => ⟨S1700000x40, .f32⟩
  | 94 => ⟨S1700000x40, .f32⟩
  | 95 => ⟨S1700000x40, .f32⟩
  | 96 => ⟨S_, .f32⟩
  | 97 => ⟨S100000x40, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S100000x40, .f32⟩
  | 107 => ⟨S100000x40, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1, .i32⟩
  | 117 => ⟨S_, .i32⟩
  | 118 => ⟨S1700000x1, .i32⟩
  | 119 => ⟨S1700000x1, .i1⟩
  | 120 => ⟨S1x1, .i32⟩
  | 121 => ⟨S1700000x1, .i32⟩
  | 122 => ⟨S1700000x1, .i1⟩
  | 123 => ⟨S1700000x1, .i1⟩
  | 124 => ⟨S_, .i1⟩
  | 125 => ⟨S1700000, .i1⟩
  | 126 => ⟨S1700000x40, .f32⟩
  | 127 => ⟨S1700000x40, .i1⟩
  | _ => ⟨S100000x500, .f32⟩

abbrev hbmTy0_2 (i : Nat) : BufTy := match i % 128 with
  | 0 => ⟨S_, .f32⟩
  | 1 => ⟨S1700000x40, .f32⟩
  | 2 => ⟨S1700000x40, .f32⟩
  | 3 => ⟨S1700000x40, .f32⟩
  | 4 => ⟨S_, .f32⟩
  | 5 => ⟨S100000x40, .f32⟩
  | 6 => ⟨S_, .i32⟩
  | 7 => ⟨S1700000, .i32⟩
  | 8 => ⟨S1700000, .i1⟩
  | 9 => ⟨S_, .i32⟩
  | 10 => ⟨S1700000, .i32⟩
  | 11 => ⟨S1700000, .i32⟩
  | 12 => ⟨S1700000, .i32⟩
  | 13 => ⟨S1700000x1, .i32⟩
  | 14 => ⟨S100000x40, .f32⟩
  | 15 => ⟨S100000x40, .f32⟩
  | 16 => ⟨S_, .i32⟩
  | 17 => ⟨S1700000, .i32⟩
  | 18 => ⟨S1700000, .i1⟩
  | 19 => ⟨S_, .i32⟩
  | 20 => ⟨S1700000, .i32⟩
  | 21 => ⟨S1700000, .i32⟩
  | 22 => ⟨S1700000, .i32⟩
  | 23 => ⟨S1700000x1, .i32⟩
  | 24 => ⟨S1, .i32⟩
  | 25 => ⟨S_, .i32⟩
  | 26 => ⟨S1700000x1, .i32⟩
  | 27 => ⟨S1700000x1, .i1⟩
  | 28 => ⟨S1x1, .i32⟩
  | 29 => ⟨S1700000x1, .i32⟩
  | 30 => ⟨S1700000x1, .i1⟩
  | 31 => ⟨S1700000x1, .i1⟩
  | 32 => ⟨S_, .i1⟩
  | 33 => ⟨S1700000, .i1⟩
  | 34 => ⟨S1700000x40, .f32⟩
  | 35 => ⟨S1700000x40, .i1⟩
  | 36 => ⟨S_, .f32⟩
  | 37 => ⟨S1700000x40, .f32⟩
  | 38 => ⟨S1700000x40, .f32⟩
  | 39 => ⟨S1700000x40, .f32⟩
  | 40 => ⟨S_, .f32⟩
  | 41 => ⟨S100000x40, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S100000x40, .f32⟩
  | 51 => ⟨S100000x40, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1, .i32⟩
  | 61 => ⟨S_, .i32⟩
  | 62 => ⟨S1700000x1, .i32⟩
  | 63 => ⟨S1700000x1, .i1⟩
  | 64 => ⟨S1x1, .i32⟩
  | 65 => ⟨S1700000x1, .i32⟩
  | 66 => ⟨S1700000x1, .i1⟩
  | 67 => ⟨S1700000x1, .i1⟩
  | 68 => ⟨S_, .i1⟩
  | 69 => ⟨S1700000, .i1⟩
  | 70 => ⟨S1700000x40, .f32⟩
  | 71 => ⟨S1700000x40, .i1⟩
  | 72 => ⟨S_, .f32⟩
  | 73 => ⟨S1700000x40, .f32⟩
  | 74 => ⟨S1700000x40, .f32⟩
  | 75 => ⟨S1700000x40, .f32⟩
  | 76 => ⟨S_, .f32⟩
  | 77 => ⟨S100000x40, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S100000x40, .f32⟩
  | 87 => ⟨S100000x40, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1, .i32⟩
  | 97 => ⟨S_, .i32⟩
  | 98 => ⟨S1700000x1, .i32⟩
  | 99 => ⟨S1700000x1, .i1⟩
  | 100 => ⟨S1x1, .i32⟩
  | 101 => ⟨S1700000x1, .i32⟩
  | 102 => ⟨S1700000x1, .i1⟩
  | 103 => ⟨S1700000x1, .i1⟩
  | 104 => ⟨S_, .i1⟩
  | 105 => ⟨S1700000, .i1⟩
  | 106 => ⟨S1700000x40, .f32⟩
  | 107 => ⟨S1700000x40, .i1⟩
  | 108 => ⟨S_, .f32⟩
  | 109 => ⟨S1700000x40, .f32⟩
  | 110 => ⟨S1700000x40, .f32⟩
  | 111 => ⟨S1700000x40, .f32⟩
  | 112 => ⟨S_, .f32⟩
  | 113 => ⟨S100000x40, .f32⟩
  | 114 => ⟨S_, .i32⟩
  | 115 => ⟨S1700000, .i32⟩
  | 116 => ⟨S1700000, .i1⟩
  | 117 => ⟨S_, .i32⟩
  | 118 => ⟨S1700000, .i32⟩
  | 119 => ⟨S1700000, .i32⟩
  | 120 => ⟨S1700000, .i32⟩
  | 121 => ⟨S1700000x1, .i32⟩
  | 122 => ⟨S100000x40, .f32⟩
  | 123 => ⟨S100000x40, .f32⟩
  | 124 => ⟨S_, .i32⟩
  | 125 => ⟨S1700000, .i32⟩
  | 126 => ⟨S1700000, .i1⟩
  | 127 => ⟨S_, .i32⟩
  | _ => ⟨S100000x500, .f32⟩

abbrev hbmTy0_3 (i : Nat) : BufTy := match i % 128 with
  | 0 => ⟨S1700000, .i32⟩
  | 1 => ⟨S1700000, .i32⟩
  | 2 => ⟨S1700000, .i32⟩
  | 3 => ⟨S1700000x1, .i32⟩
  | 4 => ⟨S1, .i32⟩
  | 5 => ⟨S_, .i32⟩
  | 6 => ⟨S1700000x1, .i32⟩
  | 7 => ⟨S1700000x1, .i1⟩
  | 8 => ⟨S1x1, .i32⟩
  | 9 => ⟨S1700000x1, .i32⟩
  | 10 => ⟨S1700000x1, .i1⟩
  | 11 => ⟨S1700000x1, .i1⟩
  | 12 => ⟨S_, .i1⟩
  | 13 => ⟨S1700000, .i1⟩
  | 14 => ⟨S1700000x40, .f32⟩
  | 15 => ⟨S1700000x40, .i1⟩
  | 16 => ⟨S_, .f32⟩
  | 17 => ⟨S1700000x40, .f32⟩
  | 18 => ⟨S1700000x40, .f32⟩
  | 19 => ⟨S1700000x40, .f32⟩
  | 20 => ⟨S_, .f32⟩
  | 21 => ⟨S100000x40, .f32⟩
  | 22 => ⟨S_, .i32⟩
  | 23 => ⟨S1700000, .i32⟩
  | 24 => ⟨S1700000, .i1⟩
  | 25 => ⟨S_, .i32⟩
  | 26 => ⟨S1700000, .i32⟩
  | 27 => ⟨S1700000, .i32⟩
  | 28 => ⟨S1700000, .i32⟩
  | 29 => ⟨S1700000x1, .i32⟩
  | 30 => ⟨S100000x40, .f32⟩
  | 31 => ⟨S100000x40, .f32⟩
  | _ => ⟨S100000x500, .f32⟩

abbrev hbmTy (i : Nat) : BufTy := match i / 128 with
  | 0 => hbmTy0_0 i
  | 1 => hbmTy0_1 i
  | 2 => hbmTy0_2 i
  | 3 => hbmTy0_3 i
  | _ => ⟨S100000x500, .f32⟩

abbrev vmemTy0_0 (i : Nat) : BufTy := match i % 128 with
  | 0 => ⟨S2000x500, .f32⟩
  | 1 => ⟨S2000x500, .f32⟩
  | 2 => ⟨S500x256, .f32⟩
  | 3 => ⟨S1x256, .f32⟩
  | 4 => ⟨S256x128, .f32⟩
  | 5 => ⟨S1x128, .f32⟩
  | 6 => ⟨S128x40, .f32⟩
  | 7 => ⟨S1x40, .f32⟩
  | 8 => ⟨S2000x40, .f32⟩
  | 9 => ⟨S2000x40, .f32⟩
  | 10 => ⟨S10000x40, .f32⟩
  | 11 => ⟨S10000x40, .f32⟩
  | 12 => ⟨S10000x1, .f32⟩
  | 13 => ⟨S10000x1, .f32⟩
  | 14 => ⟨S10000x40, .f32⟩
  | 15 => ⟨S10000x40, .f32⟩
  | 16 => ⟨S10000x40, .f32⟩
  | 17 => ⟨S10000x40, .f32⟩
  | 18 => ⟨S10000x40, .f32⟩
  | 19 => ⟨S10000x40, .f32⟩
  | 20 => ⟨S10000x40, .f32⟩
  | 21 => ⟨S10000x40, .f32⟩
  | 22 => ⟨S10000x40, .f32⟩
  | 23 => ⟨S10000x40, .f32⟩
  | 24 => ⟨S10000x1, .f32⟩
  | 25 => ⟨S10000x1, .f32⟩
  | 26 => ⟨S10000x40, .f32⟩
  | 27 => ⟨S10000x40, .f32⟩
  | 28 => ⟨S10000x40, .f32⟩
  | 29 => ⟨S10000x40, .f32⟩
  | 30 => ⟨S10000x40, .f32⟩
  | 31 => ⟨S10000x40, .f32⟩
  | 32 => ⟨S10000x40, .f32⟩
  | 33 => ⟨S10000x40, .f32⟩
  | 34 => ⟨S10000x40, .f32⟩
  | 35 => ⟨S10000x40, .f32⟩
  | 36 => ⟨S10000x1, .f32⟩
  | 37 => ⟨S10000x1, .f32⟩
  | 38 => ⟨S10000x40, .f32⟩
  | 39 => ⟨S10000x40, .f32⟩
  | 40 => ⟨S10000x40, .f32⟩
  | 41 => ⟨S10000x40, .f32⟩
  | 42 => ⟨S10000x40, .f32⟩
  | 43 => ⟨S10000x40, .f32⟩
  | 44 => ⟨S10000x40, .f32⟩
  | 45 => ⟨S10000x40, .f32⟩
  | 46 => ⟨S10000x40, .f32⟩
  | 47 => ⟨S10000x40, .f32⟩
  | 48 => ⟨S10000x1, .f32⟩
  | 49 => ⟨S10000x1, .f32⟩
  | 50 => ⟨S10000x40, .f32⟩
  | 51 => ⟨S10000x40, .f32⟩
  | 52 => ⟨S10000x40, .f32⟩
  | 53 => ⟨S10000x40, .f32⟩
  | 54 => ⟨S10000x40, .f32⟩
  | 55 => ⟨S10000x40, .f32⟩
  | 56 => ⟨S10000x40, .f32⟩
  | 57 => ⟨S10000x40, .f32⟩
  | 58 => ⟨S10000x40, .f32⟩
  | 59 => ⟨S10000x40, .f32⟩
  | 60 => ⟨S10000x1, .f32⟩
  | 61 => ⟨S10000x1, .f32⟩
  | 62 => ⟨S10000x40, .f32⟩
  | 63 => ⟨S10000x40, .f32⟩
  | 64 => ⟨S10000x40, .f32⟩
  | 65 => ⟨S10000x40, .f32⟩
  | 66 => ⟨S10000x40, .f32⟩
  | 67 => ⟨S10000x40, .f32⟩
  | 68 => ⟨S10000x40, .f32⟩
  | 69 => ⟨S10000x40, .f32⟩
  | 70 => ⟨S10000x40, .f32⟩
  | 71 => ⟨S10000x40, .f32⟩
  | 72 => ⟨S10000x1, .f32⟩
  | 73 => ⟨S10000x1, .f32⟩
  | 74 => ⟨S10000x40, .f32⟩
  | 75 => ⟨S10000x40, .f32⟩
  | 76 => ⟨S10000x40, .f32⟩
  | 77 => ⟨S10000x40, .f32⟩
  | 78 => ⟨S10000x40, .f32⟩
  | 79 => ⟨S10000x40, .f32⟩
  | 80 => ⟨S10000x40, .f32⟩
  | 81 => ⟨S10000x40, .f32⟩
  | 82 => ⟨S10000x40, .f32⟩
  | 83 => ⟨S10000x40, .f32⟩
  | 84 => ⟨S10000x1, .f32⟩
  | 85 => ⟨S10000x1, .f32⟩
  | 86 => ⟨S10000x40, .f32⟩
  | 87 => ⟨S10000x40, .f32⟩
  | 88 => ⟨S10000x40, .f32⟩
  | 89 => ⟨S10000x40, .f32⟩
  | 90 => ⟨S10000x40, .f32⟩
  | 91 => ⟨S10000x40, .f32⟩
  | 92 => ⟨S10000x40, .f32⟩
  | 93 => ⟨S10000x40, .f32⟩
  | 94 => ⟨S10000x40, .f32⟩
  | 95 => ⟨S10000x40, .f32⟩
  | 96 => ⟨S10000x1, .f32⟩
  | 97 => ⟨S10000x1, .f32⟩
  | 98 => ⟨S10000x40, .f32⟩
  | 99 => ⟨S10000x40, .f32⟩
  | 100 => ⟨S10000x40, .f32⟩
  | 101 => ⟨S10000x40, .f32⟩
  | 102 => ⟨S10000x40, .f32⟩
  | 103 => ⟨S10000x40, .f32⟩
  | 104 => ⟨S10000x40, .f32⟩
  | 105 => ⟨S10000x40, .f32⟩
  | 106 => ⟨S10000x40, .f32⟩
  | 107 => ⟨S10000x40, .f32⟩
  | 108 => ⟨S10000x1, .f32⟩
  | 109 => ⟨S10000x1, .f32⟩
  | 110 => ⟨S10000x40, .f32⟩
  | 111 => ⟨S10000x40, .f32⟩
  | 112 => ⟨S10000x40, .f32⟩
  | 113 => ⟨S10000x40, .f32⟩
  | 114 => ⟨S10000x40, .f32⟩
  | 115 => ⟨S10000x40, .f32⟩
  | 116 => ⟨S10000x40, .f32⟩
  | 117 => ⟨S10000x40, .f32⟩
  | 118 => ⟨S10000x40, .f32⟩
  | 119 => ⟨S10000x40, .f32⟩
  | 120 => ⟨S10000x1, .f32⟩
  | 121 => ⟨S10000x1, .f32⟩
  | 122 => ⟨S10000x40, .f32⟩
  | 123 => ⟨S10000x40, .f32⟩
  | 124 => ⟨S10000x40, .f32⟩
  | 125 => ⟨S10000x40, .f32⟩
  | 126 => ⟨S10000x40, .f32⟩
  | 127 => ⟨S10000x40, .f32⟩
  | _ => ⟨S100000x500, .f32⟩

abbrev vmemTy0_1 (i : Nat) : BufTy := match i % 128 with
  | 0 => ⟨S10000x40, .f32⟩
  | 1 => ⟨S10000x40, .f32⟩
  | _ => ⟨S100000x500, .f32⟩

abbrev vmemTy (i : Nat) : BufTy := match i / 128 with
  | 0 => vmemTy0_0 i
  | 1 => vmemTy0_1 i
  | _ => ⟨S100000x500, .f32⟩

abbrev bufTy : (tb : Table) → Fin (tcTables nBuf tb) → BufTy
  | .hbm, ⟨i, _⟩ => hbmTy i
  | .local _ .vmem, ⟨i, _⟩ => vmemTy i
  | _, _ => ⟨S100000x500, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 130 → Bool
  | ⟨i, _⟩ => dmaSemScopedAt i

abbrev sig : RefSig :=
  ofTc nBuf bufTy 0 130 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_c_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call0_c : Ref sig .tc := ⟨.hbm, 56, rfl⟩
abbrev main_call0_v0 : Ref sig .tc := ⟨.hbm, 57, rfl⟩
abbrev main_call0_v1 : Ref sig .tc := ⟨.hbm, 58, rfl⟩
abbrev main_call0_c_0 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_c_1 : Ref sig .tc := ⟨.hbm, 64, rfl⟩
abbrev main_call0_c_2 : Ref sig .tc := ⟨.hbm, 65, rfl⟩
abbrev main_call0_v6 : Ref sig .tc := ⟨.hbm, 66, rfl⟩
abbrev main_call0_v7 : Ref sig .tc := ⟨.hbm, 67, rfl⟩
abbrev main_call0_v8 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_c_3 : Ref sig .tc := ⟨.hbm, 72, rfl⟩
abbrev main_call0_v12 : Ref sig .tc := ⟨.hbm, 73, rfl⟩
abbrev main_call0_v13 : Ref sig .tc := ⟨.hbm, 74, rfl⟩
abbrev main_call0_v14 : Ref sig .tc := ⟨.hbm, 75, rfl⟩
abbrev main_call0_cst : Ref sig .tc := ⟨.hbm, 76, rfl⟩
abbrev main_call0_v15 : Ref sig .tc := ⟨.hbm, 77, rfl⟩
abbrev main_v40 : Ref sig .tc := ⟨.hbm, 78, rfl⟩
abbrev main_v41 : Ref sig .tc := ⟨.hbm, 79, rfl⟩
abbrev main_cst_6 : Ref sig .tc := ⟨.hbm, 80, rfl⟩
abbrev main_v42 : Ref sig .tc := ⟨.hbm, 81, rfl⟩
abbrev main_c_7 : Ref sig .tc := ⟨.hbm, 82, rfl⟩
abbrev main_v43 : Ref sig .tc := ⟨.hbm, 83, rfl⟩
abbrev main_v44 : Ref sig .tc := ⟨.hbm, 84, rfl⟩
abbrev main_c_8 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_call1_c : Ref sig .tc := ⟨.hbm, 92, rfl⟩
abbrev main_call1_v0 : Ref sig .tc := ⟨.hbm, 93, rfl⟩
abbrev main_call1_v1 : Ref sig .tc := ⟨.hbm, 94, rfl⟩
abbrev main_call1_c_0 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_call1_v5 : Ref sig .tc := ⟨.hbm, 99, rfl⟩
abbrev main_call1_c_1 : Ref sig .tc := ⟨.hbm, 100, rfl⟩
abbrev main_call1_c_2 : Ref sig .tc := ⟨.hbm, 101, rfl⟩
abbrev main_call1_v6 : Ref sig .tc := ⟨.hbm, 102, rfl⟩
abbrev main_call1_v7 : Ref sig .tc := ⟨.hbm, 103, rfl⟩
abbrev main_call1_v8 : Ref sig .tc := ⟨.hbm, 104, rfl⟩
abbrev main_call1_v9 : Ref sig .tc := ⟨.hbm, 105, rfl⟩
abbrev main_call1_v10 : Ref sig .tc := ⟨.hbm, 106, rfl⟩
abbrev main_call1_v11 : Ref sig .tc := ⟨.hbm, 107, rfl⟩
abbrev main_call1_c_3 : Ref sig .tc := ⟨.hbm, 108, rfl⟩
abbrev main_call1_v12 : Ref sig .tc := ⟨.hbm, 109, rfl⟩
abbrev main_call1_v13 : Ref sig .tc := ⟨.hbm, 110, rfl⟩
abbrev main_call1_v14 : Ref sig .tc := ⟨.hbm, 111, rfl⟩
abbrev main_call1_cst : Ref sig .tc := ⟨.hbm, 112, rfl⟩
abbrev main_call1_v15 : Ref sig .tc := ⟨.hbm, 113, rfl⟩
abbrev main_v51 : Ref sig .tc := ⟨.hbm, 114, rfl⟩
abbrev main_v52 : Ref sig .tc := ⟨.hbm, 115, rfl⟩
abbrev main_cst_9 : Ref sig .tc := ⟨.hbm, 116, rfl⟩
abbrev main_v53 : Ref sig .tc := ⟨.hbm, 117, rfl⟩
abbrev main_c_10 : Ref sig .tc := ⟨.hbm, 118, rfl⟩
abbrev main_v54 : Ref sig .tc := ⟨.hbm, 119, rfl⟩
abbrev main_v55 : Ref sig .tc := ⟨.hbm, 120, rfl⟩
abbrev main_c_11 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_call2_c : Ref sig .tc := ⟨.hbm, 128, rfl⟩
abbrev main_call2_v0 : Ref sig .tc := ⟨.hbm, 129, rfl⟩
abbrev main_call2_v1 : Ref sig .tc := ⟨.hbm, 130, rfl⟩
abbrev main_call2_c_0 : Ref sig .tc := ⟨.hbm, 131, rfl⟩
abbrev main_call2_v2 : Ref sig .tc := ⟨.hbm, 132, rfl⟩
abbrev main_call2_v3 : Ref sig .tc := ⟨.hbm, 133, rfl⟩
abbrev main_call2_v4 : Ref sig .tc := ⟨.hbm, 134, rfl⟩
abbrev main_call2_v5 : Ref sig .tc := ⟨.hbm, 135, rfl⟩
abbrev main_call2_c_1 : Ref sig .tc := ⟨.hbm, 136, rfl⟩
abbrev main_call2_c_2 : Ref sig .tc := ⟨.hbm, 137, rfl⟩
abbrev main_call2_v6 : Ref sig .tc := ⟨.hbm, 138, rfl⟩
abbrev main_call2_v7 : Ref sig .tc := ⟨.hbm, 139, rfl⟩
abbrev main_call2_v8 : Ref sig .tc := ⟨.hbm, 140, rfl⟩
abbrev main_call2_v9 : Ref sig .tc := ⟨.hbm, 141, rfl⟩
abbrev main_call2_v10 : Ref sig .tc := ⟨.hbm, 142, rfl⟩
abbrev main_call2_v11 : Ref sig .tc := ⟨.hbm, 143, rfl⟩
abbrev main_call2_c_3 : Ref sig .tc := ⟨.hbm, 144, rfl⟩
abbrev main_call2_v12 : Ref sig .tc := ⟨.hbm, 145, rfl⟩
abbrev main_call2_v13 : Ref sig .tc := ⟨.hbm, 146, rfl⟩
abbrev main_call2_v14 : Ref sig .tc := ⟨.hbm, 147, rfl⟩
abbrev main_call2_cst : Ref sig .tc := ⟨.hbm, 148, rfl⟩
abbrev main_call2_v15 : Ref sig .tc := ⟨.hbm, 149, rfl⟩
abbrev main_v62 : Ref sig .tc := ⟨.hbm, 150, rfl⟩
abbrev main_v63 : Ref sig .tc := ⟨.hbm, 151, rfl⟩
abbrev main_cst_12 : Ref sig .tc := ⟨.hbm, 152, rfl⟩
abbrev main_v64 : Ref sig .tc := ⟨.hbm, 153, rfl⟩
abbrev main_c_13 : Ref sig .tc := ⟨.hbm, 154, rfl⟩
abbrev main_v65 : Ref sig .tc := ⟨.hbm, 155, rfl⟩
abbrev main_v66 : Ref sig .tc := ⟨.hbm, 156, rfl⟩
abbrev main_c_14 : Ref sig .tc := ⟨.hbm, 157, rfl⟩
abbrev main_v67 : Ref sig .tc := ⟨.hbm, 158, rfl⟩
abbrev main_v68 : Ref sig .tc := ⟨.hbm, 159, rfl⟩
abbrev main_v69 : Ref sig .tc := ⟨.hbm, 160, rfl⟩
abbrev main_v70 : Ref sig .tc := ⟨.hbm, 161, rfl⟩
abbrev main_v71 : Ref sig .tc := ⟨.hbm, 162, rfl⟩
abbrev main_v72 : Ref sig .tc := ⟨.hbm, 163, rfl⟩
abbrev main_call3_c : Ref sig .tc := ⟨.hbm, 164, rfl⟩
abbrev main_call3_v0 : Ref sig .tc := ⟨.hbm, 165, rfl⟩
abbrev main_call3_v1 : Ref sig .tc := ⟨.hbm, 166, rfl⟩
abbrev main_call3_c_0 : Ref sig .tc := ⟨.hbm, 167, rfl⟩
abbrev main_call3_v2 : Ref sig .tc := ⟨.hbm, 168, rfl⟩
abbrev main_call3_v3 : Ref sig .tc := ⟨.hbm, 169, rfl⟩
abbrev main_call3_v4 : Ref sig .tc := ⟨.hbm, 170, rfl⟩
abbrev main_call3_v5 : Ref sig .tc := ⟨.hbm, 171, rfl⟩
abbrev main_call3_c_1 : Ref sig .tc := ⟨.hbm, 172, rfl⟩
abbrev main_call3_c_2 : Ref sig .tc := ⟨.hbm, 173, rfl⟩
abbrev main_call3_v6 : Ref sig .tc := ⟨.hbm, 174, rfl⟩
abbrev main_call3_v7 : Ref sig .tc := ⟨.hbm, 175, rfl⟩
abbrev main_call3_v8 : Ref sig .tc := ⟨.hbm, 176, rfl⟩
abbrev main_call3_v9 : Ref sig .tc := ⟨.hbm, 177, rfl⟩
abbrev main_call3_v10 : Ref sig .tc := ⟨.hbm, 178, rfl⟩
abbrev main_call3_v11 : Ref sig .tc := ⟨.hbm, 179, rfl⟩
abbrev main_call3_c_3 : Ref sig .tc := ⟨.hbm, 180, rfl⟩
abbrev main_call3_v12 : Ref sig .tc := ⟨.hbm, 181, rfl⟩
abbrev main_call3_v13 : Ref sig .tc := ⟨.hbm, 182, rfl⟩
abbrev main_call3_v14 : Ref sig .tc := ⟨.hbm, 183, rfl⟩
abbrev main_call3_cst : Ref sig .tc := ⟨.hbm, 184, rfl⟩
abbrev main_call3_v15 : Ref sig .tc := ⟨.hbm, 185, rfl⟩
abbrev main_v73 : Ref sig .tc := ⟨.hbm, 186, rfl⟩
abbrev main_v74 : Ref sig .tc := ⟨.hbm, 187, rfl⟩
abbrev main_cst_15 : Ref sig .tc := ⟨.hbm, 188, rfl⟩
abbrev main_v75 : Ref sig .tc := ⟨.hbm, 189, rfl⟩
abbrev main_c_16 : Ref sig .tc := ⟨.hbm, 190, rfl⟩
abbrev main_v76 : Ref sig .tc := ⟨.hbm, 191, rfl⟩
abbrev main_v77 : Ref sig .tc := ⟨.hbm, 192, rfl⟩
abbrev main_c_17 : Ref sig .tc := ⟨.hbm, 193, rfl⟩
abbrev main_v78 : Ref sig .tc := ⟨.hbm, 194, rfl⟩
abbrev main_v79 : Ref sig .tc := ⟨.hbm, 195, rfl⟩
abbrev main_v80 : Ref sig .tc := ⟨.hbm, 196, rfl⟩
abbrev main_v81 : Ref sig .tc := ⟨.hbm, 197, rfl⟩
abbrev main_v82 : Ref sig .tc := ⟨.hbm, 198, rfl⟩
abbrev main_v83 : Ref sig .tc := ⟨.hbm, 199, rfl⟩
abbrev main_call4_c : Ref sig .tc := ⟨.hbm, 200, rfl⟩
abbrev main_call4_v0 : Ref sig .tc := ⟨.hbm, 201, rfl⟩
abbrev main_call4_v1 : Ref sig .tc := ⟨.hbm, 202, rfl⟩
abbrev main_call4_c_0 : Ref sig .tc := ⟨.hbm, 203, rfl⟩
abbrev main_call4_v2 : Ref sig .tc := ⟨.hbm, 204, rfl⟩
abbrev main_call4_v3 : Ref sig .tc := ⟨.hbm, 205, rfl⟩
abbrev main_call4_v4 : Ref sig .tc := ⟨.hbm, 206, rfl⟩
abbrev main_call4_v5 : Ref sig .tc := ⟨.hbm, 207, rfl⟩
abbrev main_call4_c_1 : Ref sig .tc := ⟨.hbm, 208, rfl⟩
abbrev main_call4_c_2 : Ref sig .tc := ⟨.hbm, 209, rfl⟩
abbrev main_call4_v6 : Ref sig .tc := ⟨.hbm, 210, rfl⟩
abbrev main_call4_v7 : Ref sig .tc := ⟨.hbm, 211, rfl⟩
abbrev main_call4_v8 : Ref sig .tc := ⟨.hbm, 212, rfl⟩
abbrev main_call4_v9 : Ref sig .tc := ⟨.hbm, 213, rfl⟩
abbrev main_call4_v10 : Ref sig .tc := ⟨.hbm, 214, rfl⟩
abbrev main_call4_v11 : Ref sig .tc := ⟨.hbm, 215, rfl⟩
abbrev main_call4_c_3 : Ref sig .tc := ⟨.hbm, 216, rfl⟩
abbrev main_call4_v12 : Ref sig .tc := ⟨.hbm, 217, rfl⟩
abbrev main_call4_v13 : Ref sig .tc := ⟨.hbm, 218, rfl⟩
abbrev main_call4_v14 : Ref sig .tc := ⟨.hbm, 219, rfl⟩
abbrev main_call4_cst : Ref sig .tc := ⟨.hbm, 220, rfl⟩
abbrev main_call4_v15 : Ref sig .tc := ⟨.hbm, 221, rfl⟩
abbrev main_v84 : Ref sig .tc := ⟨.hbm, 222, rfl⟩
abbrev main_v85 : Ref sig .tc := ⟨.hbm, 223, rfl⟩
abbrev main_cst_18 : Ref sig .tc := ⟨.hbm, 224, rfl⟩
abbrev main_v86 : Ref sig .tc := ⟨.hbm, 225, rfl⟩
abbrev main_c_19 : Ref sig .tc := ⟨.hbm, 226, rfl⟩
abbrev main_v87 : Ref sig .tc := ⟨.hbm, 227, rfl⟩
abbrev main_v88 : Ref sig .tc := ⟨.hbm, 228, rfl⟩
abbrev main_c_20 : Ref sig .tc := ⟨.hbm, 229, rfl⟩
abbrev main_v89 : Ref sig .tc := ⟨.hbm, 230, rfl⟩
abbrev main_v90 : Ref sig .tc := ⟨.hbm, 231, rfl⟩
abbrev main_v91 : Ref sig .tc := ⟨.hbm, 232, rfl⟩
abbrev main_v92 : Ref sig .tc := ⟨.hbm, 233, rfl⟩
abbrev main_v93 : Ref sig .tc := ⟨.hbm, 234, rfl⟩
abbrev main_v94 : Ref sig .tc := ⟨.hbm, 235, rfl⟩
abbrev main_call5_c : Ref sig .tc := ⟨.hbm, 236, rfl⟩
abbrev main_call5_v0 : Ref sig .tc := ⟨.hbm, 237, rfl⟩
abbrev main_call5_v1 : Ref sig .tc := ⟨.hbm, 238, rfl⟩
abbrev main_call5_c_0 : Ref sig .tc := ⟨.hbm, 239, rfl⟩
abbrev main_call5_v2 : Ref sig .tc := ⟨.hbm, 240, rfl⟩
abbrev main_call5_v3 : Ref sig .tc := ⟨.hbm, 241, rfl⟩
abbrev main_call5_v4 : Ref sig .tc := ⟨.hbm, 242, rfl⟩
abbrev main_call5_v5 : Ref sig .tc := ⟨.hbm, 243, rfl⟩
abbrev main_call5_c_1 : Ref sig .tc := ⟨.hbm, 244, rfl⟩
abbrev main_call5_c_2 : Ref sig .tc := ⟨.hbm, 245, rfl⟩
abbrev main_call5_v6 : Ref sig .tc := ⟨.hbm, 246, rfl⟩
abbrev main_call5_v7 : Ref sig .tc := ⟨.hbm, 247, rfl⟩
abbrev main_call5_v8 : Ref sig .tc := ⟨.hbm, 248, rfl⟩
abbrev main_call5_v9 : Ref sig .tc := ⟨.hbm, 249, rfl⟩
abbrev main_call5_v10 : Ref sig .tc := ⟨.hbm, 250, rfl⟩
abbrev main_call5_v11 : Ref sig .tc := ⟨.hbm, 251, rfl⟩
abbrev main_call5_c_3 : Ref sig .tc := ⟨.hbm, 252, rfl⟩
abbrev main_call5_v12 : Ref sig .tc := ⟨.hbm, 253, rfl⟩
abbrev main_call5_v13 : Ref sig .tc := ⟨.hbm, 254, rfl⟩
abbrev main_call5_v14 : Ref sig .tc := ⟨.hbm, 255, rfl⟩
abbrev main_call5_cst : Ref sig .tc := ⟨.hbm, 256, rfl⟩
abbrev main_call5_v15 : Ref sig .tc := ⟨.hbm, 257, rfl⟩
abbrev main_v95 : Ref sig .tc := ⟨.hbm, 258, rfl⟩
abbrev main_v96 : Ref sig .tc := ⟨.hbm, 259, rfl⟩
abbrev main_cst_21 : Ref sig .tc := ⟨.hbm, 260, rfl⟩
abbrev main_v97 : Ref sig .tc := ⟨.hbm, 261, rfl⟩
abbrev main_c_22 : Ref sig .tc := ⟨.hbm, 262, rfl⟩
abbrev main_v98 : Ref sig .tc := ⟨.hbm, 263, rfl⟩
abbrev main_v99 : Ref sig .tc := ⟨.hbm, 264, rfl⟩
abbrev main_c_23 : Ref sig .tc := ⟨.hbm, 265, rfl⟩
abbrev main_v100 : Ref sig .tc := ⟨.hbm, 266, rfl⟩
abbrev main_v101 : Ref sig .tc := ⟨.hbm, 267, rfl⟩
abbrev main_v102 : Ref sig .tc := ⟨.hbm, 268, rfl⟩
abbrev main_v103 : Ref sig .tc := ⟨.hbm, 269, rfl⟩
abbrev main_v104 : Ref sig .tc := ⟨.hbm, 270, rfl⟩
abbrev main_v105 : Ref sig .tc := ⟨.hbm, 271, rfl⟩
abbrev main_call6_c : Ref sig .tc := ⟨.hbm, 272, rfl⟩
abbrev main_call6_v0 : Ref sig .tc := ⟨.hbm, 273, rfl⟩
abbrev main_call6_v1 : Ref sig .tc := ⟨.hbm, 274, rfl⟩
abbrev main_call6_c_0 : Ref sig .tc := ⟨.hbm, 275, rfl⟩
abbrev main_call6_v2 : Ref sig .tc := ⟨.hbm, 276, rfl⟩
abbrev main_call6_v3 : Ref sig .tc := ⟨.hbm, 277, rfl⟩
abbrev main_call6_v4 : Ref sig .tc := ⟨.hbm, 278, rfl⟩
abbrev main_call6_v5 : Ref sig .tc := ⟨.hbm, 279, rfl⟩
abbrev main_call6_c_1 : Ref sig .tc := ⟨.hbm, 280, rfl⟩
abbrev main_call6_c_2 : Ref sig .tc := ⟨.hbm, 281, rfl⟩
abbrev main_call6_v6 : Ref sig .tc := ⟨.hbm, 282, rfl⟩
abbrev main_call6_v7 : Ref sig .tc := ⟨.hbm, 283, rfl⟩
abbrev main_call6_v8 : Ref sig .tc := ⟨.hbm, 284, rfl⟩
abbrev main_call6_v9 : Ref sig .tc := ⟨.hbm, 285, rfl⟩
abbrev main_call6_v10 : Ref sig .tc := ⟨.hbm, 286, rfl⟩
abbrev main_call6_v11 : Ref sig .tc := ⟨.hbm, 287, rfl⟩
abbrev main_call6_c_3 : Ref sig .tc := ⟨.hbm, 288, rfl⟩
abbrev main_call6_v12 : Ref sig .tc := ⟨.hbm, 289, rfl⟩
abbrev main_call6_v13 : Ref sig .tc := ⟨.hbm, 290, rfl⟩
abbrev main_call6_v14 : Ref sig .tc := ⟨.hbm, 291, rfl⟩
abbrev main_call6_cst : Ref sig .tc := ⟨.hbm, 292, rfl⟩
abbrev main_call6_v15 : Ref sig .tc := ⟨.hbm, 293, rfl⟩
abbrev main_v106 : Ref sig .tc := ⟨.hbm, 294, rfl⟩
abbrev main_v107 : Ref sig .tc := ⟨.hbm, 295, rfl⟩
abbrev main_cst_24 : Ref sig .tc := ⟨.hbm, 296, rfl⟩
abbrev main_v108 : Ref sig .tc := ⟨.hbm, 297, rfl⟩
abbrev main_c_25 : Ref sig .tc := ⟨.hbm, 298, rfl⟩
abbrev main_v109 : Ref sig .tc := ⟨.hbm, 299, rfl⟩
abbrev main_v110 : Ref sig .tc := ⟨.hbm, 300, rfl⟩
abbrev main_c_26 : Ref sig .tc := ⟨.hbm, 301, rfl⟩
abbrev main_v111 : Ref sig .tc := ⟨.hbm, 302, rfl⟩
abbrev main_v112 : Ref sig .tc := ⟨.hbm, 303, rfl⟩
abbrev main_v113 : Ref sig .tc := ⟨.hbm, 304, rfl⟩
abbrev main_v114 : Ref sig .tc := ⟨.hbm, 305, rfl⟩
abbrev main_v115 : Ref sig .tc := ⟨.hbm, 306, rfl⟩
abbrev main_v116 : Ref sig .tc := ⟨.hbm, 307, rfl⟩
abbrev main_call7_c : Ref sig .tc := ⟨.hbm, 308, rfl⟩
abbrev main_call7_v0 : Ref sig .tc := ⟨.hbm, 309, rfl⟩
abbrev main_call7_v1 : Ref sig .tc := ⟨.hbm, 310, rfl⟩
abbrev main_call7_c_0 : Ref sig .tc := ⟨.hbm, 311, rfl⟩
abbrev main_call7_v2 : Ref sig .tc := ⟨.hbm, 312, rfl⟩
abbrev main_call7_v3 : Ref sig .tc := ⟨.hbm, 313, rfl⟩
abbrev main_call7_v4 : Ref sig .tc := ⟨.hbm, 314, rfl⟩
abbrev main_call7_v5 : Ref sig .tc := ⟨.hbm, 315, rfl⟩
abbrev main_call7_c_1 : Ref sig .tc := ⟨.hbm, 316, rfl⟩
abbrev main_call7_c_2 : Ref sig .tc := ⟨.hbm, 317, rfl⟩
abbrev main_call7_v6 : Ref sig .tc := ⟨.hbm, 318, rfl⟩
abbrev main_call7_v7 : Ref sig .tc := ⟨.hbm, 319, rfl⟩
abbrev main_call7_v8 : Ref sig .tc := ⟨.hbm, 320, rfl⟩
abbrev main_call7_v9 : Ref sig .tc := ⟨.hbm, 321, rfl⟩
abbrev main_call7_v10 : Ref sig .tc := ⟨.hbm, 322, rfl⟩
abbrev main_call7_v11 : Ref sig .tc := ⟨.hbm, 323, rfl⟩
abbrev main_call7_c_3 : Ref sig .tc := ⟨.hbm, 324, rfl⟩
abbrev main_call7_v12 : Ref sig .tc := ⟨.hbm, 325, rfl⟩
abbrev main_call7_v13 : Ref sig .tc := ⟨.hbm, 326, rfl⟩
abbrev main_call7_v14 : Ref sig .tc := ⟨.hbm, 327, rfl⟩
abbrev main_call7_cst : Ref sig .tc := ⟨.hbm, 328, rfl⟩
abbrev main_call7_v15 : Ref sig .tc := ⟨.hbm, 329, rfl⟩
abbrev main_v117 : Ref sig .tc := ⟨.hbm, 330, rfl⟩
abbrev main_v118 : Ref sig .tc := ⟨.hbm, 331, rfl⟩
abbrev main_cst_27 : Ref sig .tc := ⟨.hbm, 332, rfl⟩
abbrev main_v119 : Ref sig .tc := ⟨.hbm, 333, rfl⟩
abbrev main_c_28 : Ref sig .tc := ⟨.hbm, 334, rfl⟩
abbrev main_v120 : Ref sig .tc := ⟨.hbm, 335, rfl⟩
abbrev main_v121 : Ref sig .tc := ⟨.hbm, 336, rfl⟩
abbrev main_c_29 : Ref sig .tc := ⟨.hbm, 337, rfl⟩
abbrev main_v122 : Ref sig .tc := ⟨.hbm, 338, rfl⟩
abbrev main_v123 : Ref sig .tc := ⟨.hbm, 339, rfl⟩
abbrev main_v124 : Ref sig .tc := ⟨.hbm, 340, rfl⟩
abbrev main_v125 : Ref sig .tc := ⟨.hbm, 341, rfl⟩
abbrev main_v126 : Ref sig .tc := ⟨.hbm, 342, rfl⟩
abbrev main_v127 : Ref sig .tc := ⟨.hbm, 343, rfl⟩
abbrev main_call8_c : Ref sig .tc := ⟨.hbm, 344, rfl⟩
abbrev main_call8_v0 : Ref sig .tc := ⟨.hbm, 345, rfl⟩
abbrev main_call8_v1 : Ref sig .tc := ⟨.hbm, 346, rfl⟩
abbrev main_call8_c_0 : Ref sig .tc := ⟨.hbm, 347, rfl⟩
abbrev main_call8_v2 : Ref sig .tc := ⟨.hbm, 348, rfl⟩
abbrev main_call8_v3 : Ref sig .tc := ⟨.hbm, 349, rfl⟩
abbrev main_call8_v4 : Ref sig .tc := ⟨.hbm, 350, rfl⟩
abbrev main_call8_v5 : Ref sig .tc := ⟨.hbm, 351, rfl⟩
abbrev main_call8_c_1 : Ref sig .tc := ⟨.hbm, 352, rfl⟩
abbrev main_call8_c_2 : Ref sig .tc := ⟨.hbm, 353, rfl⟩
abbrev main_call8_v6 : Ref sig .tc := ⟨.hbm, 354, rfl⟩
abbrev main_call8_v7 : Ref sig .tc := ⟨.hbm, 355, rfl⟩
abbrev main_call8_v8 : Ref sig .tc := ⟨.hbm, 356, rfl⟩
abbrev main_call8_v9 : Ref sig .tc := ⟨.hbm, 357, rfl⟩
abbrev main_call8_v10 : Ref sig .tc := ⟨.hbm, 358, rfl⟩
abbrev main_call8_v11 : Ref sig .tc := ⟨.hbm, 359, rfl⟩
abbrev main_call8_c_3 : Ref sig .tc := ⟨.hbm, 360, rfl⟩
abbrev main_call8_v12 : Ref sig .tc := ⟨.hbm, 361, rfl⟩
abbrev main_call8_v13 : Ref sig .tc := ⟨.hbm, 362, rfl⟩
abbrev main_call8_v14 : Ref sig .tc := ⟨.hbm, 363, rfl⟩
abbrev main_call8_cst : Ref sig .tc := ⟨.hbm, 364, rfl⟩
abbrev main_call8_v15 : Ref sig .tc := ⟨.hbm, 365, rfl⟩
abbrev main_v128 : Ref sig .tc := ⟨.hbm, 366, rfl⟩
abbrev main_v129 : Ref sig .tc := ⟨.hbm, 367, rfl⟩
abbrev main_cst_30 : Ref sig .tc := ⟨.hbm, 368, rfl⟩
abbrev main_v130 : Ref sig .tc := ⟨.hbm, 369, rfl⟩
abbrev main_c_31 : Ref sig .tc := ⟨.hbm, 370, rfl⟩
abbrev main_v131 : Ref sig .tc := ⟨.hbm, 371, rfl⟩
abbrev main_v132 : Ref sig .tc := ⟨.hbm, 372, rfl⟩
abbrev main_c_32 : Ref sig .tc := ⟨.hbm, 373, rfl⟩
abbrev main_v133 : Ref sig .tc := ⟨.hbm, 374, rfl⟩
abbrev main_v134 : Ref sig .tc := ⟨.hbm, 375, rfl⟩
abbrev main_v135 : Ref sig .tc := ⟨.hbm, 376, rfl⟩
abbrev main_v136 : Ref sig .tc := ⟨.hbm, 377, rfl⟩
abbrev main_v137 : Ref sig .tc := ⟨.hbm, 378, rfl⟩
abbrev main_v138 : Ref sig .tc := ⟨.hbm, 379, rfl⟩
abbrev main_call9_c : Ref sig .tc := ⟨.hbm, 380, rfl⟩
abbrev main_call9_v0 : Ref sig .tc := ⟨.hbm, 381, rfl⟩
abbrev main_call9_v1 : Ref sig .tc := ⟨.hbm, 382, rfl⟩
abbrev main_call9_c_0 : Ref sig .tc := ⟨.hbm, 383, rfl⟩
abbrev main_call9_v2 : Ref sig .tc := ⟨.hbm, 384, rfl⟩
abbrev main_call9_v3 : Ref sig .tc := ⟨.hbm, 385, rfl⟩
abbrev main_call9_v4 : Ref sig .tc := ⟨.hbm, 386, rfl⟩
abbrev main_call9_v5 : Ref sig .tc := ⟨.hbm, 387, rfl⟩
abbrev main_call9_c_1 : Ref sig .tc := ⟨.hbm, 388, rfl⟩
abbrev main_call9_c_2 : Ref sig .tc := ⟨.hbm, 389, rfl⟩
abbrev main_call9_v6 : Ref sig .tc := ⟨.hbm, 390, rfl⟩
abbrev main_call9_v7 : Ref sig .tc := ⟨.hbm, 391, rfl⟩
abbrev main_call9_v8 : Ref sig .tc := ⟨.hbm, 392, rfl⟩
abbrev main_call9_v9 : Ref sig .tc := ⟨.hbm, 393, rfl⟩
abbrev main_call9_v10 : Ref sig .tc := ⟨.hbm, 394, rfl⟩
abbrev main_call9_v11 : Ref sig .tc := ⟨.hbm, 395, rfl⟩
abbrev main_call9_c_3 : Ref sig .tc := ⟨.hbm, 396, rfl⟩
abbrev main_call9_v12 : Ref sig .tc := ⟨.hbm, 397, rfl⟩
abbrev main_call9_v13 : Ref sig .tc := ⟨.hbm, 398, rfl⟩
abbrev main_call9_v14 : Ref sig .tc := ⟨.hbm, 399, rfl⟩
abbrev main_call9_cst : Ref sig .tc := ⟨.hbm, 400, rfl⟩
abbrev main_call9_v15 : Ref sig .tc := ⟨.hbm, 401, rfl⟩
abbrev main_v139 : Ref sig .tc := ⟨.hbm, 402, rfl⟩
abbrev main_v140 : Ref sig .tc := ⟨.hbm, 403, rfl⟩
abbrev main_cst_33 : Ref sig .tc := ⟨.hbm, 404, rfl⟩
abbrev main_v141 : Ref sig .tc := ⟨.hbm, 405, rfl⟩
abbrev main_c_34 : Ref sig .tc := ⟨.hbm, 406, rfl⟩
abbrev main_v142 : Ref sig .tc := ⟨.hbm, 407, rfl⟩
abbrev main_v143 : Ref sig .tc := ⟨.hbm, 408, rfl⟩
abbrev main_c_35 : Ref sig .tc := ⟨.hbm, 409, rfl⟩
abbrev main_v144 : Ref sig .tc := ⟨.hbm, 410, rfl⟩
abbrev main_v145 : Ref sig .tc := ⟨.hbm, 411, rfl⟩
abbrev main_v146 : Ref sig .tc := ⟨.hbm, 412, rfl⟩
abbrev main_v147 : Ref sig .tc := ⟨.hbm, 413, rfl⟩
abbrev main_v148 : Ref sig .tc := ⟨.hbm, 414, rfl⟩
abbrev main_v149 : Ref sig .tc := ⟨.hbm, 415, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg2_1 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg1_1 : Ref sig .tc := ⟨.vmem, 49, rfl⟩
abbrev cc7_stg2_0 : Ref sig .tc := ⟨.vmem, 50, rfl⟩
abbrev cc7_stg2_1 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg1_1 : Ref sig .tc := ⟨.vmem, 55, rfl⟩
abbrev cc8_stg2_0 : Ref sig .tc := ⟨.vmem, 56, rfl⟩
abbrev cc8_stg2_1 : Ref sig .tc := ⟨.vmem, 57, rfl⟩
abbrev cc9_stg0_0 : Ref sig .tc := ⟨.vmem, 58, rfl⟩
abbrev cc9_stg0_1 : Ref sig .tc := ⟨.vmem, 59, rfl⟩
abbrev cc9_stg1_0 : Ref sig .tc := ⟨.vmem, 60, rfl⟩
abbrev cc9_stg1_1 : Ref sig .tc := ⟨.vmem, 61, rfl⟩
abbrev cc9_stg2_0 : Ref sig .tc := ⟨.vmem, 62, rfl⟩
abbrev cc9_stg2_1 : Ref sig .tc := ⟨.vmem, 63, rfl⟩
abbrev cc10_stg0_0 : Ref sig .tc := ⟨.vmem, 64, rfl⟩
abbrev cc10_stg0_1 : Ref sig .tc := ⟨.vmem, 65, rfl⟩
abbrev cc10_stg1_0 : Ref sig .tc := ⟨.vmem, 66, rfl⟩
abbrev cc10_stg1_1 : Ref sig .tc := ⟨.vmem, 67, rfl⟩
abbrev cc10_stg2_0 : Ref sig .tc := ⟨.vmem, 68, rfl⟩
abbrev cc10_stg2_1 : Ref sig .tc := ⟨.vmem, 69, rfl⟩
abbrev cc11_stg0_0 : Ref sig .tc := ⟨.vmem, 70, rfl⟩
abbrev cc11_stg0_1 : Ref sig .tc := ⟨.vmem, 71, rfl⟩
abbrev cc11_stg1_0 : Ref sig .tc := ⟨.vmem, 72, rfl⟩
abbrev cc11_stg1_1 : Ref sig .tc := ⟨.vmem, 73, rfl⟩
abbrev cc11_stg2_0 : Ref sig .tc := ⟨.vmem, 74, rfl⟩
abbrev cc11_stg2_1 : Ref sig .tc := ⟨.vmem, 75, rfl⟩
abbrev cc12_stg0_0 : Ref sig .tc := ⟨.vmem, 76, rfl⟩
abbrev cc12_stg0_1 : Ref sig .tc := ⟨.vmem, 77, rfl⟩
abbrev cc12_stg1_0 : Ref sig .tc := ⟨.vmem, 78, rfl⟩
abbrev cc12_stg1_1 : Ref sig .tc := ⟨.vmem, 79, rfl⟩
abbrev cc12_stg2_0 : Ref sig .tc := ⟨.vmem, 80, rfl⟩
abbrev cc12_stg2_1 : Ref sig .tc := ⟨.vmem, 81, rfl⟩
abbrev cc13_stg0_0 : Ref sig .tc := ⟨.vmem, 82, rfl⟩
abbrev cc13_stg0_1 : Ref sig .tc := ⟨.vmem, 83, rfl⟩
abbrev cc13_stg1_0 : Ref sig .tc := ⟨.vmem, 84, rfl⟩
abbrev cc13_stg1_1 : Ref sig .tc := ⟨.vmem, 85, rfl⟩
abbrev cc13_stg2_0 : Ref sig .tc := ⟨.vmem, 86, rfl⟩
abbrev cc13_stg2_1 : Ref sig .tc := ⟨.vmem, 87, rfl⟩
abbrev cc14_stg0_0 : Ref sig .tc := ⟨.vmem, 88, rfl⟩
abbrev cc14_stg0_1 : Ref sig .tc := ⟨.vmem, 89, rfl⟩
abbrev cc14_stg1_0 : Ref sig .tc := ⟨.vmem, 90, rfl⟩
abbrev cc14_stg1_1 : Ref sig .tc := ⟨.vmem, 91, rfl⟩
abbrev cc14_stg2_0 : Ref sig .tc := ⟨.vmem, 92, rfl⟩
abbrev cc14_stg2_1 : Ref sig .tc := ⟨.vmem, 93, rfl⟩
abbrev cc15_stg0_0 : Ref sig .tc := ⟨.vmem, 94, rfl⟩
abbrev cc15_stg0_1 : Ref sig .tc := ⟨.vmem, 95, rfl⟩
abbrev cc15_stg1_0 : Ref sig .tc := ⟨.vmem, 96, rfl⟩
abbrev cc15_stg1_1 : Ref sig .tc := ⟨.vmem, 97, rfl⟩
abbrev cc15_stg2_0 : Ref sig .tc := ⟨.vmem, 98, rfl⟩
abbrev cc15_stg2_1 : Ref sig .tc := ⟨.vmem, 99, rfl⟩
abbrev cc16_stg0_0 : Ref sig .tc := ⟨.vmem, 100, rfl⟩
abbrev cc16_stg0_1 : Ref sig .tc := ⟨.vmem, 101, rfl⟩
abbrev cc16_stg1_0 : Ref sig .tc := ⟨.vmem, 102, rfl⟩
abbrev cc16_stg1_1 : Ref sig .tc := ⟨.vmem, 103, rfl⟩
abbrev cc16_stg2_0 : Ref sig .tc := ⟨.vmem, 104, rfl⟩
abbrev cc16_stg2_1 : Ref sig .tc := ⟨.vmem, 105, rfl⟩
abbrev cc17_stg0_0 : Ref sig .tc := ⟨.vmem, 106, rfl⟩
abbrev cc17_stg0_1 : Ref sig .tc := ⟨.vmem, 107, rfl⟩
abbrev cc17_stg1_0 : Ref sig .tc := ⟨.vmem, 108, rfl⟩
abbrev cc17_stg1_1 : Ref sig .tc := ⟨.vmem, 109, rfl⟩
abbrev cc17_stg2_0 : Ref sig .tc := ⟨.vmem, 110, rfl⟩
abbrev cc17_stg2_1 : Ref sig .tc := ⟨.vmem, 111, rfl⟩
abbrev cc18_stg0_0 : Ref sig .tc := ⟨.vmem, 112, rfl⟩
abbrev cc18_stg0_1 : Ref sig .tc := ⟨.vmem, 113, rfl⟩
abbrev cc18_stg1_0 : Ref sig .tc := ⟨.vmem, 114, rfl⟩
abbrev cc18_stg1_1 : Ref sig .tc := ⟨.vmem, 115, rfl⟩
abbrev cc18_stg2_0 : Ref sig .tc := ⟨.vmem, 116, rfl⟩
abbrev cc18_stg2_1 : Ref sig .tc := ⟨.vmem, 117, rfl⟩
abbrev cc19_stg0_0 : Ref sig .tc := ⟨.vmem, 118, rfl⟩
abbrev cc19_stg0_1 : Ref sig .tc := ⟨.vmem, 119, rfl⟩
abbrev cc19_stg1_0 : Ref sig .tc := ⟨.vmem, 120, rfl⟩
abbrev cc19_stg1_1 : Ref sig .tc := ⟨.vmem, 121, rfl⟩
abbrev cc19_stg2_0 : Ref sig .tc := ⟨.vmem, 122, rfl⟩
abbrev cc19_stg2_1 : Ref sig .tc := ⟨.vmem, 123, rfl⟩
abbrev cc20_stg0_0 : Ref sig .tc := ⟨.vmem, 124, rfl⟩
abbrev cc20_stg0_1 : Ref sig .tc := ⟨.vmem, 125, rfl⟩
abbrev cc20_stg1_0 : Ref sig .tc := ⟨.vmem, 126, rfl⟩
abbrev cc20_stg1_1 : Ref sig .tc := ⟨.vmem, 127, rfl⟩
abbrev cc20_stg2_0 : Ref sig .tc := ⟨.vmem, 128, rfl⟩
abbrev cc20_stg2_1 : Ref sig .tc := ⟨.vmem, 129, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem2_1 : DmaSem sig := 45
abbrev cc7_sem0_0 : DmaSem sig := 46
abbrev cc7_sem0_1 : DmaSem sig := 47
abbrev cc7_sem1_0 : DmaSem sig := 48
abbrev cc7_sem1_1 : DmaSem sig := 49
abbrev cc7_sem2_0 : DmaSem sig := 50
abbrev cc7_sem2_1 : DmaSem sig := 51
abbrev cc8_sem0_0 : DmaSem sig := 52
abbrev cc8_sem0_1 : DmaSem sig := 53
abbrev cc8_sem1_0 : DmaSem sig := 54
abbrev cc8_sem1_1 : DmaSem sig := 55
abbrev cc8_sem2_0 : DmaSem sig := 56
abbrev cc8_sem2_1 : DmaSem sig := 57
abbrev cc9_sem0_0 : DmaSem sig := 58
abbrev cc9_sem0_1 : DmaSem sig := 59
abbrev cc9_sem1_0 : DmaSem sig := 60
abbrev cc9_sem1_1 : DmaSem sig := 61
abbrev cc9_sem2_0 : DmaSem sig := 62
abbrev cc9_sem2_1 : DmaSem sig := 63
abbrev cc10_sem0_0 : DmaSem sig := 64
abbrev cc10_sem0_1 : DmaSem sig := 65
abbrev cc10_sem1_0 : DmaSem sig := 66
abbrev cc10_sem1_1 : DmaSem sig := 67
abbrev cc10_sem2_0 : DmaSem sig := 68
abbrev cc10_sem2_1 : DmaSem sig := 69
abbrev cc11_sem0_0 : DmaSem sig := 70
abbrev cc11_sem0_1 : DmaSem sig := 71
abbrev cc11_sem1_0 : DmaSem sig := 72
abbrev cc11_sem1_1 : DmaSem sig := 73
abbrev cc11_sem2_0 : DmaSem sig := 74
abbrev cc11_sem2_1 : DmaSem sig := 75
abbrev cc12_sem0_0 : DmaSem sig := 76
abbrev cc12_sem0_1 : DmaSem sig := 77
abbrev cc12_sem1_0 : DmaSem sig := 78
abbrev cc12_sem1_1 : DmaSem sig := 79
abbrev cc12_sem2_0 : DmaSem sig := 80
abbrev cc12_sem2_1 : DmaSem sig := 81
abbrev cc13_sem0_0 : DmaSem sig := 82
abbrev cc13_sem0_1 : DmaSem sig := 83
abbrev cc13_sem1_0 : DmaSem sig := 84
abbrev cc13_sem1_1 : DmaSem sig := 85
abbrev cc13_sem2_0 : DmaSem sig := 86
abbrev cc13_sem2_1 : DmaSem sig := 87
abbrev cc14_sem0_0 : DmaSem sig := 88
abbrev cc14_sem0_1 : DmaSem sig := 89
abbrev cc14_sem1_0 : DmaSem sig := 90
abbrev cc14_sem1_1 : DmaSem sig := 91
abbrev cc14_sem2_0 : DmaSem sig := 92
abbrev cc14_sem2_1 : DmaSem sig := 93
abbrev cc15_sem0_0 : DmaSem sig := 94
abbrev cc15_sem0_1 : DmaSem sig := 95
abbrev cc15_sem1_0 : DmaSem sig := 96
abbrev cc15_sem1_1 : DmaSem sig := 97
abbrev cc15_sem2_0 : DmaSem sig := 98
abbrev cc15_sem2_1 : DmaSem sig := 99
abbrev cc16_sem0_0 : DmaSem sig := 100
abbrev cc16_sem0_1 : DmaSem sig := 101
abbrev cc16_sem1_0 : DmaSem sig := 102
abbrev cc16_sem1_1 : DmaSem sig := 103
abbrev cc16_sem2_0 : DmaSem sig := 104
abbrev cc16_sem2_1 : DmaSem sig := 105
abbrev cc17_sem0_0 : DmaSem sig := 106
abbrev cc17_sem0_1 : DmaSem sig := 107
abbrev cc17_sem1_0 : DmaSem sig := 108
abbrev cc17_sem1_1 : DmaSem sig := 109
abbrev cc17_sem2_0 : DmaSem sig := 110
abbrev cc17_sem2_1 : DmaSem sig := 111
abbrev cc18_sem0_0 : DmaSem sig := 112
abbrev cc18_sem0_1 : DmaSem sig := 113
abbrev cc18_sem1_0 : DmaSem sig := 114
abbrev cc18_sem1_1 : DmaSem sig := 115
abbrev cc18_sem2_0 : DmaSem sig := 116
abbrev cc18_sem2_1 : DmaSem sig := 117
abbrev cc19_sem0_0 : DmaSem sig := 118
abbrev cc19_sem0_1 : DmaSem sig := 119
abbrev cc19_sem1_0 : DmaSem sig := 120
abbrev cc19_sem1_1 : DmaSem sig := 121
abbrev cc19_sem2_0 : DmaSem sig := 122
abbrev cc19_sem2_1 : DmaSem sig := 123
abbrev cc20_sem0_0 : DmaSem sig := 124
abbrev cc20_sem0_1 : DmaSem sig := 125
abbrev cc20_sem1_0 : DmaSem sig := 126
abbrev cc20_sem1_1 : DmaSem sig := 127
abbrev cc20_sem2_0 : DmaSem sig := 128
abbrev cc20_sem2_1 : DmaSem sig := 129

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x40 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![170], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x40 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x40 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![170], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x40 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x40 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![170], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x40 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x40 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S10000x40 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![170], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x40 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S10000x40 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x40 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S10000x40 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S10000x40 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![170], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x40 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S10000x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S10000x40 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x40 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S10000x40 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S10000x40 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![170], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x40 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S10000x1 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S10000x40 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S10000x40 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S10000x40 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S10000x40 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![170], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S10000x40 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S10000x1 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S10000x40 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S10000x40 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S10000x40 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 2 → Memref sig .tc .vmem S10000x40 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev grid15 : Pipeline.Grid := ⟨1, ![170], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S10000x40 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S10000x1 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 2 → Memref sig .tc .vmem S10000x40 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev grid16 : Pipeline.Grid := ⟨1, ![10], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S10000x40 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S10000x40 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 2 → Memref sig .tc .vmem S10000x40 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev grid17 : Pipeline.Grid := ⟨1, ![170], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S10000x40 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 2 → Memref sig .tc .vmem S10000x1 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true]

abbrev stage17_2 : Fin 2 → Memref sig .tc .vmem S10000x40 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

abbrev grid18 : Pipeline.Grid := ⟨1, ![10], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_2 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S10000x40 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 2 → Memref sig .tc .vmem S10000x40 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true]

abbrev stage18_2 : Fin 2 → Memref sig .tc .vmem S10000x40 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true]

abbrev grid19 : Pipeline.Grid := ⟨1, ![170], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_2 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S10000x40 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 2 → Memref sig .tc .vmem S10000x1 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true]

abbrev stage19_2 : Fin 2 → Memref sig .tc .vmem S10000x40 .f32 := fun | 0 => Memref.whole cc19_stg2_0 | 1 => Memref.whole cc19_stg2_1 | ⟨_ + 2, h⟩ => absurd h (Nat.not_lt.2 (Nat.le_add_left _ _))
abbrev sem19_2 : Fin 2 → DmaSem sig := fun | 0 => cc19_sem2_0 | 1 => cc19_sem2_1 | ⟨_ + 2, h⟩ => absurd h (Nat.not_lt.2 (Nat.le_add_left _ _))
abbrev reads19_2 : Fin grid19.rank → Bool := ![true]

abbrev grid20 : Pipeline.Grid := ⟨1, ![10], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_2 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S10000x40 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 2 → Memref sig .tc .vmem S10000x40 .f32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![true]

abbrev stage20_2 : Fin 2 → Memref sig .tc .vmem S10000x40 .f32 := fun | 0 => Memref.whole cc20_stg2_0 | 1 => Memref.whole cc20_stg2_1 | ⟨_ + 2, h⟩ => absurd h (Nat.not_lt.2 (Nat.le_add_left _ _))
abbrev sem20_2 : Fin 2 → DmaSem sig := fun | 0 => cc20_sem2_0 | 1 => cc20_sem2_1 | ⟨_ + 2, h⟩ => absurd h (Nat.not_lt.2 (Nat.le_add_left _ _))
abbrev reads20_2 : Fin grid20.rank → Bool := ![true]

class Facts₀ : Prop where
  transposes_S256x500_S500x256_1_0 : S256x500.Transposes [1, 0] S500x256
  transposes_S128x256_S256x128_1_0 : S128x256.Transposes [1, 0] S256x128
  transposes_S40x128_S128x40_1_0 : S40x128.Transposes [1, 0] S128x40
  shapeCasts_S256_S1x256 : S256.ShapeCasts S1x256
  shapeCasts_S128_S1x128 : S128.ShapeCasts S1x128
  shapeCasts_S40_S1x40 : S40.ShapeCasts S1x40
  inb_S2000x500_S2000x500_0_0 : ∀ a, (![0, 0] : Fin 2 → Nat) a + S2000x500.size a ≤ S2000x500.size a
  h_S2000x500 : 0 < S2000x500.numel
  bitsLt_bf16_f32 : FTy.bits .bf16 < FTy.bits .f32
  inb_S500x256_S500x256_0_0 : ∀ a, (![0, 0] : Fin 2 → Nat) a + S500x256.size a ≤ S500x256.size a
  h_S500x256 : 0 < S500x256.numel
  shapeCasts_S500x256_S500x256 : S500x256.ShapeCasts S500x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  shapeCasts_S1700000_S1700000x1 : S1700000.ShapeCasts S1700000x1
  bcast_S_S1700000x1 : S_.BroadcastsInDim S1700000x1 (![] : Fin 0 → Fin S1700000x1.rank)
  bcast_S1_S1x1_1 : S1.BroadcastsInDim S1x1 (![1] : Fin 1 → Fin S1x1.rank)
  bcast_S1x1_S1700000x1_0_1 : S1x1.BroadcastsInDim S1700000x1 (![0, 1] : Fin 2 → Fin S1700000x1.rank)
  reducesTo_S1700000x1_S1700000_d1 : S1700000x1.ReducesTo [1] S1700000
  h_S_ : 0 < S_.numel
  bcast_S1700000_S1700000x40_0 : S1700000.BroadcastsInDim S1700000x40 (![0] : Fin 1 → Fin S1700000x40.rank)
  bcast_S_S1700000x40 : S_.BroadcastsInDim S1700000x40 (![] : Fin 0 → Fin S1700000x40.rank)
  inb_S10000x40_S10000x40_0_0 : ∀ a, (![0, 0] : Fin 2 → Nat) a + S10000x40.size a ≤ S10000x40.size a
  h_S10000x40 : 0 < S10000x40.numel
  shapeCasts_S10000x40_S10000x40 : S10000x40.ShapeCasts S10000x40
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x40 : S10000x1.Broadcasts S10000x40
  bcast_S_S100000x40 : S_.BroadcastsInDim S100000x40 (![] : Fin 0 → Fin S100000x40.rank)
  dot_S2000x500_S500x256_S2000x256_1_0_0_1_n_n_wf : DotDims.WF S2000x500 S500x256 S2000x256 [1] [0] [0] [1] [] []
  dot_S2000x256_S256x128_S2000x128_1_0_0_1_n_n_wf : DotDims.WF S2000x256 S256x128 S2000x128 [1] [0] [0] [1] [] []
  dot_S2000x128_S128x40_S2000x40_1_0_0_1_n_n_wf : DotDims.WF S2000x128 S128x40 S2000x40 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x500.size a ≤ S100000x500.size a
  hwx0_0 : ∀ i : grid0.Coords, EltTy.bits .f32 = 32 ∨ (Rect.block (s := S100000x500) S2000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x256.size a ≤ S500x256.size a
  hwx0_1 : ∀ i : grid0.Coords, EltTy.bits .f32 = 32 ∨ (Rect.block (s := S500x256) S500x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x40.size a ≤ S128x40.size a
  hwx0_5 : ∀ i : grid0.Coords, EltTy.bits .f32 = 32 ∨ (Rect.block (s := S128x40) S128x40.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x40.size a ≤ S1x40.size a
  hwx0_6 : ∀ i : grid0.Coords, EltTy.bits .f32 = 32 ∨ (Rect.block (s := S1x40) S1x40.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x40.size a ≤ S100000x40.size a
  hwx0_7 : ∀ i : grid0.Coords, EltTy.bits .f32 = 32 ∨ (Rect.block (s := S100000x40) S2000x40.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x40.size a ≤ S1700000x40.size a
  hwx1_0 : ∀ i : grid1.Coords, EltTy.bits .f32 = 32 ∨ (Rect.block (s := S1700000x40) S10000x40.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1700000x1.size a
  hwx1_1 : ∀ i : grid1.Coords, EltTy.bits .f32 = 32 ∨ (Rect.block (s := S1700000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x40.size a ≤ S1700000x40.size a
  hwx1_2 : ∀ i : grid1.Coords, EltTy.bits .f32 = 32 ∨ (Rect.block (s := S1700000x40) S10000x40.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x40.size a ≤ S100000x40.size a
  hwx2_0 : ∀ i : grid2.Coords, EltTy.bits .f32 = 32 ∨ (Rect.block (s := S100000x40) S10000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x40.size a ≤ S100000x40.size a
  hwx2_1 : ∀ i : grid2.Coords, EltTy.bits .f32 = 32 ∨ (Rect.block (s := S100000x40) S10000x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x40.size a ≤ S100000x40.size a
  hwx2_2 : ∀ i : grid2.Coords, EltTy.bits .f32 = 32 ∨ (Rect.block (s := S100000x40) S10000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x40.size a ≤ S1700000x40.size a
  hwx3_0 : ∀ i : grid3.Coords, EltTy.bits .f32 = 32 ∨ (Rect.block (s := S1700000x40) S10000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S1700000x1.size a
  hwx3_1 : ∀ i : grid3.Coords, EltTy.bits .f32 = 32 ∨ (Rect.block (s := S1700000x1) S10000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x40.size a ≤ S1700000x40.size a
  hwx3_2 : ∀ i : grid3.Coords, EltTy.bits .f32 = 32 ∨ (Rect.block (s := S1700000x40) S10000x40.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x40.size a ≤ S100000x40.size a
  hwx4_0 : ∀ i : grid4.Coords, EltTy.bits .f32 = 32 ∨ (Rect.block (s := S100000x40) S10000x40.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x40.size a ≤ S100000x40.size a
  hwx4_1 : ∀ i : grid4.Coords, EltTy.bits .f32 = 32 ∨ (Rect.block (s := S100000x40) S10000x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x40.size a ≤ S100000x40.size a
  hwx4_2 : ∀ i : grid4.Coords, EltTy.bits .f32 = 32 ∨ (Rect.block (s := S100000x40) S10000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x40.size a ≤ S1700000x40.size a
  hwx5_0 : ∀ i : grid5.Coords, EltTy.bits .f32 = 32 ∨ (Rect.block (s := S1700000x40) S10000x40.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x1.size a ≤ S1700000x1.size a
  hwx5_1 : ∀ i : grid5.Coords, EltTy.bits .f32 = 32 ∨ (Rect.block (s := S1700000x1) S10000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x40.size a ≤ S1700000x40.size a
  hwx5_2 : ∀ i : grid5.Coords, EltTy.bits .f32 = 32 ∨ (Rect.block (s := S1700000x40) S10000x40.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x40.size a ≤ S100000x40.size a
  hwx6_0 : ∀ i : grid6.Coords, EltTy.bits .f32 = 32 ∨ (Rect.block (s := S100000x40) S10000x40.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x40.size a ≤ S100000x40.size a
  hwx6_1 : ∀ i : grid6.Coords, EltTy.bits .f32 = 32 ∨ (Rect.block (s := S100000x40) S10000x40.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x40.size a ≤ S100000x40.size a
  hwx6_2 : ∀ i : grid6.Coords, EltTy.bits .f32 = 32 ∨ (Rect.block (s := S100000x40) S10000x40.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x40.size a ≤ S1700000x40.size a
  hwx7_0 : ∀ i : grid7.Coords, EltTy.bits .f32 = 32 ∨ (Rect.block (s := S1700000x40) S10000x40.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x1.size a ≤ S1700000x1.size a
  hwx7_1 : ∀ i : grid7.Coords, EltTy.bits .f32 = 32 ∨ (Rect.block (s := S1700000x1) S10000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x40.size a ≤ S1700000x40.size a
  hwx7_2 : ∀ i : grid7.Coords, EltTy.bits .f32 = 32 ∨ (Rect.block (s := S1700000x40) S10000x40.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x40.size a ≤ S100000x40.size a
  hwx8_0 : ∀ i : grid8.Coords, EltTy.bits .f32 = 32 ∨ (Rect.block (s := S100000x40) S10000x40.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S10000x40.size a ≤ S100000x40.size a
  hwx8_1 : ∀ i : grid8.Coords, EltTy.bits .f32 = 32 ∨ (Rect.block (s := S100000x40) S10000x40.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x40.size a ≤ S100000x40.size a
  hwx8_2 : ∀ i : grid8.Coords, EltTy.bits .f32 = 32 ∨ (Rect.block (s := S100000x40) S10000x40.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x40.size a ≤ S1700000x40.size a
  hwx9_0 : ∀ i : grid9.Coords, EltTy.bits .f32 = 32 ∨ (Rect.block (s := S1700000x40) S10000x40.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S10000x1.size a ≤ S1700000x1.size a
  hwx9_1 : ∀ i : grid9.Coords, EltTy.bits .f32 = 32 ∨ (Rect.block (s := S1700000x1) S10000x1.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S10000x40.size a ≤ S1700000x40.size a
  hwx9_2 : ∀ i : grid9.Coords, EltTy.bits .f32 = 32 ∨ (Rect.block (s := S1700000x40) S10000x40.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x40.size a ≤ S100000x40.size a
  hwx10_0 : ∀ i : grid10.Coords, EltTy.bits .f32 = 32 ∨ (Rect.block (s := S100000x40) S10000x40.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S10000x40.size a ≤ S100000x40.size a
  hwx10_1 : ∀ i : grid10.Coords, EltTy.bits .f32 = 32 ∨ (Rect.block (s := S100000x40) S10000x40.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S10000x40.size a ≤ S100000x40.size a
  hwx10_2 : ∀ i : grid10.Coords, EltTy.bits .f32 = 32 ∨ (Rect.block (s := S100000x40) S10000x40.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x40.size a ≤ S1700000x40.size a
  hwx11_0 : ∀ i : grid11.Coords, EltTy.bits .f32 = 32 ∨ (Rect.block (s := S1700000x40) S10000x40.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S10000x1.size a ≤ S1700000x1.size a
  hwx11_1 : ∀ i : grid11.Coords, EltTy.bits .f32 = 32 ∨ (Rect.block (s := S1700000x1) S10000x1.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S10000x40.size a ≤ S1700000x40.size a
  hwx11_2 : ∀ i : grid11.Coords, EltTy.bits .f32 = 32 ∨ (Rect.block (s := S1700000x40) S10000x40.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x40.size a ≤ S100000x40.size a
  hwx12_0 : ∀ i : grid12.Coords, EltTy.bits .f32 = 32 ∨ (Rect.block (s := S100000x40) S10000x40.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S10000x40.size a ≤ S100000x40.size a
  hwx12_1 : ∀ i : grid12.Coords, EltTy.bits .f32 = 32 ∨ (Rect.block (s := S100000x40) S10000x40.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S10000x40.size a ≤ S100000x40.size a
  hwx12_2 : ∀ i : grid12.Coords, EltTy.bits .f32 = 32 ∨ (Rect.block (s := S100000x40) S10000x40.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S10000x40.size a ≤ S1700000x40.size a
  hwx13_0 : ∀ i : grid13.Coords, EltTy.bits .f32 = 32 ∨ (Rect.block (s := S1700000x40) S10000x40.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S10000x1.size a ≤ S1700000x1.size a
  hwx13_1 : ∀ i : grid13.Coords, EltTy.bits .f32 = 32 ∨ (Rect.block (s := S1700000x1) S10000x1.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S10000x40.size a ≤ S1700000x40.size a
  hwx13_2 : ∀ i : grid13.Coords, EltTy.bits .f32 = 32 ∨ (Rect.block (s := S1700000x40) S10000x40.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S10000x40.size a ≤ S100000x40.size a
  hwx14_0 : ∀ i : grid14.Coords, EltTy.bits .f32 = 32 ∨ (Rect.block (s := S100000x40) S10000x40.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S10000x40.size a ≤ S100000x40.size a
  hwx14_1 : ∀ i : grid14.Coords, EltTy.bits .f32 = 32 ∨ (Rect.block (s := S100000x40) S10000x40.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S10000x40.size a ≤ S100000x40.size a
  hwx14_2 : ∀ i : grid14.Coords, EltTy.bits .f32 = 32 ∨ (Rect.block (s := S100000x40) S10000x40.size (cc14_transform_2 i) (hinb14_2 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S10000x40.size a ≤ S1700000x40.size a
  hwx15_0 : ∀ i : grid15.Coords, EltTy.bits .f32 = 32 ∨ (Rect.block (s := S1700000x40) S10000x40.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S10000x1.size a ≤ S1700000x1.size a
  hwx15_1 : ∀ i : grid15.Coords, EltTy.bits .f32 = 32 ∨ (Rect.block (s := S1700000x1) S10000x1.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S10000x40.size a ≤ S1700000x40.size a
  hwx15_2 : ∀ i : grid15.Coords, EltTy.bits .f32 = 32 ∨ (Rect.block (s := S1700000x40) S10000x40.size (cc15_transform_2 i) (hinb15_2 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S10000x40.size a ≤ S100000x40.size a
  hwx16_0 : ∀ i : grid16.Coords, EltTy.bits .f32 = 32 ∨ (Rect.block (s := S100000x40) S10000x40.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S10000x40.size a ≤ S100000x40.size a
  hwx16_1 : ∀ i : grid16.Coords, EltTy.bits .f32 = 32 ∨ (Rect.block (s := S100000x40) S10000x40.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S10000x40.size a ≤ S100000x40.size a
  hwx16_2 : ∀ i : grid16.Coords, EltTy.bits .f32 = 32 ∨ (Rect.block (s := S100000x40) S10000x40.size (cc16_transform_2 i) (hinb16_2 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S10000x40.size a ≤ S1700000x40.size a
  hwx17_0 : ∀ i : grid17.Coords, EltTy.bits .f32 = 32 ∨ (Rect.block (s := S1700000x40) S10000x40.size (cc17_transform_0 i) (hinb17_0 i)).WholeWords (EltTy.packing .f32)
  hstage17_1 : ∀ j, (stage17_1 j).IsWhole
  nbuf17_1 : grid17.bufCount reads17_1 false = 2
  hreads17_1 : ∀ i i' : grid17.Coords, (∀ a, reads17_1 a = true → i a = i' a) → cc17_transform_1 i = cc17_transform_1 i'
  hinb17_1 : ∀ (i : grid17.Coords) a, (cc17_transform_1 i a + 1) * S10000x1.size a ≤ S1700000x1.size a
  hwx17_1 : ∀ i : grid17.Coords, EltTy.bits .f32 = 32 ∨ (Rect.block (s := S1700000x1) S10000x1.size (cc17_transform_1 i) (hinb17_1 i)).WholeWords (EltTy.packing .f32)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S10000x40.size a ≤ S1700000x40.size a
  hwx17_2 : ∀ i : grid17.Coords, EltTy.bits .f32 = 32 ∨ (Rect.block (s := S1700000x40) S10000x40.size (cc17_transform_2 i) (hinb17_2 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S10000x40.size a ≤ S100000x40.size a
  hwx18_0 : ∀ i : grid18.Coords, EltTy.bits .f32 = 32 ∨ (Rect.block (s := S100000x40) S10000x40.size (cc18_transform_0 i) (hinb18_0 i)).WholeWords (EltTy.packing .f32)
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S10000x40.size a ≤ S100000x40.size a
  hwx18_1 : ∀ i : grid18.Coords, EltTy.bits .f32 = 32 ∨ (Rect.block (s := S100000x40) S10000x40.size (cc18_transform_1 i) (hinb18_1 i)).WholeWords (EltTy.packing .f32)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S10000x40.size a ≤ S100000x40.size a
  hwx18_2 : ∀ i : grid18.Coords, EltTy.bits .f32 = 32 ∨ (Rect.block (s := S100000x40) S10000x40.size (cc18_transform_2 i) (hinb18_2 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S10000x40.size a ≤ S1700000x40.size a
  hwx19_0 : ∀ i : grid19.Coords, EltTy.bits .f32 = 32 ∨ (Rect.block (s := S1700000x40) S10000x40.size (cc19_transform_0 i) (hinb19_0 i)).WholeWords (EltTy.packing .f32)
  hstage19_1 : ∀ j, (stage19_1 j).IsWhole
  nbuf19_1 : grid19.bufCount reads19_1 false = 2
  hreads19_1 : ∀ i i' : grid19.Coords, (∀ a, reads19_1 a = true → i a = i' a) → cc19_transform_1 i = cc19_transform_1 i'
  hinb19_1 : ∀ (i : grid19.Coords) a, (cc19_transform_1 i a + 1) * S10000x1.size a ≤ S1700000x1.size a
  hwx19_1 : ∀ i : grid19.Coords, EltTy.bits .f32 = 32 ∨ (Rect.block (s := S1700000x1) S10000x1.size (cc19_transform_1 i) (hinb19_1 i)).WholeWords (EltTy.packing .f32)
  hstage19_2 : ∀ j, (stage19_2 j).IsWhole
  nbuf19_2 : grid19.bufCount reads19_2 false = 2
  hreads19_2 : ∀ i i' : grid19.Coords, (∀ a, reads19_2 a = true → i a = i' a) → cc19_transform_2 i = cc19_transform_2 i'
  hinb19_2 : ∀ (i : grid19.Coords) a, (cc19_transform_2 i a + 1) * S10000x40.size a ≤ S1700000x40.size a
  hwx19_2 : ∀ i : grid19.Coords, EltTy.bits .f32 = 32 ∨ (Rect.block (s := S1700000x40) S10000x40.size (cc19_transform_2 i) (hinb19_2 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S10000x40.size a ≤ S100000x40.size a
  hwx20_0 : ∀ i : grid20.Coords, EltTy.bits .f32 = 32 ∨ (Rect.block (s := S100000x40) S10000x40.size (cc20_transform_0 i) (hinb20_0 i)).WholeWords (EltTy.packing .f32)
  hstage20_1 : ∀ j, (stage20_1 j).IsWhole
  nbuf20_1 : grid20.bufCount reads20_1 false = 2
  hreads20_1 : ∀ i i' : grid20.Coords, (∀ a, reads20_1 a = true → i a = i' a) → cc20_transform_1 i = cc20_transform_1 i'
  hinb20_1 : ∀ (i : grid20.Coords) a, (cc20_transform_1 i a + 1) * S10000x40.size a ≤ S100000x40.size a
  hwx20_1 : ∀ i : grid20.Coords, EltTy.bits .f32 = 32 ∨ (Rect.block (s := S100000x40) S10000x40.size (cc20_transform_1 i) (hinb20_1 i)).WholeWords (EltTy.packing .f32)
  hstage20_2 : ∀ j, (stage20_2 j).IsWhole
  nbuf20_2 : grid20.bufCount reads20_2 false = 2
  hreads20_2 : ∀ i i' : grid20.Coords, (∀ a, reads20_2 a = true → i a = i' a) → cc20_transform_2 i = cc20_transform_2 i'
  hinb20_2 : ∀ (i : grid20.Coords) a, (cc20_transform_2 i a + 1) * S10000x40.size a ≤ S100000x40.size a
  hwx20_2 : ∀ i : grid20.Coords, EltTy.bits .f32 = 32 ∨ (Rect.block (s := S100000x40) S10000x40.size (cc20_transform_2 i) (hinb20_2 i)).WholeWords (EltTy.packing .f32)

variable [Facts₀]

def dot_S2000x500_S500x256_S2000x256_1_0_0_1_n_n : DotDims S2000x500 S500x256 S2000x256 where
  lhsContracting := [1]
  rhsContracting := [0]
  lhsNonContracting := [0]
  rhsNonContracting := [1]
  lhsBatch := []
  rhsBatch := []
  wf := dot_S2000x500_S500x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S2000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S500x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S128x40.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x40.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S2000x40.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v40) S10000x40.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S10000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S10000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S10000x40.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S10000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v51) S10000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v52) S10000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S10000x40.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v6) S10000x40.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v61) S10000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v62) S10000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v39) S10000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v63) S10000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v71) S10000x40.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v6) S10000x40.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v72) S10000x40.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v73) S10000x40.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v39) S10000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v74) S10000x40.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v82) S10000x40.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v6) S10000x40.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v83) S10000x40.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v84) S10000x40.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v39) S10000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v85) S10000x40.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v93) S10000x40.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v6) S10000x40.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v94) S10000x40.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v95) S10000x40.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v39) S10000x1.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v96) S10000x40.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v104) S10000x40.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v6) S10000x40.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v105) S10000x40.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v106) S10000x40.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v39) S10000x1.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v107) S10000x40.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v115) S10000x40.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v6) S10000x40.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v116) S10000x40.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev win15_0 : Pipeline.Window sig grid15 :=
  Pipeline.Window.ofSpec (Memref.whole main_v117) S10000x40.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v39) S10000x1.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v118) S10000x40.size cc15_transform_2 reads15_2 true false 2 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev win16_0 : Pipeline.Window sig grid16 :=
  Pipeline.Window.ofSpec (Memref.whole main_v126) S10000x40.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v6) S10000x40.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v127) S10000x40.size cc16_transform_2 reads16_2 true false 2 stage16_2 sem16_2
    hrank16 hreads16_2 hinb16_2 nbuf16_2 (Memref.isWhole_whole _) hwx16_2 hstage16_2

abbrev win16 : Fin 3 → Pipeline.Window sig grid16 := fun | 0 => win16_0 | 1 => win16_1 | 2 => win16_2 | ⟨_ + 3, h⟩ => absurd h (Nat.not_lt.2 (Nat.le_add_left _ _))
abbrev spec16 : Fin 3 → Pipeline.WinSpec sig grid16.rank := fun w => (win16 w).toWinSpec

abbrev win17_0 : Pipeline.Window sig grid17 :=
  Pipeline.Window.ofSpec (Memref.whole main_v128) S10000x40.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v39) S10000x1.size cc17_transform_1 reads17_1 false false 2 stage17_1 sem17_1
    hrank17 hreads17_1 hinb17_1 nbuf17_1 (Memref.isWhole_whole _) hwx17_1 hstage17_1

abbrev win17_2 : Pipeline.Window sig grid17 :=
  Pipeline.Window.ofSpec (Memref.whole main_v129) S10000x40.size cc17_transform_2 reads17_2 true false 2 stage17_2 sem17_2
    hrank17 hreads17_2 hinb17_2 nbuf17_2 (Memref.isWhole_whole _) hwx17_2 hstage17_2

abbrev win17 : Fin 3 → Pipeline.Window sig grid17 := fun | 0 => win17_0 | 1 => win17_1 | 2 => win17_2 | ⟨_ + 3, h⟩ => absurd h (Nat.not_lt.2 (Nat.le_add_left _ _))
abbrev spec17 : Fin 3 → Pipeline.WinSpec sig grid17.rank := fun w => (win17 w).toWinSpec

abbrev win18_0 : Pipeline.Window sig grid18 :=
  Pipeline.Window.ofSpec (Memref.whole main_v137) S10000x40.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v6) S10000x40.size cc18_transform_1 reads18_1 false false 2 stage18_1 sem18_1
    hrank18 hreads18_1 hinb18_1 nbuf18_1 (Memref.isWhole_whole _) hwx18_1 hstage18_1

abbrev win18_2 : Pipeline.Window sig grid18 :=
  Pipeline.Window.ofSpec (Memref.whole main_v138) S10000x40.size cc18_transform_2 reads18_2 true false 2 stage18_2 sem18_2
    hrank18 hreads18_2 hinb18_2 nbuf18_2 (Memref.isWhole_whole _) hwx18_2 hstage18_2

abbrev win18 : Fin 3 → Pipeline.Window sig grid18 := fun | 0 => win18_0 | 1 => win18_1 | 2 => win18_2 | ⟨_ + 3, h⟩ => absurd h (Nat.not_lt.2 (Nat.le_add_left _ _))
abbrev spec18 : Fin 3 → Pipeline.WinSpec sig grid18.rank := fun w => (win18 w).toWinSpec

abbrev win19_0 : Pipeline.Window sig grid19 :=
  Pipeline.Window.ofSpec (Memref.whole main_v139) S10000x40.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v39) S10000x1.size cc19_transform_1 reads19_1 false false 2 stage19_1 sem19_1
    hrank19 hreads19_1 hinb19_1 nbuf19_1 (Memref.isWhole_whole _) hwx19_1 hstage19_1

abbrev win19_2 : Pipeline.Window sig grid19 :=
  Pipeline.Window.ofSpec (Memref.whole main_v140) S10000x40.size cc19_transform_2 reads19_2 true false 2 stage19_2 sem19_2
    hrank19 hreads19_2 hinb19_2 nbuf19_2 (Memref.isWhole_whole _) hwx19_2 hstage19_2

abbrev win19 : Fin 3 → Pipeline.Window sig grid19 := fun | 0 => win19_0 | 1 => win19_1 | 2 => win19_2 | ⟨_ + 3, h⟩ => absurd h (Nat.not_lt.2 (Nat.le_add_left _ _))
abbrev spec19 : Fin 3 → Pipeline.WinSpec sig grid19.rank := fun w => (win19 w).toWinSpec

abbrev win20_0 : Pipeline.Window sig grid20 :=
  Pipeline.Window.ofSpec (Memref.whole main_v148) S10000x40.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v6) S10000x40.size cc20_transform_1 reads20_1 false false 2 stage20_1 sem20_1
    hrank20 hreads20_1 hinb20_1 nbuf20_1 (Memref.isWhole_whole _) hwx20_1 hstage20_1

abbrev win20_2 : Pipeline.Window sig grid20 :=
  Pipeline.Window.ofSpec (Memref.whole main_v149) S10000x40.size cc20_transform_2 reads20_2 true false 2 stage20_2 sem20_2
    hrank20 hreads20_2 hinb20_2 nbuf20_2 (Memref.isWhole_whole _) hwx20_2 hstage20_2

abbrev win20 : Fin 3 → Pipeline.Window sig grid20 := fun | 0 => win20_0 | 1 => win20_1 | 2 => win20_2 | ⟨_ + 3, h⟩ => absurd h (Nat.not_lt.2 (Nat.le_add_left _ _))
abbrev spec20 : Fin 3 → Pipeline.WinSpec sig grid20.rank := fun w => (win20 w).toWinSpec

class Facts : Prop extends Facts₀ where

variable [Facts]
-- ==== ReferenceIdeal.lean ====
abbrev S100000x500 : Shape := ⟨2, ![100000, 500]⟩
abbrev S2x1600000 : Shape := ⟨2, ![2, 1600000]⟩
abbrev S256x500 : Shape := ⟨2, ![256, 500]⟩
abbrev S256 : Shape := ⟨1, ![256]⟩
abbrev S128x256 : Shape := ⟨2, ![128, 256]⟩
abbrev S128 : Shape := ⟨1, ![128]⟩
abbrev S40x128 : Shape := ⟨2, ![40, 128]⟩
abbrev S40 : Shape := ⟨1, ![40]⟩
abbrev S500x256 : Shape := ⟨2, ![500, 256]⟩
abbrev S100000x256 : Shape := ⟨2, ![100000, 256]⟩
abbrev S1x256 : Shape := ⟨2, ![1, 256]⟩
abbrev S_ : Shape := ⟨0, ![]⟩
abbrev S256x128 : Shape := ⟨2, ![256, 128]⟩
abbrev S100000x128 : Shape := ⟨2, ![100000, 128]⟩
abbrev S1x128 : Shape := ⟨2, ![1, 128]⟩
abbrev S128x40 : Shape := ⟨2, ![128, 40]⟩
abbrev S100000x40 : Shape := ⟨2, ![100000, 40]⟩
abbrev S1x40 : Shape := ⟨2, ![1, 40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x40 : Shape := ⟨2, ![1700000, 40]⟩

abbrev nBuf : Space → Nat
  | .hbm => 372
  | .vmem => 0
  | .smem => 0
  | _ => 0

abbrev hbmTy0_0 (i : Nat) : BufTy := match i % 128 with
  | 0 => ⟨S100000x500, .f32⟩
  | 1 => ⟨S2x1600000, .i32⟩
  | 2 => ⟨S256x500, .f32⟩
  | 3 => ⟨S256, .f32⟩
  | 4 => ⟨S128x256, .f32⟩
  | 5 => ⟨S128, .f32⟩
  | 6 => ⟨S40x128, .f32⟩
  | 7 => ⟨S40, .f32⟩
  | 8 => ⟨S500x256, .f32⟩
  | 9 => ⟨S100000x256, .f32⟩
  | 10 => ⟨S1x256, .f32⟩
  | 11 => ⟨S100000x256, .f32⟩
  | 12 => ⟨S100000x256, .f32⟩
  | 13 => ⟨S_, .f32⟩
  | 14 => ⟨S100000x256, .f32⟩
  | 15 => ⟨S100000x256, .f32⟩
  | 16 => ⟨S256x128, .f32⟩
  | 17 => ⟨S100000x128, .f32⟩
  | 18 => ⟨S1x128, .f32⟩
  | 19 => ⟨S100000x128, .f32⟩
  | 20 => ⟨S100000x128, .f32⟩
  | 21 => ⟨S_, .f32⟩
  | 22 => ⟨S100000x128, .f32⟩
  | 23 => ⟨S100000x128, .f32⟩
  | 24 => ⟨S128x40, .f32⟩
  | 25 => ⟨S100000x40, .f32⟩
  | 26 => ⟨S1x40, .f32⟩
  | 27 => ⟨S100000x40, .f32⟩
  | 28 => ⟨S100000x40, .f32⟩
  | 29 => ⟨S_, .f32⟩
  | 30 => ⟨S100000x40, .f32⟩
  | 31 => ⟨S100000x40, .f32⟩
  | 32 => ⟨S100000, .i32⟩
  | 33 => ⟨S1x1600000, .i32⟩
  | 34 => ⟨S1600000, .i32⟩
  | 35 => ⟨S1700000, .i32⟩
  | 36 => ⟨S1x1600000, .i32⟩
  | 37 => ⟨S1600000, .i32⟩
  | 38 => ⟨S1700000, .i32⟩
  | 39 => ⟨S_, .f32⟩
  | 40 => ⟨S100000, .f32⟩
  | 41 => ⟨S_, .f32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S100000, .f32⟩
  | 52 => ⟨S100000, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000, .f32⟩
  | 62 => ⟨S_, .i32⟩
  | 63 => ⟨S1700000, .i32⟩
  | 64 => ⟨S1700000, .i1⟩
  | 65 => ⟨S_, .i32⟩
  | 66 => ⟨S1700000, .i32⟩
  | 67 => ⟨S1700000, .i32⟩
  | 68 => ⟨S1700000, .i32⟩
  | 69 => ⟨S1700000x1, .i32⟩
  | 70 => ⟨S1700000, .f32⟩
  | 71 => ⟨S1700000, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000x40, .f32⟩
  | 81 => ⟨S1700000x1, .f32⟩
  | 82 => ⟨S1700000x40, .f32⟩
  | 83 => ⟨S1700000x40, .f32⟩
  | 84 => ⟨S_, .f32⟩
  | 85 => ⟨S100000x40, .f32⟩
  | 86 => ⟨S_, .i32⟩
  | 87 => ⟨S1700000, .i32⟩
  | 88 => ⟨S1700000, .i1⟩
  | 89 => ⟨S_, .i32⟩
  | 90 => ⟨S1700000, .i32⟩
  | 91 => ⟨S1700000, .i32⟩
  | 92 => ⟨S1700000, .i32⟩
  | 93 => ⟨S1700000x1, .i32⟩
  | 94 => ⟨S100000x40, .f32⟩
  | 95 => ⟨S_, .f32⟩
  | 96 => ⟨S100000x40, .f32⟩
  | 97 => ⟨S100000x40, .f32⟩
  | 98 => ⟨S_, .f32⟩
  | 99 => ⟨S100000x40, .f32⟩
  | 100 => ⟨S100000x40, .f32⟩
  | 101 => ⟨S100000x40, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000x40, .f32⟩
  | 111 => ⟨S1700000x1, .f32⟩
  | 112 => ⟨S1700000x40, .f32⟩
  | 113 => ⟨S1700000x40, .f32⟩
  | 114 => ⟨S_, .f32⟩
  | 115 => ⟨S100000x40, .f32⟩
  | 116 => ⟨S_, .i32⟩
  | 117 => ⟨S1700000, .i32⟩
  | 118 => ⟨S1700000, .i1⟩
  | 119 => ⟨S_, .i32⟩
  | 120 => ⟨S1700000, .i32⟩
  | 121 => ⟨S1700000, .i32⟩
  | 122 => ⟨S1700000, .i32⟩
  | 123 => ⟨S1700000x1, .i32⟩
  | 124 => ⟨S100000x40, .f32⟩
  | 125 => ⟨S_, .f32⟩
  | 126 => ⟨S100000x40, .f32⟩
  | 127 => ⟨S100000x40, .f32⟩
  | _ => ⟨S100000x500, .f32⟩

abbrev hbmTy0_1 (i : Nat) : BufTy := match i % 128 with
  | 0 => ⟨S_, .f32⟩
  | 1 => ⟨S100000x40, .f32⟩
  | 2 => ⟨S100000x40, .f32⟩
  | 3 => ⟨S100000x40, .f32⟩
  | 4 => ⟨S_, .i32⟩
  | 5 => ⟨S1700000, .i32⟩
  | 6 => ⟨S1700000, .i1⟩
  | 7 => ⟨S_, .i32⟩
  | 8 => ⟨S1700000, .i32⟩
  | 9 => ⟨S1700000, .i32⟩
  | 10 => ⟨S1700000, .i32⟩
  | 11 => ⟨S1700000x1, .i32⟩
  | 12 => ⟨S1700000x40, .f32⟩
  | 13 => ⟨S1700000x1, .f32⟩
  | 14 => ⟨S1700000x40, .f32⟩
  | 15 => ⟨S1700000x40, .f32⟩
  | 16 => ⟨S_, .f32⟩
  | 17 => ⟨S100000x40, .f32⟩
  | 18 => ⟨S_, .i32⟩
  | 19 => ⟨S1700000, .i32⟩
  | 20 => ⟨S1700000, .i1⟩
  | 21 => ⟨S_, .i32⟩
  | 22 => ⟨S1700000, .i32⟩
  | 23 => ⟨S1700000, .i32⟩
  | 24 => ⟨S1700000, .i32⟩
  | 25 => ⟨S1700000x1, .i32⟩
  | 26 => ⟨S100000x40, .f32⟩
  | 27 => ⟨S_, .f32⟩
  | 28 => ⟨S100000x40, .f32⟩
  | 29 => ⟨S100000x40, .f32⟩
  | 30 => ⟨S_, .f32⟩
  | 31 => ⟨S100000x40, .f32⟩
  | 32 => ⟨S100000x40, .f32⟩
  | 33 => ⟨S100000x40, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000x40, .f32⟩
  | 43 => ⟨S1700000x1, .f32⟩
  | 44 => ⟨S1700000x40, .f32⟩
  | 45 => ⟨S1700000x40, .f32⟩
  | 46 => ⟨S_, .f32⟩
  | 47 => ⟨S100000x40, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S100000x40, .f32⟩
  | 57 => ⟨S_, .f32⟩
  | 58 => ⟨S100000x40, .f32⟩
  | 59 => ⟨S100000x40, .f32⟩
  | 60 => ⟨S_, .f32⟩
  | 61 => ⟨S100000x40, .f32⟩
  | 62 => ⟨S100000x40, .f32⟩
  | 63 => ⟨S100000x40, .f32⟩
  | 64 => ⟨S_, .i32⟩
  | 65 => ⟨S1700000, .i32⟩
  | 66 => ⟨S1700000, .i1⟩
  | 67 => ⟨S_, .i32⟩
  | 68 => ⟨S1700000, .i32⟩
  | 69 => ⟨S1700000, .i32⟩
  | 70 => ⟨S1700000, .i32⟩
  | 71 => ⟨S1700000x1, .i32⟩
  | 72 => ⟨S1700000x40, .f32⟩
  | 73 => ⟨S1700000x1, .f32⟩
  | 74 => ⟨S1700000x40, .f32⟩
  | 75 => ⟨S1700000x40, .f32⟩
  | 76 => ⟨S_, .f32⟩
  | 77 => ⟨S100000x40, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S100000x40, .f32⟩
  | 87 => ⟨S_, .f32⟩
  | 88 => ⟨S100000x40, .f32⟩
  | 89 => ⟨S100000x40, .f32⟩
  | 90 => ⟨S_, .f32⟩
  | 91 => ⟨S100000x40, .f32⟩
  | 92 => ⟨S100000x40, .f32⟩
  | 93 => ⟨S100000x40, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000x40, .f32⟩
  | 103 => ⟨S1700000x1, .f32⟩
  | 104 => ⟨S1700000x40, .f32⟩
  | 105 => ⟨S1700000x40, .f32⟩
  | 106 => ⟨S_, .f32⟩
  | 107 => ⟨S100000x40, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S100000x40, .f32⟩
  | 117 => ⟨S_, .f32⟩
  | 118 => ⟨S100000x40, .f32⟩
  | 119 => ⟨S100000x40, .f32⟩
  | 120 => ⟨S_, .f32⟩
  | 121 => ⟨S100000x40, .f32⟩
  | 122 => ⟨S100000x40, .f32⟩
  | 123 => ⟨S100000x40, .f32⟩
  | 124 => ⟨S_, .i32⟩
  | 125 => ⟨S1700000, .i32⟩
  | 126 => ⟨S1700000, .i1⟩
  | 127 => ⟨S_, .i32⟩
  | _ => ⟨S100000x500, .f32⟩

abbrev hbmTy0_2 (i : Nat) : BufTy := match i % 128 with
  | 0 => ⟨S1700000, .i32⟩
  | 1 => ⟨S1700000, .i32⟩
  | 2 => ⟨S1700000, .i32⟩
  | 3 => ⟨S1700000x1, .i32⟩
  | 4 => ⟨S1700000x40, .f32⟩
  | 5 => ⟨S1700000x1, .f32⟩
  | 6 => ⟨S1700000x40, .f32⟩
  | 7 => ⟨S1700000x40, .f32⟩
  | 8 => ⟨S_, .f32⟩
  | 9 => ⟨S100000x40, .f32⟩
  | 10 => ⟨S_, .i32⟩
  | 11 => ⟨S1700000, .i32⟩
  | 12 => ⟨S1700000, .i1⟩
  | 13 => ⟨S_, .i32⟩
  | 14 => ⟨S1700000, .i32⟩
  | 15 => ⟨S1700000, .i32⟩
  | 16 => ⟨S1700000, .i32⟩
  | 17 => ⟨S1700000x1, .i32⟩
  | 18 => ⟨S100000x40, .f32⟩
  | 19 => ⟨S_, .f32⟩
  | 20 => ⟨S100000x40, .f32⟩
  | 21 => ⟨S100000x40, .f32⟩
  | 22 => ⟨S_, .f32⟩
  | 23 => ⟨S100000x40, .f32⟩
  | 24 => ⟨S100000x40, .f32⟩
  | 25 => ⟨S100000x40, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000x40, .f32⟩
  | 35 => ⟨S1700000x1, .f32⟩
  | 36 => ⟨S1700000x40, .f32⟩
  | 37 => ⟨S1700000x40, .f32⟩
  | 38 => ⟨S_, .f32⟩
  | 39 => ⟨S100000x40, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S100000x40, .f32⟩
  | 49 => ⟨S_, .f32⟩
  | 50 => ⟨S100000x40, .f32⟩
  | 51 => ⟨S100000x40, .f32⟩
  | 52 => ⟨S_, .f32⟩
  | 53 => ⟨S100000x40, .f32⟩
  | 54 => ⟨S100000x40, .f32⟩
  | 55 => ⟨S100000x40, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x40, .f32⟩
  | 65 => ⟨S1700000x1, .f32⟩
  | 66 => ⟨S1700000x40, .f32⟩
  | 67 => ⟨S1700000x40, .f32⟩
  | 68 => ⟨S_, .f32⟩
  | 69 => ⟨S100000x40, .f32⟩
  | 70 => ⟨S_, .i32⟩
  | 71 => ⟨S1700000, .i32⟩
  | 72 => ⟨S1700000, .i1⟩
  | 73 => ⟨S_, .i32⟩
  | 74 => ⟨S1700000, .i32⟩
  | 75 => ⟨S1700000, .i32⟩
  | 76 => ⟨S1700000, .i32⟩
  | 77 => ⟨S1700000x1, .i32⟩
  | 78 => ⟨S100000x40, .f32⟩
  | 79 => ⟨S_, .f32⟩
  | 80 => ⟨S100000x40, .f32⟩
  | 81 => ⟨S100000x40, .f32⟩
  | 82 => ⟨S_, .f32⟩
  | 83 => ⟨S100000x40, .f32⟩
  | 84 => ⟨S100000x40, .f32⟩
  | 85 => ⟨S100000x40, .f32⟩
  | 86 => ⟨S_, .i32⟩
  | 87 => ⟨S1700000, .i32⟩
  | 88 => ⟨S1700000, .i1⟩
  | 89 => ⟨S_, .i32⟩
  | 90 => ⟨S1700000, .i32⟩
  | 91 => ⟨S1700000, .i32⟩
  | 92 => ⟨S1700000, .i32⟩
  | 93 => ⟨S1700000x1, .i32⟩
  | 94 => ⟨S1700000x40, .f32⟩
  | 95 => ⟨S1700000x1, .f32⟩
  | 96 => ⟨S1700000x40, .f32⟩
  | 97 => ⟨S1700000x40, .f32⟩
  | 98 => ⟨S_, .f32⟩
  | 99 => ⟨S100000x40, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S100000x40, .f32⟩
  | 109 => ⟨S_, .f32⟩
  | 110 => ⟨S100000x40, .f32⟩
  | 111 => ⟨S100000x40, .f32⟩
  | 112 => ⟨S_, .f32⟩
  | 113 => ⟨S100000x40, .f32⟩
  | 114 => ⟨S100000x40, .f32⟩
  | 115 => ⟨S100000x40, .f32⟩
  | _ => ⟨S100000x500, .f32⟩

abbrev hbmTy (i : Nat) : BufTy := match i / 128 with
  | 0 => hbmTy0_0 i
  | 1 => hbmTy0_1 i
  | 2 => hbmTy0_2 i
  | _ => ⟨S100000x500, .f32⟩

abbrev bufTy : (tb : Table) → Fin (tcTables nBuf tb) → BufTy
  | .hbm, ⟨i, _⟩ => hbmTy i
  | _, _ => ⟨S100000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call2_cst : Ref sig .tc := ⟨.hbm, 29, rfl⟩
abbrev main_call2_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_cst_0 : Ref sig .tc := ⟨.hbm, 41, rfl⟩
abbrev main_v26 : Ref sig .tc := ⟨.hbm, 42, rfl⟩
abbrev main_c : Ref sig .tc := ⟨.hbm, 43, rfl⟩
abbrev main_v27 : Ref sig .tc := ⟨.hbm, 44, rfl⟩
abbrev main_v28 : Ref sig .tc := ⟨.hbm, 45, rfl⟩
abbrev main_c_1 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_2 : Ref sig .tc := ⟨.hbm, 53, rfl⟩
abbrev main_v35 : Ref sig .tc := ⟨.hbm, 54, rfl⟩
abbrev main_v36 : Ref sig .tc := ⟨.hbm, 55, rfl⟩
abbrev main_c_3 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_4 : Ref sig .tc := ⟨.hbm, 62, rfl⟩
abbrev main_v42 : Ref sig .tc := ⟨.hbm, 63, rfl⟩
abbrev main_v43 : Ref sig .tc := ⟨.hbm, 64, rfl⟩
abbrev main_c_5 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_6 : Ref sig .tc := ⟨.hbm, 72, rfl⟩
abbrev main_v50 : Ref sig .tc := ⟨.hbm, 73, rfl⟩
abbrev main_v51 : Ref sig .tc := ⟨.hbm, 74, rfl⟩
abbrev main_c_7 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_8 : Ref sig .tc := ⟨.hbm, 84, rfl⟩
abbrev main_v60 : Ref sig .tc := ⟨.hbm, 85, rfl⟩
abbrev main_c_9 : Ref sig .tc := ⟨.hbm, 86, rfl⟩
abbrev main_v61 : Ref sig .tc := ⟨.hbm, 87, rfl⟩
abbrev main_v62 : Ref sig .tc := ⟨.hbm, 88, rfl⟩
abbrev main_c_10 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_11 : Ref sig .tc := ⟨.hbm, 95, rfl⟩
abbrev main_v68 : Ref sig .tc := ⟨.hbm, 96, rfl⟩
abbrev main_v69 : Ref sig .tc := ⟨.hbm, 97, rfl⟩
abbrev main_cst_12 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_13 : Ref sig .tc := ⟨.hbm, 102, rfl⟩
abbrev main_v73 : Ref sig .tc := ⟨.hbm, 103, rfl⟩
abbrev main_v74 : Ref sig .tc := ⟨.hbm, 104, rfl⟩
abbrev main_c_14 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_15 : Ref sig .tc := ⟨.hbm, 114, rfl⟩
abbrev main_v83 : Ref sig .tc := ⟨.hbm, 115, rfl⟩
abbrev main_c_16 : Ref sig .tc := ⟨.hbm, 116, rfl⟩
abbrev main_v84 : Ref sig .tc := ⟨.hbm, 117, rfl⟩
abbrev main_v85 : Ref sig .tc := ⟨.hbm, 118, rfl⟩
abbrev main_c_17 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_18 : Ref sig .tc := ⟨.hbm, 125, rfl⟩
abbrev main_v91 : Ref sig .tc := ⟨.hbm, 126, rfl⟩
abbrev main_v92 : Ref sig .tc := ⟨.hbm, 127, rfl⟩
abbrev main_cst_19 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_c_20 : Ref sig .tc := ⟨.hbm, 132, rfl⟩
abbrev main_v96 : Ref sig .tc := ⟨.hbm, 133, rfl⟩
abbrev main_v97 : Ref sig .tc := ⟨.hbm, 134, rfl⟩
abbrev main_c_21 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_22 : Ref sig .tc := ⟨.hbm, 144, rfl⟩
abbrev main_v106 : Ref sig .tc := ⟨.hbm, 145, rfl⟩
abbrev main_c_23 : Ref sig .tc := ⟨.hbm, 146, rfl⟩
abbrev main_v107 : Ref sig .tc := ⟨.hbm, 147, rfl⟩
abbrev main_v108 : Ref sig .tc := ⟨.hbm, 148, rfl⟩
abbrev main_c_24 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_25 : Ref sig .tc := ⟨.hbm, 155, rfl⟩
abbrev main_v114 : Ref sig .tc := ⟨.hbm, 156, rfl⟩
abbrev main_v115 : Ref sig .tc := ⟨.hbm, 157, rfl⟩
abbrev main_cst_26 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_c_27 : Ref sig .tc := ⟨.hbm, 162, rfl⟩
abbrev main_v119 : Ref sig .tc := ⟨.hbm, 163, rfl⟩
abbrev main_v120 : Ref sig .tc := ⟨.hbm, 164, rfl⟩
abbrev main_c_28 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_cst_29 : Ref sig .tc := ⟨.hbm, 174, rfl⟩
abbrev main_v129 : Ref sig .tc := ⟨.hbm, 175, rfl⟩
abbrev main_c_30 : Ref sig .tc := ⟨.hbm, 176, rfl⟩
abbrev main_v130 : Ref sig .tc := ⟨.hbm, 177, rfl⟩
abbrev main_v131 : Ref sig .tc := ⟨.hbm, 178, rfl⟩
abbrev main_c_31 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_cst_32 : Ref sig .tc := ⟨.hbm, 185, rfl⟩
abbrev main_v137 : Ref sig .tc := ⟨.hbm, 186, rfl⟩
abbrev main_v138 : Ref sig .tc := ⟨.hbm, 187, rfl⟩
abbrev main_cst_33 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_c_34 : Ref sig .tc := ⟨.hbm, 192, rfl⟩
abbrev main_v142 : Ref sig .tc := ⟨.hbm, 193, rfl⟩
abbrev main_v143 : Ref sig .tc := ⟨.hbm, 194, rfl⟩
abbrev main_c_35 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_cst_36 : Ref sig .tc := ⟨.hbm, 204, rfl⟩
abbrev main_v152 : Ref sig .tc := ⟨.hbm, 205, rfl⟩
abbrev main_c_37 : Ref sig .tc := ⟨.hbm, 206, rfl⟩
abbrev main_v153 : Ref sig .tc := ⟨.hbm, 207, rfl⟩
abbrev main_v154 : Ref sig .tc := ⟨.hbm, 208, rfl⟩
abbrev main_c_38 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_cst_39 : Ref sig .tc := ⟨.hbm, 215, rfl⟩
abbrev main_v160 : Ref sig .tc := ⟨.hbm, 216, rfl⟩
abbrev main_v161 : Ref sig .tc := ⟨.hbm, 217, rfl⟩
abbrev main_cst_40 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_c_41 : Ref sig .tc := ⟨.hbm, 222, rfl⟩
abbrev main_v165 : Ref sig .tc := ⟨.hbm, 223, rfl⟩
abbrev main_v166 : Ref sig .tc := ⟨.hbm, 224, rfl⟩
abbrev main_c_42 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_cst_43 : Ref sig .tc := ⟨.hbm, 234, rfl⟩
abbrev main_v175 : Ref sig .tc := ⟨.hbm, 235, rfl⟩
abbrev main_c_44 : Ref sig .tc := ⟨.hbm, 236, rfl⟩
abbrev main_v176 : Ref sig .tc := ⟨.hbm, 237, rfl⟩
abbrev main_v177 : Ref sig .tc := ⟨.hbm, 238, rfl⟩
abbrev main_c_45 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_cst_46 : Ref sig .tc := ⟨.hbm, 245, rfl⟩
abbrev main_v183 : Ref sig .tc := ⟨.hbm, 246, rfl⟩
abbrev main_v184 : Ref sig .tc := ⟨.hbm, 247, rfl⟩
abbrev main_cst_47 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_c_48 : Ref sig .tc := ⟨.hbm, 252, rfl⟩
abbrev main_v188 : Ref sig .tc := ⟨.hbm, 253, rfl⟩
abbrev main_v189 : Ref sig .tc := ⟨.hbm, 254, rfl⟩
abbrev main_c_49 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_cst_50 : Ref sig .tc := ⟨.hbm, 264, rfl⟩
abbrev main_v198 : Ref sig .tc := ⟨.hbm, 265, rfl⟩
abbrev main_c_51 : Ref sig .tc := ⟨.hbm, 266, rfl⟩
abbrev main_v199 : Ref sig .tc := ⟨.hbm, 267, rfl⟩
abbrev main_v200 : Ref sig .tc := ⟨.hbm, 268, rfl⟩
abbrev main_c_52 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_v205 : Ref sig .tc := ⟨.hbm, 274, rfl⟩
abbrev main_cst_53 : Ref sig .tc := ⟨.hbm, 275, rfl⟩
abbrev main_v206 : Ref sig .tc := ⟨.hbm, 276, rfl⟩
abbrev main_v207 : Ref sig .tc := ⟨.hbm, 277, rfl⟩
abbrev main_cst_54 : Ref sig .tc := ⟨.hbm, 278, rfl⟩
abbrev main_v208 : Ref sig .tc := ⟨.hbm, 279, rfl⟩
abbrev main_v209 : Ref sig .tc := ⟨.hbm, 280, rfl⟩
abbrev main_v210 : Ref sig .tc := ⟨.hbm, 281, rfl⟩
abbrev main_c_55 : Ref sig .tc := ⟨.hbm, 282, rfl⟩
abbrev main_v211 : Ref sig .tc := ⟨.hbm, 283, rfl⟩
abbrev main_v212 : Ref sig .tc := ⟨.hbm, 284, rfl⟩
abbrev main_c_56 : Ref sig .tc := ⟨.hbm, 285, rfl⟩
abbrev main_v213 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_v219 : Ref sig .tc := ⟨.hbm, 292, rfl⟩
abbrev main_v220 : Ref sig .tc := ⟨.hbm, 293, rfl⟩
abbrev main_cst_57 : Ref sig .tc := ⟨.hbm, 294, rfl⟩
abbrev main_v221 : Ref sig .tc := ⟨.hbm, 295, rfl⟩
abbrev main_c_58 : Ref sig .tc := ⟨.hbm, 296, rfl⟩
abbrev main_v222 : Ref sig .tc := ⟨.hbm, 297, rfl⟩
abbrev main_v223 : Ref sig .tc := ⟨.hbm, 298, rfl⟩
abbrev main_c_59 : Ref sig .tc := ⟨.hbm, 299, rfl⟩
abbrev main_v224 : Ref sig .tc := ⟨.hbm, 300, rfl⟩
abbrev main_v225 : Ref sig .tc := ⟨.hbm, 301, rfl⟩
abbrev main_v226 : Ref sig .tc := ⟨.hbm, 302, rfl⟩
abbrev main_v227 : Ref sig .tc := ⟨.hbm, 303, rfl⟩
abbrev main_v228 : Ref sig .tc := ⟨.hbm, 304, rfl⟩
abbrev main_cst_60 : Ref sig .tc := ⟨.hbm, 305, rfl⟩
abbrev main_v229 : Ref sig .tc := ⟨.hbm, 306, rfl⟩
abbrev main_v230 : Ref sig .tc := ⟨.hbm, 307, rfl⟩
abbrev main_cst_61 : Ref sig .tc := ⟨.hbm, 308, rfl⟩
abbrev main_v231 : Ref sig .tc := ⟨.hbm, 309, rfl⟩
abbrev main_v232 : Ref sig .tc := ⟨.hbm, 310, rfl⟩
abbrev main_v233 : Ref sig .tc := ⟨.hbm, 311, rfl⟩
abbrev main_c_62 : Ref sig .tc := ⟨.hbm, 312, rfl⟩
abbrev main_v234 : Ref sig .tc := ⟨.hbm, 313, rfl⟩
abbrev main_v235 : Ref sig .tc := ⟨.hbm, 314, rfl⟩
abbrev main_c_63 : Ref sig .tc := ⟨.hbm, 315, rfl⟩
abbrev main_v236 : Ref sig .tc := ⟨.hbm, 316, rfl⟩
abbrev main_v237 : Ref sig .tc := ⟨.hbm, 317, rfl⟩
abbrev main_v238 : Ref sig .tc := ⟨.hbm, 318, rfl⟩
abbrev main_v239 : Ref sig .tc := ⟨.hbm, 319, rfl⟩
abbrev main_v240 : Ref sig .tc := ⟨.hbm, 320, rfl⟩
abbrev main_v241 : Ref sig .tc := ⟨.hbm, 321, rfl⟩
abbrev main_v242 : Ref sig .tc := ⟨.hbm, 322, rfl⟩
abbrev main_v243 : Ref sig .tc := ⟨.hbm, 323, rfl⟩
abbrev main_cst_64 : Ref sig .tc := ⟨.hbm, 324, rfl⟩
abbrev main_v244 : Ref sig .tc := ⟨.hbm, 325, rfl⟩
abbrev main_c_65 : Ref sig .tc := ⟨.hbm, 326, rfl⟩
abbrev main_v245 : Ref sig .tc := ⟨.hbm, 327, rfl⟩
abbrev main_v246 : Ref sig .tc := ⟨.hbm, 328, rfl⟩
abbrev main_c_66 : Ref sig .tc := ⟨.hbm, 329, rfl⟩
abbrev main_v247 : Ref sig .tc := ⟨.hbm, 330, rfl⟩
abbrev main_v248 : Ref sig .tc := ⟨.hbm, 331, rfl⟩
abbrev main_v249 : Ref sig .tc := ⟨.hbm, 332, rfl⟩
abbrev main_v250 : Ref sig .tc := ⟨.hbm, 333, rfl⟩
abbrev main_v251 : Ref sig .tc := ⟨.hbm, 334, rfl⟩
abbrev main_cst_67 : Ref sig .tc := ⟨.hbm, 335, rfl⟩
abbrev main_v252 : Ref sig .tc := ⟨.hbm, 336, rfl⟩
abbrev main_v253 : Ref sig .tc := ⟨.hbm, 337, rfl⟩
abbrev main_cst_68 : Ref sig .tc := ⟨.hbm, 338, rfl⟩
abbrev main_v254 : Ref sig .tc := ⟨.hbm, 339, rfl⟩
abbrev main_v255 : Ref sig .tc := ⟨.hbm, 340, rfl⟩
abbrev main_v256 : Ref sig .tc := ⟨.hbm, 341, rfl⟩
abbrev main_c_69 : Ref sig .tc := ⟨.hbm, 342, rfl⟩
abbrev main_v257 : Ref sig .tc := ⟨.hbm, 343, rfl⟩
abbrev main_v258 : Ref sig .tc := ⟨.hbm, 344, rfl⟩
abbrev main_c_70 : Ref sig .tc := ⟨.hbm, 345, rfl⟩
abbrev main_v259 : Ref sig .tc := ⟨.hbm, 346, rfl⟩
abbrev main_v260 : Ref sig .tc := ⟨.hbm, 347, rfl⟩
abbrev main_v261 : Ref sig .tc := ⟨.hbm, 348, rfl⟩
abbrev main_v262 : Ref sig .tc := ⟨.hbm, 349, rfl⟩
abbrev main_v263 : Ref sig .tc := ⟨.hbm, 350, rfl⟩
abbrev main_v264 : Ref sig .tc := ⟨.hbm, 351, rfl⟩
abbrev main_v265 : Ref sig .tc := ⟨.hbm, 352, rfl⟩
abbrev main_v266 : Ref sig .tc := ⟨.hbm, 353, rfl⟩
abbrev main_cst_71 : Ref sig .tc := ⟨.hbm, 354, rfl⟩
abbrev main_v267 : Ref sig .tc := ⟨.hbm, 355, rfl⟩
abbrev main_c_72 : Ref sig .tc := ⟨.hbm, 356, rfl⟩
abbrev main_v268 : Ref sig .tc := ⟨.hbm, 357, rfl⟩
abbrev main_v269 : Ref sig .tc := ⟨.hbm, 358, rfl⟩
abbrev main_c_73 : Ref sig .tc := ⟨.hbm, 359, rfl⟩
abbrev main_v270 : Ref sig .tc := ⟨.hbm, 360, rfl⟩
abbrev main_v271 : Ref sig .tc := ⟨.hbm, 361, rfl⟩
abbrev main_v272 : Ref sig .tc := ⟨.hbm, 362, rfl⟩
abbrev main_v273 : Ref sig .tc := ⟨.hbm, 363, rfl⟩
abbrev main_v274 : Ref sig .tc := ⟨.hbm, 364, rfl⟩
abbrev main_cst_74 : Ref sig .tc := ⟨.hbm, 365, rfl⟩
abbrev main_v275 : Ref sig .tc := ⟨.hbm, 366, rfl⟩
abbrev main_v276 : Ref sig .tc := ⟨.hbm, 367, rfl⟩
abbrev main_cst_75 : Ref sig .tc := ⟨.hbm, 368, rfl⟩
abbrev main_v277 : Ref sig .tc := ⟨.hbm, 369, rfl⟩
abbrev main_v278 : Ref sig .tc := ⟨.hbm, 370, rfl⟩
abbrev main_v279 : Ref sig .tc := ⟨.hbm, 371, rfl⟩

abbrev nD : Nat := 1
abbrev τ : Topo := Topo.v7x

variable {F : FTy → Type} [FloatOps F]

class Facts₀ : Prop where
  transposes_S256x500_S500x256_1_0 : S256x500.Transposes [1, 0] S500x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  transposes_S40x128_S128x40_1_0 : S40x128.Transposes [1, 0] S128x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  bcast_S_S100000x40 : S_.BroadcastsInDim S100000x40 (![] : Fin 0 → Fin S100000x40.rank)
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x40_0_1 : S1700000x1.BroadcastsInDim S1700000x40 (![0, 1] : Fin 2 → Fin S1700000x40.rank)
  dot_S100000x500_S500x256_S100000x256_1_0_0_1_n_n_wf : DotDims.WF S100000x500 S500x256 S100000x256 [1] [0] [0] [1] [] []
  dot_S100000x256_S256x128_S100000x128_1_0_0_1_n_n_wf : DotDims.WF S100000x256 S256x128 S100000x128 [1] [0] [0] [1] [] []
  dot_S100000x128_S128x40_S100000x40_1_0_0_1_n_n_wf : DotDims.WF S100000x128 S128x40 S100000x40 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x500_S500x256_S100000x256_1_0_0_1_n_n : DotDims S100000x500 S500x256 S100000x256 where
  lhsContracting := [1]
  rhsContracting := [0]
  lhsNonContracting := [0]
  rhsNonContracting := [1]
  lhsBatch := []
  rhsBatch := []
  wf := dot_S100000x500_S500x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.Spec.lean ====
/-
  The mathematics both programs compute, stated once over plain index functions.

  An encoder of three dense layers, each `max (x · Wᵀ + b) 0`, produces `h₀ : [100000, 40]`. Then ten rounds of
  personalised-PageRank propagation over the 1 700 000 edges (the 1 600 000 given ones and one self loop per node):
  a round gathers the rows of `h` at the edges' source nodes, scales row `e` by the edge's weight `norm e`, adds
  the scaled rows into their destination nodes, and mixes the sum with `h₀`:
  `h ↦ 0.9 · scatter (gather h · norm) + 0.1 · h₀` (the two factors are the f32 words both programs carry).
  The gather and the scatter-add are each ONE function here (`gat`, `sca`): both programs apply the same host
  operation, so nothing below looks inside them.
-/
import Idealize.ShloMosaic.PureOps.Ideal
import Idealize.ShloMosaic.Lib.ValueIdx

noncomputable section

open scoped BigOperators

namespace Cert.Appnp

open Idealize.ShloMosaic Idealize.ShloMosaic.ValueIdx

/-- Node features after the encoder, and every later round's state: one row of 40 per node. -/
abbrev SN40 : Shape := ⟨2, ![100000, 40]⟩
/-- One row of 40 per edge. -/
abbrev SM40 : Shape := ⟨2, ![1700000, 40]⟩
/-- One weight per edge, as a column. -/
abbrev SM1 : Shape := ⟨2, ![1700000, 1]⟩

/-- Row `e` of the gathered messages times edge `e`'s weight. -/
def scaleG (msg : SM40.Idx → EReal) (nrm : SM1.Idx → EReal) : SM40.Idx → EReal :=
  fun i => msg i * nrm (ix2 (i 0) 0)

/-- The teleport mix `0.9 · agg + 0.1 · h₀`, with the two f32 words both programs carry. -/
def combineG (agg h0 : SN40.Idx → EReal) : SN40.Idx → EReal :=
  fun i => Ideal.ofBits .f32 0x3F666666#32 * agg i + Ideal.ofBits .f32 0x3DCCCCCD#32 * h0 i

/-- One propagation round: gather, scale by the edge weights, scatter-add, mix with `h₀`. -/
def stepG (gat : (SN40.Idx → EReal) → (SM40.Idx → EReal)) (sca : (SM40.Idx → EReal) → (SN40.Idx → EReal))
    (nrm : SM1.Idx → EReal) (h0 h : SN40.Idx → EReal) : SN40.Idx → EReal :=
  combineG (sca (scaleG (gat h) nrm)) h0

/-- Ten-fold application: the ten propagation rounds. -/
def iter10 {α : Type} (f : α → α) (x : α) : α := f (f (f (f (f (f (f (f (f (f x)))))))))

/-- One dense layer `max (x · wT + b) 0`: `x : [n, k]`, `wT : [k, o]` (the weight already transposed),
    `b : [1, o]` (the bias as a row). -/
def layerG {n k o : Nat} (x : (⟨2, ![n, k]⟩ : Shape).Idx → EReal) (wT : (⟨2, ![k, o]⟩ : Shape).Idx → EReal)
    (b : (⟨2, ![1, o]⟩ : Shape).Idx → EReal) : (⟨2, ![n, o]⟩ : Shape).Idx → EReal :=
  fun i => max ((∑ κ : Fin k, x (ix2 (i 0) κ) * wT (ix2 κ (i 1))) + b (ix2 0 (i 1))) (Ideal.ofBits .f32 0x00000000#32)

/-- The encoder: three dense layers, 500 → 256 → 128 → 40. -/
def mlpG (x : (⟨2, ![100000, 500]⟩ : Shape).Idx → EReal)
    (w0T : (⟨2, ![500, 256]⟩ : Shape).Idx → EReal) (b0 : (⟨2, ![1, 256]⟩ : Shape).Idx → EReal)
    (w1T : (⟨2, ![256, 128]⟩ : Shape).Idx → EReal) (b1 : (⟨2, ![1, 128]⟩ : Shape).Idx → EReal)
    (w2T : (⟨2, ![128, 40]⟩ : Shape).Idx → EReal) (b2 : (⟨2, ![1, 40]⟩ : Shape).Idx → EReal) : SN40.Idx → EReal :=
  layerG (layerG (layerG x w0T b0) w1T b1) w2T b2

end Cert.Appnp

end
-- ==== Proof.KernelTerms.lean ====
/-
  The kernel program's host-side values, each as one function of the edge list `ei : [2, 1600000]` (and of the
  round's state where it has one), in the host operations' own words.

  `srcV` / `dstV`: the source and destination node of every edge — row 0 / row 1 of `ei`, then one self loop per
  node. `wrapV`: numpy's reading of an index vector (a negative index counts from the end), laid out as the
  column of start indices a gather or scatter takes. `normV`: the symmetric normalisation
  `deg[src]^(-1/2) · deg[dst]^(-1/2)`, `deg` the number of edges arriving at a node; `nrm2V` is that vector as a
  column. `takeV`: the rows of a state at given indices, read the filling way; `gatV`: the rows of a state at the edges' sources; `scaV`: the edge rows added into their destinations.
-/
import proofs.«400473_j77575699301005_1_alg».proof.Proof.Gen.KernelIdeal
import Idealize.ShloMosaic.PureOps.Ideal

noncomputable section

namespace Cert.Appnp.K

open Idealize.ShloMosaic Cert.KernelIdeal Cert.KernelIdeal.Gen

/-- The edges' source nodes: row 0 of the edge list, then every node once (its self loop). -/
def srcV (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

/-- The edges' destination nodes: row 1 of the edge list, then every node once. -/
def dstV (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- An index vector read the numpy way (`v < 0 ↦ v + 100000`), as a column of start indices. -/
def wrapV (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- How many edges arrive at each node. -/
def degV (ei : IVec S2x1600000 32) : FVec Ideal S100000 .f32 :=
  Host.scatterAdd scatter_S100000_S1700000x1_S1700000_n_0_0_1
    (broadcastInDim S100000 ![] bcast_S_S100000 (constant S_ .f32 0x00000000#32)) (wrapV (dstV ei))
    (broadcastInDim S1700000 ![] bcast_S_S1700000 (constant S_ .f32 0x3F800000#32))

/-- Every edge's weight `deg[src]^(-1/2) · deg[dst]^(-1/2)`. -/
def normV (ei : IVec S2x1600000 32) : FVec Ideal S1700000 .f32 :=
  mulf (Host.gather gather_S100000_S1700000x1_S1700000_n_0_n_n_0_1_1 (Host.rsqrt (degV ei)) (wrapV (srcV ei)))
    (Host.gather gather_S100000_S1700000x1_S1700000_n_0_n_n_0_1_1 (Host.rsqrt (degV ei)) (wrapV (dstV ei)))

/-- The weights as a column, as the scaling kernel takes them. -/
def nrm2V (ei : IVec S2x1600000 32) : FVec Ideal S1700000x1 .f32 :=
  shapeCast S1700000x1 (normV ei) shapeCasts_S1700000_S1700000x1

/-- The rows of a state at the edges' sources. -/
def gatV (ei : IVec S2x1600000 32) (h : FVec Ideal S100000x40 .f32) : FVec Ideal S1700000x40 .f32 :=
  Host.gather gather_S100000x40_S1700000x1_S1700000x40_1_0_n_n_0_1_140 h (wrapV (srcV ei))

/-- The edge rows added into their destination nodes, from zero. -/
def scaV (ei : IVec S2x1600000 32) (u : FVec Ideal S1700000x40 .f32) : FVec Ideal S100000x40 .f32 :=
  Host.scatterAdd scatter_S100000x40_S1700000x1_S1700000x40_1_0_0_1
    (broadcastInDim S100000x40 ![] bcast_S_S100000x40 (constant S_ .f32 0x00000000#32)) (wrapV (dstV ei)) u

/-- A node index as numpy admits it on an axis of extent 100000: `-100000 ≤ w < 100000` as a signed word. -/
def InRange (w : BitVec 32) : Prop := -100000 ≤ w.toInt ∧ w.toInt < 100000

/-- The rows of a state at the indices `v`, read the filling way: where the wrapped index is inside
    `0 … 99999` the row there, elsewhere the not-a-number word. -/
def takeV (v : IVec S1700000 32) (h : FVec Ideal S100000x40 .f32) : FVec Ideal S1700000x40 .f32 :=
  select
    (broadcastInDim S1700000x40 ![0] bcast_S1700000_S1700000x40_0
      (Host.reduce IntOp.andi
        (andi (cmpi .sge (wrapV v) (broadcastInDim S1700000x1 ![] bcast_S_S1700000x1 (constantI S_ 32 0#32)))
          (cmpi .sle (wrapV v) (broadcastInDim S1700000x1 ![0, 1] bcast_S1x1_S1700000x1_0_1
            (broadcastInDim S1x1 ![1] bcast_S1_S1x1_1 (constantI S1 32 99999#32)))))
        (constantI S_ 1 1#1) reducesTo_S1700000x1_S1700000_d1 h_S_))
    (Host.gather gather_S100000x40_S1700000x1_S1700000x40_1_0_n_n_0_1_140 h (wrapV v))
    (broadcastInDim S1700000x40 ![] bcast_S_S1700000x40 (constant S_ .f32 0x7FC00000#32))

end Cert.Appnp.K

end
-- ==== Proof.HostBase.lean ====
/-
  The host operations before the first propagation round, over ANY contents `W` of the buffers: the stretch before
  the encoder region transposes the three weights and lays each bias out as a row, leaving the node features and
  the edge list alone; the stretch after it computes, from the edge list, the source and destination indices and
  the weight column, and does not write the encoder's output.
-/
import proofs.«400473_j77575699301005_1_alg».proof.Proof.Gen.KernelIdeal.Launch
import proofs.«400473_j77575699301005_1_alg».proof.Proof.KernelTerms
import Idealize.ShloMosaic.Lib.StableHlo.Run

set_option maxRecDepth 16384

noncomputable section

namespace Cert.Appnp.HostBase

open Idealize.ShloMosaic Idealize.ShloMosaic.TcCoe Idealize.ShloMosaic.StableHlo Cert.KernelIdeal Cert.KernelIdeal.Gen Cert.Appnp

/-! ## Before the encoder -/

theorem w0T (W : Valuation τ sig (Elt Ideal)) :
    StableHlo.after hostOps0 W (Proc.devRef .tc main_v0)
      = transpose S500x256 [1, 0] (W (Proc.devRef .tc main_arg2)) transposes_S256x500_S500x256_1_0 := by
  after_results_simp
theorem w1T (W : Valuation τ sig (Elt Ideal)) :
    StableHlo.after hostOps0 W (Proc.devRef .tc main_v1)
      = transpose S256x128 [1, 0] (W (Proc.devRef .tc main_arg4)) transposes_S128x256_S256x128_1_0 := by
  after_results_simp
theorem w2T (W : Valuation τ sig (Elt Ideal)) :
    StableHlo.after hostOps0 W (Proc.devRef .tc main_v2)
      = transpose S128x40 [1, 0] (W (Proc.devRef .tc main_arg6)) transposes_S40x128_S128x40_1_0 := by
  after_results_simp
theorem b0row (W : Valuation τ sig (Elt Ideal)) :
    StableHlo.after hostOps0 W (Proc.devRef .tc main_v3)
      = shapeCast S1x256 (W (Proc.devRef .tc main_arg3)) shapeCasts_S256_S1x256 := by
  after_results_simp
  rfl
theorem b1row (W : Valuation τ sig (Elt Ideal)) :
    StableHlo.after hostOps0 W (Proc.devRef .tc main_v4)
      = shapeCast S1x128 (W (Proc.devRef .tc main_arg5)) shapeCasts_S128_S1x128 := by
  after_results_simp
  rfl
theorem b2row (W : Valuation τ sig (Elt Ideal)) :
    StableHlo.after hostOps0 W (Proc.devRef .tc main_v5)
      = shapeCast S1x40 (W (Proc.devRef .tc main_arg7)) shapeCasts_S40_S1x40 := by
  after_results_simp
  rfl
theorem keep0_arg0 (W : Valuation τ sig (Elt Ideal)) :
    StableHlo.after hostOps0 W (Proc.devRef .tc main_arg0) = W (Proc.devRef .tc main_arg0) := by
  after_results_simp
theorem keep0_arg1 (W : Valuation τ sig (Elt Ideal)) :
    StableHlo.after hostOps0 W (Proc.devRef .tc main_arg1) = W (Proc.devRef .tc main_arg1) := by
  after_results_simp

/-! ## Between the encoder and the first round -/

theorem src (W : Valuation τ sig (Elt Ideal)) :
    StableHlo.after hostOps1 W (Proc.devRef .tc main_v10) = K.srcV (W (Proc.devRef .tc main_arg1)) := by
  after_results_simp
  rfl
theorem dst (W : Valuation τ sig (Elt Ideal)) :
    StableHlo.after hostOps1 W (Proc.devRef .tc main_v13) = K.dstV (W (Proc.devRef .tc main_arg1)) := by
  after_results_simp
  rfl
theorem nrm2 (W : Valuation τ sig (Elt Ideal)) :
    StableHlo.after hostOps1 W (Proc.devRef .tc main_v39) = K.nrm2V (W (Proc.devRef .tc main_arg1)) := by
  after_results_simp
  rfl
theorem keep1_h0 (W : Valuation τ sig (Elt Ideal)) :
    StableHlo.after hostOps1 W (Proc.devRef .tc main_v6) = W (Proc.devRef .tc main_v6) := by
  after_results_simp

end Cert.Appnp.HostBase

end
-- ==== Proof.LibPlainMatmul.lean ====
/-
  The product of an M × K matrix by a K × N matrix read at one element, for the vector unit's product accumulated into
  a zero matrix: row e, column j is the sum over k of the left matrix at (e, k) times the right matrix at (k, j). At
  the ideal values.
-/
import Idealize.ShloMosaic.PureOps.Ideal.Laws
import Idealize.ShloMosaic.Lib.ValueIdx
import Idealize.ShloMosaic.Lib.KernelVsHost
import Idealize.ShloMosaic.Lib.StackMember

noncomputable section

open Idealize.ShloMosaic Idealize.ShloMosaic.ValueIdx

namespace Cert.LibPlainMatmul

/-- The product accumulated into a zero matrix, at row e and column j. -/
theorem matmul_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    matmul (DotDims.plain M K N) prec l r (constant (⟨2, ![M, N]⟩ : Shape) .f32 0x00000000#32) (ix2 e j)
      = ∑ k : Fin K, l (ix2 e k) * r (ix2 k j) := by
  rw [matmul_zero_eq_dotGeneral]
  exact StackMember.dotGeneral_plain_apply prec l r e j

/-- The host's product, at row e and column j. -/
theorem dotGeneral_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    Host.dotGeneral (DotDims.plain M K N) prec l r (ix2 e j) = ∑ k : Fin K, l (ix2 e k) * r (ix2 k j) :=
  StackMember.dotGeneral_plain_apply prec l r e j

end Cert.LibPlainMatmul

end
-- ==== Proof.RegionMlp0Pay.lean ====
/-
  The encoder's block computation in closed form. The body multiplies its block of 2000 input rows by the first
  transposed weight matrix (the product accumulated into a zero matrix; the narrowing of the operands to a shorter
  format changes nothing on the extended reals), adds the bias row to every row and clips below at zero; it does the
  same twice more with the second and third weights. Read at row e and column j, a layer is
  max (∑ κ, x (e, κ) · wT (κ, j) + b (0, j)) 0, which is the specification's dense layer at 2000 rows.
-/
import proofs.«400473_j77575699301005_1_alg».proof.Proof.Gen.KernelIdeal.Skeleton
import proofs.«400473_j77575699301005_1_alg».proof.Proof.Spec
import proofs.«400473_j77575699301005_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Appnp.Mlp0
open Idealize.ShloMosaic Idealize.ShloMosaic.ValueIdx Idealize.ShloMosaic.Pipeline Cert.KernelIdeal Cert.KernelIdeal.Gen Cert.Appnp

/-- The three products contract the left operand's columns against the right operand's rows: 2000 × 500 by 500 × 256, -/
theorem dims_500_256 : dot_S2000x500_S500x256_S2000x256_1_0_0_1_n_n = DotDims.plain 2000 500 256 := rfl
/-- 2000 × 256 by 256 × 128, -/
theorem dims_256_128 : dot_S2000x256_S256x128_S2000x128_1_0_0_1_n_n = DotDims.plain 2000 256 128 := rfl
/-- and 2000 × 128 by 128 × 40. -/
theorem dims_128_40 : dot_S2000x128_S128x40_S2000x40_1_0_0_1_n_n = DotDims.plain 2000 128 40 := rfl

/-- One dense layer as the body writes it — the product of the narrowed operands accumulated into a zero matrix, plus
    the bias row repeated on every row, clipped below at zero — is the specification's layer: at row p and column q
    both are max (∑ κ, x (p, κ) · w (κ, q) + b (0, q)) 0. -/
theorem layer_eq {n k o : ℕ} (D : DotDims ⟨2, ![n, k]⟩ ⟨2, ![k, o]⟩ ⟨2, ![n, o]⟩) (hD : D = DotDims.plain n k o)
    (x : FVec Ideal ⟨2, ![n, k]⟩ .f32) (w : FVec Ideal ⟨2, ![k, o]⟩ .f32) (b : FVec Ideal ⟨2, ![1, o]⟩ .f32)
    (hb : FTy.bits .bf16 < FTy.bits .f32)
    (hw : (⟨2, ![k, o]⟩ : Shape).ShapeCasts ⟨2, ![k, o]⟩) (hbs : (⟨2, ![1, o]⟩ : Shape).ShapeCasts ⟨2, ![1, o]⟩)
    (hbr : (⟨2, ![1, o]⟩ : Shape).Broadcasts ⟨2, ![n, o]⟩) :
    maximumf (addf (matmul D none (truncf .bf16 x hb) (truncf .bf16 (shapeCast ⟨2, ![k, o]⟩ w hw) hb) (constant (F := Ideal) ⟨2, ![n, o]⟩ .f32 0x00000000#32))
        (broadcastTo ⟨2, ![n, o]⟩ (shapeCast ⟨2, ![1, o]⟩ b hbs) hbr))
      (broadcast ⟨2, ![n, o]⟩ (Scalar.ofBits (F := Ideal) .f32 0x00000000#32)) = layerG x w b := by
  subst hD
  funext i
  obtain ⟨p, q, rfl⟩ : ∃ (p : Fin n) (q : Fin o), i = ix2 p q := ⟨i 0, i 1, eq_ix2 i⟩
  rw [maximumf_apply, addf_apply, broadcast_apply, Cert.LibPlainMatmul.matmul_plain_apply, shapeCast_self, shapeCast_self,
    broadcastTo_1b_ab_apply]
  rfl

/-- The body's payload is three dense layers of its loaded blocks (Spec.lean's layerG at n = 2000). -/
theorem pay_eq (x : Vec Ideal S2000x500 .f32) (w0 : Vec Ideal S500x256 .f32) (b0 : Vec Ideal S1x256 .f32) (w1 : Vec Ideal S256x128 .f32) (b1 : Vec Ideal S1x128 .f32) (w2 : Vec Ideal S128x40 .f32) (b2 : Vec Ideal S1x40 .f32) :
    k0_pay1 (F := Ideal) x w0 b0 w1 b1 w2 b2 = layerG (layerG (layerG x w0 b0) w1 b1) w2 b2 := by
  unfold k0_pay1
  have e1 := layer_eq _ dims_500_256 x w0 b0 bitsLt_bf16_f32 shapeCasts_S500x256_S500x256 shapeCasts_S1x256_S1x256
    broadcasts_S1x256_S2000x256
  have e2 := layer_eq _ dims_256_128 (layerG x w0 b0) w1 b1 bitsLt_bf16_f32 shapeCasts_S256x128_S256x128
    shapeCasts_S1x128_S1x128 broadcasts_S1x128_S2000x128
  have e3 := layer_eq _ dims_128_40 (layerG (layerG x w0 b0) w1 b1) w2 b2 bitsLt_bf16_f32 shapeCasts_S128x40_S128x40
    shapeCasts_S1x40_S1x40 broadcasts_S1x40_S2000x40
  dsimp only
  rw [e1, e2, e3]

end Cert.Appnp.Mlp0

end
-- ==== Proof.RegionMlp0.lean ====
/-
  The encoder region in closed form. The region walks the 100000 input rows in 50 blocks of 2000 rows; at block t
  the body reads rows 2000·t … 2000·t + 1999 of the input, all of every weight matrix and bias row, and writes rows
  2000·t … 2000·t + 1999 of the output. A dense layer's row depends on its input only through the same row, so the
  block computation at block row r is the whole-array computation at row 2000·t + r; the 50 blocks tile the output,
  so after the region the output array is the three-layer encoder of the arrays found at the region's entry.
-/
import proofs.«400473_j77575699301005_1_alg».proof.Proof.Gen.KernelIdeal.Frame
import proofs.«400473_j77575699301005_1_alg».proof.Proof.Spec
import proofs.«400473_j77575699301005_1_alg».proof.Proof.LibPlainMatmul
import proofs.«400473_j77575699301005_1_alg».proof.Proof.RegionMlp0Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Appnp.Mlp0
open Idealize.ShloMosaic Idealize.ShloMosaic.TcCoe Idealize.ShloMosaic.ValueIdx Idealize.ShloMosaic.Pipeline Cert.KernelIdeal Cert.KernelIdeal.Gen Cert.Appnp
variable (V : (c : Dev nD) → (b : Ref sig .tc) → Buf (Elt Ideal) ((c : Thread nD τ).loc b))

/-! ## A layer's row depends on its input's same row only -/

/-- Two inputs, possibly of different heights, that agree on row (j 0) of the one and row (i 0) of the other give the
    same layer entry at j and at i when the columns agree. -/
theorem layerG_congr {n n' k o : ℕ} (x : (⟨2, ![n, k]⟩ : Shape).Idx → EReal) (x' : (⟨2, ![n', k]⟩ : Shape).Idx → EReal)
    (w : (⟨2, ![k, o]⟩ : Shape).Idx → EReal) (b : (⟨2, ![1, o]⟩ : Shape).Idx → EReal)
    (j : (⟨2, ![n, o]⟩ : Shape).Idx) (i : (⟨2, ![n', o]⟩ : Shape).Idx)
    (hx : ∀ κ : Fin k, x (ix2 (j 0) κ) = x' (ix2 (i 0) κ)) (hq : j 1 = i 1) : layerG x w b j = layerG x' w b i := by
  simp only [layerG, hx, hq]

/-- The same for the three layers in a row, with the weights and biases replaced by equal ones. -/
theorem mlp_congr {n n' : ℕ} (x : (⟨2, ![n, 500]⟩ : Shape).Idx → EReal) (x' : (⟨2, ![n', 500]⟩ : Shape).Idx → EReal)
    (w0 w0' : (⟨2, ![500, 256]⟩ : Shape).Idx → EReal) (b0 b0' : (⟨2, ![1, 256]⟩ : Shape).Idx → EReal)
    (w1 w1' : (⟨2, ![256, 128]⟩ : Shape).Idx → EReal) (b1 b1' : (⟨2, ![1, 128]⟩ : Shape).Idx → EReal)
    (w2 w2' : (⟨2, ![128, 40]⟩ : Shape).Idx → EReal) (b2 b2' : (⟨2, ![1, 40]⟩ : Shape).Idx → EReal)
    (j : (⟨2, ![n, 40]⟩ : Shape).Idx) (i : (⟨2, ![n', 40]⟩ : Shape).Idx)
    (hw0 : w0 = w0') (hb0 : b0 = b0') (hw1 : w1 = w1') (hb1 : b1 = b1') (hw2 : w2 = w2') (hb2 : b2 = b2')
    (hx : ∀ κ : Fin 500, x (ix2 (j 0) κ) = x' (ix2 (i 0) κ)) (hq : j 1 = i 1) :
    layerG (layerG (layerG x w0 b0) w1 b1) w2 b2 j = layerG (layerG (layerG x' w0' b0') w1' b1') w2' b2' i := by
  subst hw0 hb0 hw1 hb1 hw2 hb2
  exact layerG_congr _ _ _ _ j i (fun κ => layerG_congr _ _ _ _ (ix2 (j 0) κ) (ix2 (i 0) κ)
    (fun κ' => layerG_congr _ _ _ _ (ix2 (j 0) κ') (ix2 (i 0) κ') hx rfl) rfl) hq

/-! ## The blocks -/

theorem hz : (![0, 0] : Fin 2 → Nat) = fun _ => 0 := funext fun a => by fin_cases a <;> rfl

/-- The printed index maps, decided over the 50 points: the input's block moves with the output's down the rows and
    stays at column block 0; each weight and bias window stays at block (0, 0); the output's block row is below 50. -/
theorem idx_facts : ∀ t : Fin cfg0.N, win0_0.index t (0 : Fin 2) = win0_7.index t (0 : Fin 2)
    ∧ win0_0.index t (1 : Fin 2) = 0
    ∧ win0_7.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) ≤ 49 :=
  (by decide +kernel : ∀ t : Fin grid0.N, _)

/-- Every one of the 50 block rows is some point's. -/
theorem idx_onto : ∀ q0 : Fin 50, ∃ t : Fin cfg0.N, win0_7.index t = ![q0.val, 0] :=
  (by decide +kernel : ∀ q0 : Fin 50, ∃ t : Fin grid0.N, win0_7.index t = ![q0.val, 0])

/-- Window 1 is one block, the whole array, at every point. -/
theorem whole_1 (c : Dev nD) (t : Fin cfg0.N) : (iblk0 (F := Ideal) V c 1 t : S500x256.Idx → EReal) = V c (Pipeline.arrRef spec0 1) := by
  obtain ⟨-, -, -, e0, e1, -, -, -, -, -, -, -, -, -, -⟩ := idx_facts t
  funext y
  show V c (Pipeline.arrRef spec0 1) (((cfg0.win 1).blk t).view.emb y) = V c (Pipeline.arrRef spec0 1) y
  refine congrArg _ (funext fun a => Fin.ext ?_)
  match a with
  | ⟨0, _⟩ => show win0_1.index t (0 : Fin 2) * 500 + 1 * (y 0).val = (y 0).val; omega
  | ⟨1, _⟩ => show win0_1.index t (1 : Fin 2) * 256 + 1 * (y 1).val = (y 1).val; omega

/-- Window 2 is one block, the whole array, at every point. -/
theorem whole_2 (c : Dev nD) (t : Fin cfg0.N) : (iblk0 (F := Ideal) V c 2 t : S1x256.Idx → EReal) = V c (Pipeline.arrRef spec0 2) := by
  obtain ⟨-, -, -, -, -, e0, e1, -, -, -, -, -, -, -, -⟩ := idx_facts t
  funext y
  show V c (Pipeline.arrRef spec0 2) (((cfg0.win 2).blk t).view.emb y) = V c (Pipeline.arrRef spec0 2) y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- Window 3 is one block, the whole array, at every point. -/
theorem whole_3 (c : Dev nD) (t : Fin cfg0.N) : (iblk0 (F := Ideal) V c 3 t : S256x128.Idx → EReal) = V c (Pipeline.arrRef spec0 3) := by
  obtain ⟨-, -, -, -, -, -, -, e0, e1, -, -, -, -, -, -⟩ := idx_facts t
  funext y
  show V c (Pipeline.arrRef spec0 3) (((cfg0.win 3).blk t).view.emb y) = V c (Pipeline.arrRef spec0 3) y
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 128 + 1 * (y 1).val = (y 1).val; omega

/-- Window 4 is one block, the whole array, at every point. -/
theorem whole_4 (c : Dev nD) (t : Fin cfg0.N) : (iblk0 (F := Ideal) V c 4 t : S1x128.Idx → EReal) = V c (Pipeline.arrRef spec0 4) := by
  obtain ⟨-, -, -, -, -, -, -, -, -, e0, e1, -, -, -, -⟩ := idx_facts t
  funext y
  show V c (Pipeline.arrRef spec0 4) (((cfg0.win 4).blk t).view.emb y) = V c (Pipeline.arrRef spec0 4) y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Window 5 is one block, the whole array, at every point. -/
theorem whole_5 (c : Dev nD) (t : Fin cfg0.N) : (iblk0 (F := Ideal) V c 5 t : S128x40.Idx → EReal) = V c (Pipeline.arrRef spec0 5) := by
  obtain ⟨-, -, -, -, -, -, -, -, -, -, -, e0, e1, -, -⟩ := idx_facts t
  funext y
  show V c (Pipeline.arrRef spec0 5) (((cfg0.win 5).blk t).view.emb y) = V c (Pipeline.arrRef spec0 5) y
  refine congrArg _ (funext fun a => Fin.ext ?_)
  match a with
  | ⟨0, _⟩ => show win0_5.index t (0 : Fin 2) * 128 + 1 * (y 0).val = (y 0).val; omega
  | ⟨1, _⟩ => show win0_5.index t (1 : Fin 2) * 40 + 1 * (y 1).val = (y 1).val; omega

/-- Window 6 is one block, the whole array, at every point. -/
theorem whole_6 (c : Dev nD) (t : Fin cfg0.N) : (iblk0 (F := Ideal) V c 6 t : S1x40.Idx → EReal) = V c (Pipeline.arrRef spec0 6) := by
  obtain ⟨-, -, -, -, -, -, -, -, -, -, -, -, -, e0, e1⟩ := idx_facts t
  funext y
  show V c (Pipeline.arrRef spec0 6) (((cfg0.win 6).blk t).view.emb y) = V c (Pipeline.arrRef spec0 6) y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 40 + 1 * (y 1).val = (y 1).val; omega

/-- Row r of the input's block at point t is row 2000·(block row) + r of the input array. -/
theorem xblk_row (c : Dev nD) (t : Fin cfg0.N) (j : S2000x40.Idx) (κ : Fin 500) :
    (iblk0 (F := Ideal) V c 0 t : S2000x500.Idx → EReal) (ix2 (j 0) κ)
      = V c (Pipeline.arrRef spec0 0) (ix2 ((((cfg0.win 7).blk t).view.emb j) 0) κ) := by
  obtain ⟨e0, e1, -⟩ := idx_facts t
  show V c (Pipeline.arrRef spec0 0) (((cfg0.win 0).blk t).view.emb (ix2 (j 0) κ)) = _
  refine congrArg _ (funext fun a => Fin.ext ?_)
  match a with
  | ⟨0, _⟩ => show win0_0.index t (0 : Fin 2) * 2000 + 1 * (j 0).val = win0_7.index t (0 : Fin 2) * 2000 + 1 * (j 0).val; omega
  | ⟨1, _⟩ => show win0_0.index t (1 : Fin 2) * 500 + 1 * κ.val = κ.val; omega

/-- WHAT POINT t WRITES BACK is block t of the encoder of the arrays as the region finds them. -/
theorem flushed_eq (c : Dev nD) (t : Fin cfg0.N) :
    (dat0 (F := Ideal) V c).flushed 7 t = ((cfg0.win 7).blk t).view.read (Elt Ideal)
      (mlpG (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))) := by
  show (cfg0.win 7).cut (grid0.coords t) ((dat0 V c).after 7 t) = _
  rw [after0_7]
  unfold out0_7
  rw [View.canon_unit_zero hz]
  simp only [View.ld_unit_zero (S := S2000x500) hz, View.ld_unit_zero (S := S500x256) hz, View.ld_unit_zero (S := S1x256) hz,
    View.ld_unit_zero (S := S256x128) hz, View.ld_unit_zero (S := S1x128) hz, View.ld_unit_zero (S := S128x40) hz,
    View.ld_unit_zero (S := S1x40) hz]
  rw [pay_eq]
  funext j
  show layerG (layerG (layerG (iblk0 V c 0 t) (iblk0 V c 1 t) (iblk0 V c 2 t)) (iblk0 V c 3 t) (iblk0 V c 4 t)) (iblk0 V c 5 t) (iblk0 V c 6 t) j
    = mlpG (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (((cfg0.win 7).blk t).view.emb j)
  unfold mlpG
  refine mlp_congr _ _ _ _ _ _ _ _ _ _ _ _ _ _ j _ (whole_1 V c t) (whole_2 V c t) (whole_3 V c t) (whole_4 V c t) (whole_5 V c t)
    (whole_6 V c t) (fun κ => xblk_row V c t j κ) (Fin.ext ?_)
  obtain ⟨-, -, e2, -⟩ := idx_facts t
  show (j 1).val = win0_7.index t (1 : Fin 2) * 40 + 1 * (j 1).val
  omega

/-- An index of the output array is in point t's block iff each coordinate is in the block's range on its axis. -/
theorem mem_blk (t : Fin cfg0.N) (i : S100000x40.Idx) :
    i ∈ ((cfg0.win 7).blk t).view.set ↔ ∀ a : Fin 2, win0_7.index t a * S2000x40.size a ≤ (i a).val ∧ (i a).val < win0_7.index t a * S2000x40.size a + S2000x40.size a := by
  show i ∈ ((View.whole main_v6).slice (win0_7.rect t)).set ↔ _
  rw [View.set_slice_whole, Rect.mem_set_unit]
  exact Iff.rfl

/-- The 50 blocks tile the output: row r is in the block of the point whose block row is r / 2000. -/
theorem cover (i : S100000x40.Idx) : ∃ t : Fin cfg0.N, (cfg0.win 7).flush t = true ∧ i ∈ ((cfg0.win 7).blk t).view.set := by
  have hi0 : (i 0).val < 100000 := (i 0).isLt
  have hi1 : (i 1).val < 40 := (i 1).isLt
  obtain ⟨t, ht⟩ := idx_onto ⟨(i 0).val / 2000, by omega⟩
  have q0 : win0_7.index t (0 : Fin 2) = (i 0).val / 2000 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 40 ≤ (i 1).val ∧ (i 1).val < win0_7.index t (1 : Fin 2) * 40 + 40; omega

/-- The encoder's output array after the region. -/
theorem final (c : Dev nD) :
    (dat0 (F := Ideal) V c).arrAt 7 cfg0.N =
      mlpG (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) :=
  (dat0 V c).arrAt_eq_of_cover 7 (mlpG (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))) (fun t _ => flushed_eq V c t) cover

end Cert.Appnp.Mlp0

end
-- ==== Proof.KernelBase.lean ====
/-
  The buffers' contents before the first propagation round, as functions of the launch memory. The host
  operations before the encoder transpose the three weights and lay each bias out as a row; the encoder region
  leaves, in its output array, three dense layers of the node features over those; the host operations after it
  compute from the edge list the sources, the destinations and the weight column, and leave the encoder's output
  alone. Nothing on the way writes the node features or the edge list.
-/
import proofs.«400473_j77575699301005_1_alg».proof.Proof.Gen.KernelIdeal.Frame
import proofs.«400473_j77575699301005_1_alg».proof.Proof.Spec
import proofs.«400473_j77575699301005_1_alg».proof.Proof.KernelTerms
import proofs.«400473_j77575699301005_1_alg».proof.Proof.HostBase
import proofs.«400473_j77575699301005_1_alg».proof.Proof.RegionMlp0

set_option maxRecDepth 16384

noncomputable section

namespace Cert.Appnp
open Idealize.ShloMosaic Idealize.ShloMosaic.TcCoe Cert.KernelIdeal Cert.KernelIdeal.Gen
variable (m : (ℓ : Loc nD τ sig) → Buf (Elt Ideal) ℓ) (ρ : Dev nD → PrngReg)

/-- The encoder's output as a function of the launch memory: three dense layers over the transposed weights and the biases laid out as rows. -/
def H0K (c : Dev nD) : FVec Ideal S100000x40 .f32 :=
  mlpG (m ((c.tc : Thread nD τ).loc main_arg0))
    (transpose S500x256 [1, 0] (m ((c.tc : Thread nD τ).loc main_arg2)) transposes_S256x500_S500x256_1_0) (shapeCast S1x256 (m ((c.tc : Thread nD τ).loc main_arg3)) shapeCasts_S256_S1x256)
    (transpose S256x128 [1, 0] (m ((c.tc : Thread nD τ).loc main_arg4)) transposes_S128x256_S256x128_1_0) (shapeCast S1x128 (m ((c.tc : Thread nD τ).loc main_arg5)) shapeCasts_S128_S1x128)
    (transpose S128x40 [1, 0] (m ((c.tc : Thread nD τ).loc main_arg6)) transposes_S40x128_S128x40_1_0) (shapeCast S1x40 (m ((c.tc : Thread nD τ).loc main_arg7)) shapeCasts_S40_S1x40)

namespace KernelBase

/-- The encoder of equal arguments. -/
theorem mlpG_congr {x x' : (⟨2, ![100000, 500]⟩ : Shape).Idx → EReal}
    {w0 w0' : (⟨2, ![500, 256]⟩ : Shape).Idx → EReal} {b0 b0' : (⟨2, ![1, 256]⟩ : Shape).Idx → EReal}
    {w1 w1' : (⟨2, ![256, 128]⟩ : Shape).Idx → EReal} {b1 b1' : (⟨2, ![1, 128]⟩ : Shape).Idx → EReal}
    {w2 w2' : (⟨2, ![128, 40]⟩ : Shape).Idx → EReal} {b2 b2' : (⟨2, ![1, 40]⟩ : Shape).Idx → EReal}
    (hx : x = x') (hw0 : w0 = w0') (hb0 : b0 = b0') (hw1 : w1 = w1') (hb1 : b1 = b1') (hw2 : w2 = w2') (hb2 : b2 = b2') :
    mlpG x w0 b0 w1 b1 w2 b2 = mlpG x' w0' b0' w1' b1' w2' b2' := by
  subst hx hw0 hb0 hw1 hb1 hw2 hb2; rfl

/-- The edge list is still the launch memory's when the encoder region has ended: neither the host operations
    before the region nor the region write it. -/
theorem edges_kept (c : Dev nD) :
    W2 m ρ c (Proc.devRef .tc main_arg1) = m ((c.tc : Thread nD τ).loc main_arg1) :=
  (W2_of_ne m ρ c main_arg1 (by decide)).trans ((HostBase.keep0_arg1 (W0 m ρ c)).trans rfl)

/-- The node features at the encoder's entry are the launch memory's. -/
theorem x_entry (c : Dev nD) :
    (V1 m ρ c (Pipeline.arrRef spec0 0) : FVec Ideal S100000x500 .f32) = m ((c.tc : Thread nD τ).loc main_arg0) :=
  (HostBase.keep0_arg0 (W0 m ρ c)).trans rfl
/-- The three weights at the encoder's entry are the launch memory's, transposed, -/
theorem w0_entry (c : Dev nD) :
    (V1 m ρ c (Pipeline.arrRef spec0 1) : FVec Ideal S500x256 .f32)
      = transpose S500x256 [1, 0] (m ((c.tc : Thread nD τ).loc main_arg2)) transposes_S256x500_S500x256_1_0 :=
  (HostBase.w0T (W0 m ρ c)).trans rfl
theorem w1_entry (c : Dev nD) :
    (V1 m ρ c (Pipeline.arrRef spec0 3) : FVec Ideal S256x128 .f32)
      = transpose S256x128 [1, 0] (m ((c.tc : Thread nD τ).loc main_arg4)) transposes_S128x256_S256x128_1_0 :=
  (HostBase.w1T (W0 m ρ c)).trans rfl
theorem w2_entry (c : Dev nD) :
    (V1 m ρ c (Pipeline.arrRef spec0 5) : FVec Ideal S128x40 .f32)
      = transpose S128x40 [1, 0] (m ((c.tc : Thread nD τ).loc main_arg6)) transposes_S40x128_S128x40_1_0 :=
  (HostBase.w2T (W0 m ρ c)).trans rfl
/-- and the three biases the launch memory's, each as one row. -/
theorem b0_entry (c : Dev nD) :
    (V1 m ρ c (Pipeline.arrRef spec0 2) : FVec Ideal S1x256 .f32)
      = shapeCast S1x256 (m ((c.tc : Thread nD τ).loc main_arg3)) shapeCasts_S256_S1x256 :=
  (HostBase.b0row (W0 m ρ c)).trans rfl
theorem b1_entry (c : Dev nD) :
    (V1 m ρ c (Pipeline.arrRef spec0 4) : FVec Ideal S1x128 .f32)
      = shapeCast S1x128 (m ((c.tc : Thread nD τ).loc main_arg5)) shapeCasts_S128_S1x128 :=
  (HostBase.b1row (W0 m ρ c)).trans rfl
theorem b2_entry (c : Dev nD) :
    (V1 m ρ c (Pipeline.arrRef spec0 6) : FVec Ideal S1x40 .f32)
      = shapeCast S1x40 (m ((c.tc : Thread nD τ).loc main_arg7)) shapeCasts_S40_S1x40 :=
  (HostBase.b2row (W0 m ρ c)).trans rfl

/-- The encoder's output array when its region has ended. -/
theorem h0_exit (c : Dev nD) : W2 m ρ c (Proc.devRef .tc main_v6) = H0K m c :=
  (W2_arr m ρ c 7).trans ((Mlp0.final (V1 m ρ) c).trans
    (mlpG_congr (x_entry m ρ c) (w0_entry m ρ c) (b0_entry m ρ c) (w1_entry m ρ c) (b1_entry m ρ c) (w2_entry m ρ c)
      (b2_entry m ρ c)))

end KernelBase

open KernelBase in
theorem base (c : Dev nD) :
    (W3 m ρ c (Proc.devRef .tc main_v10) : IVec S1700000 32) = K.srcV (m ((c.tc : Thread nD τ).loc main_arg1))
    ∧ (W3 m ρ c (Proc.devRef .tc main_v13) : IVec S1700000 32) = K.dstV (m ((c.tc : Thread nD τ).loc main_arg1))
    ∧ (W3 m ρ c (Proc.devRef .tc main_v39) : FVec Ideal S1700000x1 .f32) = K.nrm2V (m ((c.tc : Thread nD τ).loc main_arg1))
    ∧ (W3 m ρ c (Proc.devRef .tc main_v6) : FVec Ideal S100000x40 .f32) = H0K m c :=
  ⟨(HostBase.src (W2 m ρ c)).trans (congrArg K.srcV (edges_kept m ρ c)),
   (HostBase.dst (W2 m ρ c)).trans (congrArg K.dstV (edges_kept m ρ c)),
   (HostBase.nrm2 (W2 m ρ c)).trans (congrArg K.nrm2V (edges_kept m ρ c)),
   (HostBase.keep1_h0 (W2 m ρ c)).trans (h0_exit m ρ c)⟩

end Cert.Appnp

end
-- ==== Proof.TakeMask.lean ====
/-
  Index ranges on the host side. The kernel program reads the rows of the state the filling way: it wraps a
  negative index by the extent, tests every wrapped index against 0 … 99999, and keeps the gathered row where the
  test holds, the not-a-number word elsewhere. Where every index lies in numpy's range −100000 … 99999 the wrapped
  index lies in 0 … 99999, the test holds in every row, and the filling read is the plain gather. The edges'
  sources are such indices when row 0 of the edge list is: the self loops add the node numbers 0 … 99999.
-/
import proofs.«400473_j77575699301005_1_alg».proof.Proof.KernelTerms
import Idealize.ShloMosaic.Lib.ValueIdx
import Idealize.ShloMosaic.Lib.Pipeline.Value
import Idealize.ShloMosaic.Lib.ReduceAll
import Idealize.ShloMosaic.Lib.StableHlo.Predicate

namespace Cert.Appnp.K

open Idealize.ShloMosaic Idealize.ShloMosaic.ValueIdx Cert.KernelIdeal Cert.KernelIdeal.Gen

/-- numpy's reading of one index word on an axis of extent 100000: a negative word counts from the end. -/
def wrapW (w : BitVec 32) : BitVec 32 :=
  Scalar.select (IntOp.cmpi .slt w 0#32) (IntOp.addi w 100000#32) w

/-- Adding the extent to a negative word in numpy's range does not overflow. -/
theorem toInt_add_extent (w : BitVec 32) (h1 : -100000 ≤ w.toInt) (h2 : w.toInt < 0) :
    (w + 100000#32).toInt = w.toInt + 100000 := by
  rw [BitVec.toInt_add, show (100000#32 : BitVec 32).toInt = 100000 from by decide]
  exact Int.bmod_eq_of_le_mul_two (by omega) (by omega)

/-- The wrapped word as an integer: the word itself when nonnegative, the word plus the extent otherwise. -/
theorem toInt_wrapW (w : BitVec 32) (hw : InRange w) :
    (wrapW w).toInt = if w.toInt < 0 then w.toInt + 100000 else w.toInt := by
  obtain ⟨h1, _⟩ := hw
  unfold wrapW
  by_cases hn : w.toInt < 0
  · have hc : IntOp.cmpi .slt w 0#32 = 1#1 :=
      IntOp.cmpi_slt.2 (by rw [show (0#32 : BitVec 32).toInt = 0 from by decide]; exact hn)
    rw [hc, select_one, if_pos hn]
    exact toInt_add_extent w h1 hn
  · have hc : IntOp.cmpi .slt w 0#32 ≠ 1#1 := fun h =>
      hn (by have := IntOp.cmpi_slt.1 h; rwa [show (0#32 : BitVec 32).toInt = 0 from by decide] at this)
    have hz : IntOp.cmpi .slt w 0#32 = 0#1 := by
      generalize IntOp.cmpi .slt w 0#32 = c at hc ⊢
      revert c; decide
    rw [hz, select_zero, if_neg hn]

/-- A word in numpy's range, wrapped (negative ↦ plus 100000), lies in 0 … 99999 as a signed word. -/
theorem wrap_inRange (w : BitVec 32) (hw : InRange w) :
    IntOp.cmpi .sge (wrapW w) 0#32 = 1#1 ∧ IntOp.cmpi .sle (wrapW w) 99999#32 = 1#1 := by
  have e := toInt_wrapW w hw
  obtain ⟨h1, h2⟩ := hw
  rw [IntOp.cmpi_sge, IntOp.cmpi_sle, show (0#32 : BitVec 32).toInt = 0 from by decide,
    show (99999#32 : BitVec 32).toInt = 99999 from by decide, e]
  constructor <;> split <;> omega

/-- The wrapped index column read at a row: numpy's reading of that row's word. -/
theorem wrapV_apply (v : IVec S1700000 32) (k : S1700000x1.Idx) :
    wrapV v k = wrapW (v (ix1 (k 0 : Fin 1700000))) := by
  unfold wrapV
  refine (broadcastInDim_apply _ bcast_S1700000_S1700000x1_0 _ k (ix1 (k 0 : Fin 1700000)) (fun a => ?_)).trans rfl
  have ha : a = 0 := Subsingleton.elim _ _
  subst ha
  rfl

/-- A left fold by conjunction from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi (1#1) (1#1) = 1#1 from by decide]
    exact foldl_andi_one f l (fun n hn => h n (List.mem_cons_of_mem _ hn))

/-- A reduction by conjunction from the constant 1 over an array of 1s is 1 at every result index. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ (fun i _ => hx i)

/-- A select whose condition bit is 1 is its first operand. -/
theorem select_of_one {α : Type} (c : BitVec 1) (a b : α) (hc : c = 1#1) : Scalar.select c a b = a := by
  rw [hc]; exact select_one a b

/-- With every index in range the filling take is the plain gather. -/
theorem takeV_eq (v : IVec S1700000 32) (h : FVec Ideal S100000x40 .f32) (hv : ∀ j : S1700000.Idx, InRange (v j)) :
    takeV v h = Host.gather gather_S100000x40_S1700000x1_S1700000x40_1_0_n_n_0_1_140 h (wrapV v) := by
  funext i
  unfold takeV
  rw [select_apply]
  refine select_of_one _ _ _ ?_
  refine (broadcastInDim_apply _ bcast_S1700000_S1700000x40_0 _ i (ix1 (i 0 : Fin 1700000)) (fun a => ?_)).trans ?_
  · have ha : a = 0 := Subsingleton.elim _ _
    subst ha
    rfl
  · refine reduce_andi_one _ _ _ _ _ rfl (fun k => ?_)
    show IntOp.andi (IntOp.cmpi .sge (wrapV v k) 0#32) (IntOp.cmpi .sle (wrapV v k) 99999#32) = 1#1
    rw [wrapV_apply]
    exact IntOp.andi_eq_one.2 (wrap_inRange _ (hv _))

/-- A node number below the extent, as a word, is in range. -/
theorem inRange_ofNat (p : Nat) (hp : p < 100000) : InRange (BitVec.ofNat 32 p) := by
  have hn : (BitVec.ofNat 32 p).toNat = p := by rw [BitVec.toNat_ofNat]; omega
  have ht : (BitVec.ofNat 32 p).toInt = (p : Int) := by rw [BitVec.toInt_eq_toNat_of_lt (by omega), hn]
  unfold InRange
  omega

/-- The edges' sources are in range when row 0 of the edge list is: the self loops' indices are 0 … 99999. -/
theorem srcV_inRange (ei : IVec S2x1600000 32) (hei : ∀ e : Fin 1600000, InRange (ei (ix2 0 e))) :
    ∀ j : S1700000.Idx, InRange (srcV ei j) := by
  intro j
  unfold srcV
  by_cases hj : (j 0 : Fin 1700000).val < 1600000
  · -- an edge of the list: row 0 of the edge list at that column
    rw [concatenate_pair_apply_left (t := S1700000) (s₁ := S1600000) (s₂ := S100000) (0 : Fin 1) _ _
      concatenates_S1600000_S100000_S1700000_d0 j rfl
      (ix1 (⟨(j 0 : Fin 1700000).val, hj⟩ : Fin 1600000)) (fun b => by
        have hb : b = 0 := Subsingleton.elim _ _
        subst hb
        rfl)]
    rw [shapeCast_apply _ shapeCasts_S1x1600000_S1600000 _ (ix2 (0 : Fin 1) (⟨(j 0 : Fin 1700000).val, hj⟩ : Fin 1600000)) (by
      rw [Shape.rowMajor_val_two, Shape.rowMajor_val_one]
      show 0 * 1600000 + (j 0 : Fin 1700000).val = (j 0 : Fin 1700000).val
      omega)]
    rw [extractStridedSlice_apply _ ei slices_S2x1600000_S1x1600000_0_0 _
      (ix2 (0 : Fin 2) (⟨(j 0 : Fin 1700000).val, hj⟩ : Fin 1600000)) (fun a => by
        match a with
        | ⟨0, _⟩ => rfl
        | ⟨1, _⟩ => exact (Nat.zero_add _).symm)]
    exact hei _
  · -- a self loop: the node's own number
    have hlt : (j 0 : Fin 1700000).val - 1600000 < 100000 := by
      have hlt' : (j 0 : Fin 1700000).val < 1700000 := (j 0).isLt
      omega
    rw [concatenate_pair_apply_right (t := S1700000) (s₁ := S1600000) (s₂ := S100000) (0 : Fin 1) _ _
      concatenates_S1600000_S100000_S1700000_d0 j rfl rfl
      (ix1 (⟨(j 0 : Fin 1700000).val - 1600000, hlt⟩ : Fin 100000)) (fun b hb => absurd (Subsingleton.elim _ _) hb) (by
        show (j 0 : Fin 1700000).val - 1600000 + 1600000 = (j 0 : Fin 1700000).val
        omega)]
    exact inRange_ofNat _ hlt

end Cert.Appnp.K
-- ==== Proof.HostTools.lean ====
/-
  Two facts about a host operation written over typed references: the transport of a value to its buffer's own
  type and back is the identity, and the transported value is the value.
-/
import Idealize.ShloMosaic.Lib.StableHlo

namespace Cert.Appnp

open Idealize.ShloMosaic Idealize.ShloMosaic.StableHlo

/-- To the buffer's type and back. -/
theorem ofBuf_toBuf {sig : RefSig} {T : BufTy} {Val : EltTy → Type} (x : TRef sig T) (v : T.Contents Val) :
    x.ofBuf (x.toBuf v) = v := by
  obtain ⟨r, h, _, _⟩ := x
  subst h
  rfl

/-- A value at its buffer's type is that value. -/
theorem toBuf_heq {sig : RefSig} {T : BufTy} {Val : EltTy → Type} (x : TRef sig T) (v : T.Contents Val) :
    HEq (x.toBuf v) v := by
  obtain ⟨r, h, _, _⟩ := x
  subst h
  exact HEq.rfl

end Cert.Appnp
-- ==== Proof.Host0.lean ====
/-
  Round 1 of the propagation, host side, over ANY contents `W` of the buffers: the stretch before the scaling
  region reads the rows of the round's state at the source indices the filling way (`K.takeV`); the stretch before
  the mixing region adds the scaled edge rows into their destination nodes from zero; neither writes the four
  buffers every round reads (the source and destination indices, the weight column, the encoder's output).
-/
import proofs.«400473_j77575699301005_1_alg».proof.Proof.Gen.KernelIdeal.Launch
import proofs.«400473_j77575699301005_1_alg».proof.Proof.KernelTerms
import proofs.«400473_j77575699301005_1_alg».proof.Proof.HostTools
import Idealize.ShloMosaic.Lib.StableHlo.Run

set_option maxRecDepth 16384

noncomputable section

namespace Cert.Appnp.Host0

open Idealize.ShloMosaic Idealize.ShloMosaic.TcCoe Idealize.ShloMosaic.StableHlo Cert.KernelIdeal Cert.KernelIdeal.Gen Cert.Appnp

/-- The gathered rows this round: the filling take of the state at the source indices. -/
theorem take (W : Valuation τ sig (Elt Ideal)) :
    (StableHlo.after hostOps1_1 W (Proc.devRef .tc main_v40) : FVec Ideal S1700000x40 .f32)
      = K.takeV (W (Proc.devRef .tc main_v10)) (W (Proc.devRef .tc main_v6)) := by
  after_results_simp
  simp only [ofBuf_toBuf]
  refine (eq_of_heq (toBuf_heq _ _)).trans ?_
  unfold K.takeV K.wrapV
  congr

theorem keepT_main_v10 (W : Valuation τ sig (Elt Ideal)) :
    StableHlo.after hostOps1_1 W (Proc.devRef .tc main_v10) = W (Proc.devRef .tc main_v10) := by
  after_results_simp
theorem keepT_main_v13 (W : Valuation τ sig (Elt Ideal)) :
    StableHlo.after hostOps1_1 W (Proc.devRef .tc main_v13) = W (Proc.devRef .tc main_v13) := by
  after_results_simp
theorem keepT_main_v39 (W : Valuation τ sig (Elt Ideal)) :
    StableHlo.after hostOps1_1 W (Proc.devRef .tc main_v39) = W (Proc.devRef .tc main_v39) := by
  after_results_simp
theorem keepT_main_v6 (W : Valuation τ sig (Elt Ideal)) :
    StableHlo.after hostOps1_1 W (Proc.devRef .tc main_v6) = W (Proc.devRef .tc main_v6) := by
  after_results_simp

/-- The summed messages this round: the scaled edge rows added into their destinations, from zero. -/
theorem scat (W : Valuation τ sig (Elt Ideal)) :
    (StableHlo.after hostOps2 W (Proc.devRef .tc main_v49) : FVec Ideal S100000x40 .f32)
      = Host.scatterAdd (F := Ideal) scatter_S100000x40_S1700000x1_S1700000x40_1_0_0_1
          (broadcastInDim S100000x40 ![] bcast_S_S100000x40 (constant S_ .f32 0x00000000#32))
          (K.wrapV (W (Proc.devRef .tc main_v13))) (W (Proc.devRef .tc main_v41)) := by
  after_results_simp
  rfl

theorem keepS_main_v10 (W : Valuation τ sig (Elt Ideal)) :
    StableHlo.after hostOps2 W (Proc.devRef .tc main_v10) = W (Proc.devRef .tc main_v10) := by
  after_results_simp
theorem keepS_main_v13 (W : Valuation τ sig (Elt Ideal)) :
    StableHlo.after hostOps2 W (Proc.devRef .tc main_v13) = W (Proc.devRef .tc main_v13) := by
  after_results_simp
theorem keepS_main_v39 (W : Valuation τ sig (Elt Ideal)) :
    StableHlo.after hostOps2 W (Proc.devRef .tc main_v39) = W (Proc.devRef .tc main_v39) := by
  after_results_simp
theorem keepS_main_v6 (W : Valuation τ sig (Elt Ideal)) :
    StableHlo.after hostOps2 W (Proc.devRef .tc main_v6) = W (Proc.devRef .tc main_v6) := by
  after_results_simp

end Cert.Appnp.Host0

end
-- ==== Proof.RegionScale1.lean ====
/-
  A scaling region in closed form (which round it belongs to, the region number in the names below says): whatever
  the buffers hold when the region is entered, the region leaves
  in its output array row e of the gathered messages times the weight of edge e, that is `scaleG` of the two
  input arrays.

  Each grid point stages 10000 rows of the message array and of the weight column, multiplies every row by its
  weight, and writes the 10000 rows back at the same place; the blocks of the 170 points tile the 1 700 000 rows.
-/
import proofs.«400473_j77575699301005_1_alg».proof.Proof.Gen.KernelIdeal.Frame
import proofs.«400473_j77575699301005_1_alg».proof.Proof.Spec
import Idealize.ShloMosaic.Lib.Pipeline.Value
import Idealize.ShloMosaic.Lib.ValueIdx
import Idealize.ShloMosaic.Lib.ValueLayout

set_option maxRecDepth 16384

noncomputable section

namespace Cert.Appnp.Scale1
open Idealize.ShloMosaic Idealize.ShloMosaic.TcCoe Idealize.ShloMosaic.ValueIdx Idealize.ShloMosaic.Pipeline Cert.KernelIdeal Cert.KernelIdeal.Gen Cert.Appnp
variable (V : (c : Dev nD) → (b : Ref sig .tc) → Buf (Elt Ideal) ((c : Thread nD τ).loc b))

/-- The body loads and stores whole blocks: the offset of each of its rectangles is zero on both axes. -/
theorem off_zero : (![0, 0] : Fin 2 → Nat) = fun _ => 0 :=
  funext fun a => match a with | ⟨0, _⟩ => rfl | ⟨1, _⟩ => rfl

/-- The product the body stores, at one index of a block: the message entry times the weight of its row (the
    weight column is broadcast along the 40 features). -/
theorem pay_apply (xm : Vec Ideal S10000x40 .f32) (xw : Vec Ideal S10000x1 .f32) (j : S10000x40.Idx) :
    k1_pay1 (F := Ideal) xm xw j = xm j * xw (ix2 (j 0) 0) := by
  unfold k1_pay1
  rw [shapeCast_self, shapeCast_self]
  show xm j * broadcastTo S10000x40 xw _ j = _
  congr 1
  refine broadcastTo_apply xw _ j (ix2 (j 0) 0) fun a => ?_
  match a with
  | ⟨0, _⟩ => rfl
  | ⟨1, _⟩ => rfl

/-- The three index maps, decided over the 170 points: point `t` takes block row `t` of each array, block column 0. -/
theorem idx_facts : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = 0
    ∧ win1_2.index t (0 : Fin 2) = t.val
    ∧ win1_2.index t (1 : Fin 2) = 0 :=
  (by decide +kernel : ∀ t : Fin grid1.N, _)

/-- One entry of the product, read at array indices: when the message index is the output index and the weight
    index is the output row in column 0, the product is `scaleG` there. -/
theorem scale_at (Am : SM40.Idx → EReal) (Aw : SM1.Idx → EReal) (im io : SM40.Idx) (iw : SM1.Idx)
    (hm : im = io) (hw : iw = ix2 (io 0) 0) : Am im * Aw iw = scaleG Am Aw io := by
  subst hm hw; rfl

/-- What point `t` writes back is block `t` of `scaleG` of the two input arrays. -/
theorem flushed_eq (c : Dev nD) (t : Fin cfg1.N) :
    (dat1 (F := Ideal) V c).flushed 2 t = ((cfg1.win 2).blk t).view.read (Elt Ideal) (scaleG (V c (Pipeline.arrRef spec1 0)) (V c (Pipeline.arrRef spec1 1))) := by
  show (cfg1.win 2).cut (grid1.coords t) ((dat1 V c).after 2 t) = _
  rw [after1_2]
  unfold out1_2
  rw [View.canon_unit_zero off_zero]
  simp only [View.ld_unit_zero (S := S10000x40) off_zero, View.ld_unit_zero (S := S10000x1) off_zero]
  obtain ⟨ea, eb, ec, ed, ee, ef⟩ := idx_facts t
  funext j
  show k1_pay1 (F := Ideal) (iblk1 V c 0 t) (iblk1 V c 1 t) j = scaleG (V c (Pipeline.arrRef spec1 0)) (V c (Pipeline.arrRef spec1 1)) (((cfg1.win 2).blk t).view.emb j)
  rw [pay_apply]
  refine scale_at (V c (Pipeline.arrRef spec1 0)) (V c (Pipeline.arrRef spec1 1)) (((cfg1.win 0).blk t).view.emb j) (((cfg1.win 2).blk t).view.emb j)
    (((cfg1.win 1).blk t).view.emb (ix2 (j 0) 0 : S10000x1.Idx)) ?_ ?_
  · funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 40 + 1 * (j 1).val = win1_2.index t (1 : Fin 2) * 40 + 1 * (j 1).val; omega
  · funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 1 + 1 * 0 = 0; omega

/-- An index of the output array is in the block of point `t` iff each coordinate is in the range of the block on
    its axis. -/
theorem mem_blk (t : Fin cfg1.N) (i : S1700000x40.Idx) :
    i ∈ ((cfg1.win 2).blk t).view.set ↔ ∀ a : Fin 2, win1_2.index t a * S10000x40.size a ≤ (i a).val ∧ (i a).val < win1_2.index t a * S10000x40.size a + S10000x40.size a := by
  show i ∈ ((View.whole (Pipeline.arrRef spec1 2)).slice (win1_2.rect t)).set ↔ _
  rw [View.set_slice_whole, Rect.mem_set_unit]
  exact Iff.rfl

/-- Every index of the output array lies in the block of some point (170 blocks of 10000 rows): row `r` is in the
    block of point `r / 10000`. -/
theorem cover (i : S1700000x40.Idx) : ∃ t : Fin cfg1.N, (cfg1.win 2).flush t = true ∧ i ∈ ((cfg1.win 2).blk t).view.set := by
  have hr : (i 0).val < 1700000 := (i 0).isLt
  have hc : (i 1).val < 40 := (i 1).isLt
  have hN : grid1.N = 170 := N_1
  obtain ⟨t, ht⟩ : ∃ t : Fin cfg1.N, t.val = (i 0).val / 10000 :=
    ⟨⟨(i 0).val / 10000, by show _ < grid1.N; rw [hN]; omega⟩, rfl⟩
  obtain ⟨ea, eb, ec, ed, ee, ef⟩ := idx_facts t
  refine ⟨t, flush1_2 t, ?_⟩
  rw [mem_blk]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 40 ≤ (i 1).val ∧ (i 1).val < win1_2.index t (1 : Fin 2) * 40 + 40
    omega

/-- The output array after the region. -/
theorem final (c : Dev nD) :
    (dat1 (F := Ideal) V c).arrAt 2 cfg1.N = scaleG (V c (Pipeline.arrRef spec1 0)) (V c (Pipeline.arrRef spec1 1)) :=
  (dat1 V c).arrAt_eq_of_cover 2 _ (fun t _ => flushed_eq V c t) cover

end Cert.Appnp.Scale1

end
-- ==== Proof.RegionCombine2.lean ====
/-
  A mixing region in closed form: whatever the two input arrays hold when the region is
  entered, the output array after the region is `combineG` of them, index by index. Each grid point stages
  rows `10000·t … 10000·t + 9999` of both inputs and of the output (the three index maps are the same map),
  the body writes `0.9·agg + 0.1·h₀` over the staged block, and the ten blocks tile the 100000 rows.
-/
import proofs.«400473_j77575699301005_1_alg».proof.Proof.Gen.KernelIdeal.Frame
import proofs.«400473_j77575699301005_1_alg».proof.Proof.Spec
import Idealize.ShloMosaic.Lib.Pipeline.Value
import Idealize.ShloMosaic.Lib.ValueIdx
import Idealize.ShloMosaic.Lib.ValueLayout

set_option maxRecDepth 16384

noncomputable section

namespace Cert.Appnp.Combine2
open Idealize.ShloMosaic Idealize.ShloMosaic.ValueIdx Idealize.ShloMosaic.Pipeline Cert.KernelIdeal Cert.KernelIdeal.Gen Cert.Appnp
open Idealize.ShloMosaic.TcCoe
variable (V : (c : Dev nD) → (b : Ref sig .tc) → Buf (Elt Ideal) ((c : Thread nD τ).loc b))

/-- The body's one rectangle starts at the origin of its block. -/
theorem hz : (![0, 0] : Fin 2 → Nat) = fun _ => 0 := funext fun a => by fin_cases a <;> rfl

/-- The body's payload at an index of the block: the two constants times the two loaded blocks, added. -/
theorem pay_apply (x0 x1 : Vec Ideal S10000x40 .f32) (j : S10000x40.Idx) :
    k2_pay1 (F := Ideal) x0 x1 j = Ideal.ofBits .f32 0x3F666666#32 * x0 j + Ideal.ofBits .f32 0x3DCCCCCD#32 * x1 j := by
  unfold k2_pay1
  simp only [shapeCast_self, addf_apply, mulf_apply, broadcast_apply]
  rfl

/-- The three index maps, decided over the grid: both inputs' blocks move with the output's, whose block index
    is at most 9 on the row axis and 0 on the column axis. -/
theorem idx_facts : ∀ t : Fin cfg2.N, win2_0.index t (0 : Fin 2) = win2_2.index t (0 : Fin 2)
    ∧ win2_0.index t (1 : Fin 2) = win2_2.index t (1 : Fin 2)
    ∧ win2_1.index t (0 : Fin 2) = win2_2.index t (0 : Fin 2)
    ∧ win2_1.index t (1 : Fin 2) = win2_2.index t (1 : Fin 2)
    ∧ win2_2.index t (0 : Fin 2) ≤ 9
    ∧ win2_2.index t (1 : Fin 2) = 0 :=
  (by decide +kernel : ∀ t : Fin grid2.N, _)

/-- Every one of the ten row blocks of the output is some point's. -/
theorem idx_onto : ∀ (q0 : Fin 10), ∃ t : Fin cfg2.N, win2_2.index t = ![q0.val, 0] :=
  (by decide +kernel : ∀ (q0 : Fin 10), ∃ t : Fin grid2.N, win2_2.index t = ![q0.val, 0])

/-- What point t writes back is block t of combineG of the two input arrays. -/
theorem flushed_eq (c : Dev nD) (t : Fin cfg2.N) :
    (dat2 (F := Ideal) V c).flushed 2 t = ((cfg2.win 2).blk t).view.read (Elt Ideal) (combineG (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S10000x40) hz]
  obtain ⟨ea, eb, ec, ed, ee, ef⟩ := idx_facts t
  funext j
  refine (pay_apply _ _ _).trans ?_
  show Ideal.ofBits .f32 0x3F666666#32 * V c (Pipeline.arrRef spec2 0) (((cfg2.win 0).blk t).view.emb j) + Ideal.ofBits .f32 0x3DCCCCCD#32 * V c (Pipeline.arrRef spec2 1) (((cfg2.win 1).blk t).view.emb j) = Ideal.ofBits .f32 0x3F666666#32 * V c (Pipeline.arrRef spec2 0) (((cfg2.win 2).blk t).view.emb j) + Ideal.ofBits .f32 0x3DCCCCCD#32 * V c (Pipeline.arrRef spec2 1) (((cfg2.win 2).blk t).view.emb j)
  have h0 : ((cfg2.win 0).blk t).view.emb j = ((cfg2.win 2).blk t).view.emb j := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 40 + 1 * (j 1).val = win2_2.index t (1 : Fin 2) * 40 + 1 * (j 1).val; omega
  have h1 : ((cfg2.win 1).blk t).view.emb j = ((cfg2.win 2).blk t).view.emb j := by
    funext a; apply Fin.ext
    match a with
    | ⟨0, _⟩ => show win2_1.index t (0 : Fin 2) * 10000 + 1 * (j 0).val = win2_2.index t (0 : Fin 2) * 10000 + 1 * (j 0).val; omega
    | ⟨1, _⟩ => show win2_1.index t (1 : Fin 2) * 40 + 1 * (j 1).val = win2_2.index t (1 : Fin 2) * 40 + 1 * (j 1).val; omega
  rw [h0, h1]

/-- An index of the output array is in point t's block iff each coordinate is in the block's range on its axis. -/
theorem mem_blk (t : Fin cfg2.N) (i : S100000x40.Idx) :
    i ∈ ((cfg2.win 2).blk t).view.set ↔ ∀ a : Fin 2, win2_2.index t a * S10000x40.size a ≤ (i a).val ∧ (i a).val < win2_2.index t a * S10000x40.size a + S10000x40.size a := by
  show i ∈ ((View.whole (Pipeline.arrRef spec2 2)).slice (win2_2.rect t)).set ↔ _
  rw [View.set_slice_whole, Rect.mem_set_unit]
  exact Iff.rfl

/-- Every index of the output array lies in some point's block (10 blocks of 10000 rows): row r is in block r / 10000. -/
theorem cover (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 40 ≤ (i 1).val ∧ (i 1).val < win2_2.index t (1 : Fin 2) * 40 + 40; omega

/-- The output array after the region. -/
theorem final (c : Dev nD) :
    (dat2 (F := Ideal) V c).arrAt 2 cfg2.N = combineG (V c (Pipeline.arrRef spec2 0)) (V c (Pipeline.arrRef spec2 1)) :=
  (dat2 V c).arrAt_eq_of_cover 2 _ (fun t _ => flushed_eq V c t) cover

end Cert.Appnp.Combine2

end
-- ==== Proof.Round0.lean ====
/-
  Round 1 of the propagation on the kernel's side, boundary by boundary. Entering the round (boundary 3 of the
  run) the source and destination indices, the weight column and the encoder's output hold what the host computed
  once, and the round's state is some `X`. The take stretch reads the rows of `X` at the sources — the plain gather,
  every source index being in range —; the scaling region multiplies row e by weight e; the scatter stretch adds
  the rows into their destinations; the mixing region forms 0.9 · sum + 0.1 · encoder output. So the round leaves
  `stepG … X`, and the four shared buffers as they were.
-/
import proofs.«400473_j77575699301005_1_alg».proof.Proof.Gen.KernelIdeal.Frame
import proofs.«400473_j77575699301005_1_alg».proof.Proof.Spec
import proofs.«400473_j77575699301005_1_alg».proof.Proof.KernelTerms
import proofs.«400473_j77575699301005_1_alg».proof.Proof.TakeMask
import proofs.«400473_j77575699301005_1_alg».proof.Proof.Host0
import proofs.«400473_j77575699301005_1_alg».proof.Proof.RegionScale1
import proofs.«400473_j77575699301005_1_alg».proof.Proof.RegionCombine2

set_option maxRecDepth 16384

noncomputable section

namespace Cert.Appnp.Round0

open Idealize.ShloMosaic Idealize.ShloMosaic.TcCoe Cert.KernelIdeal Cert.KernelIdeal.Gen Cert.Appnp

variable (m : (ℓ : Loc nD τ sig) → Buf (Elt Ideal) ℓ) (ρ : Dev nD → PrngReg)

set_option maxHeartbeats 4000000 in
/-- One round, from boundary 3 to boundary 7. -/
theorem round (c : Dev nD) (ei : IVec S2x1600000 32) (H0 X : FVec Ideal S100000x40 .f32)
    (hin : ∀ j : S1700000.Idx, K.InRange (K.srcV ei j))
    (hsrc : (W3 m ρ c (Proc.devRef .tc main_v10) : IVec S1700000 32) = K.srcV ei)
    (hdst : (W3 m ρ c (Proc.devRef .tc main_v13) : IVec S1700000 32) = K.dstV ei)
    (hnrm : (W3 m ρ c (Proc.devRef .tc main_v39) : FVec Ideal S1700000x1 .f32) = K.nrm2V ei)
    (hh0 : (W3 m ρ c (Proc.devRef .tc main_v6) : FVec Ideal S100000x40 .f32) = H0)
    (hx : (W3 m ρ c (Proc.devRef .tc main_v6) : FVec Ideal S100000x40 .f32) = X) :
    (W7 m ρ c (Proc.devRef .tc main_v10) : IVec S1700000 32) = K.srcV ei
    ∧ (W7 m ρ c (Proc.devRef .tc main_v13) : IVec S1700000 32) = K.dstV ei
    ∧ (W7 m ρ c (Proc.devRef .tc main_v39) : FVec Ideal S1700000x1 .f32) = K.nrm2V ei
    ∧ (W7 m ρ c (Proc.devRef .tc main_v6) : FVec Ideal S100000x40 .f32) = H0
    ∧ (W7 m ρ c (Proc.devRef .tc main_v50) : FVec Ideal S100000x40 .f32)
        = stepG (K.gatV ei) (K.scaV ei) (K.nrm2V ei) H0 X := by
  -- after the take stretch (boundary 4)
  have s1 : (W4 m ρ c (Proc.devRef .tc main_v10) : IVec S1700000 32) = K.srcV ei := (Host0.keepT_main_v10 _).trans hsrc
  have d1 : (W4 m ρ c (Proc.devRef .tc main_v13) : IVec S1700000 32) = K.dstV ei := (Host0.keepT_main_v13 _).trans hdst
  have n1 : (W4 m ρ c (Proc.devRef .tc main_v39) : FVec Ideal S1700000x1 .f32) = K.nrm2V ei := (Host0.keepT_main_v39 _).trans hnrm
  have z1 : (W4 m ρ c (Proc.devRef .tc main_v6) : FVec Ideal S100000x40 .f32) = H0 := (Host0.keepT_main_v6 _).trans hh0
  have t1 : (W4 m ρ c (Proc.devRef .tc main_v40) : FVec Ideal S1700000x40 .f32) = K.gatV ei X := by
    refine (Host0.take (W3 m ρ c)).trans ?_
    rw [hsrc, hx]
    exact K.takeV_eq _ _ hin
  -- after the scaling region (boundary 5)
  have s2 : (W5 m ρ c (Proc.devRef .tc main_v10) : IVec S1700000 32) = K.srcV ei := (W5_of_ne m ρ c main_v10 (by decide)).trans s1
  have d2 : (W5 m ρ c (Proc.devRef .tc main_v13) : IVec S1700000 32) = K.dstV ei := (W5_of_ne m ρ c main_v13 (by decide)).trans d1
  have n2 : (W5 m ρ c (Proc.devRef .tc main_v39) : FVec Ideal S1700000x1 .f32) = K.nrm2V ei := ((W5_arr m ρ c 1).trans (((dat1 (V4 m ρ) c).arrAt_in 1 rfl _).trans (A_eq1 (V4 m ρ) c 1))).trans n1
  have z2 : (W5 m ρ c (Proc.devRef .tc main_v6) : FVec Ideal S100000x40 .f32) = H0 := (W5_of_ne m ρ c main_v6 (by decide)).trans z1
  have m2 : (W5 m ρ c (Proc.devRef .tc main_v41) : FVec Ideal S1700000x40 .f32) = scaleG (K.gatV ei X) (K.nrm2V ei) := by
    refine (W5_arr m ρ c 2).trans ((Scale1.final (V4 m ρ) c).trans ?_)
    rw [show (V4 m ρ c (Pipeline.arrRef spec1 0) : FVec Ideal S1700000x40 .f32) = K.gatV ei X from t1,
      show (V4 m ρ c (Pipeline.arrRef spec1 1) : FVec Ideal S1700000x1 .f32) = K.nrm2V ei from n1]
  -- after the scatter stretch (boundary 6)
  have s3 : (W6 m ρ c (Proc.devRef .tc main_v10) : IVec S1700000 32) = K.srcV ei := (Host0.keepS_main_v10 _).trans s2
  have d3 : (W6 m ρ c (Proc.devRef .tc main_v13) : IVec S1700000 32) = K.dstV ei := (Host0.keepS_main_v13 _).trans d2
  have n3 : (W6 m ρ c (Proc.devRef .tc main_v39) : FVec Ideal S1700000x1 .f32) = K.nrm2V ei := (Host0.keepS_main_v39 _).trans n2
  have z3 : (W6 m ρ c (Proc.devRef .tc main_v6) : FVec Ideal S100000x40 .f32) = H0 := (Host0.keepS_main_v6 _).trans z2
  have a3 : (W6 m ρ c (Proc.devRef .tc main_v49) : FVec Ideal S100000x40 .f32)
      = K.scaV ei (scaleG (K.gatV ei X) (K.nrm2V ei)) := by
    refine (Host0.scat (W5 m ρ c)).trans ?_
    rw [d2, m2]
    rfl
  -- after the mixing region (boundary 7)
  have s4 : (W7 m ρ c (Proc.devRef .tc main_v10) : IVec S1700000 32) = K.srcV ei := (W7_of_ne m ρ c main_v10 (by decide)).trans s3
  have d4 : (W7 m ρ c (Proc.devRef .tc main_v13) : IVec S1700000 32) = K.dstV ei := (W7_of_ne m ρ c main_v13 (by decide)).trans d3
  have n4 : (W7 m ρ c (Proc.devRef .tc main_v39) : FVec Ideal S1700000x1 .f32) = K.nrm2V ei := (W7_of_ne m ρ c main_v39 (by decide)).trans n3
  have z4 : (W7 m ρ c (Proc.devRef .tc main_v6) : FVec Ideal S100000x40 .f32) = H0 := ((W7_arr m ρ c 1).trans (((dat2 (V6 m ρ) c).arrAt_in 1 rfl _).trans (A_eq2 (V6 m ρ) c 1))).trans z3
  have c4 : (W7 m ρ c (Proc.devRef .tc main_v50) : FVec Ideal S100000x40 .f32)
      = combineG (K.scaV ei (scaleG (K.gatV ei X) (K.nrm2V ei))) H0 := by
    refine (W7_arr m ρ c 2).trans ((Combine2.final (V6 m ρ) c).trans ?_)
    rw [show (V6 m ρ c (Pipeline.arrRef spec2 0) : FVec Ideal S100000x40 .f32) = K.scaV ei (scaleG (K.gatV ei X) (K.nrm2V ei)) from a3,
      show (V6 m ρ c (Pipeline.arrRef spec2 1) : FVec Ideal S100000x40 .f32) = H0 from z3]
  exact ⟨s4, d4, n4, z4, c4⟩

end Cert.Appnp.Round0

end
-- ==== Proof.Host1.lean ====
/-
  Round 2 of the propagation, host side, over ANY contents `W` of the buffers: the stretch before the scaling
  region reads the rows of the round's state at the source indices the filling way (`K.takeV`); the stretch before
  the mixing region adds the scaled edge rows into their destination nodes from zero; neither writes the four
  buffers every round reads (the source and destination indices, the weight column, the encoder's output).
-/
import proofs.«400473_j77575699301005_1_alg».proof.Proof.Gen.KernelIdeal.Launch
import proofs.«400473_j77575699301005_1_alg».proof.Proof.KernelTerms
import proofs.«400473_j77575699301005_1_alg».proof.Proof.HostTools
import Idealize.ShloMosaic.Lib.StableHlo.Run

set_option maxRecDepth 16384

noncomputable section

namespace Cert.Appnp.Host1

open Idealize.ShloMosaic Idealize.ShloMosaic.TcCoe Idealize.ShloMosaic.StableHlo Cert.KernelIdeal Cert.KernelIdeal.Gen Cert.Appnp

/-- The gathered rows this round: the filling take of the state at the source indices. -/
theorem take (W : Valuation τ sig (Elt Ideal)) :
    (StableHlo.after hostOps3 W (Proc.devRef .tc main_v51) : FVec Ideal S1700000x40 .f32)
      = K.takeV (W (Proc.devRef .tc main_v10)) (W (Proc.devRef .tc main_v50)) := by
  after_results_simp
  simp only [ofBuf_toBuf]
  refine (eq_of_heq (toBuf_heq _ _)).trans ?_
  unfold K.takeV K.wrapV
  congr

theorem keepT_main_v10 (W : Valuation τ sig (Elt Ideal)) :
    StableHlo.after hostOps3 W (Proc.devRef .tc main_v10) = W (Proc.devRef .tc main_v10) := by
  after_results_simp
theorem keepT_main_v13 (W : Valuation τ sig (Elt Ideal)) :
    StableHlo.after hostOps3 W (Proc.devRef .tc main_v13) = W (Proc.devRef .tc main_v13) := by
  after_results_simp
theorem keepT_main_v39 (W : Valuation τ sig (Elt Ideal)) :
    StableHlo.after hostOps3 W (Proc.devRef .tc main_v39) = W (Proc.devRef .tc main_v39) := by
  after_results_simp
theorem keepT_main_v6 (W : Valuation τ sig (Elt Ideal)) :
    StableHlo.after hostOps3 W (Proc.devRef .tc main_v6) = W (Proc.devRef .tc main_v6) := by
  after_results_simp

/-- The summed messages this round: the scaled edge rows added into their destinations, from zero. -/
theorem scat (W : Valuation τ sig (Elt Ideal)) :
    (StableHlo.after hostOps4 W (Proc.devRef .tc main_v60) : FVec Ideal S100000x40 .f32)
      = Host.scatterAdd (F := Ideal) scatter_S100000x40_S1700000x1_S1700000x40_1_0_0_1
          (broadcastInDim S100000x40 ![] bcast_S_S100000x40 (constant S_ .f32 0x00000000#32))
          (K.wrapV (W (Proc.devRef .tc main_v13))) (W (Proc.devRef .tc main_v52)) := by
  after_results_simp
  rfl

theorem keepS_main_v10 (W : Valuation τ sig (Elt Ideal)) :
    StableHlo.after hostOps4 W (Proc.devRef .tc main_v10) = W (Proc.devRef .tc main_v10) := by
  after_results_simp
theorem keepS_main_v13 (W : Valuation τ sig (Elt Ideal)) :
    StableHlo.after hostOps4 W (Proc.devRef .tc main_v13) = W (Proc.devRef .tc main_v13) := by
  after_results_simp
theorem keepS_main_v39 (W : Valuation τ sig (Elt Ideal)) :
    StableHlo.after hostOps4 W (Proc.devRef .tc main_v39) = W (Proc.devRef .tc main_v39) := by
  after_results_simp
theorem keepS_main_v6 (W : Valuation τ sig (Elt Ideal)) :
    StableHlo.after hostOps4 W (Proc.devRef .tc main_v6) = W (Proc.devRef .tc main_v6) := by
  after_results_simp

end Cert.Appnp.Host1

end
-- ==== Proof.RegionScale3.lean ====
/-
  A scaling region in closed form (which round it belongs to, the region number in the names below says): whatever
  the buffers hold when the region is entered, the region leaves
  in its output array row e of the gathered messages times the weight of edge e, that is `scaleG` of the two
  input arrays.

  Each grid point stages 10000 rows of the message array and of the weight column, multiplies every row by its
  weight, and writes the 10000 rows back at the same place; the blocks of the 170 points tile the 1 700 000 rows.
-/
import proofs.«400473_j77575699301005_1_alg».proof.Proof.Gen.KernelIdeal.Frame
import proofs.«400473_j77575699301005_1_alg».proof.Proof.Spec
import Idealize.ShloMosaic.Lib.Pipeline.Value
import Idealize.ShloMosaic.Lib.ValueIdx
import Idealize.ShloMosaic.Lib.ValueLayout

set_option maxRecDepth 16384

noncomputable section

namespace Cert.Appnp.Scale3
open Idealize.ShloMosaic Idealize.ShloMosaic.TcCoe Idealize.ShloMosaic.ValueIdx Idealize.ShloMosaic.Pipeline Cert.KernelIdeal Cert.KernelIdeal.Gen Cert.Appnp
variable (V : (c : Dev nD) → (b : Ref sig .tc) → Buf (Elt Ideal) ((c : Thread nD τ).loc b))

/-- The body loads and stores whole blocks: the offset of each of its rectangles is zero on both axes. -/
theorem off_zero : (![0, 0] : Fin 2 → Nat) = fun _ => 0 :=
  funext fun a => match a with | ⟨0, _⟩ => rfl | ⟨1, _⟩ => rfl

/-- The product the body stores, at one index of a block: the message entry times the weight of its row (the
    weight column is broadcast along the 40 features). -/
theorem pay_apply (xm : Vec Ideal S10000x40 .f32) (xw : Vec Ideal S10000x1 .f32) (j : S10000x40.Idx) :
    k3_pay1 (F := Ideal) xm xw j = xm j * xw (ix2 (j 0) 0) := by
  unfold k3_pay1
  rw [shapeCast_self, shapeCast_self]
  show xm j * broadcastTo S10000x40 xw _ j = _
  congr 1
  refine broadcastTo_apply xw _ j (ix2 (j 0) 0) fun a => ?_
  match a with
  | ⟨0, _⟩ => rfl
  | ⟨1, _⟩ => rfl

/-- The three index maps, decided over the 170 points: point `t` takes block row `t` of each array, block column 0. -/
theorem idx_facts : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = 0
    ∧ win3_2.index t (0 : Fin 2) = t.val
    ∧ win3_2.index t (1 : Fin 2) = 0 :=
  (by decide +kernel : ∀ t : Fin grid3.N, _)

/-- One entry of the product, read at array indices: when the message index is the output index and the weight
    index is the output row in column 0, the product is `scaleG` there. -/
theorem scale_at (Am : SM40.Idx → EReal) (Aw : SM1.Idx → EReal) (im io : SM40.Idx) (iw : SM1.Idx)
    (hm : im = io) (hw : iw = ix2 (io 0) 0) : Am im * Aw iw = scaleG Am Aw io := by
  subst hm hw; rfl

/-- What point `t` writes back is block `t` of `scaleG` of the two input arrays. -/
theorem flushed_eq (c : Dev nD) (t : Fin cfg3.N) :
    (dat3 (F := Ideal) V c).flushed 2 t = ((cfg3.win 2).blk t).view.read (Elt Ideal) (scaleG (V c (Pipeline.arrRef spec3 0)) (V c (Pipeline.arrRef spec3 1))) := by
  show (cfg3.win 2).cut (grid3.coords t) ((dat3 V c).after 2 t) = _
  rw [after3_2]
  unfold out3_2
  rw [View.canon_unit_zero off_zero]
  simp only [View.ld_unit_zero (S := S10000x40) off_zero, View.ld_unit_zero (S := S10000x1) off_zero]
  obtain ⟨ea, eb, ec, ed, ee, ef⟩ := idx_facts t
  funext j
  show k3_pay1 (F := Ideal) (iblk3 V c 0 t) (iblk3 V c 1 t) j = scaleG (V c (Pipeline.arrRef spec3 0)) (V c (Pipeline.arrRef spec3 1)) (((cfg3.win 2).blk t).view.emb j)
  rw [pay_apply]
  refine scale_at (V c (Pipeline.arrRef spec3 0)) (V c (Pipeline.arrRef spec3 1)) (((cfg3.win 0).blk t).view.emb j) (((cfg3.win 2).blk t).view.emb j)
    (((cfg3.win 1).blk t).view.emb (ix2 (j 0) 0 : S10000x1.Idx)) ?_ ?_
  · funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 40 + 1 * (j 1).val = win3_2.index t (1 : Fin 2) * 40 + 1 * (j 1).val; omega
  · funext a; apply Fin.ext
    match a with
    | ⟨0, _⟩ => show win3_1.index t (0 : Fin 2) * 10000 + 1 * (j 0).val = win3_2.index t (0 : Fin 2) * 10000 + 1 * (j 0).val; omega
    | ⟨1, _⟩ => show win3_1.index t (1 : Fin 2) * 1 + 1 * 0 = 0; omega

/-- An index of the output array is in the block of point `t` iff each coordinate is in the range of the block on
    its axis. -/
theorem mem_blk (t : Fin cfg3.N) (i : S1700000x40.Idx) :
    i ∈ ((cfg3.win 2).blk t).view.set ↔ ∀ a : Fin 2, win3_2.index t a * S10000x40.size a ≤ (i a).val ∧ (i a).val < win3_2.index t a * S10000x40.size a + S10000x40.size a := by
  show i ∈ ((View.whole (Pipeline.arrRef spec3 2)).slice (win3_2.rect t)).set ↔ _
  rw [View.set_slice_whole, Rect.mem_set_unit]
  exact Iff.rfl

/-- Every index of the output array lies in the block of some point (170 blocks of 10000 rows): row `r` is in the
    block of point `r / 10000`. -/
theorem cover (i : S1700000x40.Idx) : ∃ t : Fin cfg3.N, (cfg3.win 2).flush t = true ∧ i ∈ ((cfg3.win 2).blk t).view.set := by
  have hr : (i 0).val < 1700000 := (i 0).isLt
  have hc : (i 1).val < 40 := (i 1).isLt
  have hN : grid3.N = 170 := N_3
  obtain ⟨t, ht⟩ : ∃ t : Fin cfg3.N, t.val = (i 0).val / 10000 :=
    ⟨⟨(i 0).val / 10000, by show _ < grid3.N; rw [hN]; omega⟩, rfl⟩
  obtain ⟨ea, eb, ec, ed, ee, ef⟩ := idx_facts t
  refine ⟨t, flush3_2 t, ?_⟩
  rw [mem_blk]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 40 ≤ (i 1).val ∧ (i 1).val < win3_2.index t (1 : Fin 2) * 40 + 40
    omega

/-- The output array after the region. -/
theorem final (c : Dev nD) :
    (dat3 (F := Ideal) V c).arrAt 2 cfg3.N = scaleG (V c (Pipeline.arrRef spec3 0)) (V c (Pipeline.arrRef spec3 1)) :=
  (dat3 V c).arrAt_eq_of_cover 2 _ (fun t _ => flushed_eq V c t) cover

end Cert.Appnp.Scale3

end
-- ==== Proof.RegionCombine4.lean ====
/-
  A mixing region in closed form: whatever the two input arrays hold when the region is
  entered, the output array after the region is `combineG` of them, index by index. Each grid point stages
  rows `10000·t … 10000·t + 9999` of both inputs and of the output (the three index maps are the same map),
  the body writes `0.9·agg + 0.1·h₀` over the staged block, and the ten blocks tile the 100000 rows.
-/
import proofs.«400473_j77575699301005_1_alg».proof.Proof.Gen.KernelIdeal.Frame
import proofs.«400473_j77575699301005_1_alg».proof.Proof.Spec
import Idealize.ShloMosaic.Lib.Pipeline.Value
import Idealize.ShloMosaic.Lib.ValueIdx
import Idealize.ShloMosaic.Lib.ValueLayout

set_option maxRecDepth 16384

noncomputable section

namespace Cert.Appnp.Combine4
open Idealize.ShloMosaic Idealize.ShloMosaic.ValueIdx Idealize.ShloMosaic.Pipeline Cert.KernelIdeal Cert.KernelIdeal.Gen Cert.Appnp
open Idealize.ShloMosaic.TcCoe
variable (V : (c : Dev nD) → (b : Ref sig .tc) → Buf (Elt Ideal) ((c : Thread nD τ).loc b))

/-- The body's one rectangle starts at the origin of its block. -/
theorem hz : (![0, 0] : Fin 2 → Nat) = fun _ => 0 := funext fun a => by fin_cases a <;> rfl

/-- The body's payload at an index of the block: the two constants times the two loaded blocks, added. -/
theorem pay_apply (x0 x1 : Vec Ideal S10000x40 .f32) (j : S10000x40.Idx) :
    k4_pay1 (F := Ideal) x0 x1 j = Ideal.ofBits .f32 0x3F666666#32 * x0 j + Ideal.ofBits .f32 0x3DCCCCCD#32 * x1 j := by
  unfold k4_pay1
  simp only [shapeCast_self, addf_apply, mulf_apply, broadcast_apply]
  rfl

/-- The three index maps, decided over the grid: both inputs' blocks move with the output's, whose block index
    is at most 9 on the row axis and 0 on the column axis. -/
theorem idx_facts : ∀ t : Fin cfg4.N, win4_0.index t (0 : Fin 2) = win4_2.index t (0 : Fin 2)
    ∧ win4_0.index t (1 : Fin 2) = win4_2.index t (1 : Fin 2)
    ∧ win4_1.index t (0 : Fin 2) = win4_2.index t (0 : Fin 2)
    ∧ win4_1.index t (1 : Fin 2) = win4_2.index t (1 : Fin 2)
    ∧ win4_2.index t (0 : Fin 2) ≤ 9
    ∧ win4_2.index t (1 : Fin 2) = 0 :=
  (by decide +kernel : ∀ t : Fin grid4.N, _)

/-- Every one of the ten row blocks of the output is some point's. -/
theorem idx_onto : ∀ (q0 : Fin 10), ∃ t : Fin cfg4.N, win4_2.index t = ![q0.val, 0] :=
  (by decide +kernel : ∀ (q0 : Fin 10), ∃ t : Fin grid4.N, win4_2.index t = ![q0.val, 0])

/-- What point t writes back is block t of combineG of the two input arrays. -/
theorem flushed_eq (c : Dev nD) (t : Fin cfg4.N) :
    (dat4 (F := Ideal) V c).flushed 2 t = ((cfg4.win 2).blk t).view.read (Elt Ideal) (combineG (V c (Pipeline.arrRef spec4 0)) (V c (Pipeline.arrRef spec4 1))) := by
  show (cfg4.win 2).cut (grid4.coords t) ((dat4 V c).after 2 t) = _
  rw [after4_2]
  unfold out4_2
  rw [View.canon_unit_zero hz]
  simp only [View.ld_unit_zero (S := S10000x40) hz]
  obtain ⟨ea, eb, ec, ed, ee, ef⟩ := idx_facts t
  funext j
  refine (pay_apply _ _ _).trans ?_
  show Ideal.ofBits .f32 0x3F666666#32 * V c (Pipeline.arrRef spec4 0) (((cfg4.win 0).blk t).view.emb j) + Ideal.ofBits .f32 0x3DCCCCCD#32 * V c (Pipeline.arrRef spec4 1) (((cfg4.win 1).blk t).view.emb j) = Ideal.ofBits .f32 0x3F666666#32 * V c (Pipeline.arrRef spec4 0) (((cfg4.win 2).blk t).view.emb j) + Ideal.ofBits .f32 0x3DCCCCCD#32 * V c (Pipeline.arrRef spec4 1) (((cfg4.win 2).blk t).view.emb j)
  have h0 : ((cfg4.win 0).blk t).view.emb j = ((cfg4.win 2).blk t).view.emb j := by
    funext a; apply Fin.ext
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 40 + 1 * (j 1).val = win4_2.index t (1 : Fin 2) * 40 + 1 * (j 1).val; omega
  have h1 : ((cfg4.win 1).blk t).view.emb j = ((cfg4.win 2).blk t).view.emb j := by
    funext a; apply Fin.ext
    match a with
    | ⟨0, _⟩ => show win4_1.index t (0 : Fin 2) * 10000 + 1 * (j 0).val = win4_2.index t (0 : Fin 2) * 10000 + 1 * (j 0).val; omega
    | ⟨1, _⟩ => show win4_1.index t (1 : Fin 2) * 40 + 1 * (j 1).val = win4_2.index t (1 : Fin 2) * 40 + 1 * (j 1).val; omega
  rw [h0, h1]

/-- An index of the output array is in point t's block iff each coordinate is in the block's range on its axis. -/
theorem mem_blk (t : Fin cfg4.N) (i : S100000x40.Idx) :
    i ∈ ((cfg4.win 2).blk t).view.set ↔ ∀ a : Fin 2, win4_2.index t a * S10000x40.size a ≤ (i a).val ∧ (i a).val < win4_2.index t a * S10000x40.size a + S10000x40.size a := by
  show i ∈ ((View.whole (Pipeline.arrRef spec4 2)).slice (win4_2.rect t)).set ↔ _
  rw [View.set_slice_whole, Rect.mem_set_unit]
  exact Iff.rfl

/-- Every index of the output array lies in some point's block (10 blocks of 10000 rows): row r is in block r / 10000. -/
theorem cover (i : S100000x40.Idx) : ∃ t : Fin cfg4.N, (cfg4.win 2).flush t = true ∧ i ∈ ((cfg4.win 2).blk t).view.set := by
  have hi0 : (i 0).val < 100000 := (i 0).isLt
  have hi1 : (i 1).val < 40 := (i 1).isLt
  obtain ⟨t, ht⟩ := idx_onto ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 40 ≤ (i 1).val ∧ (i 1).val < win4_2.index t (1 : Fin 2) * 40 + 40; omega

/-- The output array after the region. -/
theorem final (c : Dev nD) :
    (dat4 (F := Ideal) V c).arrAt 2 cfg4.N = combineG (V c (Pipeline.arrRef spec4 0)) (V c (Pipeline.arrRef spec4 1)) :=
  (dat4 V c).arrAt_eq_of_cover 2 _ (fun t _ => flushed_eq V c t) cover

end Cert.Appnp.Combine4

end
-- ==== Proof.Round1.lean ====
/-
  Round 2 of the propagation on the kernel's side, boundary by boundary. Entering the round (boundary 7 of the
  run) the source and destination indices, the weight column and the encoder's output hold what the host computed
  once, and the round's state is some `X`. The take stretch reads the rows of `X` at the sources — the plain gather,
  every source index being in range —; the scaling region multiplies row e by weight e; the scatter stretch adds
  the rows into their destinations; the mixing region forms 0.9 · sum + 0.1 · encoder output. So the round leaves
  `stepG … X`, and the four shared buffers as they were.
-/
import proofs.«400473_j77575699301005_1_alg».proof.Proof.Gen.KernelIdeal.Frame
import proofs.«400473_j77575699301005_1_alg».proof.Proof.Spec
import proofs.«400473_j77575699301005_1_alg».proof.Proof.KernelTerms
import proofs.«400473_j77575699301005_1_alg».proof.Proof.TakeMask
import proofs.«400473_j77575699301005_1_alg».proof.Proof.Host1
import proofs.«400473_j77575699301005_1_alg».proof.Proof.RegionScale3
import proofs.«400473_j77575699301005_1_alg».proof.Proof.RegionCombine4

set_option maxRecDepth 16384

noncomputable section

namespace Cert.Appnp.Round1

open Idealize.ShloMosaic Idealize.ShloMosaic.TcCoe Cert.KernelIdeal Cert.KernelIdeal.Gen Cert.Appnp

variable (m : (ℓ : Loc nD τ sig) → Buf (Elt Ideal) ℓ) (ρ : Dev nD → PrngReg)

set_option maxHeartbeats 4000000 in
/-- One round, from boundary 7 to boundary 11. -/
theorem round (c : Dev nD) (ei : IVec S2x1600000 32) (H0 X : FVec Ideal S100000x40 .f32)
    (hin : ∀ j : S1700000.Idx, K.InRange (K.srcV ei j))
    (hsrc : (W7 m ρ c (Proc.devRef .tc main_v10) : IVec S1700000 32) = K.srcV ei)
    (hdst : (W7 m ρ c (Proc.devRef .tc main_v13) : IVec S1700000 32) = K.dstV ei)
    (hnrm : (W7 m ρ c (Proc.devRef .tc main_v39) : FVec Ideal S1700000x1 .f32) = K.nrm2V ei)
    (hh0 : (W7 m ρ c (Proc.devRef .tc main_v6) : FVec Ideal S100000x40 .f32) = H0)
    (hx : (W7 m ρ c (Proc.devRef .tc main_v50) : FVec Ideal S100000x40 .f32) = X) :
    (W11 m ρ c (Proc.devRef .tc main_v10) : IVec S1700000 32) = K.srcV ei
    ∧ (W11 m ρ c (Proc.devRef .tc main_v13) : IVec S1700000 32) = K.dstV ei
    ∧ (W11 m ρ c (Proc.devRef .tc main_v39) : FVec Ideal S1700000x1 .f32) = K.nrm2V ei
    ∧ (W11 m ρ c (Proc.devRef .tc main_v6) : FVec Ideal S100000x40 .f32) = H0
    ∧ (W11 m ρ c (Proc.devRef .tc main_v61) : FVec Ideal S100000x40 .f32)
        = stepG (K.gatV ei) (K.scaV ei) (K.nrm2V ei) H0 X := by
  -- after the take stretch (boundary 8)
  have s1 : (W8 m ρ c (Proc.devRef .tc main_v10) : IVec S1700000 32) = K.srcV ei := (Host1.keepT_main_v10 _).trans hsrc
  have d1 : (W8 m ρ c (Proc.devRef .tc main_v13) : IVec S1700000 32) = K.dstV ei := (Host1.keepT_main_v13 _).trans hdst
  have n1 : (W8 m ρ c (Proc.devRef .tc main_v39) : FVec Ideal S1700000x1 .f32) = K.nrm2V ei := (Host1.keepT_main_v39 _).trans hnrm
  have z1 : (W8 m ρ c (Proc.devRef .tc main_v6) : FVec Ideal S100000x40 .f32) = H0 := (Host1.keepT_main_v6 _).trans hh0
  have t1 : (W8 m ρ c (Proc.devRef .tc main_v51) : FVec Ideal S1700000x40 .f32) = K.gatV ei X := by
    refine (Host1.take (W7 m ρ c)).trans ?_
    rw [hsrc, hx]
    exact K.takeV_eq _ _ hin
  -- after the scaling region (boundary 9)
  have s2 : (W9 m ρ c (Proc.devRef .tc main_v10) : IVec S1700000 32) = K.srcV ei := (W9_of_ne m ρ c main_v10 (by decide)).trans s1
  have d2 : (W9 m ρ c (Proc.devRef .tc main_v13) : IVec S1700000 32) = K.dstV ei := (W9_of_ne m ρ c main_v13 (by decide)).trans d1
  have n2 : (W9 m ρ c (Proc.devRef .tc main_v39) : FVec Ideal S1700000x1 .f32) = K.nrm2V ei := ((W9_arr m ρ c 1).trans (((dat3 (V8 m ρ) c).arrAt_in 1 rfl _).trans (A_eq3 (V8 m ρ) c 1))).trans n1
  have z2 : (W9 m ρ c (Proc.devRef .tc main_v6) : FVec Ideal S100000x40 .f32) = H0 := (W9_of_ne m ρ c main_v6 (by decide)).trans z1
  have m2 : (W9 m ρ c (Proc.devRef .tc main_v52) : FVec Ideal S1700000x40 .f32) = scaleG (K.gatV ei X) (K.nrm2V ei) := by
    refine (W9_arr m ρ c 2).trans ((Scale3.final (V8 m ρ) c).trans ?_)
    rw [show (V8 m ρ c (Pipeline.arrRef spec3 0) : FVec Ideal S1700000x40 .f32) = K.gatV ei X from t1,
      show (V8 m ρ c (Pipeline.arrRef spec3 1) : FVec Ideal S1700000x1 .f32) = K.nrm2V ei from n1]
  -- after the scatter stretch (boundary 10)
  have s3 : (W10 m ρ c (Proc.devRef .tc main_v10) : IVec S1700000 32) = K.srcV ei := (Host1.keepS_main_v10 _).trans s2
  have d3 : (W10 m ρ c (Proc.devRef .tc main_v13) : IVec S1700000 32) = K.dstV ei := (Host1.keepS_main_v13 _).trans d2
  have n3 : (W10 m ρ c (Proc.devRef .tc main_v39) : FVec Ideal S1700000x1 .f32) = K.nrm2V ei := (Host1.keepS_main_v39 _).trans n2
  have z3 : (W10 m ρ c (Proc.devRef .tc main_v6) : FVec Ideal S100000x40 .f32) = H0 := (Host1.keepS_main_v6 _).trans z2
  have a3 : (W10 m ρ c (Proc.devRef .tc main_v60) : FVec Ideal S100000x40 .f32)
      = K.scaV ei (scaleG (K.gatV ei X) (K.nrm2V ei)) := by
    refine (Host1.scat (W9 m ρ c)).trans ?_
    rw [d2, m2]
    rfl
  -- after the mixing region (boundary 11)
  have s4 : (W11 m ρ c (Proc.devRef .tc main_v10) : IVec S1700000 32) = K.srcV ei := (W11_of_ne m ρ c main_v10 (by decide)).trans s3
  have d4 : (W11 m ρ c (Proc.devRef .tc main_v13) : IVec S1700000 32) = K.dstV ei := (W11_of_ne m ρ c main_v13 (by decide)).trans d3
  have n4 : (W11 m ρ c (Proc.devRef .tc main_v39) : FVec Ideal S1700000x1 .f32) = K.nrm2V ei := (W11_of_ne m ρ c main_v39 (by decide)).trans n3
  have z4 : (W11 m ρ c (Proc.devRef .tc main_v6) : FVec Ideal S100000x40 .f32) = H0 := ((W11_arr m ρ c 1).trans (((dat4 (V10 m ρ) c).arrAt_in 1 rfl _).trans (A_eq4 (V10 m ρ) c 1))).trans z3
  have c4 : (W11 m ρ c (Proc.devRef .tc main_v61) : FVec Ideal S100000x40 .f32)
      = combineG (K.scaV ei (scaleG (K.gatV ei X) (K.nrm2V ei))) H0 := by
    refine (W11_arr m ρ c 2).trans ((Combine4.final (V10 m ρ) c).trans ?_)
    rw [show (V10 m ρ c (Pipeline.arrRef spec4 0) : FVec Ideal S100000x40 .f32) = K.scaV ei (scaleG (K.gatV ei X) (K.nrm2V ei)) from a3,
      show (V10 m ρ c (Pipeline.arrRef spec4 1) : FVec Ideal S100000x40 .f32) = H0 from z3]
  exact ⟨s4, d4, n4, z4, c4⟩

end Cert.Appnp.Round1

end
-- ==== Proof.Host2.lean ====
/-
  Round 3 of the propagation, host side, over ANY contents `W` of the buffers: the stretch before the scaling
  region reads the rows of the round's state at the source indices the filling way (`K.takeV`); the stretch before
  the mixing region adds the scaled edge rows into their destination nodes from zero; neither writes the four
  buffers every round reads (the source and destination indices, the weight column, the encoder's output).
-/
import proofs.«400473_j77575699301005_1_alg».proof.Proof.Gen.KernelIdeal.Launch
import proofs.«400473_j77575699301005_1_alg».proof.Proof.KernelTerms
import proofs.«400473_j77575699301005_1_alg».proof.Proof.HostTools
import Idealize.ShloMosaic.Lib.StableHlo.Run

set_option maxRecDepth 16384

noncomputable section

namespace Cert.Appnp.Host2

open Idealize.ShloMosaic Idealize.ShloMosaic.TcCoe Idealize.ShloMosaic.StableHlo Cert.KernelIdeal Cert.KernelIdeal.Gen Cert.Appnp

/-- The gathered rows this round: the filling take of the state at the source indices. -/
theorem take (W : Valuation τ sig (Elt Ideal)) :
    (StableHlo.after hostOps5 W (Proc.devRef .tc main_v62) : FVec Ideal S1700000x40 .f32)
      = K.takeV (W (Proc.devRef .tc main_v10)) (W (Proc.devRef .tc main_v61)) := by
  after_results_simp
  simp only [ofBuf_toBuf]
  refine (eq_of_heq (toBuf_heq _ _)).trans ?_
  unfold K.takeV K.wrapV
  congr

theorem keepT_main_v10 (W : Valuation τ sig (Elt Ideal)) :
    StableHlo.after hostOps5 W (Proc.devRef .tc main_v10) = W (Proc.devRef .tc main_v10) := by
  after_results_simp
theorem keepT_main_v13 (W : Valuation τ sig (Elt Ideal)) :
    StableHlo.after hostOps5 W (Proc.devRef .tc main_v13) = W (Proc.devRef .tc main_v13) := by
  after_results_simp
theorem keepT_main_v39 (W : Valuation τ sig (Elt Ideal)) :
    StableHlo.after hostOps5 W (Proc.devRef .tc main_v39) = W (Proc.devRef .tc main_v39) := by
  after_results_simp
theorem keepT_main_v6 (W : Valuation τ sig (Elt Ideal)) :
    StableHlo.after hostOps5 W (Proc.devRef .tc main_v6) = W (Proc.devRef .tc main_v6) := by
  after_results_simp

/-- The summed messages this round: the scaled edge rows added into their destinations, from zero. -/
theorem scat (W : Valuation τ sig (Elt Ideal)) :
    (StableHlo.after hostOps6 W (Proc.devRef .tc main_v71) : FVec Ideal S100000x40 .f32)
      = Host.scatterAdd (F := Ideal) scatter_S100000x40_S1700000x1_S1700000x40_1_0_0_1
          (broadcastInDim S100000x40 ![] bcast_S_S100000x40 (constant S_ .f32 0x00000000#32))
          (K.wrapV (W (Proc.devRef .tc main_v13))) (W (Proc.devRef .tc main_v63)) := by
  after_results_simp
  rfl

theorem keepS_main_v10 (W : Valuation τ sig (Elt Ideal)) :
    StableHlo.after hostOps6 W (Proc.devRef .tc main_v10) = W (Proc.devRef .tc main_v10) := by
  after_results_simp
theorem keepS_main_v13 (W : Valuation τ sig (Elt Ideal)) :
    StableHlo.after hostOps6 W (Proc.devRef .tc main_v13) = W (Proc.devRef .tc main_v13) := by
  after_results_simp
theorem keepS_main_v39 (W : Valuation τ sig (Elt Ideal)) :
    StableHlo.after hostOps6 W (Proc.devRef .tc main_v39) = W (Proc.devRef .tc main_v39) := by
  after_results_simp
theorem keepS_main_v6 (W : Valuation τ sig (Elt Ideal)) :
    StableHlo.after hostOps6 W (Proc.devRef .tc main_v6) = W (Proc.devRef .tc main_v6) := by
  after_results_simp

end Cert.Appnp.Host2

end
-- ==== Proof.RegionScale5.lean ====
/-
  A scaling region in closed form (which round it belongs to, the region number in the names below says): whatever
  the buffers hold when the region is entered, the region leaves
  in its output array row e of the gathered messages times the weight of edge e, that is `scaleG` of the two
  input arrays.

  Each grid point stages 10000 rows of the message array and of the weight column, multiplies every row by its
  weight, and writes the 10000 rows back at the same place; the blocks of the 170 points tile the 1 700 000 rows.
-/
import proofs.«400473_j77575699301005_1_alg».proof.Proof.Gen.KernelIdeal.Frame
import proofs.«400473_j77575699301005_1_alg».proof.Proof.Spec
import Idealize.ShloMosaic.Lib.Pipeline.Value
import Idealize.ShloMosaic.Lib.ValueIdx
import Idealize.ShloMosaic.Lib.ValueLayout

set_option maxRecDepth 16384

noncomputable section

namespace Cert.Appnp.Scale5
open Idealize.ShloMosaic Idealize.ShloMosaic.TcCoe Idealize.ShloMosaic.ValueIdx Idealize.ShloMosaic.Pipeline Cert.KernelIdeal Cert.KernelIdeal.Gen Cert.Appnp
variable (V : (c : Dev nD) → (b : Ref sig .tc) → Buf (Elt Ideal) ((c : Thread nD τ).loc b))

/-- The body loads and stores whole blocks: the offset of each of its rectangles is zero on both axes. -/
theorem off_zero : (![0, 0] : Fin 2 → Nat) = fun _ => 0 :=
  funext fun a => match a with | ⟨0, _⟩ => rfl | ⟨1, _⟩ => rfl

/-- The product the body stores, at one index of a block: the message entry times the weight of its row (the
    weight column is broadcast along the 40 features). -/
theorem pay_apply (xm : Vec Ideal S10000x40 .f32) (xw : Vec Ideal S10000x1 .f32) (j : S10000x40.Idx) :
    k5_pay1 (F := Ideal) xm xw j = xm j * xw (ix2 (j 0) 0) := by
  unfold k5_pay1
  rw [shapeCast_self, shapeCast_self]
  show xm j * broadcastTo S10000x40 xw _ j = _
  congr 1
  refine broadcastTo_apply xw _ j (ix2 (j 0) 0) fun a => ?_
  match a with
  | ⟨0, _⟩ => rfl
  | ⟨1, _⟩ => rfl

/-- The three index maps, decided over the 170 points: point `t` takes block row `t` of each array, block column 0. -/
theorem idx_facts : ∀ t : Fin cfg5.N, win5_0.index t (0 : Fin 2) = win5_2.index t (0 : Fin 2)
    ∧ win5_0.index t (1 : Fin 2) = win5_2.index t (1 : Fin 2)
    ∧ win5_1.index t (0 : Fin 2) = win5_2.index t (0 : Fin 2)
    ∧ win5_1.index t (1 : Fin 2) = 0
    ∧ win5_2.index t (0 : Fin 2) = t.val
    ∧ win5_2.index t (1 : Fin 2) = 0 :=
  (by decide +kernel : ∀ t : Fin grid5.N, _)

/-- One entry of the product, read at array indices: when the message index is the output index and the weight
    index is the output row in column 0, the product is `scaleG` there. -/
theorem scale_at (Am : SM40.Idx → EReal) (Aw : SM1.Idx → EReal) (im io : SM40.Idx) (iw : SM1.Idx)
    (hm : im = io) (hw : iw = ix2 (io 0) 0) : Am im * Aw iw = scaleG Am Aw io := by
  subst hm hw; rfl

/-- What point `t` writes back is block `t` of `scaleG` of the two input arrays. -/
theorem flushed_eq (c : Dev nD) (t : Fin cfg5.N) :
    (dat5 (F := Ideal) V c).flushed 2 t = ((cfg5.win 2).blk t).view.read (Elt Ideal) (scaleG (V c (Pipeline.arrRef spec5 0)) (V c (Pipeline.arrRef spec5 1))) := by
  show (cfg5.win 2).cut (grid5.coords t) ((dat5 V c).after 2 t) = _
  rw [after5_2]
  unfold out5_2
  rw [View.canon_unit_zero off_zero]
  simp only [View.ld_unit_zero (S := S10000x40) off_zero, View.ld_unit_zero (S := S10000x1) off_zero]
  obtain ⟨ea, eb, ec, ed, ee, ef⟩ := idx_facts t
  funext j
  show k5_pay1 (F := Ideal) (iblk5 V c 0 t) (iblk5 V c 1 t) j = scaleG (V c (Pipeline.arrRef spec5 0)) (V c (Pipeline.arrRef spec5 1)) (((cfg5.win 2).blk t).view.emb j)
  rw [pay_apply]
  refine scale_at (V c (Pipeline.arrRef spec5 0)) (V c (Pipeline.arrRef spec5 1)) (((cfg5.win 0).blk t).view.emb j) (((cfg5.win 2).blk t).view.emb j)
    (((cfg5.win 1).blk t).view.emb (ix2 (j 0) 0 : S10000x1.Idx)) ?_ ?_
  · funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 40 + 1 * (j 1).val = win5_2.index t (1 : Fin 2) * 40 + 1 * (j 1).val; omega
  · funext a; apply Fin.ext
    match a with
    | ⟨0, _⟩ => show win5_1.index t (0 : Fin 2) * 10000 + 1 * (j 0).val = win5_2.index t (0 : Fin 2) * 10000 + 1 * (j 0).val; omega
    | ⟨1, _⟩ => show win5_1.index t (1 : Fin 2) * 1 + 1 * 0 = 0; omega

/-- An index of the output array is in the block of point `t` iff each coordinate is in the range of the block on
    its axis. -/
theorem mem_blk (t : Fin cfg5.N) (i : S1700000x40.Idx) :
    i ∈ ((cfg5.win 2).blk t).view.set ↔ ∀ a : Fin 2, win5_2.index t a * S10000x40.size a ≤ (i a).val ∧ (i a).val < win5_2.index t a * S10000x40.size a + S10000x40.size a := by
  show i ∈ ((View.whole (Pipeline.arrRef spec5 2)).slice (win5_2.rect t)).set ↔ _
  rw [View.set_slice_whole, Rect.mem_set_unit]
  exact Iff.rfl

/-- Every index of the output array lies in the block of some point (170 blocks of 10000 rows): row `r` is in the
    block of point `r / 10000`. -/
theorem cover (i : S1700000x40.Idx) : ∃ t : Fin cfg5.N, (cfg5.win 2).flush t = true ∧ i ∈ ((cfg5.win 2).blk t).view.set := by
  have hr : (i 0).val < 1700000 := (i 0).isLt
  have hc : (i 1).val < 40 := (i 1).isLt
  have hN : grid5.N = 170 := N_5
  obtain ⟨t, ht⟩ : ∃ t : Fin cfg5.N, t.val = (i 0).val / 10000 :=
    ⟨⟨(i 0).val / 10000, by show _ < grid5.N; rw [hN]; omega⟩, rfl⟩
  obtain ⟨ea, eb, ec, ed, ee, ef⟩ := idx_facts t
  refine ⟨t, flush5_2 t, ?_⟩
  rw [mem_blk]
  intro a
  match a with
  | ⟨0, _⟩ =>
    show win5_2.index t (0 : Fin 2) * 10000 ≤ (i 0).val ∧ (i 0).val < win5_2.index t (0 : Fin 2) * 10000 + 10000
    omega
  | ⟨1, _⟩ =>
    show win5_2.index t (1 : Fin 2) * 40 ≤ (i 1).val ∧ (i 1).val < win5_2.index t (1 : Fin 2) * 40 + 40
    omega

/-- The output array after the region. -/
theorem final (c : Dev nD) :
    (dat5 (F := Ideal) V c).arrAt 2 cfg5.N = scaleG (V c (Pipeline.arrRef spec5 0)) (V c (Pipeline.arrRef spec5 1)) :=
  (dat5 V c).arrAt_eq_of_cover 2 _ (fun t _ => flushed_eq V c t) cover

end Cert.Appnp.Scale5

end
-- ==== Proof.RegionCombine6.lean ====
/-
  A mixing region in closed form: whatever the two input arrays hold when the region is
  entered, the output array after the region is `combineG` of them, index by index. Each grid point stages
  rows `10000·t … 10000·t + 9999` of both inputs and of the output (the three index maps are the same map),
  the body writes `0.9·agg + 0.1·h₀` over the staged block, and the ten blocks tile the 100000 rows.
-/
import proofs.«400473_j77575699301005_1_alg».proof.Proof.Gen.KernelIdeal.Frame
import proofs.«400473_j77575699301005_1_alg».proof.Proof.Spec
import Idealize.ShloMosaic.Lib.Pipeline.Value
import Idealize.ShloMosaic.Lib.ValueIdx
import Idealize.ShloMosaic.Lib.ValueLayout

set_option maxRecDepth 16384

noncomputable section

namespace Cert.Appnp.Combine6
open Idealize.ShloMosaic Idealize.ShloMosaic.ValueIdx Idealize.ShloMosaic.Pipeline Cert.KernelIdeal Cert.KernelIdeal.Gen Cert.Appnp
open Idealize.ShloMosaic.TcCoe
variable (V : (c : Dev nD) → (b : Ref sig .tc) → Buf (Elt Ideal) ((c : Thread nD τ).loc b))

/-- The body's one rectangle starts at the origin of its block. -/
theorem hz : (![0, 0] : Fin 2 → Nat) = fun _ => 0 := funext fun a => by fin_cases a <;> rfl

/-- The body's payload at an index of the block: the two constants times the two loaded blocks, added. -/
theorem pay_apply (x0 x1 : Vec Ideal S10000x40 .f32) (j : S10000x40.Idx) :
    k6_pay1 (F := Ideal) x0 x1 j = Ideal.ofBits .f32 0x3F666666#32 * x0 j + Ideal.ofBits .f32 0x3DCCCCCD#32 * x1 j := by
  unfold k6_pay1
  simp only [shapeCast_self, addf_apply, mulf_apply, broadcast_apply]
  rfl

/-- The three index maps, decided over the grid: both inputs' blocks move with the output's, whose block index
    is at most 9 on the row axis and 0 on the column axis. -/
theorem idx_facts : ∀ t : Fin cfg6.N, win6_0.index t (0 : Fin 2) = win6_2.index t (0 : Fin 2)
    ∧ win6_0.index t (1 : Fin 2) = win6_2.index t (1 : Fin 2)
    ∧ win6_1.index t (0 : Fin 2) = win6_2.index t (0 : Fin 2)
    ∧ win6_1.index t (1 : Fin 2) = win6_2.index t (1 : Fin 2)
    ∧ win6_2.index t (0 : Fin 2) ≤ 9
    ∧ win6_2.index t (1 : Fin 2) = 0 :=
  (by decide +kernel : ∀ t : Fin grid6.N, _)

/-- Every one of the ten row blocks of the output is some point's. -/
theorem idx_onto : ∀ (q0 : Fin 10), ∃ t : Fin cfg6.N, win6_2.index t = ![q0.val, 0] :=
  (by decide +kernel : ∀ (q0 : Fin 10), ∃ t : Fin grid6.N, win6_2.index t = ![q0.val, 0])

/-- What point t writes back is block t of combineG of the two input arrays. -/
theorem flushed_eq (c : Dev nD) (t : Fin cfg6.N) :
    (dat6 (F := Ideal) V c).flushed 2 t = ((cfg6.win 2).blk t).view.read (Elt Ideal) (combineG (V c (Pipeline.arrRef spec6 0)) (V c (Pipeline.arrRef spec6 1))) := by
  show (cfg6.win 2).cut (grid6.coords t) ((dat6 V c).after 2 t) = _
  rw [after6_2]
  unfold out6_2
  rw [View.canon_unit_zero hz]
  simp only [View.ld_unit_zero (S := S10000x40) hz]
  obtain ⟨ea, eb, ec, ed, ee, ef⟩ := idx_facts t
  funext j
  refine (pay_apply _ _ _).trans ?_
  show Ideal.ofBits .f32 0x3F666666#32 * V c (Pipeline.arrRef spec6 0) (((cfg6.win 0).blk t).view.emb j) + Ideal.ofBits .f32 0x3DCCCCCD#32 * V c (Pipeline.arrRef spec6 1) (((cfg6.win 1).blk t).view.emb j) = Ideal.ofBits .f32 0x3F666666#32 * V c (Pipeline.arrRef spec6 0) (((cfg6.win 2).blk t).view.emb j) + Ideal.ofBits .f32 0x3DCCCCCD#32 * V c (Pipeline.arrRef spec6 1) (((cfg6.win 2).blk t).view.emb j)
  have h0 : ((cfg6.win 0).blk t).view.emb j = ((cfg6.win 2).blk t).view.emb j := by
    funext a; apply Fin.ext
    match a with
    | ⟨0, _⟩ => show win6_0.index t (0 : Fin 2) * 10000 + 1 * (j 0).val = win6_2.index t (0 : Fin 2) * 10000 + 1 * (j 0).val; omega
    | ⟨1, _⟩ => show win6_0.index t (1 : Fin 2) * 40 + 1 * (j 1).val = win6_2.index t (1 : Fin 2) * 40 + 1 * (j 1).val; omega
  have h1 : ((cfg6.win 1).blk t).view.emb j = ((cfg6.win 2).blk t).view.emb j := by
    funext a; apply Fin.ext
    match a with
    | ⟨0, _⟩ => show win6_1.index t (0 : Fin 2) * 10000 + 1 * (j 0).val = win6_2.index t (0 : Fin 2) * 10000 + 1 * (j 0).val; omega
    | ⟨1, _⟩ => show win6_1.index t (1 : Fin 2) * 40 + 1 * (j 1).val = win6_2.index t (1 : Fin 2) * 40 + 1 * (j 1).val; omega
  rw [h0, h1]

/-- An index of the output array is in point t's block iff each coordinate is in the block's range on its axis. -/
theorem mem_blk (t : Fin cfg6.N) (i : S100000x40.Idx) :
    i ∈ ((cfg6.win 2).blk t).view.set ↔ ∀ a : Fin 2, win6_2.index t a * S10000x40.size a ≤ (i a).val ∧ (i a).val < win6_2.index t a * S10000x40.size a + S10000x40.size a := by
  show i ∈ ((View.whole (Pipeline.arrRef spec6 2)).slice (win6_2.rect t)).set ↔ _
  rw [View.set_slice_whole, Rect.mem_set_unit]
  exact Iff.rfl

/-- Every index of the output array lies in some point's block (10 blocks of 10000 rows): row r is in block r / 10000. -/
theorem cover (i : S100000x40.Idx) : ∃ t : Fin cfg6.N, (cfg6.win 2).flush t = true ∧ i ∈ ((cfg6.win 2).blk t).view.set := by
  have hi0 : (i 0).val < 100000 := (i 0).isLt
  have hi1 : (i 1).val < 40 := (i 1).isLt
  obtain ⟨t, ht⟩ := idx_onto ⟨(i 0).val / 10000, by omega⟩
  have q0 : win6_2.index t (0 : Fin 2) = (i 0).val / 10000 := congrFun ht 0
  have q1 : win6_2.index t (1 : Fin 2) = 0 := congrFun ht 1
  refine ⟨t, flush6_2 t, ?_⟩
  rw [mem_blk]
  intro a
  match a with
  | ⟨0, _⟩ => show win6_2.index t (0 : Fin 2) * 10000 ≤ (i 0).val ∧ (i 0).val < win6_2.index t (0 : Fin 2) * 10000 + 10000; omega
  | ⟨1, _⟩ => show win6_2.index t (1 : Fin 2) * 40 ≤ (i 1).val ∧ (i 1).val < win6_2.index t (1 : Fin 2) * 40 + 40; omega

/-- The output array after the region. -/
theorem final (c : Dev nD) :
    (dat6 (F := Ideal) V c).arrAt 2 cfg6.N = combineG (V c (Pipeline.arrRef spec6 0)) (V c (Pipeline.arrRef spec6 1)) :=
  (dat6 V c).arrAt_eq_of_cover 2 _ (fun t _ => flushed_eq V c t) cover

end Cert.Appnp.Combine6

end
-- ==== Proof.Round2.lean ====
/-
  Round 3 of the propagation on the kernel's side, boundary by boundary. Entering the round (boundary 11 of the
  run) the source and destination indices, the weight column and the encoder's output hold what the host computed
  once, and the round's state is some `X`. The take stretch reads the rows of `X` at the sources — the plain gather,
  every source index being in range —; the scaling region multiplies row e by weight e; the scatter stretch adds
  the rows into their destinations; the mixing region forms 0.9 · sum + 0.1 · encoder output. So the round leaves
  `stepG … X`, and the four shared buffers as they were.
-/
import proofs.«400473_j77575699301005_1_alg».proof.Proof.Gen.KernelIdeal.Frame
import proofs.«400473_j77575699301005_1_alg».proof.Proof.Spec
import proofs.«400473_j77575699301005_1_alg».proof.Proof.KernelTerms
import proofs.«400473_j77575699301005_1_alg».proof.Proof.TakeMask
import proofs.«400473_j77575699301005_1_alg».proof.Proof.Host2
import proofs.«400473_j77575699301005_1_alg».proof.Proof.RegionScale5
import proofs.«400473_j77575699301005_1_alg».proof.Proof.RegionCombine6

set_option maxRecDepth 16384

noncomputable section

namespace Cert.Appnp.Round2

open Idealize.ShloMosaic Idealize.ShloMosaic.TcCoe Cert.KernelIdeal Cert.KernelIdeal.Gen Cert.Appnp

variable (m : (ℓ : Loc nD τ sig) → Buf (Elt Ideal) ℓ) (ρ : Dev nD → PrngReg)

set_option maxHeartbeats 4000000 in
/-- One round, from boundary 11 to boundary 15. -/
theorem round (c : Dev nD) (ei : IVec S2x1600000 32) (H0 X : FVec Ideal S100000x40 .f32)
    (hin : ∀ j : S1700000.Idx, K.InRange (K.srcV ei j))
    (hsrc : (W11 m ρ c (Proc.devRef .tc main_v10) : IVec S1700000 32) = K.srcV ei)
    (hdst : (W11 m ρ c (Proc.devRef .tc main_v13) : IVec S1700000 32) = K.dstV ei)
    (hnrm : (W11 m ρ c (Proc.devRef .tc main_v39) : FVec Ideal S1700000x1 .f32) = K.nrm2V ei)
    (hh0 : (W11 m ρ c (Proc.devRef .tc main_v6) : FVec Ideal S100000x40 .f32) = H0)
    (hx : (W11 m ρ c (Proc.devRef .tc main_v61) : FVec Ideal S100000x40 .f32) = X) :
    (W15 m ρ c (Proc.devRef .tc main_v10) : IVec S1700000 32) = K.srcV ei
    ∧ (W15 m ρ c (Proc.devRef .tc main_v13) : IVec S1700000 32) = K.dstV ei
    ∧ (W15 m ρ c (Proc.devRef .tc main_v39) : FVec Ideal S1700000x1 .f32) = K.nrm2V ei
    ∧ (W15 m ρ c (Proc.devRef .tc main_v6) : FVec Ideal S100000x40 .f32) = H0
    ∧ (W15 m ρ c (Proc.devRef .tc main_v72) : FVec Ideal S100000x40 .f32)
        = stepG (K.gatV ei) (K.scaV ei) (K.nrm2V ei) H0 X := by
  -- after the take stretch (boundary 12)
  have s1 : (W12 m ρ c (Proc.devRef .tc main_v10) : IVec S1700000 32) = K.srcV ei := (Host2.keepT_main_v10 _).trans hsrc
  have d1 : (W12 m ρ c (Proc.devRef .tc main_v13) : IVec S1700000 32) = K.dstV ei := (Host2.keepT_main_v13 _).trans hdst
  have n1 : (W12 m ρ c (Proc.devRef .tc main_v39) : FVec Ideal S1700000x1 .f32) = K.nrm2V ei := (Host2.keepT_main_v39 _).trans hnrm
  have z1 : (W12 m ρ c (Proc.devRef .tc main_v6) : FVec Ideal S100000x40 .f32) = H0 := (Host2.keepT_main_v6 _).trans hh0
  have t1 : (W12 m ρ c (Proc.devRef .tc main_v62) : FVec Ideal S1700000x40 .f32) = K.gatV ei X := by
    refine (Host2.take (W11 m ρ c)).trans ?_
    rw [hsrc, hx]
    exact K.takeV_eq _ _ hin
  -- after the scaling region (boundary 13)
  have s2 : (W13 m ρ c (Proc.devRef .tc main_v10) : IVec S1700000 32) = K.srcV ei := (W13_of_ne m ρ c main_v10 (by decide)).trans s1
  have d2 : (W13 m ρ c (Proc.devRef .tc main_v13) : IVec S1700000 32) = K.dstV ei := (W13_of_ne m ρ c main_v13 (by decide)).trans d1
  have n2 : (W13 m ρ c (Proc.devRef .tc main_v39) : FVec Ideal S1700000x1 .f32) = K.nrm2V ei := ((W13_arr m ρ c 1).trans (((dat5 (V12 m ρ) c).arrAt_in 1 rfl _).trans (A_eq5 (V12 m ρ) c 1))).trans n1
  have z2 : (W13 m ρ c (Proc.devRef .tc main_v6) : FVec Ideal S100000x40 .f32) = H0 := (W13_of_ne m ρ c main_v6 (by decide)).trans z1
  have m2 : (W13 m ρ c (Proc.devRef .tc main_v63) : FVec Ideal S1700000x40 .f32) = scaleG (K.gatV ei X) (K.nrm2V ei) := by
    refine (W13_arr m ρ c 2).trans ((Scale5.final (V12 m ρ) c).trans ?_)
    rw [show (V12 m ρ c (Pipeline.arrRef spec5 0) : FVec Ideal S1700000x40 .f32) = K.gatV ei X from t1,
      show (V12 m ρ c (Pipeline.arrRef spec5 1) : FVec Ideal S1700000x1 .f32) = K.nrm2V ei from n1]
  -- after the scatter stretch (boundary 14)
  have s3 : (W14 m ρ c (Proc.devRef .tc main_v10) : IVec S1700000 32) = K.srcV ei := (Host2.keepS_main_v10 _).trans s2
  have d3 : (W14 m ρ c (Proc.devRef .tc main_v13) : IVec S1700000 32) = K.dstV ei := (Host2.keepS_main_v13 _).trans d2
  have n3 : (W14 m ρ c (Proc.devRef .tc main_v39) : FVec Ideal S1700000x1 .f32) = K.nrm2V ei := (Host2.keepS_main_v39 _).trans n2
  have z3 : (W14 m ρ c (Proc.devRef .tc main_v6) : FVec Ideal S100000x40 .f32) = H0 := (Host2.keepS_main_v6 _).trans z2
  have a3 : (W14 m ρ c (Proc.devRef .tc main_v71) : FVec Ideal S100000x40 .f32)
      = K.scaV ei (scaleG (K.gatV ei X) (K.nrm2V ei)) := by
    refine (Host2.scat (W13 m ρ c)).trans ?_
    rw [d2, m2]
    rfl
  -- after the mixing region (boundary 15)
  have s4 : (W15 m ρ c (Proc.devRef .tc main_v10) : IVec S1700000 32) = K.srcV ei := (W15_of_ne m ρ c main_v10 (by decide)).trans s3
  have d4 : (W15 m ρ c (Proc.devRef .tc main_v13) : IVec S1700000 32) = K.dstV ei := (W15_of_ne m ρ c main_v13 (by decide)).trans d3
  have n4 : (W15 m ρ c (Proc.devRef .tc main_v39) : FVec Ideal S1700000x1 .f32) = K.nrm2V ei := (W15_of_ne m ρ c main_v39 (by decide)).trans n3
  have z4 : (W15 m ρ c (Proc.devRef .tc main_v6) : FVec Ideal S100000x40 .f32) = H0 := ((W15_arr m ρ c 1).trans (((dat6 (V14 m ρ) c).arrAt_in 1 rfl _).trans (A_eq6 (V14 m ρ) c 1))).trans z3
  have c4 : (W15 m ρ c (Proc.devRef .tc main_v72) : FVec Ideal S100000x40 .f32)
      = combineG (K.scaV ei (scaleG (K.gatV ei X) (K.nrm2V ei))) H0 := by
    refine (W15_arr m ρ c 2).trans ((Combine6.final (V14 m ρ) c).trans ?_)
    rw [show (V14 m ρ c (Pipeline.arrRef spec6 0) : FVec Ideal S100000x40 .f32) = K.scaV ei (scaleG (K.gatV ei X) (K.nrm2V ei)) from a3,
      show (V14 m ρ c (Pipeline.arrRef spec6 1) : FVec Ideal S100000x40 .f32) = H0 from z3]
  exact ⟨s4, d4, n4, z4, c4⟩

end Cert.Appnp.Round2

end
-- ==== Proof.Host3.lean ====
/-
  Round 4 of the propagation, host side, over ANY contents `W` of the buffers: the stretch before the scaling
  region reads the rows of the round's state at the source indices the filling way (`K.takeV`); the stretch before
  the mixing region adds the scaled edge rows into their destination nodes from zero; neither writes the four
  buffers every round reads (the source and destination indices, the weight column, the encoder's output).
-/
import proofs.«400473_j77575699301005_1_alg».proof.Proof.Gen.KernelIdeal.Launch
import proofs.«400473_j77575699301005_1_alg».proof.Proof.KernelTerms
import proofs.«400473_j77575699301005_1_alg».proof.Proof.HostTools
import Idealize.ShloMosaic.Lib.StableHlo.Run

set_option maxRecDepth 16384

noncomputable section

namespace Cert.Appnp.Host3

open Idealize.ShloMosaic Idealize.ShloMosaic.TcCoe Idealize.ShloMosaic.StableHlo Cert.KernelIdeal Cert.KernelIdeal.Gen Cert.Appnp

/-- The gathered rows this round: the filling take of the state at the source indices. -/
theorem take (W : Valuation τ sig (Elt Ideal)) :
    (StableHlo.after hostOps7 W (Proc.devRef .tc main_v73) : FVec Ideal S1700000x40 .f32)
      = K.takeV (W (Proc.devRef .tc main_v10)) (W (Proc.devRef .tc main_v72)) := by
  after_results_simp
  simp only [ofBuf_toBuf]
  refine (eq_of_heq (toBuf_heq _ _)).trans ?_
  unfold K.takeV K.wrapV
  congr

theorem keepT_main_v10 (W : Valuation τ sig (Elt Ideal)) :
    StableHlo.after hostOps7 W (Proc.devRef .tc main_v10) = W (Proc.devRef .tc main_v10) := by
  after_results_simp
theorem keepT_main_v13 (W : Valuation τ sig (Elt Ideal)) :
    StableHlo.after hostOps7 W (Proc.devRef .tc main_v13) = W (Proc.devRef .tc main_v13) := by
  after_results_simp
theorem keepT_main_v39 (W : Valuation τ sig (Elt Ideal)) :
    StableHlo.after hostOps7 W (Proc.devRef .tc main_v39) = W (Proc.devRef .tc main_v39) := by
  after_results_simp
theorem keepT_main_v6 (W : Valuation τ sig (Elt Ideal)) :
    StableHlo.after hostOps7 W (Proc.devRef .tc main_v6) = W (Proc.devRef .tc main_v6) := by
  after_results_simp

/-- The summed messages this round: the scaled edge rows added into their destinations, from zero. -/
theorem scat (W : Valuation τ sig (Elt Ideal)) :
    (StableHlo.after hostOps8 W (Proc.devRef .tc main_v82) : FVec Ideal S100000x40 .f32)
      = Host.scatterAdd (F := Ideal) scatter_S100000x40_S1700000x1_S1700000x40_1_0_0_1
          (broadcastInDim S100000x40 ![] bcast_S_S100000x40 (constant S_ .f32 0x00000000#32))
          (K.wrapV (W (Proc.devRef .tc main_v13))) (W (Proc.devRef .tc main_v74)) := by
  after_results_simp
  rfl

theorem keepS_main_v10 (W : Valuation τ sig (Elt Ideal)) :
    StableHlo.after hostOps8 W (Proc.devRef .tc main_v10) = W (Proc.devRef .tc main_v10) := by
  after_results_simp
theorem keepS_main_v13 (W : Valuation τ sig (Elt Ideal)) :
    StableHlo.after hostOps8 W (Proc.devRef .tc main_v13) = W (Proc.devRef .tc main_v13) := by
  after_results_simp
theorem keepS_main_v39 (W : Valuation τ sig (Elt Ideal)) :
    StableHlo.after hostOps8 W (Proc.devRef .tc main_v39) = W (Proc.devRef .tc main_v39) := by
  after_results_simp
theorem keepS_main_v6 (W : Valuation τ sig (Elt Ideal)) :
    StableHlo.after hostOps8 W (Proc.devRef .tc main_v6) = W (Proc.devRef .tc main_v6) := by
  after_results_simp

end Cert.Appnp.Host3

end
-- ==== Proof.RegionScale7.lean ====
/-
  A scaling region in closed form (which round it belongs to, the region number in the names below says): whatever
  the buffers hold when the region is entered, the region leaves
  in its output array row e of the gathered messages times the weight of edge e, that is `scaleG` of the two
  input arrays.

  Each grid point stages 10000 rows of the message array and of the weight column, multiplies every row by its
  weight, and writes the 10000 rows back at the same place; the blocks of the 170 points tile the 1 700 000 rows.
-/
import proofs.«400473_j77575699301005_1_alg».proof.Proof.Gen.KernelIdeal.Frame
import proofs.«400473_j77575699301005_1_alg».proof.Proof.Spec
import Idealize.ShloMosaic.Lib.Pipeline.Value
import Idealize.ShloMosaic.Lib.ValueIdx
import Idealize.ShloMosaic.Lib.ValueLayout

set_option maxRecDepth 16384

noncomputable section

namespace Cert.Appnp.Scale7
open Idealize.ShloMosaic Idealize.ShloMosaic.TcCoe Idealize.ShloMosaic.ValueIdx Idealize.ShloMosaic.Pipeline Cert.KernelIdeal Cert.KernelIdeal.Gen Cert.Appnp
variable (V : (c : Dev nD) → (b : Ref sig .tc) → Buf (Elt Ideal) ((c : Thread nD τ).loc b))

/-- The body loads and stores whole blocks: the offset of each of its rectangles is zero on both axes. -/
theorem off_zero : (![0, 0] : Fin 2 → Nat) = fun _ => 0 :=
  funext fun a => match a with | ⟨0, _⟩ => rfl | ⟨1, _⟩ => rfl

/-- The product the body stores, at one index of a block: the message entry times the weight of its row (the
    weight column is broadcast along the 40 features). -/
theorem pay_apply (xm : Vec Ideal S10000x40 .f32) (xw : Vec Ideal S10000x1 .f32) (j : S10000x40.Idx) :
    k7_pay1 (F := Ideal) xm xw j = xm j * xw (ix2 (j 0) 0) := by
  unfold k7_pay1
  rw [shapeCast_self, shapeCast_self]
  show xm j * broadcastTo S10000x40 xw _ j = _
  congr 1
  refine broadcastTo_apply xw _ j (ix2 (j 0) 0) fun a => ?_
  match a with
  | ⟨0, _⟩ => rfl
  | ⟨1, _⟩ => rfl

/-- The three index maps, decided over the 170 points: point `t` takes block row `t` of each array, block column 0. -/
theorem idx_facts : ∀ t : Fin cfg7.N, win7_0.index t (0 : Fin 2) = win7_2.index t (0 : Fin 2)
    ∧ win7_0.index t (1 : Fin 2) = win7_2.index t (1 : Fin 2)
    ∧ win7_1.index t (0 : Fin 2) = win7_2.index t (0 : Fin 2)
    ∧ win7_1.index t (1 : Fin 2) = 0
    ∧ win7_2.index t (0 : Fin 2) = t.val
    ∧ win7_2.index t (1 : Fin 2) = 0 :=
  (by decide +kernel : ∀ t : Fin grid7.N, _)

/-- One entry of the product, read at array indices: when the message index is the output index and the weight
    index is the output row in column 0, the product is `scaleG` there. -/
theorem scale_at (Am : SM40.Idx → EReal) (Aw : SM1.Idx → EReal) (im io : SM40.Idx) (iw : SM1.Idx)
    (hm : im = io) (hw : iw = ix2 (io 0) 0) : Am im * Aw iw = scaleG Am Aw io := by
  subst hm hw; rfl

/-- What point `t` writes back is block `t` of `scaleG` of the two input arrays. -/
theorem flushed_eq (c : Dev nD) (t : Fin cfg7.N) :
    (dat7 (F := Ideal) V c).flushed 2 t = ((cfg7.win 2).blk t).view.read (Elt Ideal) (scaleG (V c (Pipeline.arrRef spec7 0)) (V c (Pipeline.arrRef spec7 1))) := by
  show (cfg7.win 2).cut (grid7.coords t) ((dat7 V c).after 2 t) = _
  rw [after7_2]
  unfold out7_2
  rw [View.canon_unit_zero off_zero]
  simp only [View.ld_unit_zero (S := S10000x40) off_zero, View.ld_unit_zero (S := S10000x1) off_zero]
  obtain ⟨ea, eb, ec, ed, ee, ef⟩ := idx_facts t
  funext j
  show k7_pay1 (F := Ideal) (iblk7 V c 0 t) (iblk7 V c 1 t) j = scaleG (V c (Pipeline.arrRef spec7 0)) (V c (Pipeline.arrRef spec7 1)) (((cfg7.win 2).blk t).view.emb j)
  rw [pay_apply]
  refine scale_at (V c (Pipeline.arrRef spec7 0)) (V c (Pipeline.arrRef spec7 1)) (((cfg7.win 0).blk t).view.emb j) (((cfg7.win 2).blk t).view.emb j)
    (((cfg7.win 1).blk t).view.emb (ix2 (j 0) 0 : S10000x1.Idx)) ?_ ?_
  · funext a; apply Fin.ext
    match a with
    | ⟨0, _⟩ => show win7_0.index t (0 : Fin 2) * 10000 + 1 * (j 0).val = win7_2.index t (0 : Fin 2) * 10000 + 1 * (j 0).val; omega
    | ⟨1, _⟩ => show win7_0.index t (1 : Fin 2) * 40 + 1 * (j 1).val = win7_2.index t (1 : Fin 2) * 40 + 1 * (j 1).val; omega
  · funext a; apply Fin.ext
    match a with
    | ⟨0, _⟩ => show win7_1.index t (0 : Fin 2) * 10000 + 1 * (j 0).val = win7_2.index t (0 : Fin 2) * 10000 + 1 * (j 0).val; omega
    | ⟨1, _⟩ => show win7_1.index t (1 : Fin 2) * 1 + 1 * 0 = 0; omega

/-- An index of the output array is in the block of point `t` iff each coordinate is in the range of the block on
    its axis. -/
theorem mem_blk (t : Fin cfg7.N) (i : S1700000x40.Idx) :
    i ∈ ((cfg7.win 2).blk t).view.set ↔ ∀ a : Fin 2, win7_2.index t a * S10000x40.size a ≤ (i a).val ∧ (i a).val < win7_2.index t a * S10000x40.size a + S10000x40.size a := by
  show i ∈ ((View.whole (Pipeline.arrRef spec7 2)).slice (win7_2.rect t)).set ↔ _
  rw [View.set_slice_whole, Rect.mem_set_unit]
  exact Iff.rfl

/-- Every index of the output array lies in the block of some point (170 blocks of 10000 rows): row `r` is in the
    block of point `r / 10000`. -/
theorem cover (i : S1700000x40.Idx) : ∃ t : Fin cfg7.N, (cfg7.win 2).flush t = true ∧ i ∈ ((cfg7.win 2).blk t).view.set := by
  have hr : (i 0).val < 1700000 := (i 0).isLt
  have hc : (i 1).val < 40 := (i 1).isLt
  have hN : grid7.N = 170 := N_7
  obtain ⟨t, ht⟩ : ∃ t : Fin cfg7.N, t.val = (i 0).val / 10000 :=
    ⟨⟨(i 0).val / 10000, by show _ < grid7.N; rw [hN]; omega⟩, rfl⟩
  obtain ⟨ea, eb, ec, ed, ee, ef⟩ := idx_facts t
  refine ⟨t, flush7_2 t, ?_⟩
  rw [mem_blk]
  intro a
  match a with
  | ⟨0, _⟩ =>
    show win7_2.index t (0 : Fin 2) * 10000 ≤ (i 0).val ∧ (i 0).val < win7_2.index t (0 : Fin 2) * 10000 + 10000
    omega
  | ⟨1, _⟩ =>
    show win7_2.index t (1 : Fin 2) * 40 ≤ (i 1).val ∧ (i 1).val < win7_2.index t (1 : Fin 2) * 40 + 40
    omega

/-- The output array after the region. -/
theorem final (c : Dev nD) :
    (dat7 (F := Ideal) V c).arrAt 2 cfg7.N = scaleG (V c (Pipeline.arrRef spec7 0)) (V c (Pipeline.arrRef spec7 1)) :=
  (dat7 V c).arrAt_eq_of_cover 2 _ (fun t _ => flushed_eq V c t) cover

end Cert.Appnp.Scale7

end
-- ==== Proof.RegionCombine8.lean ====
/-
  A mixing region in closed form: whatever the two input arrays hold when the region is
  entered, the output array after the region is `combineG` of them, index by index. Each grid point stages
  rows `10000·t … 10000·t + 9999` of both inputs and of the output (the three index maps are the same map),
  the body writes `0.9·agg + 0.1·h₀` over the staged block, and the ten blocks tile the 100000 rows.
-/
import proofs.«400473_j77575699301005_1_alg».proof.Proof.Gen.KernelIdeal.Frame
import proofs.«400473_j77575699301005_1_alg».proof.Proof.Spec
import Idealize.ShloMosaic.Lib.Pipeline.Value
import Idealize.ShloMosaic.Lib.ValueIdx
import Idealize.ShloMosaic.Lib.ValueLayout

set_option maxRecDepth 16384

noncomputable section

namespace Cert.Appnp.Combine8
open Idealize.ShloMosaic Idealize.ShloMosaic.ValueIdx Idealize.ShloMosaic.Pipeline Cert.KernelIdeal Cert.KernelIdeal.Gen Cert.Appnp
open Idealize.ShloMosaic.TcCoe
variable (V : (c : Dev nD) → (b : Ref sig .tc) → Buf (Elt Ideal) ((c : Thread nD τ).loc b))

/-- The body's one rectangle starts at the origin of its block. -/
theorem hz : (![0, 0] : Fin 2 → Nat) = fun _ => 0 := funext fun a => by fin_cases a <;> rfl

/-- The body's payload at an index of the block: the two constants times the two loaded blocks, added. -/
theorem pay_apply (x0 x1 : Vec Ideal S10000x40 .f32) (j : S10000x40.Idx) :
    k8_pay1 (F := Ideal) x0 x1 j = Ideal.ofBits .f32 0x3F666666#32 * x0 j + Ideal.ofBits .f32 0x3DCCCCCD#32 * x1 j := by
  unfold k8_pay1
  simp only [shapeCast_self, addf_apply, mulf_apply, broadcast_apply]
  rfl

/-- The three index maps, decided over the grid: both inputs' blocks move with the output's, whose block index
    is at most 9 on the row axis and 0 on the column axis. -/
theorem idx_facts : ∀ t : Fin cfg8.N, win8_0.index t (0 : Fin 2) = win8_2.index t (0 : Fin 2)
    ∧ win8_0.index t (1 : Fin 2) = win8_2.index t (1 : Fin 2)
    ∧ win8_1.index t (0 : Fin 2) = win8_2.index t (0 : Fin 2)
    ∧ win8_1.index t (1 : Fin 2) = win8_2.index t (1 : Fin 2)
    ∧ win8_2.index t (0 : Fin 2) ≤ 9
    ∧ win8_2.index t (1 : Fin 2) = 0 :=
  (by decide +kernel : ∀ t : Fin grid8.N, _)

/-- Every one of the ten row blocks of the output is some point's. -/
theorem idx_onto : ∀ (q0 : Fin 10), ∃ t : Fin cfg8.N, win8_2.index t = ![q0.val, 0] :=
  (by decide +kernel : ∀ (q0 : Fin 10), ∃ t : Fin grid8.N, win8_2.index t = ![q0.val, 0])

/-- What point t writes back is block t of combineG of the two input arrays. -/
theorem flushed_eq (c : Dev nD) (t : Fin cfg8.N) :
    (dat8 (F := Ideal) V c).flushed 2 t = ((cfg8.win 2).blk t).view.read (Elt Ideal) (combineG (V c (Pipeline.arrRef spec8 0)) (V c (Pipeline.arrRef spec8 1))) := by
  show (cfg8.win 2).cut (grid8.coords t) ((dat8 V c).after 2 t) = _
  rw [after8_2]
  unfold out8_2
  rw [View.canon_unit_zero hz]
  simp only [View.ld_unit_zero (S := S10000x40) hz]
  obtain ⟨ea, eb, ec, ed, ee, ef⟩ := idx_facts t
  funext j
  refine (pay_apply _ _ _).trans ?_
  show Ideal.ofBits .f32 0x3F666666#32 * V c (Pipeline.arrRef spec8 0) (((cfg8.win 0).blk t).view.emb j) + Ideal.ofBits .f32 0x3DCCCCCD#32 * V c (Pipeline.arrRef spec8 1) (((cfg8.win 1).blk t).view.emb j) = Ideal.ofBits .f32 0x3F666666#32 * V c (Pipeline.arrRef spec8 0) (((cfg8.win 2).blk t).view.emb j) + Ideal.ofBits .f32 0x3DCCCCCD#32 * V c (Pipeline.arrRef spec8 1) (((cfg8.win 2).blk t).view.emb j)
  have h0 : ((cfg8.win 0).blk t).view.emb j = ((cfg8.win 2).blk t).view.emb j := by
    funext a; apply Fin.ext
    match a with
    | ⟨0, _⟩ => show win8_0.index t (0 : Fin 2) * 10000 + 1 * (j 0).val = win8_2.index t (0 : Fin 2) * 10000 + 1 * (j 0).val; omega
    | ⟨1, _⟩ => show win8_0.index t (1 : Fin 2) * 40 + 1 * (j 1).val = win8_2.index t (1 : Fin 2) * 40 + 1 * (j 1).val; omega
  have h1 : ((cfg8.win 1).blk t).view.emb j = ((cfg8.win 2).blk t).view.emb j := by
    funext a; apply Fin.ext
    match a with
    | ⟨0, _⟩ => show win8_1.index t (0 : Fin 2) * 10000 + 1 * (j 0).val = win8_2.index t (0 : Fin 2) * 10000 + 1 * (j 0).val; omega
    | ⟨1, _⟩ => show win8_1.index t (1 : Fin 2) * 40 + 1 * (j 1).val = win8_2.index t (1 : Fin 2) * 40 + 1 * (j 1).val; omega
  rw [h0, h1]

/-- An index of the output array is in point t's block iff each coordinate is in the block's range on its axis. -/
theorem mem_blk (t : Fin cfg8.N) (i : S100000x40.Idx) :
    i ∈ ((cfg8.win 2).blk t).view.set ↔ ∀ a : Fin 2, win8_2.index t a * S10000x40.size a ≤ (i a).val ∧ (i a).val < win8_2.index t a * S10000x40.size a + S10000x40.size a := by
  show i ∈ ((View.whole (Pipeline.arrRef spec8 2)).slice (win8_2.rect t)).set ↔ _
  rw [View.set_slice_whole, Rect.mem_set_unit]
  exact Iff.rfl

/-- Every index of the output array lies in some point's block (10 blocks of 10000 rows): row r is in block r / 10000. -/
theorem cover (i : S100000x40.Idx) : ∃ t : Fin cfg8.N, (cfg8.win 2).flush t = true ∧ i ∈ ((cfg8.win 2).blk t).view.set := by
  have hi0 : (i 0).val < 100000 := (i 0).isLt
  have hi1 : (i 1).val < 40 := (i 1).isLt
  obtain ⟨t, ht⟩ := idx_onto ⟨(i 0).val / 10000, by omega⟩
  have q0 : win8_2.index t (0 : Fin 2) = (i 0).val / 10000 := congrFun ht 0
  have q1 : win8_2.index t (1 : Fin 2) = 0 := congrFun ht 1
  refine ⟨t, flush8_2 t, ?_⟩
  rw [mem_blk]
  intro a
  match a with
  | ⟨0, _⟩ => show win8_2.index t (0 : Fin 2) * 10000 ≤ (i 0).val ∧ (i 0).val < win8_2.index t (0 : Fin 2) * 10000 + 10000; omega
  | ⟨1, _⟩ => show win8_2.index t (1 : Fin 2) * 40 ≤ (i 1).val ∧ (i 1).val < win8_2.index t (1 : Fin 2) * 40 + 40; omega

/-- The output array after the region. -/
theorem final (c : Dev nD) :
    (dat8 (F := Ideal) V c).arrAt 2 cfg8.N = combineG (V c (Pipeline.arrRef spec8 0)) (V c (Pipeline.arrRef spec8 1)) :=
  (dat8 V c).arrAt_eq_of_cover 2 _ (fun t _ => flushed_eq V c t) cover

end Cert.Appnp.Combine8

end
-- ==== Proof.Round3.lean ====
/-
  Round 4 of the propagation on the kernel's side, boundary by boundary. Entering the round (boundary 15 of the
  run) the source and destination indices, the weight column and the encoder's output hold what the host computed
  once, and the round's state is some `X`. The take stretch reads the rows of `X` at the sources — the plain gather,
  every source index being in range —; the scaling region multiplies row e by weight e; the scatter stretch adds
  the rows into their destinations; the mixing region forms 0.9 · sum + 0.1 · encoder output. So the round leaves
  `stepG … X`, and the four shared buffers as they were.
-/
import proofs.«400473_j77575699301005_1_alg».proof.Proof.Gen.KernelIdeal.Frame
import proofs.«400473_j77575699301005_1_alg».proof.Proof.Spec
import proofs.«400473_j77575699301005_1_alg».proof.Proof.KernelTerms
import proofs.«400473_j77575699301005_1_alg».proof.Proof.TakeMask
import proofs.«400473_j77575699301005_1_alg».proof.Proof.Host3
import proofs.«400473_j77575699301005_1_alg».proof.Proof.RegionScale7
import proofs.«400473_j77575699301005_1_alg».proof.Proof.RegionCombine8

set_option maxRecDepth 16384

noncomputable section

namespace Cert.Appnp.Round3

open Idealize.ShloMosaic Idealize.ShloMosaic.TcCoe Cert.KernelIdeal Cert.KernelIdeal.Gen Cert.Appnp

variable (m : (ℓ : Loc nD τ sig) → Buf (Elt Ideal) ℓ) (ρ : Dev nD → PrngReg)

set_option maxHeartbeats 4000000 in
/-- One round, from boundary 15 to boundary 19. -/
theorem round (c : Dev nD) (ei : IVec S2x1600000 32) (H0 X : FVec Ideal S100000x40 .f32)
    (hin : ∀ j : S1700000.Idx, K.InRange (K.srcV ei j))
    (hsrc : (W15 m ρ c (Proc.devRef .tc main_v10) : IVec S1700000 32) = K.srcV ei)
    (hdst : (W15 m ρ c (Proc.devRef .tc main_v13) : IVec S1700000 32) = K.dstV ei)
    (hnrm : (W15 m ρ c (Proc.devRef .tc main_v39) : FVec Ideal S1700000x1 .f32) = K.nrm2V ei)
    (hh0 : (W15 m ρ c (Proc.devRef .tc main_v6) : FVec Ideal S100000x40 .f32) = H0)
    (hx : (W15 m ρ c (Proc.devRef .tc main_v72) : FVec Ideal S100000x40 .f32) = X) :
    (W19 m ρ c (Proc.devRef .tc main_v10) : IVec S1700000 32) = K.srcV ei
    ∧ (W19 m ρ c (Proc.devRef .tc main_v13) : IVec S1700000 32) = K.dstV ei
    ∧ (W19 m ρ c (Proc.devRef .tc main_v39) : FVec Ideal S1700000x1 .f32) = K.nrm2V ei
    ∧ (W19 m ρ c (Proc.devRef .tc main_v6) : FVec Ideal S100000x40 .f32) = H0
    ∧ (W19 m ρ c (Proc.devRef .tc main_v83) : FVec Ideal S100000x40 .f32)
        = stepG (K.gatV ei) (K.scaV ei) (K.nrm2V ei) H0 X := by
  -- after the take stretch (boundary 16)
  have s1 : (W16 m ρ c (Proc.devRef .tc main_v10) : IVec S1700000 32) = K.srcV ei := (Host3.keepT_main_v10 _).trans hsrc
  have d1 : (W16 m ρ c (Proc.devRef .tc main_v13) : IVec S1700000 32) = K.dstV ei := (Host3.keepT_main_v13 _).trans hdst
  have n1 : (W16 m ρ c (Proc.devRef .tc main_v39) : FVec Ideal S1700000x1 .f32) = K.nrm2V ei := (Host3.keepT_main_v39 _).trans hnrm
  have z1 : (W16 m ρ c (Proc.devRef .tc main_v6) : FVec Ideal S100000x40 .f32) = H0 := (Host3.keepT_main_v6 _).trans hh0
  have t1 : (W16 m ρ c (Proc.devRef .tc main_v73) : FVec Ideal S1700000x40 .f32) = K.gatV ei X := by
    refine (Host3.take (W15 m ρ c)).trans ?_
    rw [hsrc, hx]
    exact K.takeV_eq _ _ hin
  -- after the scaling region (boundary 17)
  have s2 : (W17 m ρ c (Proc.devRef .tc main_v10) : IVec S1700000 32) = K.srcV ei := (W17_of_ne m ρ c main_v10 (by decide)).trans s1
  have d2 : (W17 m ρ c (Proc.devRef .tc main_v13) : IVec S1700000 32) = K.dstV ei := (W17_of_ne m ρ c main_v13 (by decide)).trans d1
  have n2 : (W17 m ρ c (Proc.devRef .tc main_v39) : FVec Ideal S1700000x1 .f32) = K.nrm2V ei := ((W17_arr m ρ c 1).trans (((dat7 (V16 m ρ) c).arrAt_in 1 rfl _).trans (A_eq7 (V16 m ρ) c 1))).trans n1
  have z2 : (W17 m ρ c (Proc.devRef .tc main_v6) : FVec Ideal S100000x40 .f32) = H0 := (W17_of_ne m ρ c main_v6 (by decide)).trans z1
  have m2 : (W17 m ρ c (Proc.devRef .tc main_v74) : FVec Ideal S1700000x40 .f32) = scaleG (K.gatV ei X) (K.nrm2V ei) := by
    refine (W17_arr m ρ c 2).trans ((Scale7.final (V16 m ρ) c).trans ?_)
    rw [show (V16 m ρ c (Pipeline.arrRef spec7 0) : FVec Ideal S1700000x40 .f32) = K.gatV ei X from t1,
      show (V16 m ρ c (Pipeline.arrRef spec7 1) : FVec Ideal S1700000x1 .f32) = K.nrm2V ei from n1]
  -- after the scatter stretch (boundary 18)
  have s3 : (W18 m ρ c (Proc.devRef .tc main_v10) : IVec S1700000 32) = K.srcV ei := (Host3.keepS_main_v10 _).trans s2
  have d3 : (W18 m ρ c (Proc.devRef .tc main_v13) : IVec S1700000 32) = K.dstV ei := (Host3.keepS_main_v13 _).trans d2
  have n3 : (W18 m ρ c (Proc.devRef .tc main_v39) : FVec Ideal S1700000x1 .f32) = K.nrm2V ei := (Host3.keepS_main_v39 _).trans n2
  have z3 : (W18 m ρ c (Proc.devRef .tc main_v6) : FVec Ideal S100000x40 .f32) = H0 := (Host3.keepS_main_v6 _).trans z2
  have a3 : (W18 m ρ c (Proc.devRef .tc main_v82) : FVec Ideal S100000x40 .f32)
      = K.scaV ei (scaleG (K.gatV ei X) (K.nrm2V ei)) := by
    refine (Host3.scat (W17 m ρ c)).trans ?_
    rw [d2, m2]
    rfl
  -- after the mixing region (boundary 19)
  have s4 : (W19 m ρ c (Proc.devRef .tc main_v10) : IVec S1700000 32) = K.srcV ei := (W19_of_ne m ρ c main_v10 (by decide)).trans s3
  have d4 : (W19 m ρ c (Proc.devRef .tc main_v13) : IVec S1700000 32) = K.dstV ei := (W19_of_ne m ρ c main_v13 (by decide)).trans d3
  have n4 : (W19 m ρ c (Proc.devRef .tc main_v39) : FVec Ideal S1700000x1 .f32) = K.nrm2V ei := (W19_of_ne m ρ c main_v39 (by decide)).trans n3
  have z4 : (W19 m ρ c (Proc.devRef .tc main_v6) : FVec Ideal S100000x40 .f32) = H0 := ((W19_arr m ρ c 1).trans (((dat8 (V18 m ρ) c).arrAt_in 1 rfl _).trans (A_eq8 (V18 m ρ) c 1))).trans z3
  have c4 : (W19 m ρ c (Proc.devRef .tc main_v83) : FVec Ideal S100000x40 .f32)
      = combineG (K.scaV ei (scaleG (K.gatV ei X) (K.nrm2V ei))) H0 := by
    refine (W19_arr m ρ c 2).trans ((Combine8.final (V18 m ρ) c).trans ?_)
    rw [show (V18 m ρ c (Pipeline.arrRef spec8 0) : FVec Ideal S100000x40 .f32) = K.scaV ei (scaleG (K.gatV ei X) (K.nrm2V ei)) from a3,
      show (V18 m ρ c (Pipeline.arrRef spec8 1) : FVec Ideal S100000x40 .f32) = H0 from z3]
  exact ⟨s4, d4, n4, z4, c4⟩

end Cert.Appnp.Round3

end
-- ==== Proof.Host4.lean ====
/-
  Round 5 of the propagation, host side, over ANY contents `W` of the buffers: the stretch before the scaling
  region reads the rows of the round's state at the source indices the filling way (`K.takeV`); the stretch before
  the mixing region adds the scaled edge rows into their destination nodes from zero; neither writes the four
  buffers every round reads (the source and destination indices, the weight column, the encoder's output).
-/
import proofs.«400473_j77575699301005_1_alg».proof.Proof.Gen.KernelIdeal.Launch
import proofs.«400473_j77575699301005_1_alg».proof.Proof.KernelTerms
import proofs.«400473_j77575699301005_1_alg».proof.Proof.HostTools
import Idealize.ShloMosaic.Lib.StableHlo.Run

set_option maxRecDepth 16384

noncomputable section

namespace Cert.Appnp.Host4

open Idealize.ShloMosaic Idealize.ShloMosaic.TcCoe Idealize.ShloMosaic.StableHlo Cert.KernelIdeal Cert.KernelIdeal.Gen Cert.Appnp

/-- The gathered rows this round: the filling take of the state at the source indices. -/
theorem take (W : Valuation τ sig (Elt Ideal)) :
    (StableHlo.after hostOps9 W (Proc.devRef .tc main_v84) : FVec Ideal S1700000x40 .f32)
      = K.takeV (W (Proc.devRef .tc main_v10)) (W (Proc.devRef .tc main_v83)) := by
  after_results_simp
  simp only [ofBuf_toBuf]
  refine (eq_of_heq (toBuf_heq _ _)).trans ?_
  unfold K.takeV K.wrapV
  congr

theorem keepT_main_v10 (W : Valuation τ sig (Elt Ideal)) :
    StableHlo.after hostOps9 W (Proc.devRef .tc main_v10) = W (Proc.devRef .tc main_v10) := by
  after_results_simp
theorem keepT_main_v13 (W : Valuation τ sig (Elt Ideal)) :
    StableHlo.after hostOps9 W (Proc.devRef .tc main_v13) = W (Proc.devRef .tc main_v13) := by
  after_results_simp
theorem keepT_main_v39 (W : Valuation τ sig (Elt Ideal)) :
    StableHlo.after hostOps9 W (Proc.devRef .tc main_v39) = W (Proc.devRef .tc main_v39) := by
  after_results_simp
theorem keepT_main_v6 (W : Valuation τ sig (Elt Ideal)) :
    StableHlo.after hostOps9 W (Proc.devRef .tc main_v6) = W (Proc.devRef .tc main_v6) := by
  after_results_simp

/-- The summed messages this round: the scaled edge rows added into their destinations, from zero. -/
theorem scat (W : Valuation τ sig (Elt Ideal)) :
    (StableHlo.after hostOps10 W (Proc.devRef .tc main_v93) : FVec Ideal S100000x40 .f32)
      = Host.scatterAdd (F := Ideal) scatter_S100000x40_S1700000x1_S1700000x40_1_0_0_1
          (broadcastInDim S100000x40 ![] bcast_S_S100000x40 (constant S_ .f32 0x00000000#32))
          (K.wrapV (W (Proc.devRef .tc main_v13))) (W (Proc.devRef .tc main_v85)) := by
  after_results_simp
  rfl

theorem keepS_main_v10 (W : Valuation τ sig (Elt Ideal)) :
    StableHlo.after hostOps10 W (Proc.devRef .tc main_v10) = W (Proc.devRef .tc main_v10) := by
  after_results_simp
theorem keepS_main_v13 (W : Valuation τ sig (Elt Ideal)) :
    StableHlo.after hostOps10 W (Proc.devRef .tc main_v13) = W (Proc.devRef .tc main_v13) := by
  after_results_simp
theorem keepS_main_v39 (W : Valuation τ sig (Elt Ideal)) :
    StableHlo.after hostOps10 W (Proc.devRef .tc main_v39) = W (Proc.devRef .tc main_v39) := by
  after_results_simp
theorem keepS_main_v6 (W : Valuation τ sig (Elt Ideal)) :
    StableHlo.after hostOps10 W (Proc.devRef .tc main_v6) = W (Proc.devRef .tc main_v6) := by
  after_results_simp

end Cert.Appnp.Host4

end
-- ==== Proof.RegionScale9.lean ====
/-
  A scaling region in closed form (which round it belongs to, the region number in the names below says): whatever
  the buffers hold when the region is entered, the region leaves
  in its output array row e of the gathered messages times the weight of edge e, that is `scaleG` of the two
  input arrays.

  Each grid point stages 10000 rows of the message array and of the weight column, multiplies every row by its
  weight, and writes the 10000 rows back at the same place; the blocks of the 170 points tile the 1 700 000 rows.
-/
import proofs.«400473_j77575699301005_1_alg».proof.Proof.Gen.KernelIdeal.Frame
import proofs.«400473_j77575699301005_1_alg».proof.Proof.Spec
import Idealize.ShloMosaic.Lib.Pipeline.Value
import Idealize.ShloMosaic.Lib.ValueIdx
import Idealize.ShloMosaic.Lib.ValueLayout

set_option maxRecDepth 16384

noncomputable section

namespace Cert.Appnp.Scale9
open Idealize.ShloMosaic Idealize.ShloMosaic.TcCoe Idealize.ShloMosaic.ValueIdx Idealize.ShloMosaic.Pipeline Cert.KernelIdeal Cert.KernelIdeal.Gen Cert.Appnp
variable (V : (c : Dev nD) → (b : Ref sig .tc) → Buf (Elt Ideal) ((c : Thread nD τ).loc b))

/-- The body loads and stores whole blocks: the offset of each of its rectangles is zero on both axes. -/
theorem off_zero : (![0, 0] : Fin 2 → Nat) = fun _ => 0 :=
  funext fun a => match a with | ⟨0, _⟩ => rfl | ⟨1, _⟩ => rfl

/-- The product the body stores, at one index of a block: the message entry times the weight of its row (the
    weight column is broadcast along the 40 features). -/
theorem pay_apply (xm : Vec Ideal S10000x40 .f32) (xw : Vec Ideal S10000x1 .f32) (j : S10000x40.Idx) :
    k9_pay1 (F := Ideal) xm xw j = xm j * xw (ix2 (j 0) 0) := by
  unfold k9_pay1
  rw [shapeCast_self, shapeCast_self]
  show xm j * broadcastTo S10000x40 xw _ j = _
  congr 1
  refine broadcastTo_apply xw _ j (ix2 (j 0) 0) fun a => ?_
  match a with
  | ⟨0, _⟩ => rfl
  | ⟨1, _⟩ => rfl

/-- The three index maps, decided over the 170 points: point `t` takes block row `t` of each array, block column 0. -/
theorem idx_facts : ∀ t : Fin cfg9.N, win9_0.index t (0 : Fin 2) = win9_2.index t (0 : Fin 2)
    ∧ win9_0.index t (1 : Fin 2) = win9_2.index t (1 : Fin 2)
    ∧ win9_1.index t (0 : Fin 2) = win9_2.index t (0 : Fin 2)
    ∧ win9_1.index t (1 : Fin 2) = 0
    ∧ win9_2.index t (0 : Fin 2) = t.val
    ∧ win9_2.index t (1 : Fin 2) = 0 :=
  (by decide +kernel : ∀ t : Fin grid9.N, _)

/-- One entry of the product, read at array indices: when the message index is the output index and the weight
    index is the output row in column 0, the product is `scaleG` there. -/
theorem scale_at (Am : SM40.Idx → EReal) (Aw : SM1.Idx → EReal) (im io : SM40.Idx) (iw : SM1.Idx)
    (hm : im = io) (hw : iw = ix2 (io 0) 0) : Am im * Aw iw = scaleG Am Aw io := by
  subst hm hw; rfl

/-- What point `t` writes back is block `t` of `scaleG` of the two input arrays. -/
theorem flushed_eq (c : Dev nD) (t : Fin cfg9.N) :
    (dat9 (F := Ideal) V c).flushed 2 t = ((cfg9.win 2).blk t).view.read (Elt Ideal) (scaleG (V c (Pipeline.arrRef spec9 0)) (V c (Pipeline.arrRef spec9 1))) := by
  show (cfg9.win 2).cut (grid9.coords t) ((dat9 V c).after 2 t) = _
  rw [after9_2]
  unfold out9_2
  rw [View.canon_unit_zero off_zero]
  simp only [View.ld_unit_zero (S := S10000x40) off_zero, View.ld_unit_zero (S := S10000x1) off_zero]
  obtain ⟨ea, eb, ec, ed, ee, ef⟩ := idx_facts t
  funext j
  show k9_pay1 (F := Ideal) (iblk9 V c 0 t) (iblk9 V c 1 t) j = scaleG (V c (Pipeline.arrRef spec9 0)) (V c (Pipeline.arrRef spec9 1)) (((cfg9.win 2).blk t).view.emb j)
  rw [pay_apply]
  refine scale_at (V c (Pipeline.arrRef spec9 0)) (V c (Pipeline.arrRef spec9 1)) (((cfg9.win 0).blk t).view.emb j) (((cfg9.win 2).blk t).view.emb j)
    (((cfg9.win 1).blk t).view.emb (ix2 (j 0) 0 : S10000x1.Idx)) ?_ ?_
  · funext a; apply Fin.ext
    match a with
    | ⟨0, _⟩ => show win9_0.index t (0 : Fin 2) * 10000 + 1 * (j 0).val = win9_2.index t (0 : Fin 2) * 10000 + 1 * (j 0).val; omega
    | ⟨1, _⟩ => show win9_0.index t (1 : Fin 2) * 40 + 1 * (j 1).val = win9_2.index t (1 : Fin 2) * 40 + 1 * (j 1).val; omega
  · funext a; apply Fin.ext
    match a with
    | ⟨0, _⟩ => show win9_1.index t (0 : Fin 2) * 10000 + 1 * (j 0).val = win9_2.index t (0 : Fin 2) * 10000 + 1 * (j 0).val; omega
    | ⟨1, _⟩ => show win9_1.index t (1 : Fin 2) * 1 + 1 * 0 = 0; omega

/-- An index of the output array is in the block of point `t` iff each coordinate is in the range of the block on
    its axis. -/
theorem mem_blk (t : Fin cfg9.N) (i : S1700000x40.Idx) :
    i ∈ ((cfg9.win 2).blk t).view.set ↔ ∀ a : Fin 2, win9_2.index t a * S10000x40.size a ≤ (i a).val ∧ (i a).val < win9_2.index t a * S10000x40.size a + S10000x40.size a := by
  show i ∈ ((View.whole (Pipeline.arrRef spec9 2)).slice (win9_2.rect t)).set ↔ _
  rw [View.set_slice_whole, Rect.mem_set_unit]
  exact Iff.rfl

/-- Every index of the output array lies in the block of some point (170 blocks of 10000 rows): row `r` is in the
    block of point `r / 10000`. -/
theorem cover (i : S1700000x40.Idx) : ∃ t : Fin cfg9.N, (cfg9.win 2).flush t = true ∧ i ∈ ((cfg9.win 2).blk t).view.set := by
  have hr : (i 0).val < 1700000 := (i 0).isLt
  have hc : (i 1).val < 40 := (i 1).isLt
  have hN : grid9.N = 170 := N_9
  obtain ⟨t, ht⟩ : ∃ t : Fin cfg9.N, t.val = (i 0).val / 10000 :=
    ⟨⟨(i 0).val / 10000, by show _ < grid9.N; rw [hN]; omega⟩, rfl⟩
  obtain ⟨ea, eb, ec, ed, ee, ef⟩ := idx_facts t
  refine ⟨t, flush9_2 t, ?_⟩
  rw [mem_blk]
  intro a
  match a with
  | ⟨0, _⟩ =>
    show win9_2.index t (0 : Fin 2) * 10000 ≤ (i 0).val ∧ (i 0).val < win9_2.index t (0 : Fin 2) * 10000 + 10000
    omega
  | ⟨1, _⟩ =>
    show win9_2.index t (1 : Fin 2) * 40 ≤ (i 1).val ∧ (i 1).val < win9_2.index t (1 : Fin 2) * 40 + 40
    omega

/-- The output array after the region. -/
theorem final (c : Dev nD) :
    (dat9 (F := Ideal) V c).arrAt 2 cfg9.N = scaleG (V c (Pipeline.arrRef spec9 0)) (V c (Pipeline.arrRef spec9 1)) :=
  (dat9 V c).arrAt_eq_of_cover 2 _ (fun t _ => flushed_eq V c t) cover

end Cert.Appnp.Scale9

end
-- ==== Proof.RegionCombine10.lean ====
/-
  A mixing region in closed form: whatever the two input arrays hold when the region is
  entered, the output array after the region is `combineG` of them, index by index. Each grid point stages
  rows `10000·t … 10000·t + 9999` of both inputs and of the output (the three index maps are the same map),
  the body writes `0.9·agg + 0.1·h₀` over the staged block, and the ten blocks tile the 100000 rows.
-/
import proofs.«400473_j77575699301005_1_alg».proof.Proof.Gen.KernelIdeal.Frame
import proofs.«400473_j77575699301005_1_alg».proof.Proof.Spec
import Idealize.ShloMosaic.Lib.Pipeline.Value
import Idealize.ShloMosaic.Lib.ValueIdx
import Idealize.ShloMosaic.Lib.ValueLayout

set_option maxRecDepth 16384

noncomputable section

namespace Cert.Appnp.Combine10
open Idealize.ShloMosaic Idealize.ShloMosaic.ValueIdx Idealize.ShloMosaic.Pipeline Cert.KernelIdeal Cert.KernelIdeal.Gen Cert.Appnp
open Idealize.ShloMosaic.TcCoe
variable (V : (c : Dev nD) → (b : Ref sig .tc) → Buf (Elt Ideal) ((c : Thread nD τ).loc b))

/-- The body's one rectangle starts at the origin of its block. -/
theorem hz : (![0, 0] : Fin 2 → Nat) = fun _ => 0 := funext fun a => by fin_cases a <;> rfl

/-- The body's payload at an index of the block: the two constants times the two loaded blocks, added. -/
theorem pay_apply (x0 x1 : Vec Ideal S10000x40 .f32) (j : S10000x40.Idx) :
    k10_pay1 (F := Ideal) x0 x1 j = Ideal.ofBits .f32 0x3F666666#32 * x0 j + Ideal.ofBits .f32 0x3DCCCCCD#32 * x1 j := by
  unfold k10_pay1
  simp only [shapeCast_self, addf_apply, mulf_apply, broadcast_apply]
  rfl

/-- The three index maps, decided over the grid: both inputs' blocks move with the output's, whose block index
    is at most 9 on the row axis and 0 on the column axis. -/
theorem idx_facts : ∀ t : Fin cfg10.N, win10_0.index t (0 : Fin 2) = win10_2.index t (0 : Fin 2)
    ∧ win10_0.index t (1 : Fin 2) = win10_2.index t (1 : Fin 2)
    ∧ win10_1.index t (0 : Fin 2) = win10_2.index t (0 : Fin 2)
    ∧ win10_1.index t (1 : Fin 2) = win10_2.index t (1 : Fin 2)
    ∧ win10_2.index t (0 : Fin 2) ≤ 9
    ∧ win10_2.index t (1 : Fin 2) = 0 :=
  (by decide +kernel : ∀ t : Fin grid10.N, _)

/-- Every one of the ten row blocks of the output is some point's. -/
theorem idx_onto : ∀ (q0 : Fin 10), ∃ t : Fin cfg10.N, win10_2.index t = ![q0.val, 0] :=
  (by decide +kernel : ∀ (q0 : Fin 10), ∃ t : Fin grid10.N, win10_2.index t = ![q0.val, 0])

/-- What point t writes back is block t of combineG of the two input arrays. -/
theorem flushed_eq (c : Dev nD) (t : Fin cfg10.N) :
    (dat10 (F := Ideal) V c).flushed 2 t = ((cfg10.win 2).blk t).view.read (Elt Ideal) (combineG (V c (Pipeline.arrRef spec10 0)) (V c (Pipeline.arrRef spec10 1))) := by
  show (cfg10.win 2).cut (grid10.coords t) ((dat10 V c).after 2 t) = _
  rw [after10_2]
  unfold out10_2
  rw [View.canon_unit_zero hz]
  simp only [View.ld_unit_zero (S := S10000x40) hz]
  obtain ⟨ea, eb, ec, ed, ee, ef⟩ := idx_facts t
  funext j
  refine (pay_apply _ _ _).trans ?_
  show Ideal.ofBits .f32 0x3F666666#32 * V c (Pipeline.arrRef spec10 0) (((cfg10.win 0).blk t).view.emb j) + Ideal.ofBits .f32 0x3DCCCCCD#32 * V c (Pipeline.arrRef spec10 1) (((cfg10.win 1).blk t).view.emb j) = Ideal.ofBits .f32 0x3F666666#32 * V c (Pipeline.arrRef spec10 0) (((cfg10.win 2).blk t).view.emb j) + Ideal.ofBits .f32 0x3DCCCCCD#32 * V c (Pipeline.arrRef spec10 1) (((cfg10.win 2).blk t).view.emb j)
  have h0 : ((cfg10.win 0).blk t).view.emb j = ((cfg10.win 2).blk t).view.emb j := by
    funext a; apply Fin.ext
    match a with
    | ⟨0, _⟩ => show win10_0.index t (0 : Fin 2) * 10000 + 1 * (j 0).val = win10_2.index t (0 : Fin 2) * 10000 + 1 * (j 0).val; omega
    | ⟨1, _⟩ => show win10_0.index t (1 : Fin 2) * 40 + 1 * (j 1).val = win10_2.index t (1 : Fin 2) * 40 + 1 * (j 1).val; omega
  have h1 : ((cfg10.win 1).blk t).view.emb j = ((cfg10.win 2).blk t).view.emb j := by
    funext a; apply Fin.ext
    match a with
    | ⟨0, _⟩ => show win10_1.index t (0 : Fin 2) * 10000 + 1 * (j 0).val = win10_2.index t (0 : Fin 2) * 10000 + 1 * (j 0).val; omega
    | ⟨1, _⟩ => show win10_1.index t (1 : Fin 2) * 40 + 1 * (j 1).val = win10_2.index t (1 : Fin 2) * 40 + 1 * (j 1).val; omega
  rw [h0, h1]

/-- An index of the output array is in point t's block iff each coordinate is in the block's range on its axis. -/
theorem mem_blk (t : Fin cfg10.N) (i : S100000x40.Idx) :
    i ∈ ((cfg10.win 2).blk t).view.set ↔ ∀ a : Fin 2, win10_2.index t a * S10000x40.size a ≤ (i a).val ∧ (i a).val < win10_2.index t a * S10000x40.size a + S10000x40.size a := by
  show i ∈ ((View.whole (Pipeline.arrRef spec10 2)).slice (win10_2.rect t)).set ↔ _
  rw [View.set_slice_whole, Rect.mem_set_unit]
  exact Iff.rfl

/-- Every index of the output array lies in some point's block (10 blocks of 10000 rows): row r is in block r / 10000. -/
theorem cover (i : S100000x40.Idx) : ∃ t : Fin cfg10.N, (cfg10.win 2).flush t = true ∧ i ∈ ((cfg10.win 2).blk t).view.set := by
  have hi0 : (i 0).val < 100000 := (i 0).isLt
  have hi1 : (i 1).val < 40 := (i 1).isLt
  obtain ⟨t, ht⟩ := idx_onto ⟨(i 0).val / 10000, by omega⟩
  have q0 : win10_2.index t (0 : Fin 2) = (i 0).val / 10000 := congrFun ht 0
  have q1 : win10_2.index t (1 : Fin 2) = 0 := congrFun ht 1
  refine ⟨t, flush10_2 t, ?_⟩
  rw [mem_blk]
  intro a
  match a with
  | ⟨0, _⟩ => show win10_2.index t (0 : Fin 2) * 10000 ≤ (i 0).val ∧ (i 0).val < win10_2.index t (0 : Fin 2) * 10000 + 10000; omega
  | ⟨1, _⟩ => show win10_2.index t (1 : Fin 2) * 40 ≤ (i 1).val ∧ (i 1).val < win10_2.index t (1 : Fin 2) * 40 + 40; omega

/-- The output array after the region. -/
theorem final (c : Dev nD) :
    (dat10 (F := Ideal) V c).arrAt 2 cfg10.N = combineG (V c (Pipeline.arrRef spec10 0)) (V c (Pipeline.arrRef spec10 1)) :=
  (dat10 V c).arrAt_eq_of_cover 2 _ (fun t _ => flushed_eq V c t) cover

end Cert.Appnp.Combine10

end
-- ==== Proof.Round4.lean ====
/-
  Round 5 of the propagation on the kernel's side, boundary by boundary. Entering the round (boundary 19 of the
  run) the source and destination indices, the weight column and the encoder's output hold what the host computed
  once, and the round's state is some `X`. The take stretch reads the rows of `X` at the sources — the plain gather,
  every source index being in range —; the scaling region multiplies row e by weight e; the scatter stretch adds
  the rows into their destinations; the mixing region forms 0.9 · sum + 0.1 · encoder output. So the round leaves
  `stepG … X`, and the four shared buffers as they were.
-/
import proofs.«400473_j77575699301005_1_alg».proof.Proof.Gen.KernelIdeal.Frame
import proofs.«400473_j77575699301005_1_alg».proof.Proof.Spec
import proofs.«400473_j77575699301005_1_alg».proof.Proof.KernelTerms
import proofs.«400473_j77575699301005_1_alg».proof.Proof.TakeMask
import proofs.«400473_j77575699301005_1_alg».proof.Proof.Host4
import proofs.«400473_j77575699301005_1_alg».proof.Proof.RegionScale9
import proofs.«400473_j77575699301005_1_alg».proof.Proof.RegionCombine10

set_option maxRecDepth 16384

noncomputable section

namespace Cert.Appnp.Round4

open Idealize.ShloMosaic Idealize.ShloMosaic.TcCoe Cert.KernelIdeal Cert.KernelIdeal.Gen Cert.Appnp

variable (m : (ℓ : Loc nD τ sig) → Buf (Elt Ideal) ℓ) (ρ : Dev nD → PrngReg)

set_option maxHeartbeats 4000000 in
/-- One round, from boundary 19 to boundary 23. -/
theorem round (c : Dev nD) (ei : IVec S2x1600000 32) (H0 X : FVec Ideal S100000x40 .f32)
    (hin : ∀ j : S1700000.Idx, K.InRange (K.srcV ei j))
    (hsrc : (W19 m ρ c (Proc.devRef .tc main_v10) : IVec S1700000 32) = K.srcV ei)
    (hdst : (W19 m ρ c (Proc.devRef .tc main_v13) : IVec S1700000 32) = K.dstV ei)
    (hnrm : (W19 m ρ c (Proc.devRef .tc main_v39) : FVec Ideal S1700000x1 .f32) = K.nrm2V ei)
    (hh0 : (W19 m ρ c (Proc.devRef .tc main_v6) : FVec Ideal S100000x40 .f32) = H0)
    (hx : (W19 m ρ c (Proc.devRef .tc main_v83) : FVec Ideal S100000x40 .f32) = X) :
    (W23 m ρ c (Proc.devRef .tc main_v10) : IVec S1700000 32) = K.srcV ei
    ∧ (W23 m ρ c (Proc.devRef .tc main_v13) : IVec S1700000 32) = K.dstV ei
    ∧ (W23 m ρ c (Proc.devRef .tc main_v39) : FVec Ideal S1700000x1 .f32) = K.nrm2V ei
    ∧ (W23 m ρ c (Proc.devRef .tc main_v6) : FVec Ideal S100000x40 .f32) = H0
    ∧ (W23 m ρ c (Proc.devRef .tc main_v94) : FVec Ideal S100000x40 .f32)
        = stepG (K.gatV ei) (K.scaV ei) (K.nrm2V ei) H0 X := by
  -- after the take stretch (boundary 20)
  have s1 : (W20 m ρ c (Proc.devRef .tc main_v10) : IVec S1700000 32) = K.srcV ei := (Host4.keepT_main_v10 _).trans hsrc
  have d1 : (W20 m ρ c (Proc.devRef .tc main_v13) : IVec S1700000 32) = K.dstV ei := (Host4.keepT_main_v13 _).trans hdst
  have n1 : (W20 m ρ c (Proc.devRef .tc main_v39) : FVec Ideal S1700000x1 .f32) = K.nrm2V ei := (Host4.keepT_main_v39 _).trans hnrm
  have z1 : (W20 m ρ c (Proc.devRef .tc main_v6) : FVec Ideal S100000x40 .f32) = H0 := (Host4.keepT_main_v6 _).trans hh0
  have t1 : (W20 m ρ c (Proc.devRef .tc main_v84) : FVec Ideal S1700000x40 .f32) = K.gatV ei X := by
    refine (Host4.take (W19 m ρ c)).trans ?_
    rw [hsrc, hx]
    exact K.takeV_eq _ _ hin
  -- after the scaling region (boundary 21)
  have s2 : (W21 m ρ c (Proc.devRef .tc main_v10) : IVec S1700000 32) = K.srcV ei := (W21_of_ne m ρ c main_v10 (by decide)).trans s1
  have d2 : (W21 m ρ c (Proc.devRef .tc main_v13) : IVec S1700000 32) = K.dstV ei := (W21_of_ne m ρ c main_v13 (by decide)).trans d1
  have n2 : (W21 m ρ c (Proc.devRef .tc main_v39) : FVec Ideal S1700000x1 .f32) = K.nrm2V ei := ((W21_arr m ρ c 1).trans (((dat9 (V20 m ρ) c).arrAt_in 1 rfl _).trans (A_eq9 (V20 m ρ) c 1))).trans n1
  have z2 : (W21 m ρ c (Proc.devRef .tc main_v6) : FVec Ideal S100000x40 .f32) = H0 := (W21_of_ne m ρ c main_v6 (by decide)).trans z1
  have m2 : (W21 m ρ c (Proc.devRef .tc main_v85) : FVec Ideal S1700000x40 .f32) = scaleG (K.gatV ei X) (K.nrm2V ei) := by
    refine (W21_arr m ρ c 2).trans ((Scale9.final (V20 m ρ) c).trans ?_)
    rw [show (V20 m ρ c (Pipeline.arrRef spec9 0) : FVec Ideal S1700000x40 .f32) = K.gatV ei X from t1,
      show (V20 m ρ c (Pipeline.arrRef spec9 1) : FVec Ideal S1700000x1 .f32) = K.nrm2V ei from n1]
  -- after the scatter stretch (boundary 22)
  have s3 : (W22 m ρ c (Proc.devRef .tc main_v10) : IVec S1700000 32) = K.srcV ei := (Host4.keepS_main_v10 _).trans s2
  have d3 : (W22 m ρ c (Proc.devRef .tc main_v13) : IVec S1700000 32) = K.dstV ei := (Host4.keepS_main_v13 _).trans d2
  have n3 : (W22 m ρ c (Proc.devRef .tc main_v39) : FVec Ideal S1700000x1 .f32) = K.nrm2V ei := (Host4.keepS_main_v39 _).trans n2
  have z3 : (W22 m ρ c (Proc.devRef .tc main_v6) : FVec Ideal S100000x40 .f32) = H0 := (Host4.keepS_main_v6 _).trans z2
  have a3 : (W22 m ρ c (Proc.devRef .tc main_v93) : FVec Ideal S100000x40 .f32)
      = K.scaV ei (scaleG (K.gatV ei X) (K.nrm2V ei)) := by
    refine (Host4.scat (W21 m ρ c)).trans ?_
    rw [d2, m2]
    rfl
  -- after the mixing region (boundary 23)
  have s4 : (W23 m ρ c (Proc.devRef .tc main_v10) : IVec S1700000 32) = K.srcV ei := (W23_of_ne m ρ c main_v10 (by decide)).trans s3
  have d4 : (W23 m ρ c (Proc.devRef .tc main_v13) : IVec S1700000 32) = K.dstV ei := (W23_of_ne m ρ c main_v13 (by decide)).trans d3
  have n4 : (W23 m ρ c (Proc.devRef .tc main_v39) : FVec Ideal S1700000x1 .f32) = K.nrm2V ei := (W23_of_ne m ρ c main_v39 (by decide)).trans n3
  have z4 : (W23 m ρ c (Proc.devRef .tc main_v6) : FVec Ideal S100000x40 .f32) = H0 := ((W23_arr m ρ c 1).trans (((dat10 (V22 m ρ) c).arrAt_in 1 rfl _).trans (A_eq10 (V22 m ρ) c 1))).trans z3
  have c4 : (W23 m ρ c (Proc.devRef .tc main_v94) : FVec Ideal S100000x40 .f32)
      = combineG (K.scaV ei (scaleG (K.gatV ei X) (K.nrm2V ei))) H0 := by
    refine (W23_arr m ρ c 2).trans ((Combine10.final (V22 m ρ) c).trans ?_)
    rw [show (V22 m ρ c (Pipeline.arrRef spec10 0) : FVec Ideal S100000x40 .f32) = K.scaV ei (scaleG (K.gatV ei X) (K.nrm2V ei)) from a3,
      show (V22 m ρ c (Pipeline.arrRef spec10 1) : FVec Ideal S100000x40 .f32) = H0 from z3]
  exact ⟨s4, d4, n4, z4, c4⟩

end Cert.Appnp.Round4

end
-- ==== Proof.Host5.lean ====
/-
  Round 6 of the propagation, host side, over ANY contents `W` of the buffers: the stretch before the scaling
  region reads the rows of the round's state at the source indices the filling way (`K.takeV`); the stretch before
  the mixing region adds the scaled edge rows into their destination nodes from zero; neither writes the four
  buffers every round reads (the source and destination indices, the weight column, the encoder's output).
-/
import proofs.«400473_j77575699301005_1_alg».proof.Proof.Gen.KernelIdeal.Launch
import proofs.«400473_j77575699301005_1_alg».proof.Proof.KernelTerms
import proofs.«400473_j77575699301005_1_alg».proof.Proof.HostTools
import Idealize.ShloMosaic.Lib.StableHlo.Run

set_option maxRecDepth 16384

noncomputable section

namespace Cert.Appnp.Host5

open Idealize.ShloMosaic Idealize.ShloMosaic.TcCoe Idealize.ShloMosaic.StableHlo Cert.KernelIdeal Cert.KernelIdeal.Gen Cert.Appnp

/-- The gathered rows this round: the filling take of the state at the source indices. -/
theorem take (W : Valuation τ sig (Elt Ideal)) :
    (StableHlo.after hostOps11 W (Proc.devRef .tc main_v95) : FVec Ideal S1700000x40 .f32)
      = K.takeV (W (Proc.devRef .tc main_v10)) (W (Proc.devRef .tc main_v94)) := by
  after_results_simp
  simp only [ofBuf_toBuf]
  refine (eq_of_heq (toBuf_heq _ _)).trans ?_
  unfold K.takeV K.wrapV
  congr

theorem keepT_main_v10 (W : Valuation τ sig (Elt Ideal)) :
    StableHlo.after hostOps11 W (Proc.devRef .tc main_v10) = W (Proc.devRef .tc main_v10) := by
  after_results_simp
theorem keepT_main_v13 (W : Valuation τ sig (Elt Ideal)) :
    StableHlo.after hostOps11 W (Proc.devRef .tc main_v13) = W (Proc.devRef .tc main_v13) := by
  after_results_simp
theorem keepT_main_v39 (W : Valuation τ sig (Elt Ideal)) :
    StableHlo.after hostOps11 W (Proc.devRef .tc main_v39) = W (Proc.devRef .tc main_v39) := by
  after_results_simp
theorem keepT_main_v6 (W : Valuation τ sig (Elt Ideal)) :
    StableHlo.after hostOps11 W (Proc.devRef .tc main_v6) = W (Proc.devRef .tc main_v6) := by
  after_results_simp

/-- The summed messages this round: the scaled edge rows added into their destinations, from zero. -/
theorem scat (W : Valuation τ sig (Elt Ideal)) :
    (StableHlo.after hostOps12 W (Proc.devRef .tc main_v104) : FVec Ideal S100000x40 .f32)
      = Host.scatterAdd (F := Ideal) scatter_S100000x40_S1700000x1_S1700000x40_1_0_0_1
          (broadcastInDim S100000x40 ![] bcast_S_S100000x40 (constant S_ .f32 0x00000000#32))
          (K.wrapV (W (Proc.devRef .tc main_v13))) (W (Proc.devRef .tc main_v96)) := by
  after_results_simp
  rfl

theorem keepS_main_v10 (W : Valuation τ sig (Elt Ideal)) :
    StableHlo.after hostOps12 W (Proc.devRef .tc main_v10) = W (Proc.devRef .tc main_v10) := by
  after_results_simp
theorem keepS_main_v13 (W : Valuation τ sig (Elt Ideal)) :
    StableHlo.after hostOps12 W (Proc.devRef .tc main_v13) = W (Proc.devRef .tc main_v13) := by
  after_results_simp
theorem keepS_main_v39 (W : Valuation τ sig (Elt Ideal)) :
    StableHlo.after hostOps12 W (Proc.devRef .tc main_v39) = W (Proc.devRef .tc main_v39) := by
  after_results_simp
theorem keepS_main_v6 (W : Valuation τ sig (Elt Ideal)) :
    StableHlo.after hostOps12 W (Proc.devRef .tc main_v6) = W (Proc.devRef .tc main_v6) := by
  after_results_simp

end Cert.Appnp.Host5

end
-- ==== Proof.RegionScale11.lean ====
/-
  A scaling region in closed form (which round it belongs to, the region number in the names below says): whatever
  the buffers hold when the region is entered, the region leaves
  in its output array row e of the gathered messages times the weight of edge e, that is `scaleG` of the two
  input arrays.

  Each grid point stages 10000 rows of the message array and of the weight column, multiplies every row by its
  weight, and writes the 10000 rows back at the same place; the blocks of the 170 points tile the 1 700 000 rows.
-/
import proofs.«400473_j77575699301005_1_alg».proof.Proof.Gen.KernelIdeal.Frame
import proofs.«400473_j77575699301005_1_alg».proof.Proof.Spec
import Idealize.ShloMosaic.Lib.Pipeline.Value
import Idealize.ShloMosaic.Lib.ValueIdx
import Idealize.ShloMosaic.Lib.ValueLayout

set_option maxRecDepth 16384

noncomputable section

namespace Cert.Appnp.Scale11
open Idealize.ShloMosaic Idealize.ShloMosaic.TcCoe Idealize.ShloMosaic.ValueIdx Idealize.ShloMosaic.Pipeline Cert.KernelIdeal Cert.KernelIdeal.Gen Cert.Appnp
variable (V : (c : Dev nD) → (b : Ref sig .tc) → Buf (Elt Ideal) ((c : Thread nD τ).loc b))

/-- The body loads and stores whole blocks: the offset of each of its rectangles is zero on both axes. -/
theorem off_zero : (![0, 0] : Fin 2 → Nat) = fun _ => 0 :=
  funext fun a => match a with | ⟨0, _⟩ => rfl | ⟨1, _⟩ => rfl

/-- The product the body stores, at one index of a block: the message entry times the weight of its row (the
    weight column is broadcast along the 40 features). -/
theorem pay_apply (xm : Vec Ideal S10000x40 .f32) (xw : Vec Ideal S10000x1 .f32) (j : S10000x40.Idx) :
    k11_pay1 (F := Ideal) xm xw j = xm j * xw (ix2 (j 0) 0) := by
  unfold k11_pay1
  rw [shapeCast_self, shapeCast_self]
  show xm j * broadcastTo S10000x40 xw _ j = _
  congr 1
  refine broadcastTo_apply xw _ j (ix2 (j 0) 0) fun a => ?_
  match a with
  | ⟨0, _⟩ => rfl
  | ⟨1, _⟩ => rfl

/-- The three index maps, decided over the 170 points: point `t` takes block row `t` of each array, block column 0. -/
theorem idx_facts : ∀ t : Fin cfg11.N, win11_0.index t (0 : Fin 2) = win11_2.index t (0 : Fin 2)
    ∧ win11_0.index t (1 : Fin 2) = win11_2.index t (1 : Fin 2)
    ∧ win11_1.index t (0 : Fin 2) = win11_2.index t (0 : Fin 2)
    ∧ win11_1.index t (1 : Fin 2) = 0
    ∧ win11_2.index t (0 : Fin 2) = t.val
    ∧ win11_2.index t (1 : Fin 2) = 0 :=
  (by decide +kernel : ∀ t : Fin grid11.N, _)

/-- One entry of the product, read at array indices: when the message index is the output index and the weight
    index is the output row in column 0, the product is `scaleG` there. -/
theorem scale_at (Am : SM40.Idx → EReal) (Aw : SM1.Idx → EReal) (im io : SM40.Idx) (iw : SM1.Idx)
    (hm : im = io) (hw : iw = ix2 (io 0) 0) : Am im * Aw iw = scaleG Am Aw io := by
  subst hm hw; rfl

/-- What point `t` writes back is block `t` of `scaleG` of the two input arrays. -/
theorem flushed_eq (c : Dev nD) (t : Fin cfg11.N) :
    (dat11 (F := Ideal) V c).flushed 2 t = ((cfg11.win 2).blk t).view.read (Elt Ideal) (scaleG (V c (Pipeline.arrRef spec11 0)) (V c (Pipeline.arrRef spec11 1))) := by
  show (cfg11.win 2).cut (grid11.coords t) ((dat11 V c).after 2 t) = _
  rw [after11_2]
  unfold out11_2
  rw [View.canon_unit_zero off_zero]
  simp only [View.ld_unit_zero (S := S10000x40) off_zero, View.ld_unit_zero (S := S10000x1) off_zero]
  obtain ⟨ea, eb, ec, ed, ee, ef⟩ := idx_facts t
  funext j
  show k11_pay1 (F := Ideal) (iblk11 V c 0 t) (iblk11 V c 1 t) j = scaleG (V c (Pipeline.arrRef spec11 0)) (V c (Pipeline.arrRef spec11 1)) (((cfg11.win 2).blk t).view.emb j)
  rw [pay_apply]
  refine scale_at (V c (Pipeline.arrRef spec11 0)) (V c (Pipeline.arrRef spec11 1)) (((cfg11.win 0).blk t).view.emb j) (((cfg11.win 2).blk t).view.emb j)
    (((cfg11.win 1).blk t).view.emb (ix2 (j 0) 0 : S10000x1.Idx)) ?_ ?_
  · funext a; apply Fin.ext
    match a with
    | ⟨0, _⟩ => show win11_0.index t (0 : Fin 2) * 10000 + 1 * (j 0).val = win11_2.index t (0 : Fin 2) * 10000 + 1 * (j 0).val; omega
    | ⟨1, _⟩ => show win11_0.index t (1 : Fin 2) * 40 + 1 * (j 1).val = win11_2.index t (1 : Fin 2) * 40 + 1 * (j 1).val; omega
  · funext a; apply Fin.ext
    match a with
    | ⟨0, _⟩ => show win11_1.index t (0 : Fin 2) * 10000 + 1 * (j 0).val = win11_2.index t (0 : Fin 2) * 10000 + 1 * (j 0).val; omega
    | ⟨1, _⟩ => show win11_1.index t (1 : Fin 2) * 1 + 1 * 0 = 0; omega

/-- An index of the output array is in the block of point `t` iff each coordinate is in the range of the block on
    its axis. -/
theorem mem_blk (t : Fin cfg11.N) (i : S1700000x40.Idx) :
    i ∈ ((cfg11.win 2).blk t).view.set ↔ ∀ a : Fin 2, win11_2.index t a * S10000x40.size a ≤ (i a).val ∧ (i a).val < win11_2.index t a * S10000x40.size a + S10000x40.size a := by
  show i ∈ ((View.whole (Pipeline.arrRef spec11 2)).slice (win11_2.rect t)).set ↔ _
  rw [View.set_slice_whole, Rect.mem_set_unit]
  exact Iff.rfl

/-- Every index of the output array lies in the block of some point (170 blocks of 10000 rows): row `r` is in the
    block of point `r / 10000`. -/
theorem cover (i : S1700000x40.Idx) : ∃ t : Fin cfg11.N, (cfg11.win 2).flush t = true ∧ i ∈ ((cfg11.win 2).blk t).view.set := by
  have hr : (i 0).val < 1700000 := (i 0).isLt
  have hc : (i 1).val < 40 := (i 1).isLt
  have hN : grid11.N = 170 := N_11
  obtain ⟨t, ht⟩ : ∃ t : Fin cfg11.N, t.val = (i 0).val / 10000 :=
    ⟨⟨(i 0).val / 10000, by show _ < grid11.N; rw [hN]; omega⟩, rfl⟩
  obtain ⟨ea, eb, ec, ed, ee, ef⟩ := idx_facts t
  refine ⟨t, flush11_2 t, ?_⟩
  rw [mem_blk]
  intro a
  match a with
  | ⟨0, _⟩ =>
    show win11_2.index t (0 : Fin 2) * 10000 ≤ (i 0).val ∧ (i 0).val < win11_2.index t (0 : Fin 2) * 10000 + 10000
    omega
  | ⟨1, _⟩ =>
    show win11_2.index t (1 : Fin 2) * 40 ≤ (i 1).val ∧ (i 1).val < win11_2.index t (1 : Fin 2) * 40 + 40
    omega

/-- The output array after the region. -/
theorem final (c : Dev nD) :
    (dat11 (F := Ideal) V c).arrAt 2 cfg11.N = scaleG (V c (Pipeline.arrRef spec11 0)) (V c (Pipeline.arrRef spec11 1)) :=
  (dat11 V c).arrAt_eq_of_cover 2 _ (fun t _ => flushed_eq V c t) cover

end Cert.Appnp.Scale11

end
-- ==== Proof.RegionCombine12.lean ====
/-
  A mixing region in closed form: whatever the two input arrays hold when the region is
  entered, the output array after the region is `combineG` of them, index by index. Each grid point stages
  rows `10000·t … 10000·t + 9999` of both inputs and of the output (the three index maps are the same map),
  the body writes `0.9·agg + 0.1·h₀` over the staged block, and the ten blocks tile the 100000 rows.
-/
import proofs.«400473_j77575699301005_1_alg».proof.Proof.Gen.KernelIdeal.Frame
import proofs.«400473_j77575699301005_1_alg».proof.Proof.Spec
import Idealize.ShloMosaic.Lib.Pipeline.Value
import Idealize.ShloMosaic.Lib.ValueIdx
import Idealize.ShloMosaic.Lib.ValueLayout

set_option maxRecDepth 16384

noncomputable section

namespace Cert.Appnp.Combine12
open Idealize.ShloMosaic Idealize.ShloMosaic.ValueIdx Idealize.ShloMosaic.Pipeline Cert.KernelIdeal Cert.KernelIdeal.Gen Cert.Appnp
open Idealize.ShloMosaic.TcCoe
variable (V : (c : Dev nD) → (b : Ref sig .tc) → Buf (Elt Ideal) ((c : Thread nD τ).loc b))

/-- The body's one rectangle starts at the origin of its block. -/
theorem hz : (![0, 0] : Fin 2 → Nat) = fun _ => 0 := funext fun a => by fin_cases a <;> rfl

/-- The body's payload at an index of the block: the two constants times the two loaded blocks, added. -/
theorem pay_apply (x0 x1 : Vec Ideal S10000x40 .f32) (j : S10000x40.Idx) :
    k12_pay1 (F := Ideal) x0 x1 j = Ideal.ofBits .f32 0x3F666666#32 * x0 j + Ideal.ofBits .f32 0x3DCCCCCD#32 * x1 j := by
  unfold k12_pay1
  simp only [shapeCast_self, addf_apply, mulf_apply, broadcast_apply]
  rfl

/-- The three index maps, decided over the grid: both inputs' blocks move with the output's, whose block index
    is at most 9 on the row axis and 0 on the column axis. -/
theorem idx_facts : ∀ t : Fin cfg12.N, win12_0.index t (0 : Fin 2) = win12_2.index t (0 : Fin 2)
    ∧ win12_0.index t (1 : Fin 2) = win12_2.index t (1 : Fin 2)
    ∧ win12_1.index t (0 : Fin 2) = win12_2.index t (0 : Fin 2)
    ∧ win12_1.index t (1 : Fin 2) = win12_2.index t (1 : Fin 2)
    ∧ win12_2.index t (0 : Fin 2) ≤ 9
    ∧ win12_2.index t (1 : Fin 2) = 0 :=
  (by decide +kernel : ∀ t : Fin grid12.N, _)

/-- Every one of the ten row blocks of the output is some point's. -/
theorem idx_onto : ∀ (q0 : Fin 10), ∃ t : Fin cfg12.N, win12_2.index t = ![q0.val, 0] :=
  (by decide +kernel : ∀ (q0 : Fin 10), ∃ t : Fin grid12.N, win12_2.index t = ![q0.val, 0])

/-- What point t writes back is block t of combineG of the two input arrays. -/
theorem flushed_eq (c : Dev nD) (t : Fin cfg12.N) :
    (dat12 (F := Ideal) V c).flushed 2 t = ((cfg12.win 2).blk t).view.read (Elt Ideal) (combineG (V c (Pipeline.arrRef spec12 0)) (V c (Pipeline.arrRef spec12 1))) := by
  show (cfg12.win 2).cut (grid12.coords t) ((dat12 V c).after 2 t) = _
  rw [after12_2]
  unfold out12_2
  rw [View.canon_unit_zero hz]
  simp only [View.ld_unit_zero (S := S10000x40) hz]
  obtain ⟨ea, eb, ec, ed, ee, ef⟩ := idx_facts t
  funext j
  refine (pay_apply _ _ _).trans ?_
  show Ideal.ofBits .f32 0x3F666666#32 * V c (Pipeline.arrRef spec12 0) (((cfg12.win 0).blk t).view.emb j) + Ideal.ofBits .f32 0x3DCCCCCD#32 * V c (Pipeline.arrRef spec12 1) (((cfg12.win 1).blk t).view.emb j) = Ideal.ofBits .f32 0x3F666666#32 * V c (Pipeline.arrRef spec12 0) (((cfg12.win 2).blk t).view.emb j) + Ideal.ofBits .f32 0x3DCCCCCD#32 * V c (Pipeline.arrRef spec12 1) (((cfg12.win 2).blk t).view.emb j)
  have h0 : ((cfg12.win 0).blk t).view.emb j = ((cfg12.win 2).blk t).view.emb j := by
    funext a; apply Fin.ext
    match a with
    | ⟨0, _⟩ => show win12_0.index t (0 : Fin 2) * 10000 + 1 * (j 0).val = win12_2.index t (0 : Fin 2) * 10000 + 1 * (j 0).val; omega
    | ⟨1, _⟩ => show win12_0.index t (1 : Fin 2) * 40 + 1 * (j 1).val = win12_2.index t (1 : Fin 2) * 40 + 1 * (j 1).val; omega
  have h1 : ((cfg12.win 1).blk t).view.emb j = ((cfg12.win 2).blk t).view.emb j := by
    funext a; apply Fin.ext
    match a with
    | ⟨0, _⟩ => show win12_1.index t (0 : Fin 2) * 10000 + 1 * (j 0).val = win12_2.index t (0 : Fin 2) * 10000 + 1 * (j 0).val; omega
    | ⟨1, _⟩ => show win12_1.index t (1 : Fin 2) * 40 + 1 * (j 1).val = win12_2.index t (1 : Fin 2) * 40 + 1 * (j 1).val; omega
  rw [h0, h1]

/-- An index of the output array is in point t's block iff each coordinate is in the block's range on its axis. -/
theorem mem_blk (t : Fin cfg12.N) (i : S100000x40.Idx) :
    i ∈ ((cfg12.win 2).blk t).view.set ↔ ∀ a : Fin 2, win12_2.index t a * S10000x40.size a ≤ (i a).val ∧ (i a).val < win12_2.index t a * S10000x40.size a + S10000x40.size a := by
  show i ∈ ((View.whole (Pipeline.arrRef spec12 2)).slice (win12_2.rect t)).set ↔ _
  rw [View.set_slice_whole, Rect.mem_set_unit]
  exact Iff.rfl

/-- Every index of the output array lies in some point's block (10 blocks of 10000 rows): row r is in block r / 10000. -/
theorem cover (i : S100000x40.Idx) : ∃ t : Fin cfg12.N, (cfg12.win 2).flush t = true ∧ i ∈ ((cfg12.win 2).blk t).view.set := by
  have hi0 : (i 0).val < 100000 := (i 0).isLt
  have hi1 : (i 1).val < 40 := (i 1).isLt
  obtain ⟨t, ht⟩ := idx_onto ⟨(i 0).val / 10000, by omega⟩
  have q0 : win12_2.index t (0 : Fin 2) = (i 0).val / 10000 := congrFun ht 0
  have q1 : win12_2.index t (1 : Fin 2) = 0 := congrFun ht 1
  refine ⟨t, flush12_2 t, ?_⟩
  rw [mem_blk]
  intro a
  match a with
  | ⟨0, _⟩ => show win12_2.index t (0 : Fin 2) * 10000 ≤ (i 0).val ∧ (i 0).val < win12_2.index t (0 : Fin 2) * 10000 + 10000; omega
  | ⟨1, _⟩ => show win12_2.index t (1 : Fin 2) * 40 ≤ (i 1).val ∧ (i 1).val < win12_2.index t (1 : Fin 2) * 40 + 40; omega

/-- The output array after the region. -/
theorem final (c : Dev nD) :
    (dat12 (F := Ideal) V c).arrAt 2 cfg12.N = combineG (V c (Pipeline.arrRef spec12 0)) (V c (Pipeline.arrRef spec12 1)) :=
  (dat12 V c).arrAt_eq_of_cover 2 _ (fun t _ => flushed_eq V c t) cover

end Cert.Appnp.Combine12

end
-- ==== Proof.Round5.lean ====
/-
  Round 6 of the propagation on the kernel's side, boundary by boundary. Entering the round (boundary 23 of the
  run) the source and destination indices, the weight column and the encoder's output hold what the host computed
  once, and the round's state is some `X`. The take stretch reads the rows of `X` at the sources — the plain gather,
  every source index being in range —; the scaling region multiplies row e by weight e; the scatter stretch adds
  the rows into their destinations; the mixing region forms 0.9 · sum + 0.1 · encoder output. So the round leaves
  `stepG … X`, and the four shared buffers as they were.
-/
import proofs.«400473_j77575699301005_1_alg».proof.Proof.Gen.KernelIdeal.Frame
import proofs.«400473_j77575699301005_1_alg».proof.Proof.Spec
import proofs.«400473_j77575699301005_1_alg».proof.Proof.KernelTerms
import proofs.«400473_j77575699301005_1_alg».proof.Proof.TakeMask
import proofs.«400473_j77575699301005_1_alg».proof.Proof.Host5
import proofs.«400473_j77575699301005_1_alg».proof.Proof.RegionScale11
import proofs.«400473_j77575699301005_1_alg».proof.Proof.RegionCombine12

set_option maxRecDepth 16384

noncomputable section

namespace Cert.Appnp.Round5

open Idealize.ShloMosaic Idealize.ShloMosaic.TcCoe Cert.KernelIdeal Cert.KernelIdeal.Gen Cert.Appnp

variable (m : (ℓ : Loc nD τ sig) → Buf (Elt Ideal) ℓ) (ρ : Dev nD → PrngReg)

set_option maxHeartbeats 4000000 in
/-- One round, from boundary 23 to boundary 27. -/
theorem round (c : Dev nD) (ei : IVec S2x1600000 32) (H0 X : FVec Ideal S100000x40 .f32)
    (hin : ∀ j : S1700000.Idx, K.InRange (K.srcV ei j))
    (hsrc : (W23 m ρ c (Proc.devRef .tc main_v10) : IVec S1700000 32) = K.srcV ei)
    (hdst : (W23 m ρ c (Proc.devRef .tc main_v13) : IVec S1700000 32) = K.dstV ei)
    (hnrm : (W23 m ρ c (Proc.devRef .tc main_v39) : FVec Ideal S1700000x1 .f32) = K.nrm2V ei)
    (hh0 : (W23 m ρ c (Proc.devRef .tc main_v6) : FVec Ideal S100000x40 .f32) = H0)
    (hx : (W23 m ρ c (Proc.devRef .tc main_v94) : FVec Ideal S100000x40 .f32) = X) :
    (W27 m ρ c (Proc.devRef .tc main_v10) : IVec S1700000 32) = K.srcV ei
    ∧ (W27 m ρ c (Proc.devRef .tc main_v13) : IVec S1700000 32) = K.dstV ei
    ∧ (W27 m ρ c (Proc.devRef .tc main_v39) : FVec Ideal S1700000x1 .f32) = K.nrm2V ei
    ∧ (W27 m ρ c (Proc.devRef .tc main_v6) : FVec Ideal S100000x40 .f32) = H0
    ∧ (W27 m ρ c (Proc.devRef .tc main_v105) : FVec Ideal S100000x40 .f32)
        = stepG (K.gatV ei) (K.scaV ei) (K.nrm2V ei) H0 X := by
  -- after the take stretch (boundary 24)
  have s1 : (W24 m ρ c (Proc.devRef .tc main_v10) : IVec S1700000 32) = K.srcV ei := (Host5.keepT_main_v10 _).trans hsrc
  have d1 : (W24 m ρ c (Proc.devRef .tc main_v13) : IVec S1700000 32) = K.dstV ei := (Host5.keepT_main_v13 _).trans hdst
  have n1 : (W24 m ρ c (Proc.devRef .tc main_v39) : FVec Ideal S1700000x1 .f32) = K.nrm2V ei := (Host5.keepT_main_v39 _).trans hnrm
  have z1 : (W24 m ρ c (Proc.devRef .tc main_v6) : FVec Ideal S100000x40 .f32) = H0 := (Host5.keepT_main_v6 _).trans hh0
  have t1 : (W24 m ρ c (Proc.devRef .tc main_v95) : FVec Ideal S1700000x40 .f32) = K.gatV ei X := by
    refine (Host5.take (W23 m ρ c)).trans ?_
    rw [hsrc, hx]
    exact K.takeV_eq _ _ hin
  -- after the scaling region (boundary 25)
  have s2 : (W25 m ρ c (Proc.devRef .tc main_v10) : IVec S1700000 32) = K.srcV ei := (W25_of_ne m ρ c main_v10 (by decide)).trans s1
  have d2 : (W25 m ρ c (Proc.devRef .tc main_v13) : IVec S1700000 32) = K.dstV ei := (W25_of_ne m ρ c main_v13 (by decide)).trans d1
  have n2 : (W25 m ρ c (Proc.devRef .tc main_v39) : FVec Ideal S1700000x1 .f32) = K.nrm2V ei := ((W25_arr m ρ c 1).trans (((dat11 (V24 m ρ) c).arrAt_in 1 rfl _).trans (A_eq11 (V24 m ρ) c 1))).trans n1
  have z2 : (W25 m ρ c (Proc.devRef .tc main_v6) : FVec Ideal S100000x40 .f32) = H0 := (W25_of_ne m ρ c main_v6 (by decide)).trans z1
  have m2 : (W25 m ρ c (Proc.devRef .tc main_v96) : FVec Ideal S1700000x40 .f32) = scaleG (K.gatV ei X) (K.nrm2V ei) := by
    refine (W25_arr m ρ c 2).trans ((Scale11.final (V24 m ρ) c).trans ?_)
    rw [show (V24 m ρ c (Pipeline.arrRef spec11 0) : FVec Ideal S1700000x40 .f32) = K.gatV ei X from t1,
      show (V24 m ρ c (Pipeline.arrRef spec11 1) : FVec Ideal S1700000x1 .f32) = K.nrm2V ei from n1]
  -- after the scatter stretch (boundary 26)
  have s3 : (W26 m ρ c (Proc.devRef .tc main_v10) : IVec S1700000 32) = K.srcV ei := (Host5.keepS_main_v10 _).trans s2
  have d3 : (W26 m ρ c (Proc.devRef .tc main_v13) : IVec S1700000 32) = K.dstV ei := (Host5.keepS_main_v13 _).trans d2
  have n3 : (W26 m ρ c (Proc.devRef .tc main_v39) : FVec Ideal S1700000x1 .f32) = K.nrm2V ei := (Host5.keepS_main_v39 _).trans n2
  have z3 : (W26 m ρ c (Proc.devRef .tc main_v6) : FVec Ideal S100000x40 .f32) = H0 := (Host5.keepS_main_v6 _).trans z2
  have a3 : (W26 m ρ c (Proc.devRef .tc main_v104) : FVec Ideal S100000x40 .f32)
      = K.scaV ei (scaleG (K.gatV ei X) (K.nrm2V ei)) := by
    refine (Host5.scat (W25 m ρ c)).trans ?_
    rw [d2, m2]
    rfl
  -- after the mixing region (boundary 27)
  have s4 : (W27 m ρ c (Proc.devRef .tc main_v10) : IVec S1700000 32) = K.srcV ei := (W27_of_ne m ρ c main_v10 (by decide)).trans s3
  have d4 : (W27 m ρ c (Proc.devRef .tc main_v13) : IVec S1700000 32) = K.dstV ei := (W27_of_ne m ρ c main_v13 (by decide)).trans d3
  have n4 : (W27 m ρ c (Proc.devRef .tc main_v39) : FVec Ideal S1700000x1 .f32) = K.nrm2V ei := (W27_of_ne m ρ c main_v39 (by decide)).trans n3
  have z4 : (W27 m ρ c (Proc.devRef .tc main_v6) : FVec Ideal S100000x40 .f32) = H0 := ((W27_arr m ρ c 1).trans (((dat12 (V26 m ρ) c).arrAt_in 1 rfl _).trans (A_eq12 (V26 m ρ) c 1))).trans z3
  have c4 : (W27 m ρ c (Proc.devRef .tc main_v105) : FVec Ideal S100000x40 .f32)
      = combineG (K.scaV ei (scaleG (K.gatV ei X) (K.nrm2V ei))) H0 := by
    refine (W27_arr m ρ c 2).trans ((Combine12.final (V26 m ρ) c).trans ?_)
    rw [show (V26 m ρ c (Pipeline.arrRef spec12 0) : FVec Ideal S100000x40 .f32) = K.scaV ei (scaleG (K.gatV ei X) (K.nrm2V ei)) from a3,
      show (V26 m ρ c (Pipeline.arrRef spec12 1) : FVec Ideal S100000x40 .f32) = H0 from z3]
  exact ⟨s4, d4, n4, z4, c4⟩

end Cert.Appnp.Round5

end
-- ==== Proof.Host6.lean ====
/-
  Round 7 of the propagation, host side, over ANY contents `W` of the buffers: the stretch before the scaling
  region reads the rows of the round's state at the source indices the filling way (`K.takeV`); the stretch before
  the mixing region adds the scaled edge rows into their destination nodes from zero; neither writes the four
  buffers every round reads (the source and destination indices, the weight column, the encoder's output).
-/
import proofs.«400473_j77575699301005_1_alg».proof.Proof.Gen.KernelIdeal.Launch
import proofs.«400473_j77575699301005_1_alg».proof.Proof.KernelTerms
import proofs.«400473_j77575699301005_1_alg».proof.Proof.HostTools
import Idealize.ShloMosaic.Lib.StableHlo.Run

set_option maxRecDepth 16384

noncomputable section

namespace Cert.Appnp.Host6

open Idealize.ShloMosaic Idealize.ShloMosaic.TcCoe Idealize.ShloMosaic.StableHlo Cert.KernelIdeal Cert.KernelIdeal.Gen Cert.Appnp

/-- The gathered rows this round: the filling take of the state at the source indices. -/
theorem take (W : Valuation τ sig (Elt Ideal)) :
    (StableHlo.after hostOps13 W (Proc.devRef .tc main_v106) : FVec Ideal S1700000x40 .f32)
      = K.takeV (W (Proc.devRef .tc main_v10)) (W (Proc.devRef .tc main_v105)) := by
  after_results_simp
  simp only [ofBuf_toBuf]
  refine (eq_of_heq (toBuf_heq _ _)).trans ?_
  unfold K.takeV K.wrapV
  congr

theorem keepT_main_v10 (W : Valuation τ sig (Elt Ideal)) :
    StableHlo.after hostOps13 W (Proc.devRef .tc main_v10) = W (Proc.devRef .tc main_v10) := by
  after_results_simp
theorem keepT_main_v13 (W : Valuation τ sig (Elt Ideal)) :
    StableHlo.after hostOps13 W (Proc.devRef .tc main_v13) = W (Proc.devRef .tc main_v13) := by
  after_results_simp
theorem keepT_main_v39 (W : Valuation τ sig (Elt Ideal)) :
    StableHlo.after hostOps13 W (Proc.devRef .tc main_v39) = W (Proc.devRef .tc main_v39) := by
  after_results_simp
theorem keepT_main_v6 (W : Valuation τ sig (Elt Ideal)) :
    StableHlo.after hostOps13 W (Proc.devRef .tc main_v6) = W (Proc.devRef .tc main_v6) := by
  after_results_simp

/-- The summed messages this round: the scaled edge rows added into their destinations, from zero. -/
theorem scat (W : Valuation τ sig (Elt Ideal)) :
    (StableHlo.after hostOps14 W (Proc.devRef .tc main_v115) : FVec Ideal S100000x40 .f32)
      = Host.scatterAdd (F := Ideal) scatter_S100000x40_S1700000x1_S1700000x40_1_0_0_1
          (broadcastInDim S100000x40 ![] bcast_S_S100000x40 (constant S_ .f32 0x00000000#32))
          (K.wrapV (W (Proc.devRef .tc main_v13))) (W (Proc.devRef .tc main_v107)) := by
  after_results_simp
  rfl

theorem keepS_main_v10 (W : Valuation τ sig (Elt Ideal)) :
    StableHlo.after hostOps14 W (Proc.devRef .tc main_v10) = W (Proc.devRef .tc main_v10) := by
  after_results_simp
theorem keepS_main_v13 (W : Valuation τ sig (Elt Ideal)) :
    StableHlo.after hostOps14 W (Proc.devRef .tc main_v13) = W (Proc.devRef .tc main_v13) := by
  after_results_simp
theorem keepS_main_v39 (W : Valuation τ sig (Elt Ideal)) :
    StableHlo.after hostOps14 W (Proc.devRef .tc main_v39) = W (Proc.devRef .tc main_v39) := by
  after_results_simp
theorem keepS_main_v6 (W : Valuation τ sig (Elt Ideal)) :
    StableHlo.after hostOps14 W (Proc.devRef .tc main_v6) = W (Proc.devRef .tc main_v6) := by
  after_results_simp

end Cert.Appnp.Host6

end
-- ==== Proof.RegionScale13.lean ====
/-
  A scaling region in closed form (which round it belongs to, the region number in the names below says): whatever
  the buffers hold when the region is entered, the region leaves
  in its output array row e of the gathered messages times the weight of edge e, that is `scaleG` of the two
  input arrays.

  Each grid point stages 10000 rows of the message array and of the weight column, multiplies every row by its
  weight, and writes the 10000 rows back at the same place; the blocks of the 170 points tile the 1 700 000 rows.
-/
import proofs.«400473_j77575699301005_1_alg».proof.Proof.Gen.KernelIdeal.Frame
import proofs.«400473_j77575699301005_1_alg».proof.Proof.Spec
import Idealize.ShloMosaic.Lib.Pipeline.Value
import Idealize.ShloMosaic.Lib.ValueIdx
import Idealize.ShloMosaic.Lib.ValueLayout

set_option maxRecDepth 16384

noncomputable section

namespace Cert.Appnp.Scale13
open Idealize.ShloMosaic Idealize.ShloMosaic.TcCoe Idealize.ShloMosaic.ValueIdx Idealize.ShloMosaic.Pipeline Cert.KernelIdeal Cert.KernelIdeal.Gen Cert.Appnp
variable (V : (c : Dev nD) → (b : Ref sig .tc) → Buf (Elt Ideal) ((c : Thread nD τ).loc b))

/-- The body loads and stores whole blocks: the offset of each of its rectangles is zero on both axes. -/
theorem off_zero : (![0, 0] : Fin 2 → Nat) = fun _ => 0 :=
  funext fun a => match a with | ⟨0, _⟩ => rfl | ⟨1, _⟩ => rfl

/-- The product the body stores, at one index of a block: the message entry times the weight of its row (the
    weight column is broadcast along the 40 features). -/
theorem pay_apply (xm : Vec Ideal S10000x40 .f32) (xw : Vec Ideal S10000x1 .f32) (j : S10000x40.Idx) :
    k13_pay1 (F := Ideal) xm xw j = xm j * xw (ix2 (j 0) 0) := by
  unfold k13_pay1
  rw [shapeCast_self, shapeCast_self]
  show xm j * broadcastTo S10000x40 xw _ j = _
  congr 1
  refine broadcastTo_apply xw _ j (ix2 (j 0) 0) fun a => ?_
  match a with
  | ⟨0, _⟩ => rfl
  | ⟨1, _⟩ => rfl

/-- The three index maps, decided over the 170 points: point `t` takes block row `t` of each array, block column 0. -/
theorem idx_facts : ∀ t : Fin cfg13.N, win13_0.index t (0 : Fin 2) = win13_2.index t (0 : Fin 2)
    ∧ win13_0.index t (1 : Fin 2) = win13_2.index t (1 : Fin 2)
    ∧ win13_1.index t (0 : Fin 2) = win13_2.index t (0 : Fin 2)
    ∧ win13_1.index t (1 : Fin 2) = 0
    ∧ win13_2.index t (0 : Fin 2) = t.val
    ∧ win13_2.index t (1 : Fin 2) = 0 :=
  (by decide +kernel : ∀ t : Fin grid13.N, _)

/-- One entry of the product, read at array indices: when the message index is the output index and the weight
    index is the output row in column 0, the product is `scaleG` there. -/
theorem scale_at (Am : SM40.Idx → EReal) (Aw : SM1.Idx → EReal) (im io : SM40.Idx) (iw : SM1.Idx)
    (hm : im = io) (hw : iw = ix2 (io 0) 0) : Am im * Aw iw = scaleG Am Aw io := by
  subst hm hw; rfl

/-- What point `t` writes back is block `t` of `scaleG` of the two input arrays. -/
theorem flushed_eq (c : Dev nD) (t : Fin cfg13.N) :
    (dat13 (F := Ideal) V c).flushed 2 t = ((cfg13.win 2).blk t).view.read (Elt Ideal) (scaleG (V c (Pipeline.arrRef spec13 0)) (V c (Pipeline.arrRef spec13 1))) := by
  show (cfg13.win 2).cut (grid13.coords t) ((dat13 V c).after 2 t) = _
  rw [after13_2]
  unfold out13_2
  rw [View.canon_unit_zero off_zero]
  simp only [View.ld_unit_zero (S := S10000x40) off_zero, View.ld_unit_zero (S := S10000x1) off_zero]
  obtain ⟨ea, eb, ec, ed, ee, ef⟩ := idx_facts t
  funext j
  show k13_pay1 (F := Ideal) (iblk13 V c 0 t) (iblk13 V c 1 t) j = scaleG (V c (Pipeline.arrRef spec13 0)) (V c (Pipeline.arrRef spec13 1)) (((cfg13.win 2).blk t).view.emb j)
  rw [pay_apply]
  refine scale_at (V c (Pipeline.arrRef spec13 0)) (V c (Pipeline.arrRef spec13 1)) (((cfg13.win 0).blk t).view.emb j) (((cfg13.win 2).blk t).view.emb j)
    (((cfg13.win 1).blk t).view.emb (ix2 (j 0) 0 : S10000x1.Idx)) ?_ ?_
  · funext a; apply Fin.ext
    match a with
    | ⟨0, _⟩ => show win13_0.index t (0 : Fin 2) * 10000 + 1 * (j 0).val = win13_2.index t (0 : Fin 2) * 10000 + 1 * (j 0).val; omega
    | ⟨1, _⟩ => show win13_0.index t (1 : Fin 2) * 40 + 1 * (j 1).val = win13_2.index t (1 : Fin 2) * 40 + 1 * (j 1).val; omega
  · funext a; apply Fin.ext
    match a with
    | ⟨0, _⟩ => show win13_1.index t (0 : Fin 2) * 10000 + 1 * (j 0).val = win13_2.index t (0 : Fin 2) * 10000 + 1 * (j 0).val; omega
    | ⟨1, _⟩ => show win13_1.index t (1 : Fin 2) * 1 + 1 * 0 = 0; omega

/-- An index of the output array is in the block of point `t` iff each coordinate is in the range of the block on
    its axis. -/
theorem mem_blk (t : Fin cfg13.N) (i : S1700000x40.Idx) :
    i ∈ ((cfg13.win 2).blk t).view.set ↔ ∀ a : Fin 2, win13_2.index t a * S10000x40.size a ≤ (i a).val ∧ (i a).val < win13_2.index t a * S10000x40.size a + S10000x40.size a := by
  show i ∈ ((View.whole (Pipeline.arrRef spec13 2)).slice (win13_2.rect t)).set ↔ _
  rw [View.set_slice_whole, Rect.mem_set_unit]
  exact Iff.rfl

/-- Every index of the output array lies in the block of some point (170 blocks of 10000 rows): row `r` is in the
    block of point `r / 10000`. -/
theorem cover (i : S1700000x40.Idx) : ∃ t : Fin cfg13.N, (cfg13.win 2).flush t = true ∧ i ∈ ((cfg13.win 2).blk t).view.set := by
  have hr : (i 0).val < 1700000 := (i 0).isLt
  have hc : (i 1).val < 40 := (i 1).isLt
  have hN : grid13.N = 170 := N_13
  obtain ⟨t, ht⟩ : ∃ t : Fin cfg13.N, t.val = (i 0).val / 10000 :=
    ⟨⟨(i 0).val / 10000, by show _ < grid13.N; rw [hN]; omega⟩, rfl⟩
  obtain ⟨ea, eb, ec, ed, ee, ef⟩ := idx_facts t
  refine ⟨t, flush13_2 t, ?_⟩
  rw [mem_blk]
  intro a
  match a with
  | ⟨0, _⟩ =>
    show win13_2.index t (0 : Fin 2) * 10000 ≤ (i 0).val ∧ (i 0).val < win13_2.index t (0 : Fin 2) * 10000 + 10000
    omega
  | ⟨1, _⟩ =>
    show win13_2.index t (1 : Fin 2) * 40 ≤ (i 1).val ∧ (i 1).val < win13_2.index t (1 : Fin 2) * 40 + 40
    omega

/-- The output array after the region. -/
theorem final (c : Dev nD) :
    (dat13 (F := Ideal) V c).arrAt 2 cfg13.N = scaleG (V c (Pipeline.arrRef spec13 0)) (V c (Pipeline.arrRef spec13 1)) :=
  (dat13 V c).arrAt_eq_of_cover 2 _ (fun t _ => flushed_eq V c t) cover

end Cert.Appnp.Scale13

end
-- ==== Proof.RegionCombine14.lean ====
/-
  A mixing region in closed form: whatever the two input arrays hold when the region is
  entered, the output array after the region is `combineG` of them, index by index. Each grid point stages
  rows `10000·t … 10000·t + 9999` of both inputs and of the output (the three index maps are the same map),
  the body writes `0.9·agg + 0.1·h₀` over the staged block, and the ten blocks tile the 100000 rows.
-/
import proofs.«400473_j77575699301005_1_alg».proof.Proof.Gen.KernelIdeal.Frame
import proofs.«400473_j77575699301005_1_alg».proof.Proof.Spec
import Idealize.ShloMosaic.Lib.Pipeline.Value
import Idealize.ShloMosaic.Lib.ValueIdx
import Idealize.ShloMosaic.Lib.ValueLayout

set_option maxRecDepth 16384

noncomputable section

namespace Cert.Appnp.Combine14
open Idealize.ShloMosaic Idealize.ShloMosaic.ValueIdx Idealize.ShloMosaic.Pipeline Cert.KernelIdeal Cert.KernelIdeal.Gen Cert.Appnp
open Idealize.ShloMosaic.TcCoe
variable (V : (c : Dev nD) → (b : Ref sig .tc) → Buf (Elt Ideal) ((c : Thread nD τ).loc b))

/-- The body's one rectangle starts at the origin of its block. -/
theorem hz : (![0, 0] : Fin 2 → Nat) = fun _ => 0 := funext fun a => by fin_cases a <;> rfl

/-- The body's payload at an index of the block: the two constants times the two loaded blocks, added. -/
theorem pay_apply (x0 x1 : Vec Ideal S10000x40 .f32) (j : S10000x40.Idx) :
    k14_pay1 (F := Ideal) x0 x1 j = Ideal.ofBits .f32 0x3F666666#32 * x0 j + Ideal.ofBits .f32 0x3DCCCCCD#32 * x1 j := by
  unfold k14_pay1
  simp only [shapeCast_self, addf_apply, mulf_apply, broadcast_apply]
  rfl

/-- The three index maps, decided over the grid: both inputs' blocks move with the output's, whose block index
    is at most 9 on the row axis and 0 on the column axis. -/
theorem idx_facts : ∀ t : Fin cfg14.N, win14_0.index t (0 : Fin 2) = win14_2.index t (0 : Fin 2)
    ∧ win14_0.index t (1 : Fin 2) = win14_2.index t (1 : Fin 2)
    ∧ win14_1.index t (0 : Fin 2) = win14_2.index t (0 : Fin 2)
    ∧ win14_1.index t (1 : Fin 2) = win14_2.index t (1 : Fin 2)
    ∧ win14_2.index t (0 : Fin 2) ≤ 9
    ∧ win14_2.index t (1 : Fin 2) = 0 :=
  (by decide +kernel : ∀ t : Fin grid14.N, _)

/-- Every one of the ten row blocks of the output is some point's. -/
theorem idx_onto : ∀ (q0 : Fin 10), ∃ t : Fin cfg14.N, win14_2.index t = ![q0.val, 0] :=
  (by decide +kernel : ∀ (q0 : Fin 10), ∃ t : Fin grid14.N, win14_2.index t = ![q0.val, 0])

/-- What point t writes back is block t of combineG of the two input arrays. -/
theorem flushed_eq (c : Dev nD) (t : Fin cfg14.N) :
    (dat14 (F := Ideal) V c).flushed 2 t = ((cfg14.win 2).blk t).view.read (Elt Ideal) (combineG (V c (Pipeline.arrRef spec14 0)) (V c (Pipeline.arrRef spec14 1))) := by
  show (cfg14.win 2).cut (grid14.coords t) ((dat14 V c).after 2 t) = _
  rw [after14_2]
  unfold out14_2
  rw [View.canon_unit_zero hz]
  simp only [View.ld_unit_zero (S := S10000x40) hz]
  obtain ⟨ea, eb, ec, ed, ee, ef⟩ := idx_facts t
  funext j
  refine (pay_apply _ _ _).trans ?_
  show Ideal.ofBits .f32 0x3F666666#32 * V c (Pipeline.arrRef spec14 0) (((cfg14.win 0).blk t).view.emb j) + Ideal.ofBits .f32 0x3DCCCCCD#32 * V c (Pipeline.arrRef spec14 1) (((cfg14.win 1).blk t).view.emb j) = Ideal.ofBits .f32 0x3F666666#32 * V c (Pipeline.arrRef spec14 0) (((cfg14.win 2).blk t).view.emb j) + Ideal.ofBits .f32 0x3DCCCCCD#32 * V c (Pipeline.arrRef spec14 1) (((cfg14.win 2).blk t).view.emb j)
  have h0 : ((cfg14.win 0).blk t).view.emb j = ((cfg14.win 2).blk t).view.emb j := by
    funext a; apply Fin.ext
    match a with
    | ⟨0, _⟩ => show win14_0.index t (0 : Fin 2) * 10000 + 1 * (j 0).val = win14_2.index t (0 : Fin 2) * 10000 + 1 * (j 0).val; omega
    | ⟨1, _⟩ => show win14_0.index t (1 : Fin 2) * 40 + 1 * (j 1).val = win14_2.index t (1 : Fin 2) * 40 + 1 * (j 1).val; omega
  have h1 : ((cfg14.win 1).blk t).view.emb j = ((cfg14.win 2).blk t).view.emb j := by
    funext a; apply Fin.ext
    match a with
    | ⟨0, _⟩ => show win14_1.index t (0 : Fin 2) * 10000 + 1 * (j 0).val = win14_2.index t (0 : Fin 2) * 10000 + 1 * (j 0).val; omega
    | ⟨1, _⟩ => show win14_1.index t (1 : Fin 2) * 40 + 1 * (j 1).val = win14_2.index t (1 : Fin 2) * 40 + 1 * (j 1).val; omega
  rw [h0, h1]

/-- An index of the output array is in point t's block iff each coordinate is in the block's range on its axis. -/
theorem mem_blk (t : Fin cfg14.N) (i : S100000x40.Idx) :
    i ∈ ((cfg14.win 2).blk t).view.set ↔ ∀ a : Fin 2, win14_2.index t a * S10000x40.size a ≤ (i a).val ∧ (i a).val < win14_2.index t a * S10000x40.size a + S10000x40.size a := by
  show i ∈ ((View.whole (Pipeline.arrRef spec14 2)).slice (win14_2.rect t)).set ↔ _
  rw [View.set_slice_whole, Rect.mem_set_unit]
  exact Iff.rfl

/-- Every index of the output array lies in some point's block (10 blocks of 10000 rows): row r is in block r / 10000. -/
theorem cover (i : S100000x40.Idx) : ∃ t : Fin cfg14.N, (cfg14.win 2).flush t = true ∧ i ∈ ((cfg14.win 2).blk t).view.set := by
  have hi0 : (i 0).val < 100000 := (i 0).isLt
  have hi1 : (i 1).val < 40 := (i 1).isLt
  obtain ⟨t, ht⟩ := idx_onto ⟨(i 0).val / 10000, by omega⟩
  have q0 : win14_2.index t (0 : Fin 2) = (i 0).val / 10000 := congrFun ht 0
  have q1 : win14_2.index t (1 : Fin 2) = 0 := congrFun ht 1
  refine ⟨t, flush14_2 t, ?_⟩
  rw [mem_blk]
  intro a
  match a with
  | ⟨0, _⟩ => show win14_2.index t (0 : Fin 2) * 10000 ≤ (i 0).val ∧ (i 0).val < win14_2.index t (0 : Fin 2) * 10000 + 10000; omega
  | ⟨1, _⟩ => show win14_2.index t (1 : Fin 2) * 40 ≤ (i 1).val ∧ (i 1).val < win14_2.index t (1 : Fin 2) * 40 + 40; omega

/-- The output array after the region. -/
theorem final (c : Dev nD) :
    (dat14 (F := Ideal) V c).arrAt 2 cfg14.N = combineG (V c (Pipeline.arrRef spec14 0)) (V c (Pipeline.arrRef spec14 1)) :=
  (dat14 V c).arrAt_eq_of_cover 2 _ (fun t _ => flushed_eq V c t) cover

end Cert.Appnp.Combine14

end
-- ==== Proof.Round6.lean ====
/-
  Round 7 of the propagation on the kernel's side, boundary by boundary. Entering the round (boundary 27 of the
  run) the source and destination indices, the weight column and the encoder's output hold what the host computed
  once, and the round's state is some `X`. The take stretch reads the rows of `X` at the sources — the plain gather,
  every source index being in range —; the scaling region multiplies row e by weight e; the scatter stretch adds
  the rows into their destinations; the mixing region forms 0.9 · sum + 0.1 · encoder output. So the round leaves
  `stepG … X`, and the four shared buffers as they were.
-/
import proofs.«400473_j77575699301005_1_alg».proof.Proof.Gen.KernelIdeal.Frame
import proofs.«400473_j77575699301005_1_alg».proof.Proof.Spec
import proofs.«400473_j77575699301005_1_alg».proof.Proof.KernelTerms
import proofs.«400473_j77575699301005_1_alg».proof.Proof.TakeMask
import proofs.«400473_j77575699301005_1_alg».proof.Proof.Host6
import proofs.«400473_j77575699301005_1_alg».proof.Proof.RegionScale13
import proofs.«400473_j77575699301005_1_alg».proof.Proof.RegionCombine14

set_option maxRecDepth 16384

noncomputable section

namespace Cert.Appnp.Round6

open Idealize.ShloMosaic Idealize.ShloMosaic.TcCoe Cert.KernelIdeal Cert.KernelIdeal.Gen Cert.Appnp

variable (m : (ℓ : Loc nD τ sig) → Buf (Elt Ideal) ℓ) (ρ : Dev nD → PrngReg)

set_option maxHeartbeats 4000000 in
/-- One round, from boundary 27 to boundary 31. -/
theorem round (c : Dev nD) (ei : IVec S2x1600000 32) (H0 X : FVec Ideal S100000x40 .f32)
    (hin : ∀ j : S1700000.Idx, K.InRange (K.srcV ei j))
    (hsrc : (W27 m ρ c (Proc.devRef .tc main_v10) : IVec S1700000 32) = K.srcV ei)
    (hdst : (W27 m ρ c (Proc.devRef .tc main_v13) : IVec S1700000 32) = K.dstV ei)
    (hnrm : (W27 m ρ c (Proc.devRef .tc main_v39) : FVec Ideal S1700000x1 .f32) = K.nrm2V ei)
    (hh0 : (W27 m ρ c (Proc.devRef .tc main_v6) : FVec Ideal S100000x40 .f32) = H0)
    (hx : (W27 m ρ c (Proc.devRef .tc main_v105) : FVec Ideal S100000x40 .f32) = X) :
    (W31 m ρ c (Proc.devRef .tc main_v10) : IVec S1700000 32) = K.srcV ei
    ∧ (W31 m ρ c (Proc.devRef .tc main_v13) : IVec S1700000 32) = K.dstV ei
    ∧ (W31 m ρ c (Proc.devRef .tc main_v39) : FVec Ideal S1700000x1 .f32) = K.nrm2V ei
    ∧ (W31 m ρ c (Proc.devRef .tc main_v6) : FVec Ideal S100000x40 .f32) = H0
    ∧ (W31 m ρ c (Proc.devRef .tc main_v116) : FVec Ideal S100000x40 .f32)
        = stepG (K.gatV ei) (K.scaV ei) (K.nrm2V ei) H0 X := by
  -- after the take stretch (boundary 28)
  have s1 : (W28 m ρ c (Proc.devRef .tc main_v10) : IVec S1700000 32) = K.srcV ei := (Host6.keepT_main_v10 _).trans hsrc
  have d1 : (W28 m ρ c (Proc.devRef .tc main_v13) : IVec S1700000 32) = K.dstV ei := (Host6.keepT_main_v13 _).trans hdst
  have n1 : (W28 m ρ c (Proc.devRef .tc main_v39) : FVec Ideal S1700000x1 .f32) = K.nrm2V ei := (Host6.keepT_main_v39 _).trans hnrm
  have z1 : (W28 m ρ c (Proc.devRef .tc main_v6) : FVec Ideal S100000x40 .f32) = H0 := (Host6.keepT_main_v6 _).trans hh0
  have t1 : (W28 m ρ c (Proc.devRef .tc main_v106) : FVec Ideal S1700000x40 .f32) = K.gatV ei X := by
    refine (Host6.take (W27 m ρ c)).trans ?_
    rw [hsrc, hx]
    exact K.takeV_eq _ _ hin
  -- after the scaling region (boundary 29)
  have s2 : (W29 m ρ c (Proc.devRef .tc main_v10) : IVec S1700000 32) = K.srcV ei := (W29_of_ne m ρ c main_v10 (by decide)).trans s1
  have d2 : (W29 m ρ c (Proc.devRef .tc main_v13) : IVec S1700000 32) = K.dstV ei := (W29_of_ne m ρ c main_v13 (by decide)).trans d1
  have n2 : (W29 m ρ c (Proc.devRef .tc main_v39) : FVec Ideal S1700000x1 .f32) = K.nrm2V ei := ((W29_arr m ρ c 1).trans (((dat13 (V28 m ρ) c).arrAt_in 1 rfl _).trans (A_eq13 (V28 m ρ) c 1))).trans n1
  have z2 : (W29 m ρ c (Proc.devRef .tc main_v6) : FVec Ideal S100000x40 .f32) = H0 := (W29_of_ne m ρ c main_v6 (by decide)).trans z1
  have m2 : (W29 m ρ c (Proc.devRef .tc main_v107) : FVec Ideal S1700000x40 .f32) = scaleG (K.gatV ei X) (K.nrm2V ei) := by
    refine (W29_arr m ρ c 2).trans ((Scale13.final (V28 m ρ) c).trans ?_)
    rw [show (V28 m ρ c (Pipeline.arrRef spec13 0) : FVec Ideal S1700000x40 .f32) = K.gatV ei X from t1,
      show (V28 m ρ c (Pipeline.arrRef spec13 1) : FVec Ideal S1700000x1 .f32) = K.nrm2V ei from n1]
  -- after the scatter stretch (boundary 30)
  have s3 : (W30 m ρ c (Proc.devRef .tc main_v10) : IVec S1700000 32) = K.srcV ei := (Host6.keepS_main_v10 _).trans s2
  have d3 : (W30 m ρ c (Proc.devRef .tc main_v13) : IVec S1700000 32) = K.dstV ei := (Host6.keepS_main_v13 _).trans d2
  have n3 : (W30 m ρ c (Proc.devRef .tc main_v39) : FVec Ideal S1700000x1 .f32) = K.nrm2V ei := (Host6.keepS_main_v39 _).trans n2
  have z3 : (W30 m ρ c (Proc.devRef .tc main_v6) : FVec Ideal S100000x40 .f32) = H0 := (Host6.keepS_main_v6 _).trans z2
  have a3 : (W30 m ρ c (Proc.devRef .tc main_v115) : FVec Ideal S100000x40 .f32)
      = K.scaV ei (scaleG (K.gatV ei X) (K.nrm2V ei)) := by
    refine (Host6.scat (W29 m ρ c)).trans ?_
    rw [d2, m2]
    rfl
  -- after the mixing region (boundary 31)
  have s4 : (W31 m ρ c (Proc.devRef .tc main_v10) : IVec S1700000 32) = K.srcV ei := (W31_of_ne m ρ c main_v10 (by decide)).trans s3
  have d4 : (W31 m ρ c (Proc.devRef .tc main_v13) : IVec S1700000 32) = K.dstV ei := (W31_of_ne m ρ c main_v13 (by decide)).trans d3
  have n4 : (W31 m ρ c (Proc.devRef .tc main_v39) : FVec Ideal S1700000x1 .f32) = K.nrm2V ei := (W31_of_ne m ρ c main_v39 (by decide)).trans n3
  have z4 : (W31 m ρ c (Proc.devRef .tc main_v6) : FVec Ideal S100000x40 .f32) = H0 := ((W31_arr m ρ c 1).trans (((dat14 (V30 m ρ) c).arrAt_in 1 rfl _).trans (A_eq14 (V30 m ρ) c 1))).trans z3
  have c4 : (W31 m ρ c (Proc.devRef .tc main_v116) : FVec Ideal S100000x40 .f32)
      = combineG (K.scaV ei (scaleG (K.gatV ei X) (K.nrm2V ei))) H0 := by
    refine (W31_arr m ρ c 2).trans ((Combine14.final (V30 m ρ) c).trans ?_)
    rw [show (V30 m ρ c (Pipeline.arrRef spec14 0) : FVec Ideal S100000x40 .f32) = K.scaV ei (scaleG (K.gatV ei X) (K.nrm2V ei)) from a3,
      show (V30 m ρ c (Pipeline.arrRef spec14 1) : FVec Ideal S100000x40 .f32) = H0 from z3]
  exact ⟨s4, d4, n4, z4, c4⟩

end Cert.Appnp.Round6

end
-- ==== Proof.Host7.lean ====
/-
  Round 8 of the propagation, host side, over ANY contents `W` of the buffers: the stretch before the scaling
  region reads the rows of the round's state at the source indices the filling way (`K.takeV`); the stretch before
  the mixing region adds the scaled edge rows into their destination nodes from zero; neither writes the four
  buffers every round reads (the source and destination indices, the weight column, the encoder's output).
-/
import proofs.«400473_j77575699301005_1_alg».proof.Proof.Gen.KernelIdeal.Launch
import proofs.«400473_j77575699301005_1_alg».proof.Proof.KernelTerms
import proofs.«400473_j77575699301005_1_alg».proof.Proof.HostTools
import Idealize.ShloMosaic.Lib.StableHlo.Run

set_option maxRecDepth 16384

noncomputable section

namespace Cert.Appnp.Host7

open Idealize.ShloMosaic Idealize.ShloMosaic.TcCoe Idealize.ShloMosaic.StableHlo Cert.KernelIdeal Cert.KernelIdeal.Gen Cert.Appnp

/-- The gathered rows this round: the filling take of the state at the source indices. -/
theorem take (W : Valuation τ sig (Elt Ideal)) :
    (StableHlo.after hostOps15 W (Proc.devRef .tc main_v117) : FVec Ideal S1700000x40 .f32)
      = K.takeV (W (Proc.devRef .tc main_v10)) (W (Proc.devRef .tc main_v116)) := by
  after_results_simp
  simp only [ofBuf_toBuf]
  refine (eq_of_heq (toBuf_heq _ _)).trans ?_
  unfold K.takeV K.wrapV
  congr

theorem keepT_main_v10 (W : Valuation τ sig (Elt Ideal)) :
    StableHlo.after hostOps15 W (Proc.devRef .tc main_v10) = W (Proc.devRef .tc main_v10) := by
  after_results_simp
theorem keepT_main_v13 (W : Valuation τ sig (Elt Ideal)) :
    StableHlo.after hostOps15 W (Proc.devRef .tc main_v13) = W (Proc.devRef .tc main_v13) := by
  after_results_simp
theorem keepT_main_v39 (W : Valuation τ sig (Elt Ideal)) :
    StableHlo.after hostOps15 W (Proc.devRef .tc main_v39) = W (Proc.devRef .tc main_v39) := by
  after_results_simp
theorem keepT_main_v6 (W : Valuation τ sig (Elt Ideal)) :
    StableHlo.after hostOps15 W (Proc.devRef .tc main_v6) = W (Proc.devRef .tc main_v6) := by
  after_results_simp

/-- The summed messages this round: the scaled edge rows added into their destinations, from zero. -/
theorem scat (W : Valuation τ sig (Elt Ideal)) :
    (StableHlo.after hostOps16 W (Proc.devRef .tc main_v126) : FVec Ideal S100000x40 .f32)
      = Host.scatterAdd (F := Ideal) scatter_S100000x40_S1700000x1_S1700000x40_1_0_0_1
          (broadcastInDim S100000x40 ![] bcast_S_S100000x40 (constant S_ .f32 0x00000000#32))
          (K.wrapV (W (Proc.devRef .tc main_v13))) (W (Proc.devRef .tc main_v118)) := by
  after_results_simp
  rfl

theorem keepS_main_v10 (W : Valuation τ sig (Elt Ideal)) :
    StableHlo.after hostOps16 W (Proc.devRef .tc main_v10) = W (Proc.devRef .tc main_v10) := by
  after_results_simp
theorem keepS_main_v13 (W : Valuation τ sig (Elt Ideal)) :
    StableHlo.after hostOps16 W (Proc.devRef .tc main_v13) = W (Proc.devRef .tc main_v13) := by
  after_results_simp
theorem keepS_main_v39 (W : Valuation τ sig (Elt Ideal)) :
    StableHlo.after hostOps16 W (Proc.devRef .tc main_v39) = W (Proc.devRef .tc main_v39) := by
  after_results_simp
theorem keepS_main_v6 (W : Valuation τ sig (Elt Ideal)) :
    StableHlo.after hostOps16 W (Proc.devRef .tc main_v6) = W (Proc.devRef .tc main_v6) := by
  after_results_simp

end Cert.Appnp.Host7

end
-- ==== Proof.RegionScale15.lean ====
/-
  A scaling region in closed form (which round it belongs to, the region number in the names below says): whatever
  the buffers hold when the region is entered, the region leaves
  in its output array row e of the gathered messages times the weight of edge e, that is `scaleG` of the two
  input arrays.

  Each grid point stages 10000 rows of the message array and of the weight column, multiplies every row by its
  weight, and writes the 10000 rows back at the same place; the blocks of the 170 points tile the 1 700 000 rows.
-/
import proofs.«400473_j77575699301005_1_alg».proof.Proof.Gen.KernelIdeal.Frame
import proofs.«400473_j77575699301005_1_alg».proof.Proof.Spec
import Idealize.ShloMosaic.Lib.Pipeline.Value
import Idealize.ShloMosaic.Lib.ValueIdx
import Idealize.ShloMosaic.Lib.ValueLayout

set_option maxRecDepth 16384

noncomputable section

namespace Cert.Appnp.Scale15
open Idealize.ShloMosaic Idealize.ShloMosaic.TcCoe Idealize.ShloMosaic.ValueIdx Idealize.ShloMosaic.Pipeline Cert.KernelIdeal Cert.KernelIdeal.Gen Cert.Appnp
variable (V : (c : Dev nD) → (b : Ref sig .tc) → Buf (Elt Ideal) ((c : Thread nD τ).loc b))

/-- The body loads and stores whole blocks: the offset of each of its rectangles is zero on both axes. -/
theorem off_zero : (![0, 0] : Fin 2 → Nat) = fun _ => 0 :=
  funext fun a => match a with | ⟨0, _⟩ => rfl | ⟨1, _⟩ => rfl

/-- The product the body stores, at one index of a block: the message entry times the weight of its row (the
    weight column is broadcast along the 40 features). -/
theorem pay_apply (xm : Vec Ideal S10000x40 .f32) (xw : Vec Ideal S10000x1 .f32) (j : S10000x40.Idx) :
    k15_pay1 (F := Ideal) xm xw j = xm j * xw (ix2 (j 0) 0) := by
  unfold k15_pay1
  rw [shapeCast_self, shapeCast_self]
  show xm j * broadcastTo S10000x40 xw _ j = _
  congr 1
  refine broadcastTo_apply xw _ j (ix2 (j 0) 0) fun a => ?_
  match a with
  | ⟨0, _⟩ => rfl
  | ⟨1, _⟩ => rfl

/-- The three index maps, decided over the 170 points: point `t` takes block row `t` of each array, block column 0. -/
theorem idx_facts : ∀ t : Fin cfg15.N, win15_0.index t (0 : Fin 2) = win15_2.index t (0 : Fin 2)
    ∧ win15_0.index t (1 : Fin 2) = win15_2.index t (1 : Fin 2)
    ∧ win15_1.index t (0 : Fin 2) = win15_2.index t (0 : Fin 2)
    ∧ win15_1.index t (1 : Fin 2) = 0
    ∧ win15_2.index t (0 : Fin 2) = t.val
    ∧ win15_2.index t (1 : Fin 2) = 0 :=
  (by decide +kernel : ∀ t : Fin grid15.N, _)

/-- One entry of the product, read at array indices: when the message index is the output index and the weight
    index is the output row in column 0, the product is `scaleG` there. -/
theorem scale_at (Am : SM40.Idx → EReal) (Aw : SM1.Idx → EReal) (im io : SM40.Idx) (iw : SM1.Idx)
    (hm : im = io) (hw : iw = ix2 (io 0) 0) : Am im * Aw iw = scaleG Am Aw io := by
  subst hm hw; rfl

/-- What point `t` writes back is block `t` of `scaleG` of the two input arrays. -/
theorem flushed_eq (c : Dev nD) (t : Fin cfg15.N) :
    (dat15 (F := Ideal) V c).flushed 2 t = ((cfg15.win 2).blk t).view.read (Elt Ideal) (scaleG (V c (Pipeline.arrRef spec15 0)) (V c (Pipeline.arrRef spec15 1))) := by
  show (cfg15.win 2).cut (grid15.coords t) ((dat15 V c).after 2 t) = _
  rw [after15_2]
  unfold out15_2
  rw [View.canon_unit_zero off_zero]
  simp only [View.ld_unit_zero (S := S10000x40) off_zero, View.ld_unit_zero (S := S10000x1) off_zero]
  obtain ⟨ea, eb, ec, ed, ee, ef⟩ := idx_facts t
  funext j
  show k15_pay1 (F := Ideal) (iblk15 V c 0 t) (iblk15 V c 1 t) j = scaleG (V c (Pipeline.arrRef spec15 0)) (V c (Pipeline.arrRef spec15 1)) (((cfg15.win 2).blk t).view.emb j)
  rw [pay_apply]
  refine scale_at (V c (Pipeline.arrRef spec15 0)) (V c (Pipeline.arrRef spec15 1)) (((cfg15.win 0).blk t).view.emb j) (((cfg15.win 2).blk t).view.emb j)
    (((cfg15.win 1).blk t).view.emb (ix2 (j 0) 0 : S10000x1.Idx)) ?_ ?_
  · funext a; apply Fin.ext
    match a with
    | ⟨0, _⟩ => show win15_0.index t (0 : Fin 2) * 10000 + 1 * (j 0).val = win15_2.index t (0 : Fin 2) * 10000 + 1 * (j 0).val; omega
    | ⟨1, _⟩ => show win15_0.index t (1 : Fin 2) * 40 + 1 * (j 1).val = win15_2.index t (1 : Fin 2) * 40 + 1 * (j 1).val; omega
  · funext a; apply Fin.ext
    match a with
    | ⟨0, _⟩ => show win15_1.index t (0 : Fin 2) * 10000 + 1 * (j 0).val = win15_2.index t (0 : Fin 2) * 10000 + 1 * (j 0).val; omega
    | ⟨1, _⟩ => show win15_1.index t (1 : Fin 2) * 1 + 1 * 0 = 0; omega

/-- An index of the output array is in the block of point `t` iff each coordinate is in the range of the block on
    its axis. -/
theorem mem_blk (t : Fin cfg15.N) (i : S1700000x40.Idx) :
    i ∈ ((cfg15.win 2).blk t).view.set ↔ ∀ a : Fin 2, win15_2.index t a * S10000x40.size a ≤ (i a).val ∧ (i a).val < win15_2.index t a * S10000x40.size a + S10000x40.size a := by
  show i ∈ ((View.whole (Pipeline.arrRef spec15 2)).slice (win15_2.rect t)).set ↔ _
  rw [View.set_slice_whole, Rect.mem_set_unit]
  exact Iff.rfl

/-- Every index of the output array lies in the block of some point (170 blocks of 10000 rows): row `r` is in the
    block of point `r / 10000`. -/
theorem cover (i : S1700000x40.Idx) : ∃ t : Fin cfg15.N, (cfg15.win 2).flush t = true ∧ i ∈ ((cfg15.win 2).blk t).view.set := by
  have hr : (i 0).val < 1700000 := (i 0).isLt
  have hc : (i 1).val < 40 := (i 1).isLt
  have hN : grid15.N = 170 := N_15
  obtain ⟨t, ht⟩ : ∃ t : Fin cfg15.N, t.val = (i 0).val / 10000 :=
    ⟨⟨(i 0).val / 10000, by show _ < grid15.N; rw [hN]; omega⟩, rfl⟩
  obtain ⟨ea, eb, ec, ed, ee, ef⟩ := idx_facts t
  refine ⟨t, flush15_2 t, ?_⟩
  rw [mem_blk]
  intro a
  match a with
  | ⟨0, _⟩ =>
    show win15_2.index t (0 : Fin 2) * 10000 ≤ (i 0).val ∧ (i 0).val < win15_2.index t (0 : Fin 2) * 10000 + 10000
    omega
  | ⟨1, _⟩ =>
    show win15_2.index t (1 : Fin 2) * 40 ≤ (i 1).val ∧ (i 1).val < win15_2.index t (1 : Fin 2) * 40 + 40
    omega

/-- The output array after the region. -/
theorem final (c : Dev nD) :
    (dat15 (F := Ideal) V c).arrAt 2 cfg15.N = scaleG (V c (Pipeline.arrRef spec15 0)) (V c (Pipeline.arrRef spec15 1)) :=
  (dat15 V c).arrAt_eq_of_cover 2 _ (fun t _ => flushed_eq V c t) cover

end Cert.Appnp.Scale15

end
-- ==== Proof.RegionCombine16.lean ====
/-
  A mixing region in closed form: whatever the two input arrays hold when the region is
  entered, the output array after the region is `combineG` of them, index by index. Each grid point stages
  rows `10000·t … 10000·t + 9999` of both inputs and of the output (the three index maps are the same map),
  the body writes `0.9·agg + 0.1·h₀` over the staged block, and the ten blocks tile the 100000 rows.
-/
import proofs.«400473_j77575699301005_1_alg».proof.Proof.Gen.KernelIdeal.Frame
import proofs.«400473_j77575699301005_1_alg».proof.Proof.Spec
import Idealize.ShloMosaic.Lib.Pipeline.Value
import Idealize.ShloMosaic.Lib.ValueIdx
import Idealize.ShloMosaic.Lib.ValueLayout

set_option maxRecDepth 16384

noncomputable section

namespace Cert.Appnp.Combine16
open Idealize.ShloMosaic Idealize.ShloMosaic.ValueIdx Idealize.ShloMosaic.Pipeline Cert.KernelIdeal Cert.KernelIdeal.Gen Cert.Appnp
open Idealize.ShloMosaic.TcCoe
variable (V : (c : Dev nD) → (b : Ref sig .tc) → Buf (Elt Ideal) ((c : Thread nD τ).loc b))

/-- The body's one rectangle starts at the origin of its block. -/
theorem hz : (![0, 0] : Fin 2 → Nat) = fun _ => 0 := funext fun a => by fin_cases a <;> rfl

/-- The body's payload at an index of the block: the two constants times the two loaded blocks, added. -/
theorem pay_apply (x0 x1 : Vec Ideal S10000x40 .f32) (j : S10000x40.Idx) :
    k16_pay1 (F := Ideal) x0 x1 j = Ideal.ofBits .f32 0x3F666666#32 * x0 j + Ideal.ofBits .f32 0x3DCCCCCD#32 * x1 j := by
  unfold k16_pay1
  simp only [shapeCast_self, addf_apply, mulf_apply, broadcast_apply]
  rfl

/-- The three index maps, decided over the grid: both inputs' blocks move with the output's, whose block index
    is at most 9 on the row axis and 0 on the column axis. -/
theorem idx_facts : ∀ t : Fin cfg16.N, win16_0.index t (0 : Fin 2) = win16_2.index t (0 : Fin 2)
    ∧ win16_0.index t (1 : Fin 2) = win16_2.index t (1 : Fin 2)
    ∧ win16_1.index t (0 : Fin 2) = win16_2.index t (0 : Fin 2)
    ∧ win16_1.index t (1 : Fin 2) = win16_2.index t (1 : Fin 2)
    ∧ win16_2.index t (0 : Fin 2) ≤ 9
    ∧ win16_2.index t (1 : Fin 2) = 0 :=
  (by decide +kernel : ∀ t : Fin grid16.N, _)

/-- Every one of the ten row blocks of the output is some point's. -/
theorem idx_onto : ∀ (q0 : Fin 10), ∃ t : Fin cfg16.N, win16_2.index t = ![q0.val, 0] :=
  (by decide +kernel : ∀ (q0 : Fin 10), ∃ t : Fin grid16.N, win16_2.index t = ![q0.val, 0])

/-- What point t writes back is block t of combineG of the two input arrays. -/
theorem flushed_eq (c : Dev nD) (t : Fin cfg16.N) :
    (dat16 (F := Ideal) V c).flushed 2 t = ((cfg16.win 2).blk t).view.read (Elt Ideal) (combineG (V c (Pipeline.arrRef spec16 0)) (V c (Pipeline.arrRef spec16 1))) := by
  show (cfg16.win 2).cut (grid16.coords t) ((dat16 V c).after 2 t) = _
  rw [after16_2]
  unfold out16_2
  rw [View.canon_unit_zero hz]
  simp only [View.ld_unit_zero (S := S10000x40) hz]
  obtain ⟨ea, eb, ec, ed, ee, ef⟩ := idx_facts t
  funext j
  refine (pay_apply _ _ _).trans ?_
  show Ideal.ofBits .f32 0x3F666666#32 * V c (Pipeline.arrRef spec16 0) (((cfg16.win 0).blk t).view.emb j) + Ideal.ofBits .f32 0x3DCCCCCD#32 * V c (Pipeline.arrRef spec16 1) (((cfg16.win 1).blk t).view.emb j) = Ideal.ofBits .f32 0x3F666666#32 * V c (Pipeline.arrRef spec16 0) (((cfg16.win 2).blk t).view.emb j) + Ideal.ofBits .f32 0x3DCCCCCD#32 * V c (Pipeline.arrRef spec16 1) (((cfg16.win 2).blk t).view.emb j)
  have h0 : ((cfg16.win 0).blk t).view.emb j = ((cfg16.win 2).blk t).view.emb j := by
    funext a; apply Fin.ext
    match a with
    | ⟨0, _⟩ => show win16_0.index t (0 : Fin 2) * 10000 + 1 * (j 0).val = win16_2.index t (0 : Fin 2) * 10000 + 1 * (j 0).val; omega
    | ⟨1, _⟩ => show win16_0.index t (1 : Fin 2) * 40 + 1 * (j 1).val = win16_2.index t (1 : Fin 2) * 40 + 1 * (j 1).val; omega
  have h1 : ((cfg16.win 1).blk t).view.emb j = ((cfg16.win 2).blk t).view.emb j := by
    funext a; apply Fin.ext
    match a with
    | ⟨0, _⟩ => show win16_1.index t (0 : Fin 2) * 10000 + 1 * (j 0).val = win16_2.index t (0 : Fin 2) * 10000 + 1 * (j 0).val; omega
    | ⟨1, _⟩ => show win16_1.index t (1 : Fin 2) * 40 + 1 * (j 1).val = win16_2.index t (1 : Fin 2) * 40 + 1 * (j 1).val; omega
  rw [h0, h1]

/-- An index of the output array is in point t's block iff each coordinate is in the block's range on its axis. -/
theorem mem_blk (t : Fin cfg16.N) (i : S100000x40.Idx) :
    i ∈ ((cfg16.win 2).blk t).view.set ↔ ∀ a : Fin 2, win16_2.index t a * S10000x40.size a ≤ (i a).val ∧ (i a).val < win16_2.index t a * S10000x40.size a + S10000x40.size a := by
  show i ∈ ((View.whole (Pipeline.arrRef spec16 2)).slice (win16_2.rect t)).set ↔ _
  rw [View.set_slice_whole, Rect.mem_set_unit]
  exact Iff.rfl

/-- Every index of the output array lies in some point's block (10 blocks of 10000 rows): row r is in block r / 10000. -/
theorem cover (i : S100000x40.Idx) : ∃ t : Fin cfg16.N, (cfg16.win 2).flush t = true ∧ i ∈ ((cfg16.win 2).blk t).view.set := by
  have hi0 : (i 0).val < 100000 := (i 0).isLt
  have hi1 : (i 1).val < 40 := (i 1).isLt
  obtain ⟨t, ht⟩ := idx_onto ⟨(i 0).val / 10000, by omega⟩
  have q0 : win16_2.index t (0 : Fin 2) = (i 0).val / 10000 := congrFun ht 0
  have q1 : win16_2.index t (1 : Fin 2) = 0 := congrFun ht 1
  refine ⟨t, flush16_2 t, ?_⟩
  rw [mem_blk]
  intro a
  match a with
  | ⟨0, _⟩ => show win16_2.index t (0 : Fin 2) * 10000 ≤ (i 0).val ∧ (i 0).val < win16_2.index t (0 : Fin 2) * 10000 + 10000; omega
  | ⟨1, _⟩ => show win16_2.index t (1 : Fin 2) * 40 ≤ (i 1).val ∧ (i 1).val < win16_2.index t (1 : Fin 2) * 40 + 40; omega

/-- The output array after the region. -/
theorem final (c : Dev nD) :
    (dat16 (F := Ideal) V c).arrAt 2 cfg16.N = combineG (V c (Pipeline.arrRef spec16 0)) (V c (Pipeline.arrRef spec16 1)) :=
  (dat16 V c).arrAt_eq_of_cover 2 _ (fun t _ => flushed_eq V c t) cover

end Cert.Appnp.Combine16

end
-- ==== Proof.Round7.lean ====
/-
  Round 8 of the propagation on the kernel's side, boundary by boundary. Entering the round (boundary 31 of the
  run) the source and destination indices, the weight column and the encoder's output hold what the host computed
  once, and the round's state is some `X`. The take stretch reads the rows of `X` at the sources — the plain gather,
  every source index being in range —; the scaling region multiplies row e by weight e; the scatter stretch adds
  the rows into their destinations; the mixing region forms 0.9 · sum + 0.1 · encoder output. So the round leaves
  `stepG … X`, and the four shared buffers as they were.
-/
import proofs.«400473_j77575699301005_1_alg».proof.Proof.Gen.KernelIdeal.Frame
import proofs.«400473_j77575699301005_1_alg».proof.Proof.Spec
import proofs.«400473_j77575699301005_1_alg».proof.Proof.KernelTerms
import proofs.«400473_j77575699301005_1_alg».proof.Proof.TakeMask
import proofs.«400473_j77575699301005_1_alg».proof.Proof.Host7
import proofs.«400473_j77575699301005_1_alg».proof.Proof.RegionScale15
import proofs.«400473_j77575699301005_1_alg».proof.Proof.RegionCombine16

set_option maxRecDepth 16384

noncomputable section

namespace Cert.Appnp.Round7

open Idealize.ShloMosaic Idealize.ShloMosaic.TcCoe Cert.KernelIdeal Cert.KernelIdeal.Gen Cert.Appnp

variable (m : (ℓ : Loc nD τ sig) → Buf (Elt Ideal) ℓ) (ρ : Dev nD → PrngReg)

set_option maxHeartbeats 4000000 in
/-- One round, from boundary 31 to boundary 35. -/
theorem round (c : Dev nD) (ei : IVec S2x1600000 32) (H0 X : FVec Ideal S100000x40 .f32)
    (hin : ∀ j : S1700000.Idx, K.InRange (K.srcV ei j))
    (hsrc : (W31 m ρ c (Proc.devRef .tc main_v10) : IVec S1700000 32) = K.srcV ei)
    (hdst : (W31 m ρ c (Proc.devRef .tc main_v13) : IVec S1700000 32) = K.dstV ei)
    (hnrm : (W31 m ρ c (Proc.devRef .tc main_v39) : FVec Ideal S1700000x1 .f32) = K.nrm2V ei)
    (hh0 : (W31 m ρ c (Proc.devRef .tc main_v6) : FVec Ideal S100000x40 .f32) = H0)
    (hx : (W31 m ρ c (Proc.devRef .tc main_v116) : FVec Ideal S100000x40 .f32) = X) :
    (W35 m ρ c (Proc.devRef .tc main_v10) : IVec S1700000 32) = K.srcV ei
    ∧ (W35 m ρ c (Proc.devRef .tc main_v13) : IVec S1700000 32) = K.dstV ei
    ∧ (W35 m ρ c (Proc.devRef .tc main_v39) : FVec Ideal S1700000x1 .f32) = K.nrm2V ei
    ∧ (W35 m ρ c (Proc.devRef .tc main_v6) : FVec Ideal S100000x40 .f32) = H0
    ∧ (W35 m ρ c (Proc.devRef .tc main_v127) : FVec Ideal S100000x40 .f32)
        = stepG (K.gatV ei) (K.scaV ei) (K.nrm2V ei) H0 X := by
  -- after the take stretch (boundary 32)
  have s1 : (W32 m ρ c (Proc.devRef .tc main_v10) : IVec S1700000 32) = K.srcV ei := (Host7.keepT_main_v10 _).trans hsrc
  have d1 : (W32 m ρ c (Proc.devRef .tc main_v13) : IVec S1700000 32) = K.dstV ei := (Host7.keepT_main_v13 _).trans hdst
  have n1 : (W32 m ρ c (Proc.devRef .tc main_v39) : FVec Ideal S1700000x1 .f32) = K.nrm2V ei := (Host7.keepT_main_v39 _).trans hnrm
  have z1 : (W32 m ρ c (Proc.devRef .tc main_v6) : FVec Ideal S100000x40 .f32) = H0 := (Host7.keepT_main_v6 _).trans hh0
  have t1 : (W32 m ρ c (Proc.devRef .tc main_v117) : FVec Ideal S1700000x40 .f32) = K.gatV ei X := by
    refine (Host7.take (W31 m ρ c)).trans ?_
    rw [hsrc, hx]
    exact K.takeV_eq _ _ hin
  -- after the scaling region (boundary 33)
  have s2 : (W33 m ρ c (Proc.devRef .tc main_v10) : IVec S1700000 32) = K.srcV ei := (W33_of_ne m ρ c main_v10 (by decide)).trans s1
  have d2 : (W33 m ρ c (Proc.devRef .tc main_v13) : IVec S1700000 32) = K.dstV ei := (W33_of_ne m ρ c main_v13 (by decide)).trans d1
  have n2 : (W33 m ρ c (Proc.devRef .tc main_v39) : FVec Ideal S1700000x1 .f32) = K.nrm2V ei := ((W33_arr m ρ c 1).trans (((dat15 (V32 m ρ) c).arrAt_in 1 rfl _).trans (A_eq15 (V32 m ρ) c 1))).trans n1
  have z2 : (W33 m ρ c (Proc.devRef .tc main_v6) : FVec Ideal S100000x40 .f32) = H0 := (W33_of_ne m ρ c main_v6 (by decide)).trans z1
  have m2 : (W33 m ρ c (Proc.devRef .tc main_v118) : FVec Ideal S1700000x40 .f32) = scaleG (K.gatV ei X) (K.nrm2V ei) := by
    refine (W33_arr m ρ c 2).trans ((Scale15.final (V32 m ρ) c).trans ?_)
    rw [show (V32 m ρ c (Pipeline.arrRef spec15 0) : FVec Ideal S1700000x40 .f32) = K.gatV ei X from t1,
      show (V32 m ρ c (Pipeline.arrRef spec15 1) : FVec Ideal S1700000x1 .f32) = K.nrm2V ei from n1]
  -- after the scatter stretch (boundary 34)
  have s3 : (W34 m ρ c (Proc.devRef .tc main_v10) : IVec S1700000 32) = K.srcV ei := (Host7.keepS_main_v10 _).trans s2
  have d3 : (W34 m ρ c (Proc.devRef .tc main_v13) : IVec S1700000 32) = K.dstV ei := (Host7.keepS_main_v13 _).trans d2
  have n3 : (W34 m ρ c (Proc.devRef .tc main_v39) : FVec Ideal S1700000x1 .f32) = K.nrm2V ei := (Host7.keepS_main_v39 _).trans n2
  have z3 : (W34 m ρ c (Proc.devRef .tc main_v6) : FVec Ideal S100000x40 .f32) = H0 := (Host7.keepS_main_v6 _).trans z2
  have a3 : (W34 m ρ c (Proc.devRef .tc main_v126) : FVec Ideal S100000x40 .f32)
      = K.scaV ei (scaleG (K.gatV ei X) (K.nrm2V ei)) := by
    refine (Host7.scat (W33 m ρ c)).trans ?_
    rw [d2, m2]
    rfl
  -- after the mixing region (boundary 35)
  have s4 : (W35 m ρ c (Proc.devRef .tc main_v10) : IVec S1700000 32) = K.srcV ei := (W35_of_ne m ρ c main_v10 (by decide)).trans s3
  have d4 : (W35 m ρ c (Proc.devRef .tc main_v13) : IVec S1700000 32) = K.dstV ei := (W35_of_ne m ρ c main_v13 (by decide)).trans d3
  have n4 : (W35 m ρ c (Proc.devRef .tc main_v39) : FVec Ideal S1700000x1 .f32) = K.nrm2V ei := (W35_of_ne m ρ c main_v39 (by decide)).trans n3
  have z4 : (W35 m ρ c (Proc.devRef .tc main_v6) : FVec Ideal S100000x40 .f32) = H0 := ((W35_arr m ρ c 1).trans (((dat16 (V34 m ρ) c).arrAt_in 1 rfl _).trans (A_eq16 (V34 m ρ) c 1))).trans z3
  have c4 : (W35 m ρ c (Proc.devRef .tc main_v127) : FVec Ideal S100000x40 .f32)
      = combineG (K.scaV ei (scaleG (K.gatV ei X) (K.nrm2V ei))) H0 := by
    refine (W35_arr m ρ c 2).trans ((Combine16.final (V34 m ρ) c).trans ?_)
    rw [show (V34 m ρ c (Pipeline.arrRef spec16 0) : FVec Ideal S100000x40 .f32) = K.scaV ei (scaleG (K.gatV ei X) (K.nrm2V ei)) from a3,
      show (V34 m ρ c (Pipeline.arrRef spec16 1) : FVec Ideal S100000x40 .f32) = H0 from z3]
  exact ⟨s4, d4, n4, z4, c4⟩

end Cert.Appnp.Round7

end
-- ==== Proof.Host8.lean ====
/-
  Round 9 of the propagation, host side, over ANY contents `W` of the buffers: the stretch before the scaling
  region reads the rows of the round's state at the source indices the filling way (`K.takeV`); the stretch before
  the mixing region adds the scaled edge rows into their destination nodes from zero; neither writes the four
  buffers every round reads (the source and destination indices, the weight column, the encoder's output).
-/
import proofs.«400473_j77575699301005_1_alg».proof.Proof.Gen.KernelIdeal.Launch
import proofs.«400473_j77575699301005_1_alg».proof.Proof.KernelTerms
import proofs.«400473_j77575699301005_1_alg».proof.Proof.HostTools
import Idealize.ShloMosaic.Lib.StableHlo.Run

set_option maxRecDepth 16384

noncomputable section

namespace Cert.Appnp.Host8

open Idealize.ShloMosaic Idealize.ShloMosaic.TcCoe Idealize.ShloMosaic.StableHlo Cert.KernelIdeal Cert.KernelIdeal.Gen Cert.Appnp

/-- The gathered rows this round: the filling take of the state at the source indices. -/
theorem take (W : Valuation τ sig (Elt Ideal)) :
    (StableHlo.after hostOps17 W (Proc.devRef .tc main_v128) : FVec Ideal S1700000x40 .f32)
      = K.takeV (W (Proc.devRef .tc main_v10)) (W (Proc.devRef .tc main_v127)) := by
  after_results_simp
  simp only [ofBuf_toBuf]
  refine (eq_of_heq (toBuf_heq _ _)).trans ?_
  unfold K.takeV K.wrapV
  congr

theorem keepT_main_v10 (W : Valuation τ sig (Elt Ideal)) :
    StableHlo.after hostOps17 W (Proc.devRef .tc main_v10) = W (Proc.devRef .tc main_v10) := by
  after_results_simp
theorem keepT_main_v13 (W : Valuation τ sig (Elt Ideal)) :
    StableHlo.after hostOps17 W (Proc.devRef .tc main_v13) = W (Proc.devRef .tc main_v13) := by
  after_results_simp
theorem keepT_main_v39 (W : Valuation τ sig (Elt Ideal)) :
    StableHlo.after hostOps17 W (Proc.devRef .tc main_v39) = W (Proc.devRef .tc main_v39) := by
  after_results_simp
theorem keepT_main_v6 (W : Valuation τ sig (Elt Ideal)) :
    StableHlo.after hostOps17 W (Proc.devRef .tc main_v6) = W (Proc.devRef .tc main_v6) := by
  after_results_simp

/-- The summed messages this round: the scaled edge rows added into their destinations, from zero. -/
theorem scat (W : Valuation τ sig (Elt Ideal)) :
    (StableHlo.after hostOps18 W (Proc.devRef .tc main_v137) : FVec Ideal S100000x40 .f32)
      = Host.scatterAdd (F := Ideal) scatter_S100000x40_S1700000x1_S1700000x40_1_0_0_1
          (broadcastInDim S100000x40 ![] bcast_S_S100000x40 (constant S_ .f32 0x00000000#32))
          (K.wrapV (W (Proc.devRef .tc main_v13))) (W (Proc.devRef .tc main_v129)) := by
  after_results_simp
  rfl

theorem keepS_main_v10 (W : Valuation τ sig (Elt Ideal)) :
    StableHlo.after hostOps18 W (Proc.devRef .tc main_v10) = W (Proc.devRef .tc main_v10) := by
  after_results_simp
theorem keepS_main_v13 (W : Valuation τ sig (Elt Ideal)) :
    StableHlo.after hostOps18 W (Proc.devRef .tc main_v13) = W (Proc.devRef .tc main_v13) := by
  after_results_simp
theorem keepS_main_v39 (W : Valuation τ sig (Elt Ideal)) :
    StableHlo.after hostOps18 W (Proc.devRef .tc main_v39) = W (Proc.devRef .tc main_v39) := by
  after_results_simp
theorem keepS_main_v6 (W : Valuation τ sig (Elt Ideal)) :
    StableHlo.after hostOps18 W (Proc.devRef .tc main_v6) = W (Proc.devRef .tc main_v6) := by
  after_results_simp

end Cert.Appnp.Host8

end
-- ==== Proof.RegionScale17.lean ====
/-
  A scaling region in closed form (which round it belongs to, the region number in the names below says): whatever
  the buffers hold when the region is entered, the region leaves
  in its output array row e of the gathered messages times the weight of edge e, that is `scaleG` of the two
  input arrays.

  Each grid point stages 10000 rows of the message array and of the weight column, multiplies every row by its
  weight, and writes the 10000 rows back at the same place; the blocks of the 170 points tile the 1 700 000 rows.
-/
import proofs.«400473_j77575699301005_1_alg».proof.Proof.Gen.KernelIdeal.Frame
import proofs.«400473_j77575699301005_1_alg».proof.Proof.Spec
import Idealize.ShloMosaic.Lib.Pipeline.Value
import Idealize.ShloMosaic.Lib.ValueIdx
import Idealize.ShloMosaic.Lib.ValueLayout

set_option maxRecDepth 16384

noncomputable section

namespace Cert.Appnp.Scale17
open Idealize.ShloMosaic Idealize.ShloMosaic.TcCoe Idealize.ShloMosaic.ValueIdx Idealize.ShloMosaic.Pipeline Cert.KernelIdeal Cert.KernelIdeal.Gen Cert.Appnp
variable (V : (c : Dev nD) → (b : Ref sig .tc) → Buf (Elt Ideal) ((c : Thread nD τ).loc b))

/-- The body loads and stores whole blocks: the offset of each of its rectangles is zero on both axes. -/
theorem off_zero : (![0, 0] : Fin 2 → Nat) = fun _ => 0 :=
  funext fun a => match a with | ⟨0, _⟩ => rfl | ⟨1, _⟩ => rfl

/-- The product the body stores, at one index of a block: the message entry times the weight of its row (the
    weight column is broadcast along the 40 features). -/
theorem pay_apply (xm : Vec Ideal S10000x40 .f32) (xw : Vec Ideal S10000x1 .f32) (j : S10000x40.Idx) :
    k17_pay1 (F := Ideal) xm xw j = xm j * xw (ix2 (j 0) 0) := by
  unfold k17_pay1
  rw [shapeCast_self, shapeCast_self]
  show xm j * broadcastTo S10000x40 xw _ j = _
  congr 1
  refine broadcastTo_apply xw _ j (ix2 (j 0) 0) fun a => ?_
  match a with
  | ⟨0, _⟩ => rfl
  | ⟨1, _⟩ => rfl

/-- The three index maps, decided over the 170 points: point `t` takes block row `t` of each array, block column 0. -/
theorem idx_facts : ∀ t : Fin cfg17.N, win17_0.index t (0 : Fin 2) = win17_2.index t (0 : Fin 2)
    ∧ win17_0.index t (1 : Fin 2) = win17_2.index t (1 : Fin 2)
    ∧ win17_1.index t (0 : Fin 2) = win17_2.index t (0 : Fin 2)
    ∧ win17_1.index t (1 : Fin 2) = 0
    ∧ win17_2.index t (0 : Fin 2) = t.val
    ∧ win17_2.index t (1 : Fin 2) = 0 :=
  (by decide +kernel : ∀ t : Fin grid17.N, _)

/-- One entry of the product, read at array indices: when the message index is the output index and the weight
    index is the output row in column 0, the product is `scaleG` there. -/
theorem scale_at (Am : SM40.Idx → EReal) (Aw : SM1.Idx → EReal) (im io : SM40.Idx) (iw : SM1.Idx)
    (hm : im = io) (hw : iw = ix2 (io 0) 0) : Am im * Aw iw = scaleG Am Aw io := by
  subst hm hw; rfl

/-- What point `t` writes back is block `t` of `scaleG` of the two input arrays. -/
theorem flushed_eq (c : Dev nD) (t : Fin cfg17.N) :
    (dat17 (F := Ideal) V c).flushed 2 t = ((cfg17.win 2).blk t).view.read (Elt Ideal) (scaleG (V c (Pipeline.arrRef spec17 0)) (V c (Pipeline.arrRef spec17 1))) := by
  show (cfg17.win 2).cut (grid17.coords t) ((dat17 V c).after 2 t) = _
  rw [after17_2]
  unfold out17_2
  rw [View.canon_unit_zero off_zero]
  simp only [View.ld_unit_zero (S := S10000x40) off_zero, View.ld_unit_zero (S := S10000x1) off_zero]
  obtain ⟨ea, eb, ec, ed, ee, ef⟩ := idx_facts t
  funext j
  show k17_pay1 (F := Ideal) (iblk17 V c 0 t) (iblk17 V c 1 t) j = scaleG (V c (Pipeline.arrRef spec17 0)) (V c (Pipeline.arrRef spec17 1)) (((cfg17.win 2).blk t).view.emb j)
  rw [pay_apply]
  refine scale_at (V c (Pipeline.arrRef spec17 0)) (V c (Pipeline.arrRef spec17 1)) (((cfg17.win 0).blk t).view.emb j) (((cfg17.win 2).blk t).view.emb j)
    (((cfg17.win 1).blk t).view.emb (ix2 (j 0) 0 : S10000x1.Idx)) ?_ ?_
  · funext a; apply Fin.ext
    match a with
    | ⟨0, _⟩ => show win17_0.index t (0 : Fin 2) * 10000 + 1 * (j 0).val = win17_2.index t (0 : Fin 2) * 10000 + 1 * (j 0).val; omega
    | ⟨1, _⟩ => show win17_0.index t (1 : Fin 2) * 40 + 1 * (j 1).val = win17_2.index t (1 : Fin 2) * 40 + 1 * (j 1).val; omega
  · funext a; apply Fin.ext
    match a with
    | ⟨0, _⟩ => show win17_1.index t (0 : Fin 2) * 10000 + 1 * (j 0).val = win17_2.index t (0 : Fin 2) * 10000 + 1 * (j 0).val; omega
    | ⟨1, _⟩ => show win17_1.index t (1 : Fin 2) * 1 + 1 * 0 = 0; omega

/-- An index of the output array is in the block of point `t` iff each coordinate is in the range of the block on
    its axis. -/
theorem mem_blk (t : Fin cfg17.N) (i : S1700000x40.Idx) :
    i ∈ ((cfg17.win 2).blk t).view.set ↔ ∀ a : Fin 2, win17_2.index t a * S10000x40.size a ≤ (i a).val ∧ (i a).val < win17_2.index t a * S10000x40.size a + S10000x40.size a := by
  show i ∈ ((View.whole (Pipeline.arrRef spec17 2)).slice (win17_2.rect t)).set ↔ _
  rw [View.set_slice_whole, Rect.mem_set_unit]
  exact Iff.rfl

/-- Every index of the output array lies in the block of some point (170 blocks of 10000 rows): row `r` is in the
    block of point `r / 10000`. -/
theorem cover (i : S1700000x40.Idx) : ∃ t : Fin cfg17.N, (cfg17.win 2).flush t = true ∧ i ∈ ((cfg17.win 2).blk t).view.set := by
  have hr : (i 0).val < 1700000 := (i 0).isLt
  have hc : (i 1).val < 40 := (i 1).isLt
  have hN : grid17.N = 170 := N_17
  obtain ⟨t, ht⟩ : ∃ t : Fin cfg17.N, t.val = (i 0).val / 10000 :=
    ⟨⟨(i 0).val / 10000, by show _ < grid17.N; rw [hN]; omega⟩, rfl⟩
  obtain ⟨ea, eb, ec, ed, ee, ef⟩ := idx_facts t
  refine ⟨t, flush17_2 t, ?_⟩
  rw [mem_blk]
  intro a
  match a with
  | ⟨0, _⟩ =>
    show win17_2.index t (0 : Fin 2) * 10000 ≤ (i 0).val ∧ (i 0).val < win17_2.index t (0 : Fin 2) * 10000 + 10000
    omega
  | ⟨1, _⟩ =>
    show win17_2.index t (1 : Fin 2) * 40 ≤ (i 1).val ∧ (i 1).val < win17_2.index t (1 : Fin 2) * 40 + 40
    omega

/-- The output array after the region. -/
theorem final (c : Dev nD) :
    (dat17 (F := Ideal) V c).arrAt 2 cfg17.N = scaleG (V c (Pipeline.arrRef spec17 0)) (V c (Pipeline.arrRef spec17 1)) :=
  (dat17 V c).arrAt_eq_of_cover 2 _ (fun t _ => flushed_eq V c t) cover

end Cert.Appnp.Scale17

end
-- ==== Proof.RegionCombine18.lean ====
/-
  A mixing region in closed form: whatever the two input arrays hold when the region is
  entered, the output array after the region is `combineG` of them, index by index. Each grid point stages
  rows `10000·t … 10000·t + 9999` of both inputs and of the output (the three index maps are the same map),
  the body writes `0.9·agg + 0.1·h₀` over the staged block, and the ten blocks tile the 100000 rows.
-/
import proofs.«400473_j77575699301005_1_alg».proof.Proof.Gen.KernelIdeal.Frame
import proofs.«400473_j77575699301005_1_alg».proof.Proof.Spec
import Idealize.ShloMosaic.Lib.Pipeline.Value
import Idealize.ShloMosaic.Lib.ValueIdx
import Idealize.ShloMosaic.Lib.ValueLayout

set_option maxRecDepth 16384

noncomputable section

namespace Cert.Appnp.Combine18
open Idealize.ShloMosaic Idealize.ShloMosaic.ValueIdx Idealize.ShloMosaic.Pipeline Cert.KernelIdeal Cert.KernelIdeal.Gen Cert.Appnp
open Idealize.ShloMosaic.TcCoe
variable (V : (c : Dev nD) → (b : Ref sig .tc) → Buf (Elt Ideal) ((c : Thread nD τ).loc b))

/-- The body's one rectangle starts at the origin of its block. -/
theorem hz : (![0, 0] : Fin 2 → Nat) = fun _ => 0 := funext fun a => by fin_cases a <;> rfl

/-- The body's payload at an index of the block: the two constants times the two loaded blocks, added. -/
theorem pay_apply (x0 x1 : Vec Ideal S10000x40 .f32) (j : S10000x40.Idx) :
    k18_pay1 (F := Ideal) x0 x1 j = Ideal.ofBits .f32 0x3F666666#32 * x0 j + Ideal.ofBits .f32 0x3DCCCCCD#32 * x1 j := by
  unfold k18_pay1
  simp only [shapeCast_self, addf_apply, mulf_apply, broadcast_apply]
  rfl

/-- The three index maps, decided over the grid: both inputs' blocks move with the output's, whose block index
    is at most 9 on the row axis and 0 on the column axis. -/
theorem idx_facts : ∀ t : Fin cfg18.N, win18_0.index t (0 : Fin 2) = win18_2.index t (0 : Fin 2)
    ∧ win18_0.index t (1 : Fin 2) = win18_2.index t (1 : Fin 2)
    ∧ win18_1.index t (0 : Fin 2) = win18_2.index t (0 : Fin 2)
    ∧ win18_1.index t (1 : Fin 2) = win18_2.index t (1 : Fin 2)
    ∧ win18_2.index t (0 : Fin 2) ≤ 9
    ∧ win18_2.index t (1 : Fin 2) = 0 :=
  (by decide +kernel : ∀ t : Fin grid18.N, _)

/-- Every one of the ten row blocks of the output is some point's. -/
theorem idx_onto : ∀ (q0 : Fin 10), ∃ t : Fin cfg18.N, win18_2.index t = ![q0.val, 0] :=
  (by decide +kernel : ∀ (q0 : Fin 10), ∃ t : Fin grid18.N, win18_2.index t = ![q0.val, 0])

/-- What point t writes back is block t of combineG of the two input arrays. -/
theorem flushed_eq (c : Dev nD) (t : Fin cfg18.N) :
    (dat18 (F := Ideal) V c).flushed 2 t = ((cfg18.win 2).blk t).view.read (Elt Ideal) (combineG (V c (Pipeline.arrRef spec18 0)) (V c (Pipeline.arrRef spec18 1))) := by
  show (cfg18.win 2).cut (grid18.coords t) ((dat18 V c).after 2 t) = _
  rw [after18_2]
  unfold out18_2
  rw [View.canon_unit_zero hz]
  simp only [View.ld_unit_zero (S := S10000x40) hz]
  obtain ⟨ea, eb, ec, ed, ee, ef⟩ := idx_facts t
  funext j
  refine (pay_apply _ _ _).trans ?_
  show Ideal.ofBits .f32 0x3F666666#32 * V c (Pipeline.arrRef spec18 0) (((cfg18.win 0).blk t).view.emb j) + Ideal.ofBits .f32 0x3DCCCCCD#32 * V c (Pipeline.arrRef spec18 1) (((cfg18.win 1).blk t).view.emb j) = Ideal.ofBits .f32 0x3F666666#32 * V c (Pipeline.arrRef spec18 0) (((cfg18.win 2).blk t).view.emb j) + Ideal.ofBits .f32 0x3DCCCCCD#32 * V c (Pipeline.arrRef spec18 1) (((cfg18.win 2).blk t).view.emb j)
  have h0 : ((cfg18.win 0).blk t).view.emb j = ((cfg18.win 2).blk t).view.emb j := by
    funext a; apply Fin.ext
    match a with
    | ⟨0, _⟩ => show win18_0.index t (0 : Fin 2) * 10000 + 1 * (j 0).val = win18_2.index t (0 : Fin 2) * 10000 + 1 * (j 0).val; omega
    | ⟨1, _⟩ => show win18_0.index t (1 : Fin 2) * 40 + 1 * (j 1).val = win18_2.index t (1 : Fin 2) * 40 + 1 * (j 1).val; omega
  have h1 : ((cfg18.win 1).blk t).view.emb j = ((cfg18.win 2).blk t).view.emb j := by
    funext a; apply Fin.ext
    match a with
    | ⟨0, _⟩ => show win18_1.index t (0 : Fin 2) * 10000 + 1 * (j 0).val = win18_2.index t (0 : Fin 2) * 10000 + 1 * (j 0).val; omega
    | ⟨1, _⟩ => show win18_1.index t (1 : Fin 2) * 40 + 1 * (j 1).val = win18_2.index t (1 : Fin 2) * 40 + 1 * (j 1).val; omega
  rw [h0, h1]

/-- An index of the output array is in point t's block iff each coordinate is in the block's range on its axis. -/
theorem mem_blk (t : Fin cfg18.N) (i : S100000x40.Idx) :
    i ∈ ((cfg18.win 2).blk t).view.set ↔ ∀ a : Fin 2, win18_2.index t a * S10000x40.size a ≤ (i a).val ∧ (i a).val < win18_2.index t a * S10000x40.size a + S10000x40.size a := by
  show i ∈ ((View.whole (Pipeline.arrRef spec18 2)).slice (win18_2.rect t)).set ↔ _
  rw [View.set_slice_whole, Rect.mem_set_unit]
  exact Iff.rfl

/-- Every index of the output array lies in some point's block (10 blocks of 10000 rows): row r is in block r / 10000. -/
theorem cover (i : S100000x40.Idx) : ∃ t : Fin cfg18.N, (cfg18.win 2).flush t = true ∧ i ∈ ((cfg18.win 2).blk t).view.set := by
  have hi0 : (i 0).val < 100000 := (i 0).isLt
  have hi1 : (i 1).val < 40 := (i 1).isLt
  obtain ⟨t, ht⟩ := idx_onto ⟨(i 0).val / 10000, by omega⟩
  have q0 : win18_2.index t (0 : Fin 2) = (i 0).val / 10000 := congrFun ht 0
  have q1 : win18_2.index t (1 : Fin 2) = 0 := congrFun ht 1
  refine ⟨t, flush18_2 t, ?_⟩
  rw [mem_blk]
  intro a
  match a with
  | ⟨0, _⟩ => show win18_2.index t (0 : Fin 2) * 10000 ≤ (i 0).val ∧ (i 0).val < win18_2.index t (0 : Fin 2) * 10000 + 10000; omega
  | ⟨1, _⟩ => show win18_2.index t (1 : Fin 2) * 40 ≤ (i 1).val ∧ (i 1).val < win18_2.index t (1 : Fin 2) * 40 + 40; omega

/-- The output array after the region. -/
theorem final (c : Dev nD) :
    (dat18 (F := Ideal) V c).arrAt 2 cfg18.N = combineG (V c (Pipeline.arrRef spec18 0)) (V c (Pipeline.arrRef spec18 1)) :=
  (dat18 V c).arrAt_eq_of_cover 2 _ (fun t _ => flushed_eq V c t) cover

end Cert.Appnp.Combine18

end
-- ==== Proof.Round8.lean ====
/-
  Round 9 of the propagation on the kernel's side, boundary by boundary. Entering the round (boundary 35 of the
  run) the source and destination indices, the weight column and the encoder's output hold what the host computed
  once, and the round's state is some `X`. The take stretch reads the rows of `X` at the sources — the plain gather,
  every source index being in range —; the scaling region multiplies row e by weight e; the scatter stretch adds
  the rows into their destinations; the mixing region forms 0.9 · sum + 0.1 · encoder output. So the round leaves
  `stepG … X`, and the four shared buffers as they were.
-/
import proofs.«400473_j77575699301005_1_alg».proof.Proof.Gen.KernelIdeal.Frame
import proofs.«400473_j77575699301005_1_alg».proof.Proof.Spec
import proofs.«400473_j77575699301005_1_alg».proof.Proof.KernelTerms
import proofs.«400473_j77575699301005_1_alg».proof.Proof.TakeMask
import proofs.«400473_j77575699301005_1_alg».proof.Proof.Host8
import proofs.«400473_j77575699301005_1_alg».proof.Proof.RegionScale17
import proofs.«400473_j77575699301005_1_alg».proof.Proof.RegionCombine18

set_option maxRecDepth 16384

noncomputable section

namespace Cert.Appnp.Round8

open Idealize.ShloMosaic Idealize.ShloMosaic.TcCoe Cert.KernelIdeal Cert.KernelIdeal.Gen Cert.Appnp

variable (m : (ℓ : Loc nD τ sig) → Buf (Elt Ideal) ℓ) (ρ : Dev nD → PrngReg)

set_option maxHeartbeats 4000000 in
/-- One round, from boundary 35 to boundary 39. -/
theorem round (c : Dev nD) (ei : IVec S2x1600000 32) (H0 X : FVec Ideal S100000x40 .f32)
    (hin : ∀ j : S1700000.Idx, K.InRange (K.srcV ei j))
    (hsrc : (W35 m ρ c (Proc.devRef .tc main_v10) : IVec S1700000 32) = K.srcV ei)
    (hdst : (W35 m ρ c (Proc.devRef .tc main_v13) : IVec S1700000 32) = K.dstV ei)
    (hnrm : (W35 m ρ c (Proc.devRef .tc main_v39) : FVec Ideal S1700000x1 .f32) = K.nrm2V ei)
    (hh0 : (W35 m ρ c (Proc.devRef .tc main_v6) : FVec Ideal S100000x40 .f32) = H0)
    (hx : (W35 m ρ c (Proc.devRef .tc main_v127) : FVec Ideal S100000x40 .f32) = X) :
    (W39 m ρ c (Proc.devRef .tc main_v10) : IVec S1700000 32) = K.srcV ei
    ∧ (W39 m ρ c (Proc.devRef .tc main_v13) : IVec S1700000 32) = K.dstV ei
    ∧ (W39 m ρ c (Proc.devRef .tc main_v39) : FVec Ideal S1700000x1 .f32) = K.nrm2V ei
    ∧ (W39 m ρ c (Proc.devRef .tc main_v6) : FVec Ideal S100000x40 .f32) = H0
    ∧ (W39 m ρ c (Proc.devRef .tc main_v138) : FVec Ideal S100000x40 .f32)
        = stepG (K.gatV ei) (K.scaV ei) (K.nrm2V ei) H0 X := by
  -- after the take stretch (boundary 36)
  have s1 : (W36 m ρ c (Proc.devRef .tc main_v10) : IVec S1700000 32) = K.srcV ei := (Host8.keepT_main_v10 _).trans hsrc
  have d1 : (W36 m ρ c (Proc.devRef .tc main_v13) : IVec S1700000 32) = K.dstV ei := (Host8.keepT_main_v13 _).trans hdst
  have n1 : (W36 m ρ c (Proc.devRef .tc main_v39) : FVec Ideal S1700000x1 .f32) = K.nrm2V ei := (Host8.keepT_main_v39 _).trans hnrm
  have z1 : (W36 m ρ c (Proc.devRef .tc main_v6) : FVec Ideal S100000x40 .f32) = H0 := (Host8.keepT_main_v6 _).trans hh0
  have t1 : (W36 m ρ c (Proc.devRef .tc main_v128) : FVec Ideal S1700000x40 .f32) = K.gatV ei X := by
    refine (Host8.take (W35 m ρ c)).trans ?_
    rw [hsrc, hx]
    exact K.takeV_eq _ _ hin
  -- after the scaling region (boundary 37)
  have s2 : (W37 m ρ c (Proc.devRef .tc main_v10) : IVec S1700000 32) = K.srcV ei := (W37_of_ne m ρ c main_v10 (by decide)).trans s1
  have d2 : (W37 m ρ c (Proc.devRef .tc main_v13) : IVec S1700000 32) = K.dstV ei := (W37_of_ne m ρ c main_v13 (by decide)).trans d1
  have n2 : (W37 m ρ c (Proc.devRef .tc main_v39) : FVec Ideal S1700000x1 .f32) = K.nrm2V ei := ((W37_arr m ρ c 1).trans (((dat17 (V36 m ρ) c).arrAt_in 1 rfl _).trans (A_eq17 (V36 m ρ) c 1))).trans n1
  have z2 : (W37 m ρ c (Proc.devRef .tc main_v6) : FVec Ideal S100000x40 .f32) = H0 := (W37_of_ne m ρ c main_v6 (by decide)).trans z1
  have m2 : (W37 m ρ c (Proc.devRef .tc main_v129) : FVec Ideal S1700000x40 .f32) = scaleG (K.gatV ei X) (K.nrm2V ei) := by
    refine (W37_arr m ρ c 2).trans ((Scale17.final (V36 m ρ) c).trans ?_)
    rw [show (V36 m ρ c (Pipeline.arrRef spec17 0) : FVec Ideal S1700000x40 .f32) = K.gatV ei X from t1,
      show (V36 m ρ c (Pipeline.arrRef spec17 1) : FVec Ideal S1700000x1 .f32) = K.nrm2V ei from n1]
  -- after the scatter stretch (boundary 38)
  have s3 : (W38 m ρ c (Proc.devRef .tc main_v10) : IVec S1700000 32) = K.srcV ei := (Host8.keepS_main_v10 _).trans s2
  have d3 : (W38 m ρ c (Proc.devRef .tc main_v13) : IVec S1700000 32) = K.dstV ei := (Host8.keepS_main_v13 _).trans d2
  have n3 : (W38 m ρ c (Proc.devRef .tc main_v39) : FVec Ideal S1700000x1 .f32) = K.nrm2V ei := (Host8.keepS_main_v39 _).trans n2
  have z3 : (W38 m ρ c (Proc.devRef .tc main_v6) : FVec Ideal S100000x40 .f32) = H0 := (Host8.keepS_main_v6 _).trans z2
  have a3 : (W38 m ρ c (Proc.devRef .tc main_v137) : FVec Ideal S100000x40 .f32)
      = K.scaV ei (scaleG (K.gatV ei X) (K.nrm2V ei)) := by
    refine (Host8.scat (W37 m ρ c)).trans ?_
    rw [d2, m2]
    rfl
  -- after the mixing region (boundary 39)
  have s4 : (W39 m ρ c (Proc.devRef .tc main_v10) : IVec S1700000 32) = K.srcV ei := (W39_of_ne m ρ c main_v10 (by decide)).trans s3
  have d4 : (W39 m ρ c (Proc.devRef .tc main_v13) : IVec S1700000 32) = K.dstV ei := (W39_of_ne m ρ c main_v13 (by decide)).trans d3
  have n4 : (W39 m ρ c (Proc.devRef .tc main_v39) : FVec Ideal S1700000x1 .f32) = K.nrm2V ei := (W39_of_ne m ρ c main_v39 (by decide)).trans n3
  have z4 : (W39 m ρ c (Proc.devRef .tc main_v6) : FVec Ideal S100000x40 .f32) = H0 := ((W39_arr m ρ c 1).trans (((dat18 (V38 m ρ) c).arrAt_in 1 rfl _).trans (A_eq18 (V38 m ρ) c 1))).trans z3
  have c4 : (W39 m ρ c (Proc.devRef .tc main_v138) : FVec Ideal S100000x40 .f32)
      = combineG (K.scaV ei (scaleG (K.gatV ei X) (K.nrm2V ei))) H0 := by
    refine (W39_arr m ρ c 2).trans ((Combine18.final (V38 m ρ) c).trans ?_)
    rw [show (V38 m ρ c (Pipeline.arrRef spec18 0) : FVec Ideal S100000x40 .f32) = K.scaV ei (scaleG (K.gatV ei X) (K.nrm2V ei)) from a3,
      show (V38 m ρ c (Pipeline.arrRef spec18 1) : FVec Ideal S100000x40 .f32) = H0 from z3]
  exact ⟨s4, d4, n4, z4, c4⟩

end Cert.Appnp.Round8

end
-- ==== Proof.Host9.lean ====
/-
  Round 10 of the propagation, host side, over ANY contents `W` of the buffers: the stretch before the scaling
  region reads the rows of the round's state at the source indices the filling way (`K.takeV`); the stretch before
  the mixing region adds the scaled edge rows into their destination nodes from zero; neither writes the four
  buffers every round reads (the source and destination indices, the weight column, the encoder's output).
-/
import proofs.«400473_j77575699301005_1_alg».proof.Proof.Gen.KernelIdeal.Launch
import proofs.«400473_j77575699301005_1_alg».proof.Proof.KernelTerms
import proofs.«400473_j77575699301005_1_alg».proof.Proof.HostTools
import Idealize.ShloMosaic.Lib.StableHlo.Run

set_option maxRecDepth 16384

noncomputable section

namespace Cert.Appnp.Host9

open Idealize.ShloMosaic Idealize.ShloMosaic.TcCoe Idealize.ShloMosaic.StableHlo Cert.KernelIdeal Cert.KernelIdeal.Gen Cert.Appnp

/-- The gathered rows this round: the filling take of the state at the source indices. -/
theorem take (W : Valuation τ sig (Elt Ideal)) :
    (StableHlo.after hostOps19 W (Proc.devRef .tc main_v139) : FVec Ideal S1700000x40 .f32)
      = K.takeV (W (Proc.devRef .tc main_v10)) (W (Proc.devRef .tc main_v138)) := by
  after_results_simp
  simp only [ofBuf_toBuf]
  refine (eq_of_heq (toBuf_heq _ _)).trans ?_
  unfold K.takeV K.wrapV
  congr

theorem keepT_main_v10 (W : Valuation τ sig (Elt Ideal)) :
    StableHlo.after hostOps19 W (Proc.devRef .tc main_v10) = W (Proc.devRef .tc main_v10) := by
  after_results_simp
theorem keepT_main_v13 (W : Valuation τ sig (Elt Ideal)) :
    StableHlo.after hostOps19 W (Proc.devRef .tc main_v13) = W (Proc.devRef .tc main_v13) := by
  after_results_simp
theorem keepT_main_v39 (W : Valuation τ sig (Elt Ideal)) :
    StableHlo.after hostOps19 W (Proc.devRef .tc main_v39) = W (Proc.devRef .tc main_v39) := by
  after_results_simp
theorem keepT_main_v6 (W : Valuation τ sig (Elt Ideal)) :
    StableHlo.after hostOps19 W (Proc.devRef .tc main_v6) = W (Proc.devRef .tc main_v6) := by
  after_results_simp

/-- The summed messages this round: the scaled edge rows added into their destinations, from zero. -/
theorem scat (W : Valuation τ sig (Elt Ideal)) :
    (StableHlo.after hostOps20 W (Proc.devRef .tc main_v148) : FVec Ideal S100000x40 .f32)
      = Host.scatterAdd (F := Ideal) scatter_S100000x40_S1700000x1_S1700000x40_1_0_0_1
          (broadcastInDim S100000x40 ![] bcast_S_S100000x40 (constant S_ .f32 0x00000000#32))
          (K.wrapV (W (Proc.devRef .tc main_v13))) (W (Proc.devRef .tc main_v140)) := by
  after_results_simp
  rfl

theorem keepS_main_v10 (W : Valuation τ sig (Elt Ideal)) :
    StableHlo.after hostOps20 W (Proc.devRef .tc main_v10) = W (Proc.devRef .tc main_v10) := by
  after_results_simp
theorem keepS_main_v13 (W : Valuation τ sig (Elt Ideal)) :
    StableHlo.after hostOps20 W (Proc.devRef .tc main_v13) = W (Proc.devRef .tc main_v13) := by
  after_results_simp
theorem keepS_main_v39 (W : Valuation τ sig (Elt Ideal)) :
    StableHlo.after hostOps20 W (Proc.devRef .tc main_v39) = W (Proc.devRef .tc main_v39) := by
  after_results_simp
theorem keepS_main_v6 (W : Valuation τ sig (Elt Ideal)) :
    StableHlo.after hostOps20 W (Proc.devRef .tc main_v6) = W (Proc.devRef .tc main_v6) := by
  after_results_simp

end Cert.Appnp.Host9

end
-- ==== Proof.RegionScale19.lean ====
/-
  A scaling region in closed form (which round it belongs to, the region number in the names below says): whatever
  the buffers hold when the region is entered, the region leaves
  in its output array row e of the gathered messages times the weight of edge e, that is `scaleG` of the two
  input arrays.

  Each grid point stages 10000 rows of the message array and of the weight column, multiplies every row by its
  weight, and writes the 10000 rows back at the same place; the blocks of the 170 points tile the 1 700 000 rows.
-/
import proofs.«400473_j77575699301005_1_alg».proof.Proof.Gen.KernelIdeal.Frame
import proofs.«400473_j77575699301005_1_alg».proof.Proof.Spec
import Idealize.ShloMosaic.Lib.Pipeline.Value
import Idealize.ShloMosaic.Lib.ValueIdx
import Idealize.ShloMosaic.Lib.ValueLayout

set_option maxRecDepth 16384

noncomputable section

namespace Cert.Appnp.Scale19
open Idealize.ShloMosaic Idealize.ShloMosaic.TcCoe Idealize.ShloMosaic.ValueIdx Idealize.ShloMosaic.Pipeline Cert.KernelIdeal Cert.KernelIdeal.Gen Cert.Appnp
variable (V : (c : Dev nD) → (b : Ref sig .tc) → Buf (Elt Ideal) ((c : Thread nD τ).loc b))

/-- The body loads and stores whole blocks: the offset of each of its rectangles is zero on both axes. -/
theorem off_zero : (![0, 0] : Fin 2 → Nat) = fun _ => 0 :=
  funext fun a => match a with | ⟨0, _⟩ => rfl | ⟨1, _⟩ => rfl

/-- The product the body stores, at one index of a block: the message entry times the weight of its row (the
    weight column is broadcast along the 40 features). -/
theorem pay_apply (xm : Vec Ideal S10000x40 .f32) (xw : Vec Ideal S10000x1 .f32) (j : S10000x40.Idx) :
    k19_pay1 (F := Ideal) xm xw j = xm j * xw (ix2 (j 0) 0) := by
  unfold k19_pay1
  rw [shapeCast_self, shapeCast_self]
  show xm j * broadcastTo S10000x40 xw _ j = _
  congr 1
  refine broadcastTo_apply xw _ j (ix2 (j 0) 0) fun a => ?_
  match a with
  | ⟨0, _⟩ => rfl
  | ⟨1, _⟩ => rfl

/-- The three index maps, decided over the 170 points: point `t` takes block row `t` of each array, block column 0. -/
theorem idx_facts : ∀ t : Fin cfg19.N, win19_0.index t (0 : Fin 2) = win19_2.index t (0 : Fin 2)
    ∧ win19_0.index t (1 : Fin 2) = win19_2.index t (1 : Fin 2)
    ∧ win19_1.index t (0 : Fin 2) = win19_2.index t (0 : Fin 2)
    ∧ win19_1.index t (1 : Fin 2) = 0
    ∧ win19_2.index t (0 : Fin 2) = t.val
    ∧ win19_2.index t (1 : Fin 2) = 0 :=
  (by decide +kernel : ∀ t : Fin grid19.N, _)

/-- One entry of the product, read at array indices: when the message index is the output index and the weight
    index is the output row in column 0, the product is `scaleG` there. -/
theorem scale_at (Am : SM40.Idx → EReal) (Aw : SM1.Idx → EReal) (im io : SM40.Idx) (iw : SM1.Idx)
    (hm : im = io) (hw : iw = ix2 (io 0) 0) : Am im * Aw iw = scaleG Am Aw io := by
  subst hm hw; rfl

/-- What point `t` writes back is block `t` of `scaleG` of the two input arrays. -/
theorem flushed_eq (c : Dev nD) (t : Fin cfg19.N) :
    (dat19 (F := Ideal) V c).flushed 2 t = ((cfg19.win 2).blk t).view.read (Elt Ideal) (scaleG (V c (Pipeline.arrRef spec19 0)) (V c (Pipeline.arrRef spec19 1))) := by
  show (cfg19.win 2).cut (grid19.coords t) ((dat19 V c).after 2 t) = _
  rw [after19_2]
  unfold out19_2
  rw [View.canon_unit_zero off_zero]
  simp only [View.ld_unit_zero (S := S10000x40) off_zero, View.ld_unit_zero (S := S10000x1) off_zero]
  obtain ⟨ea, eb, ec, ed, ee, ef⟩ := idx_facts t
  funext j
  show k19_pay1 (F := Ideal) (iblk19 V c 0 t) (iblk19 V c 1 t) j = scaleG (V c (Pipeline.arrRef spec19 0)) (V c (Pipeline.arrRef spec19 1)) (((cfg19.win 2).blk t).view.emb j)
  rw [pay_apply]
  refine scale_at (V c (Pipeline.arrRef spec19 0)) (V c (Pipeline.arrRef spec19 1)) (((cfg19.win 0).blk t).view.emb j) (((cfg19.win 2).blk t).view.emb j)
    (((cfg19.win 1).blk t).view.emb (ix2 (j 0) 0 : S10000x1.Idx)) ?_ ?_
  · funext a; apply Fin.ext
    match a with
    | ⟨0, _⟩ => show win19_0.index t (0 : Fin 2) * 10000 + 1 * (j 0).val = win19_2.index t (0 : Fin 2) * 10000 + 1 * (j 0).val; omega
    | ⟨1, _⟩ => show win19_0.index t (1 : Fin 2) * 40 + 1 * (j 1).val = win19_2.index t (1 : Fin 2) * 40 + 1 * (j 1).val; omega
  · funext a; apply Fin.ext
    match a with
    | ⟨0, _⟩ => show win19_1.index t (0 : Fin 2) * 10000 + 1 * (j 0).val = win19_2.index t (0 : Fin 2) * 10000 + 1 * (j 0).val; omega
    | ⟨1, _⟩ => show win19_1.index t (1 : Fin 2) * 1 + 1 * 0 = 0; omega

/-- An index of the output array is in the block of point `t` iff each coordinate is in the range of the block on
    its axis. -/
theorem mem_blk (t : Fin cfg19.N) (i : S1700000x40.Idx) :
    i ∈ ((cfg19.win 2).blk t).view.set ↔ ∀ a : Fin 2, win19_2.index t a * S10000x40.size a ≤ (i a).val ∧ (i a).val < win19_2.index t a * S10000x40.size a + S10000x40.size a := by
  show i ∈ ((View.whole (Pipeline.arrRef spec19 2)).slice (win19_2.rect t)).set ↔ _
  rw [View.set_slice_whole, Rect.mem_set_unit]
  exact Iff.rfl

/-- Every index of the output array lies in the block of some point (170 blocks of 10000 rows): row `r` is in the
    block of point `r / 10000`. -/
theorem cover (i : S1700000x40.Idx) : ∃ t : Fin cfg19.N, (cfg19.win 2).flush t = true ∧ i ∈ ((cfg19.win 2).blk t).view.set := by
  have hr : (i 0).val < 1700000 := (i 0).isLt
  have hc : (i 1).val < 40 := (i 1).isLt
  have hN : grid19.N = 170 := N_19
  obtain ⟨t, ht⟩ : ∃ t : Fin cfg19.N, t.val = (i 0).val / 10000 :=
    ⟨⟨(i 0).val / 10000, by show _ < grid19.N; rw [hN]; omega⟩, rfl⟩
  obtain ⟨ea, eb, ec, ed, ee, ef⟩ := idx_facts t
  refine ⟨t, flush19_2 t, ?_⟩
  rw [mem_blk]
  intro a
  match a with
  | ⟨0, _⟩ =>
    show win19_2.index t (0 : Fin 2) * 10000 ≤ (i 0).val ∧ (i 0).val < win19_2.index t (0 : Fin 2) * 10000 + 10000
    omega
  | ⟨1, _⟩ =>
    show win19_2.index t (1 : Fin 2) * 40 ≤ (i 1).val ∧ (i 1).val < win19_2.index t (1 : Fin 2) * 40 + 40
    omega

/-- The output array after the region. -/
theorem final (c : Dev nD) :
    (dat19 (F := Ideal) V c).arrAt 2 cfg19.N = scaleG (V c (Pipeline.arrRef spec19 0)) (V c (Pipeline.arrRef spec19 1)) :=
  (dat19 V c).arrAt_eq_of_cover 2 _ (fun t _ => flushed_eq V c t) cover

end Cert.Appnp.Scale19

end
-- ==== Proof.RegionCombine20.lean ====
/-
  A mixing region in closed form: whatever the two input arrays hold when the region is
  entered, the output array after the region is `combineG` of them, index by index. Each grid point stages
  rows `10000·t … 10000·t + 9999` of both inputs and of the output (the three index maps are the same map),
  the body writes `0.9·agg + 0.1·h₀` over the staged block, and the ten blocks tile the 100000 rows.
-/
import proofs.«400473_j77575699301005_1_alg».proof.Proof.Gen.KernelIdeal.Frame
import proofs.«400473_j77575699301005_1_alg».proof.Proof.Spec
import Idealize.ShloMosaic.Lib.Pipeline.Value
import Idealize.ShloMosaic.Lib.ValueIdx
import Idealize.ShloMosaic.Lib.ValueLayout

set_option maxRecDepth 16384

noncomputable section

namespace Cert.Appnp.Combine20
open Idealize.ShloMosaic Idealize.ShloMosaic.ValueIdx Idealize.ShloMosaic.Pipeline Cert.KernelIdeal Cert.KernelIdeal.Gen Cert.Appnp
open Idealize.ShloMosaic.TcCoe
variable (V : (c : Dev nD) → (b : Ref sig .tc) → Buf (Elt Ideal) ((c : Thread nD τ).loc b))

/-- The body's one rectangle starts at the origin of its block. -/
theorem hz : (![0, 0] : Fin 2 → Nat) = fun _ => 0 := funext fun a => by fin_cases a <;> rfl

/-- The body's payload at an index of the block: the two constants times the two loaded blocks, added. -/
theorem pay_apply (x0 x1 : Vec Ideal S10000x40 .f32) (j : S10000x40.Idx) :
    k20_pay1 (F := Ideal) x0 x1 j = Ideal.ofBits .f32 0x3F666666#32 * x0 j + Ideal.ofBits .f32 0x3DCCCCCD#32 * x1 j := by
  unfold k20_pay1
  simp only [shapeCast_self, addf_apply, mulf_apply, broadcast_apply]
  rfl

/-- The three index maps, decided over the grid: both inputs' blocks move with the output's, whose block index
    is at most 9 on the row axis and 0 on the column axis. -/
theorem idx_facts : ∀ t : Fin cfg20.N, win20_0.index t (0 : Fin 2) = win20_2.index t (0 : Fin 2)
    ∧ win20_0.index t (1 : Fin 2) = win20_2.index t (1 : Fin 2)
    ∧ win20_1.index t (0 : Fin 2) = win20_2.index t (0 : Fin 2)
    ∧ win20_1.index t (1 : Fin 2) = win20_2.index t (1 : Fin 2)
    ∧ win20_2.index t (0 : Fin 2) ≤ 9
    ∧ win20_2.index t (1 : Fin 2) = 0 :=
  (by decide +kernel : ∀ t : Fin grid20.N, _)

/-- Every one of the ten row blocks of the output is some point's. -/
theorem idx_onto : ∀ (q0 : Fin 10), ∃ t : Fin cfg20.N, win20_2.index t = ![q0.val, 0] :=
  (by decide +kernel : ∀ (q0 : Fin 10), ∃ t : Fin grid20.N, win20_2.index t = ![q0.val, 0])

/-- What point t writes back is block t of combineG of the two input arrays. -/
theorem flushed_eq (c : Dev nD) (t : Fin cfg20.N) :
    (dat20 (F := Ideal) V c).flushed 2 t = ((cfg20.win 2).blk t).view.read (Elt Ideal) (combineG (V c (Pipeline.arrRef spec20 0)) (V c (Pipeline.arrRef spec20 1))) := by
  show (cfg20.win 2).cut (grid20.coords t) ((dat20 V c).after 2 t) = _
  rw [after20_2]
  unfold out20_2
  rw [View.canon_unit_zero hz]
  simp only [View.ld_unit_zero (S := S10000x40) hz]
  obtain ⟨ea, eb, ec, ed, ee, ef⟩ := idx_facts t
  funext j
  refine (pay_apply _ _ _).trans ?_
  show Ideal.ofBits .f32 0x3F666666#32 * V c (Pipeline.arrRef spec20 0) (((cfg20.win 0).blk t).view.emb j) + Ideal.ofBits .f32 0x3DCCCCCD#32 * V c (Pipeline.arrRef spec20 1) (((cfg20.win 1).blk t).view.emb j) = Ideal.ofBits .f32 0x3F666666#32 * V c (Pipeline.arrRef spec20 0) (((cfg20.win 2).blk t).view.emb j) + Ideal.ofBits .f32 0x3DCCCCCD#32 * V c (Pipeline.arrRef spec20 1) (((cfg20.win 2).blk t).view.emb j)
  have h0 : ((cfg20.win 0).blk t).view.emb j = ((cfg20.win 2).blk t).view.emb j := by
    funext a; apply Fin.ext
    match a with
    | ⟨0, _⟩ => show win20_0.index t (0 : Fin 2) * 10000 + 1 * (j 0).val = win20_2.index t (0 : Fin 2) * 10000 + 1 * (j 0).val; omega
    | ⟨1, _⟩ => show win20_0.index t (1 : Fin 2) * 40 + 1 * (j 1).val = win20_2.index t (1 : Fin 2) * 40 + 1 * (j 1).val; omega
  have h1 : ((cfg20.win 1).blk t).view.emb j = ((cfg20.win 2).blk t).view.emb j := by
    funext a; apply Fin.ext
    match a with
    | ⟨0, _⟩ => show win20_1.index t (0 : Fin 2) * 10000 + 1 * (j 0).val = win20_2.index t (0 : Fin 2) * 10000 + 1 * (j 0).val; omega
    | ⟨1, _⟩ => show win20_1.index t (1 : Fin 2) * 40 + 1 * (j 1).val = win20_2.index t (1 : Fin 2) * 40 + 1 * (j 1).val; omega
  rw [h0, h1]

/-- An index of the output array is in point t's block iff each coordinate is in the block's range on its axis. -/
theorem mem_blk (t : Fin cfg20.N) (i : S100000x40.Idx) :
    i ∈ ((cfg20.win 2).blk t).view.set ↔ ∀ a : Fin 2, win20_2.index t a * S10000x40.size a ≤ (i a).val ∧ (i a).val < win20_2.index t a * S10000x40.size a + S10000x40.size a := by
  show i ∈ ((View.whole (Pipeline.arrRef spec20 2)).slice (win20_2.rect t)).set ↔ _
  rw [View.set_slice_whole, Rect.mem_set_unit]
  exact Iff.rfl

/-- Every index of the output array lies in some point's block (10 blocks of 10000 rows): row r is in block r / 10000. -/
theorem cover (i : S100000x40.Idx) : ∃ t : Fin cfg20.N, (cfg20.win 2).flush t = true ∧ i ∈ ((cfg20.win 2).blk t).view.set := by
  have hi0 : (i 0).val < 100000 := (i 0).isLt
  have hi1 : (i 1).val < 40 := (i 1).isLt
  obtain ⟨t, ht⟩ := idx_onto ⟨(i 0).val / 10000, by omega⟩
  have q0 : win20_2.index t (0 : Fin 2) = (i 0).val / 10000 := congrFun ht 0
  have q1 : win20_2.index t (1 : Fin 2) = 0 := congrFun ht 1
  refine ⟨t, flush20_2 t, ?_⟩
  rw [mem_blk]
  intro a
  match a with
  | ⟨0, _⟩ => show win20_2.index t (0 : Fin 2) * 10000 ≤ (i 0).val ∧ (i 0).val < win20_2.index t (0 : Fin 2) * 10000 + 10000; omega
  | ⟨1, _⟩ => show win20_2.index t (1 : Fin 2) * 40 ≤ (i 1).val ∧ (i 1).val < win20_2.index t (1 : Fin 2) * 40 + 40; omega

/-- The output array after the region. -/
theorem final (c : Dev nD) :
    (dat20 (F := Ideal) V c).arrAt 2 cfg20.N = combineG (V c (Pipeline.arrRef spec20 0)) (V c (Pipeline.arrRef spec20 1)) :=
  (dat20 V c).arrAt_eq_of_cover 2 _ (fun t _ => flushed_eq V c t) cover

end Cert.Appnp.Combine20

end
-- ==== Proof.Round9.lean ====
/-
  Round 10 of the propagation on the kernel's side, boundary by boundary. Entering the round (boundary 39 of the
  run) the source and destination indices, the weight column and the encoder's output hold what the host computed
  once, and the round's state is some `X`. The take stretch reads the rows of `X` at the sources — the plain gather,
  every source index being in range —; the scaling region multiplies row e by weight e; the scatter stretch adds
  the rows into their destinations; the mixing region forms 0.9 · sum + 0.1 · encoder output. So the round leaves
  `stepG … X`, and the four shared buffers as they were.
-/
import proofs.«400473_j77575699301005_1_alg».proof.Proof.Gen.KernelIdeal.Frame
import proofs.«400473_j77575699301005_1_alg».proof.Proof.Spec
import proofs.«400473_j77575699301005_1_alg».proof.Proof.KernelTerms
import proofs.«400473_j77575699301005_1_alg».proof.Proof.TakeMask
import proofs.«400473_j77575699301005_1_alg».proof.Proof.Host9
import proofs.«400473_j77575699301005_1_alg».proof.Proof.RegionScale19
import proofs.«400473_j77575699301005_1_alg».proof.Proof.RegionCombine20

set_option maxRecDepth 16384

noncomputable section

namespace Cert.Appnp.Round9

open Idealize.ShloMosaic Idealize.ShloMosaic.TcCoe Cert.KernelIdeal Cert.KernelIdeal.Gen Cert.Appnp

variable (m : (ℓ : Loc nD τ sig) → Buf (Elt Ideal) ℓ) (ρ : Dev nD → PrngReg)

set_option maxHeartbeats 4000000 in
/-- One round, from boundary 39 to boundary 43. -/
theorem round (c : Dev nD) (ei : IVec S2x1600000 32) (H0 X : FVec Ideal S100000x40 .f32)
    (hin : ∀ j : S1700000.Idx, K.InRange (K.srcV ei j))
    (hsrc : (W39 m ρ c (Proc.devRef .tc main_v10) : IVec S1700000 32) = K.srcV ei)
    (hdst : (W39 m ρ c (Proc.devRef .tc main_v13) : IVec S1700000 32) = K.dstV ei)
    (hnrm : (W39 m ρ c (Proc.devRef .tc main_v39) : FVec Ideal S1700000x1 .f32) = K.nrm2V ei)
    (hh0 : (W39 m ρ c (Proc.devRef .tc main_v6) : FVec Ideal S100000x40 .f32) = H0)
    (hx : (W39 m ρ c (Proc.devRef .tc main_v138) : FVec Ideal S100000x40 .f32) = X) :
    (W43 m ρ c (Proc.devRef .tc main_v10) : IVec S1700000 32) = K.srcV ei
    ∧ (W43 m ρ c (Proc.devRef .tc main_v13) : IVec S1700000 32) = K.dstV ei
    ∧ (W43 m ρ c (Proc.devRef .tc main_v39) : FVec Ideal S1700000x1 .f32) = K.nrm2V ei
    ∧ (W43 m ρ c (Proc.devRef .tc main_v6) : FVec Ideal S100000x40 .f32) = H0
    ∧ (W43 m ρ c (Proc.devRef .tc main_v149) : FVec Ideal S100000x40 .f32)
        = stepG (K.gatV ei) (K.scaV ei) (K.nrm2V ei) H0 X := by
  -- after the take stretch (boundary 40)
  have s1 : (W40 m ρ c (Proc.devRef .tc main_v10) : IVec S1700000 32) = K.srcV ei := (Host9.keepT_main_v10 _).trans hsrc
  have d1 : (W40 m ρ c (Proc.devRef .tc main_v13) : IVec S1700000 32) = K.dstV ei := (Host9.keepT_main_v13 _).trans hdst
  have n1 : (W40 m ρ c (Proc.devRef .tc main_v39) : FVec Ideal S1700000x1 .f32) = K.nrm2V ei := (Host9.keepT_main_v39 _).trans hnrm
  have z1 : (W40 m ρ c (Proc.devRef .tc main_v6) : FVec Ideal S100000x40 .f32) = H0 := (Host9.keepT_main_v6 _).trans hh0
  have t1 : (W40 m ρ c (Proc.devRef .tc main_v139) : FVec Ideal S1700000x40 .f32) = K.gatV ei X := by
    refine (Host9.take (W39 m ρ c)).trans ?_
    rw [hsrc, hx]
    exact K.takeV_eq _ _ hin
  -- after the scaling region (boundary 41)
  have s2 : (W41 m ρ c (Proc.devRef .tc main_v10) : IVec S1700000 32) = K.srcV ei := (W41_of_ne m ρ c main_v10 (by decide)).trans s1
  have d2 : (W41 m ρ c (Proc.devRef .tc main_v13) : IVec S1700000 32) = K.dstV ei := (W41_of_ne m ρ c main_v13 (by decide)).trans d1
  have n2 : (W41 m ρ c (Proc.devRef .tc main_v39) : FVec Ideal S1700000x1 .f32) = K.nrm2V ei := ((W41_arr m ρ c 1).trans (((dat19 (V40 m ρ) c).arrAt_in 1 rfl _).trans (A_eq19 (V40 m ρ) c 1))).trans n1
  have z2 : (W41 m ρ c (Proc.devRef .tc main_v6) : FVec Ideal S100000x40 .f32) = H0 := (W41_of_ne m ρ c main_v6 (by decide)).trans z1
  have m2 : (W41 m ρ c (Proc.devRef .tc main_v140) : FVec Ideal S1700000x40 .f32) = scaleG (K.gatV ei X) (K.nrm2V ei) := by
    refine (W41_arr m ρ c 2).trans ((Scale19.final (V40 m ρ) c).trans ?_)
    rw [show (V40 m ρ c (Pipeline.arrRef spec19 0) : FVec Ideal S1700000x40 .f32) = K.gatV ei X from t1,
      show (V40 m ρ c (Pipeline.arrRef spec19 1) : FVec Ideal S1700000x1 .f32) = K.nrm2V ei from n1]
  -- after the scatter stretch (boundary 42)
  have s3 : (W42 m ρ c (Proc.devRef .tc main_v10) : IVec S1700000 32) = K.srcV ei := (Host9.keepS_main_v10 _).trans s2
  have d3 : (W42 m ρ c (Proc.devRef .tc main_v13) : IVec S1700000 32) = K.dstV ei := (Host9.keepS_main_v13 _).trans d2
  have n3 : (W42 m ρ c (Proc.devRef .tc main_v39) : FVec Ideal S1700000x1 .f32) = K.nrm2V ei := (Host9.keepS_main_v39 _).trans n2
  have z3 : (W42 m ρ c (Proc.devRef .tc main_v6) : FVec Ideal S100000x40 .f32) = H0 := (Host9.keepS_main_v6 _).trans z2
  have a3 : (W42 m ρ c (Proc.devRef .tc main_v148) : FVec Ideal S100000x40 .f32)
      = K.scaV ei (scaleG (K.gatV ei X) (K.nrm2V ei)) := by
    refine (Host9.scat (W41 m ρ c)).trans ?_
    rw [d2, m2]
    rfl
  -- after the mixing region (boundary 43)
  have s4 : (W43 m ρ c (Proc.devRef .tc main_v10) : IVec S1700000 32) = K.srcV ei := (W43_of_ne m ρ c main_v10 (by decide)).trans s3
  have d4 : (W43 m ρ c (Proc.devRef .tc main_v13) : IVec S1700000 32) = K.dstV ei := (W43_of_ne m ρ c main_v13 (by decide)).trans d3
  have n4 : (W43 m ρ c (Proc.devRef .tc main_v39) : FVec Ideal S1700000x1 .f32) = K.nrm2V ei := (W43_of_ne m ρ c main_v39 (by decide)).trans n3
  have z4 : (W43 m ρ c (Proc.devRef .tc main_v6) : FVec Ideal S100000x40 .f32) = H0 := ((W43_arr m ρ c 1).trans (((dat20 (V42 m ρ) c).arrAt_in 1 rfl _).trans (A_eq20 (V42 m ρ) c 1))).trans z3
  have c4 : (W43 m ρ c (Proc.devRef .tc main_v149) : FVec Ideal S100000x40 .f32)
      = combineG (K.scaV ei (scaleG (K.gatV ei X) (K.nrm2V ei))) H0 := by
    refine (W43_arr m ρ c 2).trans ((Combine20.final (V42 m ρ) c).trans ?_)
    rw [show (V42 m ρ c (Pipeline.arrRef spec20 0) : FVec Ideal S100000x40 .f32) = K.scaV ei (scaleG (K.gatV ei X) (K.nrm2V ei)) from a3,
      show (V42 m ρ c (Pipeline.arrRef spec20 1) : FVec Ideal S100000x40 .f32) = H0 from z3]
  exact ⟨s4, d4, n4, z4, c4⟩

end Cert.Appnp.Round9

end
-- ==== Proof.KernelValue.lean ====
/-
  The kernel program's result: the run's last boundary holds, at the result buffer, ten propagation rounds
  applied to the encoder's output. The rounds are chained boundary to boundary: each takes the four shared host
  values and the state the round before left, and leaves the same four values and its own state.
-/
import proofs.«400473_j77575699301005_1_alg».proof.Proof.KernelBase
import proofs.«400473_j77575699301005_1_alg».proof.Proof.Round0
import proofs.«400473_j77575699301005_1_alg».proof.Proof.Round1
import proofs.«400473_j77575699301005_1_alg».proof.Proof.Round2
import proofs.«400473_j77575699301005_1_alg».proof.Proof.Round3
import proofs.«400473_j77575699301005_1_alg».proof.Proof.Round4
import proofs.«400473_j77575699301005_1_alg».proof.Proof.Round5
import proofs.«400473_j77575699301005_1_alg».proof.Proof.Round6
import proofs.«400473_j77575699301005_1_alg».proof.Proof.Round7
import proofs.«400473_j77575699301005_1_alg».proof.Proof.Round8
import proofs.«400473_j77575699301005_1_alg».proof.Proof.Round9

set_option maxRecDepth 16384

noncomputable section

namespace Cert.Appnp

open Idealize.ShloMosaic Idealize.ShloMosaic.TcCoe Cert.KernelIdeal Cert.KernelIdeal.Gen

variable (m : (ℓ : Loc nD τ sig) → Buf (Elt Ideal) ℓ) (ρ : Dev nD → PrngReg)

/-- One round of the kernel's propagation as a function of the launch memory. -/
def stepK (c : Dev nD) (h : FVec Ideal S100000x40 .f32) : FVec Ideal S100000x40 .f32 :=
  stepG (K.gatV (m ((c.tc : Thread nD τ).loc main_arg1))) (K.scaV (m ((c.tc : Thread nD τ).loc main_arg1)))
    (K.nrm2V (m ((c.tc : Thread nD τ).loc main_arg1))) (H0K m c) h

/-- The result buffer at the run's last boundary: ten rounds from the encoder's output, where every source index
    is in range. -/
theorem kernel_result (c : Dev nD)
    (hin : ∀ j : S1700000.Idx, K.InRange (K.srcV (m ((c.tc : Thread nD τ).loc main_arg1)) j)) :
    (W43 m ρ c (Proc.devRef .tc main_v149) : FVec Ideal S100000x40 .f32) = iter10 (stepK m c) (H0K m c) := by
  obtain ⟨s, d, n, z⟩ := base m ρ c
  obtain ⟨s, d, n, z, x⟩ := Round0.round m ρ c _ _ _ hin s d n z z
  obtain ⟨s, d, n, z, x⟩ := Round1.round m ρ c _ _ _ hin s d n z x
  obtain ⟨s, d, n, z, x⟩ := Round2.round m ρ c _ _ _ hin s d n z x
  obtain ⟨s, d, n, z, x⟩ := Round3.round m ρ c _ _ _ hin s d n z x
  obtain ⟨s, d, n, z, x⟩ := Round4.round m ρ c _ _ _ hin s d n z x
  obtain ⟨s, d, n, z, x⟩ := Round5.round m ρ c _ _ _ hin s d n z x
  obtain ⟨s, d, n, z, x⟩ := Round6.round m ρ c _ _ _ hin s d n z x
  obtain ⟨s, d, n, z, x⟩ := Round7.round m ρ c _ _ _ hin s d n z x
  obtain ⟨s, d, n, z, x⟩ := Round8.round m ρ c _ _ _ hin s d n z x
  obtain ⟨s, d, n, z, x⟩ := Round9.round m ρ c _ _ _ hin s d n z x
  exact x

end Cert.Appnp

end
-- ==== Proof.RefTerms.lean ====
/-
  The reference program's host-side values, each as one function of the edge list `ei : [2, 1600000]` (and of the
  round's state where it has one), in the host operations' own words.

  `srcV` / `dstV`: the source and destination node of every edge — row 0 / row 1 of `ei`, then one self loop per
  node. `wrapV`: numpy's reading of an index vector (a negative index counts from the end), laid out as the
  column of start indices a gather or scatter takes. `normV`: the symmetric normalisation
  `deg[src]^(-1/2) · deg[dst]^(-1/2)`, `deg` the number of edges arriving at a node; `nrm2V` is that vector as a
  column. `gatV`: the rows of a state at the edges' sources; `scaV`: the edge rows added into their destinations.
-/
import proofs.«400473_j77575699301005_1_alg».proof.Proof.Gen.ReferenceIdeal
import Idealize.ShloMosaic.PureOps.Ideal

noncomputable section

namespace Cert.Appnp.R

open Idealize.ShloMosaic Cert.ReferenceIdeal Cert.ReferenceIdeal.Gen

/-- The edges' source nodes: row 0 of the edge list, then every node once (its self loop). -/
def srcV (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

/-- The edges' destination nodes: row 1 of the edge list, then every node once. -/
def dstV (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- An index vector read the numpy way (`v < 0 ↦ v + 100000`), as a column of start indices. -/
def wrapV (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- How many edges arrive at each node. -/
def degV (ei : IVec S2x1600000 32) : FVec Ideal S100000 .f32 :=
  Host.scatterAdd scatter_S100000_S1700000x1_S1700000_n_0_0_1
    (broadcastInDim S100000 ![] bcast_S_S100000 (constant S_ .f32 0x00000000#32)) (wrapV (dstV ei))
    (broadcastInDim S1700000 ![] bcast_S_S1700000 (constant S_ .f32 0x3F800000#32))

/-- Every edge's weight `deg[src]^(-1/2) · deg[dst]^(-1/2)`. -/
def normV (ei : IVec S2x1600000 32) : FVec Ideal S1700000 .f32 :=
  mulf (Host.gather gather_S100000_S1700000x1_S1700000_n_0_n_n_0_1_1 (Host.rsqrt (degV ei)) (wrapV (srcV ei)))
    (Host.gather gather_S100000_S1700000x1_S1700000_n_0_n_n_0_1_1 (Host.rsqrt (degV ei)) (wrapV (dstV ei)))

/-- The weights as a column, before they are spread along the 40 features. -/
def nrm2V (ei : IVec S2x1600000 32) : FVec Ideal S1700000x1 .f32 :=
  broadcastInDim S1700000x1 ![0] bcast_S1700000_S1700000x1_0 (normV ei)

/-- The rows of a state at the edges' sources. -/
def gatV (ei : IVec S2x1600000 32) (h : FVec Ideal S100000x40 .f32) : FVec Ideal S1700000x40 .f32 :=
  Host.gather gather_S100000x40_S1700000x1_S1700000x40_1_0_n_n_0_1_140 h (wrapV (srcV ei))

/-- The edge rows added into their destination nodes, from zero. -/
def scaV (ei : IVec S2x1600000 32) (u : FVec Ideal S1700000x40 .f32) : FVec Ideal S100000x40 .f32 :=
  Host.scatterAdd scatter_S100000x40_S1700000x1_S1700000x40_1_0_0_1
    (broadcastInDim S100000x40 ![] bcast_S_S100000x40 (constant S_ .f32 0x00000000#32)) (wrapV (dstV ei)) u

end Cert.Appnp.R

end
-- ==== Proof.RefValue.lean ====
/-
  The reference program's result as a function of its arguments: an encoder of three dense layers, then ten rounds of
  `h ↦ 0.9 · scatter (gather h · norm) + 0.1 · h₀`. The encoder and one round are named in the program's own operations
  (`mlpR`, `roundR`), each is shown equal to the neutral specification's function (`mlpR_eq`, `roundR_eq`).
-/
import proofs.«400473_j77575699301005_1_alg».proof.Proof.RefTerms
import proofs.«400473_j77575699301005_1_alg».proof.Proof.Spec
import proofs.«400473_j77575699301005_1_alg».proof.Proof.LibPlainMatmul
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Appnp.R
open Idealize.ShloMosaic Idealize.ShloMosaic.ValueIdx Cert.ReferenceIdeal Cert.ReferenceIdeal.Gen Cert.Appnp

/-- The reference's encoder, in its own operations: for each layer transpose the weight, contract, add the bias
    spread `[o] → [1, o] → [100000, o]`, and take the maximum with a spread zero. -/
def mlpR (x : FVec Ideal S100000x500 .f32) (W0 : FVec Ideal S256x500 .f32) (b0 : FVec Ideal S256 .f32)
    (W1 : FVec Ideal S128x256 .f32) (b1 : FVec Ideal S128 .f32) (W2 : FVec Ideal S40x128 .f32) (b2 : FVec Ideal S40 .f32) :
    FVec Ideal S100000x40 .f32 :=
  (maximumf (addf (Host.dotGeneral dot_S100000x128_S128x40_S100000x40_1_0_0_1_n_n none (maximumf (addf (Host.dotGeneral dot_S100000x256_S256x128_S100000x128_1_0_0_1_n_n none (maximumf (addf (Host.dotGeneral dot_S100000x500_S500x256_S100000x256_1_0_0_1_n_n none x (transpose S500x256 [1, 0] W0 transposes_S256x500_S500x256_1_0)) (broadcastInDim S100000x256 ![0, 1] bcast_S1x256_S100000x256_0_1 (broadcastInDim S1x256 ![1] bcast_S256_S1x256_1 b0))) (broadcastInDim S100000x256 ![] bcast_S_S100000x256 (constant S_ .f32 0x00000000#32))) (transpose S256x128 [1, 0] W1 transposes_S128x256_S256x128_1_0)) (broadcastInDim S100000x128 ![0, 1] bcast_S1x128_S100000x128_0_1 (broadcastInDim S1x128 ![1] bcast_S128_S1x128_1 b1))) (broadcastInDim S100000x128 ![] bcast_S_S100000x128 (constant S_ .f32 0x00000000#32))) (transpose S128x40 [1, 0] W2 transposes_S40x128_S128x40_1_0)) (broadcastInDim S100000x40 ![0, 1] bcast_S1x40_S100000x40_0_1 (broadcastInDim S1x40 ![1] bcast_S40_S1x40_1 b2))) (broadcastInDim S100000x40 ![] bcast_S_S100000x40 (constant S_ .f32 0x00000000#32)))

/-- One round in the reference's operations: `0.9 · scatter (gather h · norm spread along the features) + 0.1 · h₀`. -/
def roundR (ei : IVec S2x1600000 32) (h0 h : FVec Ideal S100000x40 .f32) : FVec Ideal S100000x40 .f32 :=
  addf (mulf (broadcastInDim S100000x40 ![] bcast_S_S100000x40 (constant S_ .f32 0x3F666666#32))
      (scaV ei (mulf (gatV ei h) (broadcastInDim S1700000x40 ![0, 1] bcast_S1700000x1_S1700000x40_0_1 (nrm2V ei)))))
    (mulf (broadcastInDim S100000x40 ![] bcast_S_S100000x40 (constant S_ .f32 0x3DCCCCCD#32)) h0)

/-- A column spread along a second axis reads, at `(p, q)`, the column at `(p, 0)`. -/
theorem spread_col {n m : Nat} (hb : (⟨2, ![n, 1]⟩ : Shape).BroadcastsInDim ⟨2, ![n, m]⟩ ![0, 1])
    (v : FVec Ideal ⟨2, ![n, 1]⟩ .f32) (i : (⟨2, ![n, m]⟩ : Shape).Idx) :
    broadcastInDim ⟨2, ![n, m]⟩ ![0, 1] hb v i = v (ix2 (i 0) 0) := by
  refine broadcastInDim_apply _ hb v i (ix2 (i 0) 0) fun a => ?_
  match a with
  | ⟨0, _⟩ =>
    show (i 0).val = if n = 1 then 0 else (i 0).val
    have := idx2_lt0 i
    split <;> omega
  | ⟨1, _⟩ => rfl

/-- A row spread along a first axis reads, at `(p, q)`, the row at `(0, q)`. -/
theorem spread_row {n m : Nat} (hb : (⟨2, ![1, m]⟩ : Shape).BroadcastsInDim ⟨2, ![n, m]⟩ ![0, 1])
    (v : FVec Ideal ⟨2, ![1, m]⟩ .f32) (i : (⟨2, ![n, m]⟩ : Shape).Idx) :
    broadcastInDim ⟨2, ![n, m]⟩ ![0, 1] hb v i = v (ix2 0 (i 1)) := by
  refine broadcastInDim_apply _ hb v i (ix2 0 (i 1)) fun a => ?_
  match a with
  | ⟨0, _⟩ => rfl
  | ⟨1, _⟩ =>
    show (i 1).val = if m = 1 then 0 else (i 1).val
    have := idx2_lt1 i
    split <;> omega

/-- The gathered rows times the weights spread along the features are the specification's scaled messages. -/
theorem scale_eq (msg : FVec Ideal S1700000x40 .f32) (nrm : FVec Ideal S1700000x1 .f32) :
    mulf msg (broadcastInDim S1700000x40 ![0, 1] bcast_S1700000x1_S1700000x40_0_1 nrm) = scaleG msg nrm := by
  funext i
  rw [mulf_apply, spread_col]
  rfl

/-- The mix of an aggregate with `h₀` in the reference's operations is the specification's. -/
theorem combine_eq (agg h0 : FVec Ideal S100000x40 .f32) :
    addf (mulf (broadcastInDim S100000x40 ![] bcast_S_S100000x40 (constant S_ .f32 0x3F666666#32)) agg)
        (mulf (broadcastInDim S100000x40 ![] bcast_S_S100000x40 (constant S_ .f32 0x3DCCCCCD#32)) h0)
      = combineG agg h0 := by
  funext i
  rfl

/-- A round is the mix of its scattered messages with `h₀`. -/
theorem roundR_mix (ei : IVec S2x1600000 32) (h0 h : FVec Ideal S100000x40 .f32) :
    roundR ei h0 h
      = combineG (scaV ei (mulf (gatV ei h) (broadcastInDim S1700000x40 ![0, 1] bcast_S1700000x1_S1700000x40_0_1 (nrm2V ei)))) h0 :=
  combine_eq _ h0

/-- The scattered messages are the scattered scaled rows of the specification. -/
theorem roundR_scale (ei : IVec S2x1600000 32) (h0 h : FVec Ideal S100000x40 .f32) :
    combineG (scaV ei (mulf (gatV ei h) (broadcastInDim S1700000x40 ![0, 1] bcast_S1700000x1_S1700000x40_0_1 (nrm2V ei)))) h0
      = combineG (scaV ei (scaleG (gatV ei h) (nrm2V ei))) h0 :=
  congrArg (fun u => combineG (scaV ei u) h0) (scale_eq (gatV ei h) (nrm2V ei))

/-- The specification's round, spelt out. -/
theorem stepG_def (ei : IVec S2x1600000 32) (h0 h : FVec Ideal S100000x40 .f32) :
    combineG (scaV ei (scaleG (gatV ei h) (nrm2V ei))) h0 = stepG (gatV ei) (scaV ei) (nrm2V ei) h0 h := rfl

theorem roundR_eq (ei : IVec S2x1600000 32) (h0 h : FVec Ideal S100000x40 .f32) :
    roundR ei h0 h = stepG (gatV ei) (scaV ei) (nrm2V ei) h0 h :=
  (roundR_mix ei h0 h).trans ((roundR_scale ei h0 h).trans (stepG_def ei h0 h))

/-- One dense layer in the reference's operations is the specification's layer. -/
theorem layer_eq {n k o : Nat} (D : DotDims ⟨2, ![n, k]⟩ ⟨2, ![k, o]⟩ ⟨2, ![n, o]⟩) (hD : D = DotDims.plain n k o)
    (hb : (⟨2, ![1, o]⟩ : Shape).BroadcastsInDim ⟨2, ![n, o]⟩ ![0, 1])
    (hz : (⟨0, ![]⟩ : Shape).BroadcastsInDim ⟨2, ![n, o]⟩ ![])
    (x : FVec Ideal ⟨2, ![n, k]⟩ .f32) (wT : FVec Ideal ⟨2, ![k, o]⟩ .f32) (b : FVec Ideal ⟨2, ![1, o]⟩ .f32) :
    maximumf (addf (Host.dotGeneral D none x wT) (broadcastInDim ⟨2, ![n, o]⟩ ![0, 1] hb b))
        (broadcastInDim ⟨2, ![n, o]⟩ ![] hz (constant ⟨0, ![]⟩ .f32 0x00000000#32))
      = layerG x wT b := by
  subst hD
  funext i
  obtain ⟨a, c, rfl⟩ : ∃ (a : Fin n) (c : Fin o), i = ix2 a c := ⟨i 0, i 1, eq_ix2 i⟩
  rw [maximumf_apply, addf_apply, spread_row, Cert.LibPlainMatmul.dotGeneral_plain_apply]
  rfl

theorem mlpR_eq (x : FVec Ideal S100000x500 .f32) (W0 : FVec Ideal S256x500 .f32) (b0 : FVec Ideal S256 .f32)
    (W1 : FVec Ideal S128x256 .f32) (b1 : FVec Ideal S128 .f32) (W2 : FVec Ideal S40x128 .f32) (b2 : FVec Ideal S40 .f32) :
    mlpR x W0 b0 W1 b1 W2 b2
      = mlpG x (transpose S500x256 [1, 0] W0 transposes_S256x500_S500x256_1_0) (broadcastInDim S1x256 ![1] bcast_S256_S1x256_1 b0)
          (transpose S256x128 [1, 0] W1 transposes_S128x256_S256x128_1_0) (broadcastInDim S1x128 ![1] bcast_S128_S1x128_1 b1)
          (transpose S128x40 [1, 0] W2 transposes_S40x128_S128x40_1_0) (broadcastInDim S1x40 ![1] bcast_S40_S1x40_1 b2) := by
  unfold mlpR mlpG
  refine (layer_eq dot_S100000x128_S128x40_S100000x40_1_0_0_1_n_n rfl _ _ _ _ _).trans ?_
  refine congrArg (fun y => layerG y _ _) ?_
  refine (layer_eq dot_S100000x256_S256x128_S100000x128_1_0_0_1_n_n rfl _ _ _ _ _).trans ?_
  refine congrArg (fun y => layerG y _ _) ?_
  exact layer_eq dot_S100000x500_S500x256_S100000x256_1_0_0_1_n_n rfl _ _ _ _ _

end Cert.Appnp.R

end
-- ==== Proof.RefResult.lean ====
/-
  The reference program's result term is ten of its rounds from its encoder's output: the term the run states
  is, operation for operation, `iter10 (roundR …) (mlpR …)` of the arguments.
-/
import proofs.«400473_j77575699301005_1_alg».proof.Proof.RefValue
import proofs.«400473_j77575699301005_1_alg».proof.Proof.RefRunP

noncomputable section

namespace Cert.Appnp.R
open Idealize.ShloMosaic Idealize.ShloMosaic.ValueIdx Cert.ReferenceIdeal Cert.ReferenceIdeal.Gen Cert.Appnp

open Idealize.ShloMosaic.TcCoe Idealize.SL.Sem Idealize.ShloMosaic.StableHlo in
set_option maxRecDepth 8192 in
/-- The reference's result is ten rounds from its encoder's output. -/
theorem res_eq (m : (ℓ : Loc nD τ sig) → Buf (Elt Ideal) ℓ) (c : Dev nD) :
    Cert.ReferenceIdeal.ValueP.res_main_v279 (F := Ideal) m c
      = iter10 (roundR (m ((c.tc : Thread nD τ).loc main_arg1)) (mlpR (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))))
          (mlpR (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  unfold Cert.ReferenceIdeal.ValueP.res_main_v279 iter10
  rfl

end Cert.Appnp.R

end
-- ==== Proof.Bridge.lean ====
/-
  The two programs' host-side values are the same functions. Both spell the edge lists, the wrapped index columns,
  the degrees, the edge weights, the gather and the scatter-add in the same host operations over the same literal
  shapes, so those agree by unfolding. Two layouts differ in spelling only: one program lays a vector out as a
  column (or as a row) by a reshape, the other by a broadcast along the new unit axis; read at an index both are the
  vector at the one coordinate that matters.
-/
import proofs.«400473_j77575699301005_1_alg».proof.Proof.KernelTerms
import proofs.«400473_j77575699301005_1_alg».proof.Proof.RefTerms
import proofs.«400473_j77575699301005_1_alg».proof.Proof.Spec
import Idealize.ShloMosaic.Lib.ValueIdx
import Idealize.ShloMosaic.Lib.Pipeline.Value
import Idealize.ShloMosaic.Lib.ValueLayout

namespace Cert.Appnp

open Idealize.ShloMosaic Idealize.ShloMosaic.ValueIdx

/-- A vector as a row: the reshape and the broadcast along a new leading unit axis agree. -/
theorem row_layouts_agree {α : Type} {o : Nat} (b : (⟨1, ![o]⟩ : Shape).Idx → α)
    (hs : (⟨1, ![o]⟩ : Shape).ShapeCasts ⟨2, ![1, o]⟩)
    (hb : (⟨1, ![o]⟩ : Shape).BroadcastsInDim ⟨2, ![1, o]⟩ ![1]) :
    shapeCast ⟨2, ![1, o]⟩ b hs = broadcastInDim ⟨2, ![1, o]⟩ ![1] hb b := by
  funext i
  have h0 : (i 0 : Fin 1).val = 0 := by
    have hlt : (i 0 : Fin 1).val < 1 := (i 0).isLt
    omega
  have h1 : (i 1 : Fin o).val < o := (i 1 : Fin o).isLt
  refine (shapeCast_apply b hs i (ix1 (i 1 : Fin o)) ?_).trans
    (broadcastInDim_apply _ hb b i (ix1 (i 1 : Fin o)) (fun a => ?_)).symm
  · rw [Shape.rowMajor_val_one, Shape.rowMajor_val_two]
    show (i 1 : Fin o).val = (i 0 : Fin 1).val * o + (i 1 : Fin o).val
    rw [h0, Nat.zero_mul, Nat.zero_add]
  · have ha : a = 0 := Subsingleton.elim _ _
    subst ha
    show (i 1 : Fin o).val = if o = 1 then 0 else (i 1 : Fin o).val
    split_ifs with ho
    · omega
    · rfl

/-- A vector as a column: the reshape and the broadcast along a new trailing unit axis agree. -/
theorem col_layouts_agree {α : Type} {n : Nat} (v : (⟨1, ![n]⟩ : Shape).Idx → α)
    (hs : (⟨1, ![n]⟩ : Shape).ShapeCasts ⟨2, ![n, 1]⟩)
    (hb : (⟨1, ![n]⟩ : Shape).BroadcastsInDim ⟨2, ![n, 1]⟩ ![0]) :
    shapeCast ⟨2, ![n, 1]⟩ v hs = broadcastInDim ⟨2, ![n, 1]⟩ ![0] hb v := by
  funext i
  have h1 : (i 1 : Fin 1).val = 0 := by
    have hlt : (i 1 : Fin 1).val < 1 := (i 1).isLt
    omega
  have h0 : (i 0 : Fin n).val < n := (i 0 : Fin n).isLt
  refine (shapeCast_apply v hs i (ix1 (i 0 : Fin n)) ?_).trans
    (broadcastInDim_apply _ hb v i (ix1 (i 0 : Fin n)) (fun a => ?_)).symm
  · rw [Shape.rowMajor_val_one, Shape.rowMajor_val_two]
    show (i 0 : Fin n).val = (i 0 : Fin n).val * 1 + (i 1 : Fin 1).val
    rw [h1, Nat.mul_one, Nat.add_zero]
  · have ha : a = 0 := Subsingleton.elim _ _
    subst ha
    show (i 0 : Fin n).val = if n = 1 then 0 else (i 0 : Fin n).val
    split_ifs with hn
    · omega
    · rfl

theorem gat_eq (ei : IVec Cert.KernelIdeal.S2x1600000 32) : K.gatV ei = R.gatV ei := rfl

theorem sca_eq (ei : IVec Cert.KernelIdeal.S2x1600000 32) : K.scaV ei = R.scaV ei := rfl

theorem norm_eq (ei : IVec Cert.KernelIdeal.S2x1600000 32) : K.normV ei = R.normV ei := rfl

theorem nrm2_eq (ei : IVec Cert.KernelIdeal.S2x1600000 32) : K.nrm2V ei = R.nrm2V ei := by
  unfold K.nrm2V R.nrm2V
  rw [norm_eq]
  exact col_layouts_agree _ _ _

theorem w0T_eq (W0 : FVec Ideal Cert.KernelIdeal.S256x500 .f32) :
    transpose Cert.KernelIdeal.S500x256 [1, 0] W0 Cert.KernelIdeal.Gen.transposes_S256x500_S500x256_1_0
      = transpose Cert.ReferenceIdeal.S500x256 [1, 0] W0 Cert.ReferenceIdeal.Gen.transposes_S256x500_S500x256_1_0 := rfl

theorem w1T_eq (W1 : FVec Ideal Cert.KernelIdeal.S128x256 .f32) :
    transpose Cert.KernelIdeal.S256x128 [1, 0] W1 Cert.KernelIdeal.Gen.transposes_S128x256_S256x128_1_0
      = transpose Cert.ReferenceIdeal.S256x128 [1, 0] W1 Cert.ReferenceIdeal.Gen.transposes_S128x256_S256x128_1_0 := rfl

theorem w2T_eq (W2 : FVec Ideal Cert.KernelIdeal.S40x128 .f32) :
    transpose Cert.KernelIdeal.S128x40 [1, 0] W2 Cert.KernelIdeal.Gen.transposes_S40x128_S128x40_1_0
      = transpose Cert.ReferenceIdeal.S128x40 [1, 0] W2 Cert.ReferenceIdeal.Gen.transposes_S40x128_S128x40_1_0 := rfl

theorem b0row_eq (b : FVec Ideal Cert.KernelIdeal.S256 .f32) :
    shapeCast Cert.KernelIdeal.S1x256 b Cert.KernelIdeal.Gen.shapeCasts_S256_S1x256
      = broadcastInDim Cert.ReferenceIdeal.S1x256 ![1] Cert.ReferenceIdeal.Gen.bcast_S256_S1x256_1 b :=
  row_layouts_agree b _ _

theorem b1row_eq (b : FVec Ideal Cert.KernelIdeal.S128 .f32) :
    shapeCast Cert.KernelIdeal.S1x128 b Cert.KernelIdeal.Gen.shapeCasts_S128_S1x128
      = broadcastInDim Cert.ReferenceIdeal.S1x128 ![1] Cert.ReferenceIdeal.Gen.bcast_S128_S1x128_1 b :=
  row_layouts_agree b _ _

theorem b2row_eq (b : FVec Ideal Cert.KernelIdeal.S40 .f32) :
    shapeCast Cert.KernelIdeal.S1x40 b Cert.KernelIdeal.Gen.shapeCasts_S40_S1x40
      = broadcastInDim Cert.ReferenceIdeal.S1x40 ![1] Cert.ReferenceIdeal.Gen.bcast_S40_S1x40_1 b :=
  row_layouts_agree b _ _

/-- The two programs' rounds are the same function of the arguments. -/
theorem step_eq (ei : IVec Cert.KernelIdeal.S2x1600000 32) (h0 h : FVec Ideal Cert.KernelIdeal.S100000x40 .f32) :
    stepG (K.gatV ei) (K.scaV ei) (K.nrm2V ei) h0 h = stepG (R.gatV ei) (R.scaV ei) (R.nrm2V ei) h0 h := by
  rw [gat_eq, sca_eq, nrm2_eq]

/-- The two programs' encoders are the same function of the arguments. -/
theorem h0_eq (x : FVec Ideal Cert.KernelIdeal.S100000x500 .f32) (W0 : FVec Ideal Cert.KernelIdeal.S256x500 .f32)
    (b0 : FVec Ideal Cert.KernelIdeal.S256 .f32) (W1 : FVec Ideal Cert.KernelIdeal.S128x256 .f32)
    (b1 : FVec Ideal Cert.KernelIdeal.S128 .f32) (W2 : FVec Ideal Cert.KernelIdeal.S40x128 .f32)
    (b2 : FVec Ideal Cert.KernelIdeal.S40 .f32) :
    mlpG x
        (transpose Cert.KernelIdeal.S500x256 [1, 0] W0 Cert.KernelIdeal.Gen.transposes_S256x500_S500x256_1_0)
        (shapeCast Cert.KernelIdeal.S1x256 b0 Cert.KernelIdeal.Gen.shapeCasts_S256_S1x256)
        (transpose Cert.KernelIdeal.S256x128 [1, 0] W1 Cert.KernelIdeal.Gen.transposes_S128x256_S256x128_1_0)
        (shapeCast Cert.KernelIdeal.S1x128 b1 Cert.KernelIdeal.Gen.shapeCasts_S128_S1x128)
        (transpose Cert.KernelIdeal.S128x40 [1, 0] W2 Cert.KernelIdeal.Gen.transposes_S40x128_S128x40_1_0)
        (shapeCast Cert.KernelIdeal.S1x40 b2 Cert.KernelIdeal.Gen.shapeCasts_S40_S1x40)
      = mlpG x
        (transpose Cert.ReferenceIdeal.S500x256 [1, 0] W0 Cert.ReferenceIdeal.Gen.transposes_S256x500_S500x256_1_0)
        (broadcastInDim Cert.ReferenceIdeal.S1x256 ![1] Cert.ReferenceIdeal.Gen.bcast_S256_S1x256_1 b0)
        (transpose Cert.ReferenceIdeal.S256x128 [1, 0] W1 Cert.ReferenceIdeal.Gen.transposes_S128x256_S256x128_1_0)
        (broadcastInDim Cert.ReferenceIdeal.S1x128 ![1] Cert.ReferenceIdeal.Gen.bcast_S128_S1x128_1 b1)
        (transpose Cert.ReferenceIdeal.S128x40 [1, 0] W2 Cert.ReferenceIdeal.Gen.transposes_S40x128_S128x40_1_0)
        (broadcastInDim Cert.ReferenceIdeal.S1x40 ![1] Cert.ReferenceIdeal.Gen.bcast_S40_S1x40_1 b2) := by
  rw [w0T_eq, w1T_eq, w2T_eq, b0row_eq, b1row_eq, b2row_eq]

end Cert.Appnp
-- ==== Proof.PreDecode.lean ====
/-
  The precondition read back. Its last conjunct says that every word of row 0 of the edge list, the edges'
  source nodes, lies in numpy's range −100000 … 99999 on an axis of extent 100000: a conjunction over all columns
  of two signed comparisons, reduced to one bit, and that bit joined to the finiteness conjuncts. Where the whole
  predicate is 1 the last conjunct is 1, so every column's two comparisons hold.
-/
import proofs.«400473_j77575699301005_1_alg».proof.Pre_finite_inputs
import proofs.«400473_j77575699301005_1_alg».proof.Proof.Gen.Pre_finite_inputs
import proofs.«400473_j77575699301005_1_alg».proof.Proof.KernelTerms
import Idealize.ShloMosaic.Lib.ReduceAll
import Idealize.ShloMosaic.Lib.ValueIdx
import Idealize.ShloMosaic.Lib.Pipeline.Value

namespace Cert.Appnp

open Idealize.ShloMosaic Idealize.ShloMosaic.ValueIdx
open Cert.Pre_finite_inputs Cert.Pre_finite_inputs.Facts

/-- Row 0 of the edge list, flattened, read at a column. -/
theorem row0_apply (ei : IVec S2x1600000 32) (e : Fin 1600000) :
    shapeCast S1600000 (extractStridedSlice S1x1600000 ![0, 0] ei slices_S2x1600000_S1x1600000_0_0)
      shapeCasts_S1x1600000_S1600000 (ix1 e) = ei (ix2 0 e) := by
  rw [shapeCast_apply _ shapeCasts_S1x1600000_S1600000 _ (ix2 (0 : Fin 1) e) (by
    rw [Shape.rowMajor_val_two, Shape.rowMajor_val_one]
    show 0 * 1600000 + e.val = e.val
    omega)]
  exact extractStridedSlice_apply _ ei slices_S2x1600000_S1x1600000_0_0 _ (ix2 (0 : Fin 2) e) (fun a => by
    match a with
    | ⟨0, _⟩ => rfl
    | ⟨1, _⟩ => exact (Nat.zero_add _).symm)

/-- Where the predicate's last part is 1, every word of row 0 is in range. -/
theorem part2_row0 (ei : IVec S2x1600000 32) (c : IVec S_ 1)
    (h : fn_part2 (F := Ideal) ei c ix0 = 1#1) (e : Fin 1600000) : K.InRange (ei (ix2 0 e)) := by
  haveI : Subsingleton S_.Idx := ⟨fun a b => funext fun d => d.elim0⟩
  unfold fn_part2 at h
  have h2 := (IntOp.andi_eq_one.1 h).2
  have h3 := Host.reduce_andi_all _ _ _ _ _ h2 (ix1 e)
  have hA : IntOp.cmpi .sge (shapeCast S1600000 (extractStridedSlice S1x1600000 ![0, 0] ei
      slices_S2x1600000_S1x1600000_0_0) shapeCasts_S1x1600000_S1600000 (ix1 e)) 4294867296#32 = 1#1 :=
    (IntOp.andi_eq_one.1 h3).1
  have hB : IntOp.cmpi .slt (shapeCast S1600000 (extractStridedSlice S1x1600000 ![0, 0] ei
      slices_S2x1600000_S1x1600000_0_0) shapeCasts_S1x1600000_S1600000 (ix1 e)) 100000#32 = 1#1 :=
    (IntOp.andi_eq_one.1 h3).2
  rw [row0_apply, IntOp.cmpi_sge, show (4294867296#32 : BitVec 32).toInt = -100000 from by decide] at hA
  rw [row0_apply, IntOp.cmpi_slt, show (100000#32 : BitVec 32).toInt = 100000 from by decide] at hB
  exact ⟨hA, hB⟩

/-- Where the precondition holds, every source index (row 0 of the edge list) is in numpy's range. -/
theorem pre_row0 (x : FVec Ideal Cert.Pre_finite_inputs.S100000x500 .f32) (ei : IVec Cert.Pre_finite_inputs.S2x1600000 32) (W0 : FVec Ideal Cert.Pre_finite_inputs.S256x500 .f32) (b0 : FVec Ideal Cert.Pre_finite_inputs.S256 .f32) (W1 : FVec Ideal Cert.Pre_finite_inputs.S128x256 .f32) (b1 : FVec Ideal Cert.Pre_finite_inputs.S128 .f32) (W2 : FVec Ideal Cert.Pre_finite_inputs.S40x128 .f32) (b2 : FVec Ideal Cert.Pre_finite_inputs.S40 .f32)
    (h : Cert.Pre_finite_inputs.fn (F := Ideal) x ei W0 b0 W1 b1 W2 b2 = fun _ => 1#1) :
    ∀ e : Fin 1600000, K.InRange (ei (ix2 0 e)) := by
  intro e
  have h0 := congrFun h ix0
  unfold Cert.Pre_finite_inputs.fn Cert.Pre_finite_inputs.fn_part1 at h0
  exact part2_row0 ei _ h0 e

end Cert.Appnp
-- ==== Proof.lean ====
/-
  The certificate of an approximate personalised-PageRank graph network on 100 000 nodes and 1 700 000 edges (the
  1 600 000 given ones and one self loop per node): the kernel program against the reference.

  THE MATHEMATICS. An encoder of three dense layers, each max (x · Wᵀ + b) 0, 500 → 256 → 128 → 40, gives
  h₀ : [100000, 40]. Then ten rounds h ↦ 0.9 · scatter (gather h · norm) + 0.1 · h₀: gather reads the rows of h at the
  edges' source nodes, norm e = deg[src e]^(-1/2) · deg[dst e]^(-1/2) with deg the number of edges arriving at a node,
  the product scales row e by norm e, and scatter adds the edge rows into their destination nodes. At the ideal
  instance floats are extended reals and every operation is exact, so both programs compute exactly this function
  of their arguments, and the claim is that their result arrays are equal element by element.

  THE KERNEL PROGRAM runs the encoder as one pipelined region over blocks of 2000 node rows, and every round as a host
  gather, a pipelined region that scales blocks of 10 000 edge rows by their weights, a host scatter-add, and a
  pipelined region that mixes blocks of 10 000 node rows with h₀. Its run is followed boundary to boundary: the encoder's
  region leaves the specification's encoder of the arguments, and every round takes the state the round before left
  and leaves the specification's round of it, so the result buffer at the last boundary is ten rounds from the
  encoder's output. The program reads the rows of the state the filling way, a row of not-a-number words where a
  wrapped index falls outside 0 … 99999; the precondition says that every word of row 0 of the edge list lies in
  −100000 … 99999, the self loops add the node numbers themselves, so every wrapped source index is inside and the
  filling read is the plain gather.

  THE REFERENCE does everything in host operations. Its result term is ten of its rounds from its encoder's output;
  its round and its encoder, in its own operations, are the specification's round and encoder.

  THE JOIN. The two programs spell the shared host values — the edge lists with their self loops, the wrapped index
  columns, the degrees, the weights, the gather, the scatter-add, the transposed weight matrices — in the same
  operations over the same shapes; where the spellings differ (a vector laid out as a column or as a row by a reshape
  in one program, by a broadcast along the new unit axis in the other) the two arrays are equal index by index. So
  from memories that agree on the arguments both results are the one function iter10 (round) (encoder) of them.

  THE FRAMES. Each of the three programs runs — every weakly fair execution terminates, nothing faulting — and leaves
  its argument arrays unchanged. The ideal pass rewrote no operation of the kernel program, so the idealization is the
  program's own text read at the ideal instance and there is nothing to restate.
-/
import proofs.«400473_j77575699301005_1_alg».proof.Defs
import proofs.«400473_j77575699301005_1_alg».proof.Proof.Gen.Kernel
import proofs.«400473_j77575699301005_1_alg».proof.Proof.Gen.Kernel.Skeleton
import proofs.«400473_j77575699301005_1_alg».proof.Proof.Gen.Kernel.Launch
import proofs.«400473_j77575699301005_1_alg».proof.Proof.Gen.Kernel.Points
import proofs.«400473_j77575699301005_1_alg».proof.Proof.Gen.Kernel.Frame
import proofs.«400473_j77575699301005_1_alg».proof.Proof.Gen.KernelIdeal
import proofs.«400473_j77575699301005_1_alg».proof.Proof.Gen.KernelIdeal.Skeleton
import proofs.«400473_j77575699301005_1_alg».proof.Proof.Gen.KernelIdeal.Launch
import proofs.«400473_j77575699301005_1_alg».proof.Proof.Gen.KernelIdeal.Points
import proofs.«400473_j77575699301005_1_alg».proof.Proof.Gen.KernelIdeal.Frame
import proofs.«400473_j77575699301005_1_alg».proof.Proof.Gen.ReferenceIdeal
import proofs.«400473_j77575699301005_1_alg».proof.Proof.RefRunP
import proofs.«400473_j77575699301005_1_alg».proof.Proof.Gen.Pre_finite_inputs
import proofs.«400473_j77575699301005_1_alg».proof.Proof.RunValues
import proofs.«400473_j77575699301005_1_alg».proof.Proof.KernelValue
import proofs.«400473_j77575699301005_1_alg».proof.Proof.RefValue
import proofs.«400473_j77575699301005_1_alg».proof.Proof.RefResult
import proofs.«400473_j77575699301005_1_alg».proof.Proof.Bridge
import proofs.«400473_j77575699301005_1_alg».proof.Proof.PreDecode
import proofs.«400473_j77575699301005_1_alg».proof.Proof.TakeMask
import Idealize.ShloMosaic.Adequacy
import Idealize.ShloMosaic.Init

noncomputable section

namespace Cert.Proof

open Idealize.ShloMosaic Idealize.SL.Sem Cert.Appnp

/-! ## The three runs -/

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation of the kernel program: there is nothing to restate. -/
theorem preserves : Cert.preserves_Kernel_KernelIdeal := trivial

/-! ## The two results are one function of the arguments -/

/-- Under the precondition every edge's source index, the self loops' included, is in numpy's range, on every device. -/
theorem src_inRange (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ j : Cert.KernelIdeal.S1700000.Idx,
      K.InRange (K.srcV (m ((c.tc : Thread Cert.KernelIdeal.nD Cert.KernelIdeal.τ).loc Cert.KernelIdeal.main_arg1)) j) :=
  K.srcV_inRange _ (pre_row0 _ _ _ _ _ _ _ _ (hpre c))

/-- Ten of the reference's rounds from its encoder's output are ten of the specification's rounds from the
    specification's encoder, both in the kernel program's spelling of the shared host values: the reference's round
    and encoder are the specification's in the reference's spelling, and the two spellings are the same functions. -/
theorem ref_iter (ei : IVec Cert.KernelIdeal.S2x1600000 32) (x : FVec Ideal Cert.KernelIdeal.S100000x500 .f32)
    (W0 : FVec Ideal Cert.KernelIdeal.S256x500 .f32) (b0 : FVec Ideal Cert.KernelIdeal.S256 .f32)
    (W1 : FVec Ideal Cert.KernelIdeal.S128x256 .f32) (b1 : FVec Ideal Cert.KernelIdeal.S128 .f32)
    (W2 : FVec Ideal Cert.KernelIdeal.S40x128 .f32) (b2 : FVec Ideal Cert.KernelIdeal.S40 .f32) :
    iter10 (R.roundR ei (R.mlpR x W0 b0 W1 b1 W2 b2)) (R.mlpR x W0 b0 W1 b1 W2 b2)
      = iter10 (stepG (K.gatV ei) (K.scaV ei) (K.nrm2V ei)
          (mlpG x
            (transpose Cert.KernelIdeal.S500x256 [1, 0] W0 Cert.KernelIdeal.Gen.transposes_S256x500_S500x256_1_0)
            (shapeCast Cert.KernelIdeal.S1x256 b0 Cert.KernelIdeal.Gen.shapeCasts_S256_S1x256)
            (transpose Cert.KernelIdeal.S256x128 [1, 0] W1 Cert.KernelIdeal.Gen.transposes_S128x256_S256x128_1_0)
            (shapeCast Cert.KernelIdeal.S1x128 b1 Cert.KernelIdeal.Gen.shapeCasts_S128_S1x128)
            (transpose Cert.KernelIdeal.S128x40 [1, 0] W2 Cert.KernelIdeal.Gen.transposes_S40x128_S128x40_1_0)
            (shapeCast Cert.KernelIdeal.S1x40 b2 Cert.KernelIdeal.Gen.shapeCasts_S40_S1x40)))
          (mlpG x
            (transpose Cert.KernelIdeal.S500x256 [1, 0] W0 Cert.KernelIdeal.Gen.transposes_S256x500_S500x256_1_0)
            (shapeCast Cert.KernelIdeal.S1x256 b0 Cert.KernelIdeal.Gen.shapeCasts_S256_S1x256)
            (transpose Cert.KernelIdeal.S256x128 [1, 0] W1 Cert.KernelIdeal.Gen.transposes_S128x256_S256x128_1_0)
            (shapeCast Cert.KernelIdeal.S1x128 b1 Cert.KernelIdeal.Gen.shapeCasts_S128_S1x128)
            (transpose Cert.KernelIdeal.S128x40 [1, 0] W2 Cert.KernelIdeal.Gen.transposes_S40x128_S128x40_1_0)
            (shapeCast Cert.KernelIdeal.S1x40 b2 Cert.KernelIdeal.Gen.shapeCasts_S40_S1x40)) := by
  have hm := (R.mlpR_eq x W0 b0 W1 b1 W2 b2).trans (h0_eq x W0 b0 W1 b1 W2 b2).symm
  have hs : ∀ h0 : FVec Ideal Cert.KernelIdeal.S100000x40 .f32,
      R.roundR ei h0 = stepG (K.gatV ei) (K.scaV ei) (K.nrm2V ei) h0 :=
    fun h0 => funext fun h => (R.roundR_eq ei h0 h).trans (step_eq ei h0 h).symm
  rw [hm, hs]

/-- The kernel program's round and encoder, as functions of the launch memory, are the specification's in the
    kernel program's spelling at that memory's arguments. -/
theorem kernel_iter (m : (ℓ : Loc Cert.KernelIdeal.nD Cert.KernelIdeal.τ Cert.KernelIdeal.sig) → Buf (Elt Ideal) ℓ)
    (c : Dev Cert.KernelIdeal.nD) :
    iter10 (stepK m c) (H0K m c)
      = iter10 (stepG (K.gatV (m ((c.tc : Thread Cert.KernelIdeal.nD Cert.KernelIdeal.τ).loc Cert.KernelIdeal.main_arg1)))
          (K.scaV (m ((c.tc : Thread Cert.KernelIdeal.nD Cert.KernelIdeal.τ).loc Cert.KernelIdeal.main_arg1)))
          (K.nrm2V (m ((c.tc : Thread Cert.KernelIdeal.nD Cert.KernelIdeal.τ).loc Cert.KernelIdeal.main_arg1)))
          (H0K m c)) (H0K m c) := rfl

/-- The reference's result at memories agreeing on the arguments is the kernel program's: ten rounds from the
    encoder's output. -/
theorem ref_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.ValueP.res_main_v279 (F := Ideal) m' c = iter10 (stepK m c) (H0K m c) := by
  rw [R.res_eq m' c, e0, e1, e2, e3, e4, e5, e6, e7, kernel_iter m c]
  exact ref_iter _ _ _ _ _ _ _ _

/-- At the ideal instance, from memories agreeing on the arguments, both programs run and end with the same
    result array, ten propagation rounds from the encoder's output, and with their arguments unchanged. -/
theorem algebraic : Cert.algebraic_KernelIdeal_ReferenceIdeal := by
  intro m ρ m' ρ' hpre hagree
  refine ⟨fun c => iter10 (stepK m c) (H0K m c), ?_, ?_⟩
  · exact (θ_run Cert.KernelIdeal.defs _ _).mono
      (fun _ h c => ⟨(h c).1.trans (kernel_result m ρ c (src_inRange m hpre c)), (h c).2⟩)
      (Cert.KernelIdeal.RunValues.run_values m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7⟩ := hagree c
    exact ref_result m m' c e0 e1 e2 e3 e4 e5 e6 e7

/-! ## The claim -/

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
